-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x1024 : Shape := ⟨3, ![2, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x1024 .f32) (main_arg13 : FVec F S50257 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S4096x1024 .f32) (main_arg9 : FVec F S4096x1024 .f32) (main_arg10 : FVec F S4096 .f32) (main_arg11 : FVec F S4096 .f32) (main_arg12 : FVec F S50257x1024 .f32) (main_arg13 : FVec F S50257 .f32) (main_v33 : IVec S_ 1) : IVec S_ 1 :=
  let main_v34 : FVec F S4096x1024 .f32 := Host.absf main_arg8
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096 .f32 := Host.absf main_arg10
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg0 main_arg12 main_arg13 main_v48 main_v49 main_v50

def fn_part1 {F : FTy → Type} [FloatOps F] (main_arg0 : IVec S1 32) (main_arg5 : FVec F S4096x1024 .f32) (main_arg6 : FVec F S4096 .f32) (main_arg7 : FVec F S4096 .f32) (main_arg8 : FVec F S4096x1024 .f32) (main_arg9 : FVec F S4096x1024 .f32) (main_arg10 : FVec F S4096 .f32) (main_arg11 : FVec F S4096 .f32) (main_arg12 : FVec F S50257x1024 .f32) (main_arg13 : FVec F S50257 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S2x1x1024 .f32) (main_arg2 : FVec F S2x1x1024 .f32) (main_arg3 : FVec F S50257x1024 .f32) (main_arg4 : FVec F S4096x1024 .f32) (main_arg5 : FVec F S4096x1024 .f32) (main_arg6 : FVec F S4096 .f32) (main_arg7 : FVec F S4096 .f32) (main_arg8 : FVec F S4096x1024 .f32) (main_arg9 : FVec F S4096x1024 .f32) (main_arg10 : FVec F S4096 .f32) (main_arg11 : FVec F S4096 .f32) (main_arg12 : FVec F S50257x1024 .f32) (main_arg13 : FVec F S50257 .f32) : IVec S_ 1 :=
  let main_v0 : FVec F S2x1x1024 .f32 := Host.absf main_arg1
  let main_cst : FVec F S_ .f32 := constant S_ .f32 0x7F800000#32
  let main_v1 : FVec F S2x1x1024 .f32 := broadcastInDim S2x1x1024 ![] bcast_S_S2x1x1024 main_cst
  let main_v2 : IVec S2x1x1024 1 := cmpf .olt main_v0 main_v1
  let main_c : IVec S_ 1 := constantI S_ 1 1#1
  let main_v3 : IVec S_ 1 := (fun x v => Host.reduce IntOp.andi x v reducesTo_S2x1x1024_S_d0_1_2 h_S_) main_v2 main_c
  let main_v4 : FVec F S2x1x1024 .f32 := Host.absf main_arg2
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S2x1x1024 : Shape := ⟨3, ![2, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S50257x8x128 : Shape := ⟨3, ![50257, 8, 128]⟩
abbrev S1x8x128 : Shape := ⟨3, ![1, 8, 128]⟩
abbrev S1x1024 : Shape := ⟨2, ![1, 1024]⟩
abbrev S1x1x1024 : Shape := ⟨3, ![1, 1, 1024]⟩
abbrev S1x4096 : Shape := ⟨2, ![1, 4096]⟩
abbrev S1024x1024 : Shape := ⟨2, ![1024, 1024]⟩
abbrev S1024 : Shape := ⟨1, ![1024]⟩
abbrev S1x50257 : Shape := ⟨2, ![1, 50257]⟩
abbrev S2048x1024 : Shape := ⟨2, ![2048, 1024]⟩
abbrev S2048 : Shape := ⟨1, ![2048]⟩
abbrev S1x2048 : Shape := ⟨2, ![1, 2048]⟩
abbrev S1024x2048 : Shape := ⟨2, ![1024, 2048]⟩
abbrev S1x1 : Shape := ⟨2, ![1, 1]⟩

abbrev nBuf : Space → Nat
  | .hbm => 124
  | .vmem => 33
  | .smem => 1
  | _ => 0

abbrev bufTy : (tb : Table) → Fin (tcTables nBuf tb) → BufTy
  | .hbm, ⟨0, _⟩ => ⟨S1, .i32⟩
  | .hbm, ⟨1, _⟩ => ⟨S2x1x1024, .f32⟩
  | .hbm, ⟨2, _⟩ => ⟨S2x1x1024, .f32⟩
  | .hbm, ⟨3, _⟩ => ⟨S50257x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S4096x1024, .f32⟩
  | .hbm, ⟨10, _⟩ => ⟨S4096, .f32⟩
  | .hbm, ⟨11, _⟩ => ⟨S4096, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S50257x8x128, .f32⟩
  | .hbm, ⟨22, _⟩ => ⟨S1x8x128, .f32⟩
  | .hbm, ⟨23, _⟩ => ⟨S1x1024, .f32⟩
  | .hbm, ⟨24, _⟩ => ⟨S1x1x1024, .f32⟩
  | .hbm, ⟨25, _⟩ => ⟨S1x1024, .f32⟩
  | .hbm, ⟨26, _⟩ => ⟨S1x4096, .f32⟩
  | .hbm, ⟨27, _⟩ => ⟨S1x1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1x1024, .f32⟩
  | .hbm, ⟨64, _⟩ => ⟨S1x1024, .f32⟩
  | .hbm, ⟨65, _⟩ => ⟨S1x4096, .f32⟩
  | .hbm, ⟨66, _⟩ => ⟨S1x1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S_, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x50257, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S1x50257, .f32⟩
  | .hbm, ⟨110, _⟩ => ⟨S1x50257, .f32⟩
  | .hbm, ⟨111, _⟩ => ⟨S1x50257, .f32⟩
  | .hbm, ⟨112, _⟩ => ⟨S_, .f32⟩
  | .hbm, ⟨113, _⟩ => ⟨S1, .f32⟩
  | .hbm, ⟨114, _⟩ => ⟨S1x1, .f32⟩
  | .hbm, ⟨115, _⟩ => ⟨S1x1, .f32⟩
  | .hbm, ⟨116, _⟩ => ⟨S1x50257, .f32⟩
  | .hbm, ⟨117, _⟩ => ⟨S1x50257, .f32⟩
  | .hbm, ⟨118, _⟩ => ⟨S1x1x1024, .f32⟩
  | .hbm, ⟨119, _⟩ => ⟨S1x1x1024, .f32⟩
  | .hbm, ⟨120, _⟩ => ⟨S2x1x1024, .f32⟩
  | .hbm, ⟨121, _⟩ => ⟨S1x1x1024, .f32⟩
  | .hbm, ⟨122, _⟩ => ⟨S1x1x1024, .f32⟩
  | .hbm, ⟨123, _⟩ => ⟨S2x1x1024, .f32⟩
  | .local _ .vmem, ⟨0, _⟩ => ⟨S1x8x128, .f32⟩
  | .local _ .vmem, ⟨1, _⟩ => ⟨S1x8x128, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024, .f32⟩
  | .local _ .vmem, ⟨21, _⟩ => ⟨S1024, .f32⟩
  | .local _ .vmem, ⟨22, _⟩ => ⟨S1024, .f32⟩
  | .local _ .vmem, ⟨23, _⟩ => ⟨S1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S2048x1024, .f32⟩
  | .local _ .vmem, ⟨28, _⟩ => ⟨S2048x1024, .f32⟩
  | .local _ .vmem, ⟨29, _⟩ => ⟨S2048, .f32⟩
  | .local _ .vmem, ⟨30, _⟩ => ⟨S2048, .f32⟩
  | .local _ .vmem, ⟨31, _⟩ => ⟨S1x2048, .f32⟩
  | .local _ .vmem, ⟨32, _⟩ => ⟨S1x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call1_cst : Ref sig .tc := ⟨.hbm, 103, rfl⟩
abbrev main_call1_v0 : Ref sig .tc := ⟨.hbm, 104, rfl⟩
abbrev main_call1_cst_0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_cst_1 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let c0_i32 : BitVec 32 := 0#32
  ![arg0.toNat]

def cc2_transform_5 (i : grid2.Coords) : Fin 1 → Nat :=
  let arg0 : BitVec 32 := BitVec.ofNat 32 (i 0).val
  let c0_i32 : BitVec 32 := 0#32
  ![arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1 : S_.BroadcastsInDim S1 (![] : Fin 0 → Fin S1.rank)
  shapeCasts_S50257x1024_S50257x8x128 : S50257x1024.ShapeCasts S50257x8x128
  inb_S1_S1_0 : ∀ a, (![0] : Fin 1 → Nat) a + S1.size a ≤ S1.size a
  numel1_S1 : S1.numel = 1
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  shapeCasts_S1x8x128_S1x1024 : S1x8x128.ShapeCasts S1x1024
  slices_S2x1x1024_S1x1x1024_0_0_0 : S2x1x1024.Slices ![0, 0, 0] S1x1x1024
  shapeCasts_S1x1x1024_S1x1024 : S1x1x1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  bcast_S_S1x1024 : S_.BroadcastsInDim S1x1024 (![] : Fin 0 → Fin S1x1024.rank)
  slices_S2x1x1024_S1x1x1024_1_0_0 : S2x1x1024.Slices ![1, 0, 0] S1x1x1024
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  inb_S2048_S2048_0 : ∀ a, (![0] : Fin 1 → Nat) a + S2048.size a ≤ S2048.size a
  h_S2048 : 0 < S2048.numel
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  reducesTo_S1x50257_S1_d1 : S1x50257.ReducesTo [1] S1
  h_S_ : 0 < S_.numel
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  concatenates_S1x1x1024_S1x1x1024_S2x1x1024_d0 : Shape.Concatenates [S1x1x1024, S1x1x1024] S2x1x1024 0
  dot_S1x1024_S1024x1024_S1x1024_1_0_0_1_n_n_wf : DotDims.WF S1x1024 S1024x1024 S1x1024 [1] [0] [0] [1] [] []
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 false = 1
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S1x8x128.size a
  hwx0_1 : ∀ i : grid0.Coords, EltTy.bits .f32 = 32 ∨ (Rect.block (s := S1x8x128) S1x8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .f32 = 32 ∨ (Rect.block (s := S4096x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S4096.size a
  hwx1_4 : ∀ i : grid1.Coords, EltTy.bits .f32 = 32 ∨ (Rect.block (s := S4096) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S4096.size a
  hwx1_5 : ∀ i : grid1.Coords, EltTy.bits .f32 = 32 ∨ (Rect.block (s := S4096) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x4096.size a
  hwx1_6 : ∀ i : grid1.Coords, EltTy.bits .f32 = 32 ∨ (Rect.block (s := S1x4096) S1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S4096.size a
  hwx2_4 : ∀ i : grid2.Coords, EltTy.bits .f32 = 32 ∨ (Rect.block (s := S4096) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S4096.size a
  hwx2_5 : ∀ i : grid2.Coords, EltTy.bits .f32 = 32 ∨ (Rect.block (s := S4096) S1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x4096.size a
  hwx2_6 : ∀ i : grid2.Coords, EltTy.bits .f32 = 32 ∨ (Rect.block (s := S1x4096) S1x1024.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x1024.size a < S50257x1024.size a
  hwx3_1 : ∀ i : grid3.Coords, EltTy.bits .f32 = 32 ∨ (Rect.unit (s := S50257x1024) (fun a => cc3_transform_1 i a * S2048x1024.size a) (fun a => (Pipeline.Clip.of (cc3_transform_1 i a) (S2048x1024.size a) (S50257x1024.size a)).extent (S2048x1024.size a)) fun a => Pipeline.Clip.inb (Pipeline.Clip.ok_of (hstart3_1 i a))).WholeWords (EltTy.packing .f32)
  hwxs3_1 : ∀ i : grid3.Coords, EltTy.bits .f32 = 32 ∨ (Rect.unit (s := S2048x1024) (fun _ => 0) (fun a => (Pipeline.Clip.of (cc3_transform_1 i a) (S2048x1024.size a) (S50257x1024.size a)).extent (S2048x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S2048.size a < S50257.size a
  hwx3_2 : ∀ i : grid3.Coords, EltTy.bits .f32 = 32 ∨ (Rect.unit (s := S50257) (fun a => cc3_transform_2 i a * S2048.size a) (fun a => (Pipeline.Clip.of (cc3_transform_2 i a) (S2048.size a) (S50257.size a)).extent (S2048.size a)) fun a => Pipeline.Clip.inb (Pipeline.Clip.ok_of (hstart3_2 i a))).WholeWords (EltTy.packing .f32)
  hwxs3_2 : ∀ i : grid3.Coords, EltTy.bits .f32 = 32 ∨ (Rect.unit (s := S2048) (fun _ => 0) (fun a => (Pipeline.Clip.of (cc3_transform_2 i a) (S2048.size a) (S50257.size a)).extent (S2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x2048.size a < S1x50257.size a
  hwx3_3 : ∀ i : grid3.Coords, EltTy.bits .f32 = 32 ∨ (Rect.unit (s := S1x50257) (fun a => cc3_transform_3 i a * S1x2048.size a) (fun a => (Pipeline.Clip.of (cc3_transform_3 i a) (S1x2048.size a) (S1x50257.size a)).extent (S1x2048.size a)) fun a => Pipeline.Clip.inb (Pipeline.Clip.ok_of (hstart3_3 i a))).WholeWords (EltTy.packing .f32)
  hwxs3_3 : ∀ i : grid3.Coords, EltTy.bits .f32 = 32 ∨ (Rect.unit (s := S1x2048) (fun _ => 0) (fun a => (Pipeline.Clip.of (cc3_transform_3 i a) (S1x2048.size a) (S1x50257.size a)).extent (S1x2048.size a)) fun a => (Nat.zero_add _).trans_le (Pipeline.Clip.extent_le (Pipeline.Clip.ok_of (hstart3_3 i a)))).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev spec0_0 : Pipeline.WinSpec sig grid0.rank :=
  Pipeline.WinSpec.ofSpec (Memref.whole main_v1) S1x8x128.size reads0_0 false false 1 stage0_0 sem0_0 nbuf0_0 hstage0_0

abbrev spec0_1 : Pipeline.WinSpec sig grid0.rank :=
  Pipeline.WinSpec.ofSpec (Memref.whole main_v2) S1x8x128.size reads0_1 true true 1 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 inb_S1_S1_0 numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x8x128.size a ≤ S50257x8x128.size a), EltTy.bits .f32 = 32 ∨ (Rect.block (s := S50257x8x128) S1x8x128.size (cc0_transform_0 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev win1_0 : Pipeline.Window sig grid1 :=
  Pipeline.Window.ofSpec (Memref.whole main_v3) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v69) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S2048x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_arg13) S2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v70) S1x2048.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where
  harr0 : ∀ w, (spec0 w).arr.IsWhole

variable [Facts]
-- ==== ReferenceIdeal.lean ====
abbrev S1 : Shape := ⟨1, ![1]⟩
abbrev S2x1x1024 : Shape := ⟨3, ![2, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x1x1024 : Shape := ⟨3, ![1, 1, 1024]⟩
abbrev S1024x4096 : Shape := ⟨2, ![1024, 4096]⟩
abbrev S1x4096 : Shape := ⟨2, ![1, 4096]⟩
abbrev S1024x50257 : Shape := ⟨2, ![1024, 50257]⟩
abbrev S1x50257 : Shape := ⟨2, ![1, 50257]⟩

abbrev nBuf : Space → Nat
  | .hbm => 145
  | .vmem => 0
  | .smem => 0
  | _ => 0

abbrev hbmTy0_0 (i : Nat) : BufTy := match i % 128 with
  | 0 => ⟨S1, .i32⟩
  | 1 => ⟨S2x1x1024, .f32⟩
  | 2 => ⟨S2x1x1024, .f32⟩
  | 3 => ⟨S50257x1024, .f32⟩
  | 4 => ⟨S4096x1024, .f32⟩
  | 5 => ⟨S4096x1024, .f32⟩
  | 6 => ⟨S4096, .f32⟩
  | 7 => ⟨S4096, .f32⟩
  | 8 => ⟨S4096x1024, .f32⟩
  | 9 => ⟨S4096x1024, .f32⟩
  | 10 => ⟨S4096, .f32⟩
  | 11 => ⟨S4096, .f32⟩
  | 12 => ⟨S50257x1024, .f32⟩
  | 13 => ⟨S50257, .f32⟩
  | 14 => ⟨S_, .i32⟩
  | 15 => ⟨S1, .i32⟩
  | 16 => ⟨S1, .i1⟩
  | 17 => ⟨S_, .i32⟩
  | 18 => ⟨S1, .i32⟩
  | 19 => ⟨S1, .i32⟩
  | 20 => ⟨S1, .i32⟩
  | 21 => ⟨S1x1, .i32⟩
  | 22 => ⟨S1x1024, .f32⟩
  | 23 => ⟨S_, .f32⟩
  | 24 => ⟨S1x1024, .f32⟩
  | 25 => ⟨S1x1024, .f32⟩
  | 26 => ⟨S1x1x1024, .f32⟩
  | 27 => ⟨S1x1024, .f32⟩
  | 28 => ⟨S1x1x1024, .f32⟩
  | 29 => ⟨S1x1024, .f32⟩
  | 30 => ⟨S1024x4096, .f32⟩
  | 31 => ⟨S1x4096, .f32⟩
  | 32 => ⟨S1x4096, .f32⟩
  | 33 => ⟨S1x4096, .f32⟩
  | 34 => ⟨S1024x4096, .f32⟩
  | 35 => ⟨S1x4096, .f32⟩
  | 36 => ⟨S1x4096, .f32⟩
  | 37 => ⟨S1x4096, .f32⟩
  | 38 => ⟨S1x4096, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S1x1024, .f32⟩
  | 73 => ⟨S1x1x1024, .f32⟩
  | 74 => ⟨S1x1024, .f32⟩
  | 75 => ⟨S1x1x1024, .f32⟩
  | 76 => ⟨S1x1024, .f32⟩
  | 77 => ⟨S1024x4096, .f32⟩
  | 78 => ⟨S1x4096, .f32⟩
  | 79 => ⟨S1x4096, .f32⟩
  | 80 => ⟨S1x4096, .f32⟩
  | 81 => ⟨S1024x4096, .f32⟩
  | 82 => ⟨S1x4096, .f32⟩
  | 83 => ⟨S1x4096, .f32⟩
  | 84 => ⟨S1x4096, .f32⟩
  | 85 => ⟨S1x4096, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S1x1024, .f32⟩
  | 120 => ⟨S1024x50257, .f32⟩
  | 121 => ⟨S1x50257, .f32⟩
  | 122 => ⟨S1x50257, .f32⟩
  | 123 => ⟨S1x50257, .f32⟩
  | 124 => ⟨S_, .f32⟩
  | 125 => ⟨S1, .f32⟩
  | 126 => ⟨S_, .f32⟩
  | 127 => ⟨S1, .f32⟩
  | _ => ⟨S1, .i32⟩

abbrev hbmTy0_1 (i : Nat) : BufTy := match i % 128 with
  | 0 => ⟨S1, .f32⟩
  | 1 => ⟨S1x1, .f32⟩
  | 2 => ⟨S1x50257, .f32⟩
  | 3 => ⟨S1x50257, .f32⟩
  | 4 => ⟨S1x50257, .f32⟩
  | 5 => ⟨S_, .f32⟩
  | 6 => ⟨S1, .f32⟩
  | 7 => ⟨S1x1, .f32⟩
  | 8 => ⟨S1x1, .f32⟩
  | 9 => ⟨S1x50257, .f32⟩
  | 10 => ⟨S1x50257, .f32⟩
  | 11 => ⟨S1x1x1024, .f32⟩
  | 12 => ⟨S1x1x1024, .f32⟩
  | 13 => ⟨S2x1x1024, .f32⟩
  | 14 => ⟨S1x1x1024, .f32⟩
  | 15 => ⟨S1x1x1024, .f32⟩
  | 16 => ⟨S2x1x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_cst : Ref sig .tc := ⟨.hbm, 23, rfl⟩
abbrev main_call0_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_6 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_10 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call1_cst : Ref sig .tc := ⟨.hbm, 124, rfl⟩
abbrev main_call1_v0 : Ref sig .tc := ⟨.hbm, 125, rfl⟩
abbrev main_call1_cst_0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_v5 : Ref sig .tc := ⟨.hbm, 131, rfl⟩
abbrev main_call1_v6 : Ref sig .tc := ⟨.hbm, 132, rfl⟩
abbrev main_call1_cst_1 : Ref sig .tc := ⟨.hbm, 133, rfl⟩
abbrev main_call1_v7 : Ref sig .tc := ⟨.hbm, 134, rfl⟩
abbrev main_call1_v8 : Ref sig .tc := ⟨.hbm, 135, rfl⟩
abbrev main_call1_v9 : Ref sig .tc := ⟨.hbm, 136, rfl⟩
abbrev main_call1_v10 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1024 : S_.BroadcastsInDim S1x1024 (![] : Fin 0 → Fin S1x1024.rank)
  slices_S2x1x1024_S1x1x1024_0_0_0 : S2x1x1024.Slices ![0, 0, 0] S1x1x1024
  shapeCasts_S1x1x1024_S1x1024 : S1x1x1024.ShapeCasts S1x1024
  transposes_S4096x1024_S1024x4096_1_0 : S4096x1024.Transposes [1, 0] S1024x4096
  bcast_S4096_S1x4096_1 : S4096.BroadcastsInDim S1x4096 (![1] : Fin 1 → Fin S1x4096.rank)
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  slices_S2x1x1024_S1x1x1024_1_0_0 : S2x1x1024.Slices ![1, 0, 0] S1x1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  concatenates_S1x1x1024_S1x1x1024_S2x1x1024_d0 : Shape.Concatenates [S1x1x1024, S1x1x1024] S2x1x1024 0
  gather_S50257x1024_S1x1_S1x1024_1_0_n_n_0_1_11024_wf : GatherDims.WF S50257x1024 S1x1 S1x1024 [1] [0] [] [0] [] 1 ![1, 1024]
  dot_S1x1024_S1024x4096_S1x4096_1_0_0_1_n_n_wf : DotDims.WF S1x1024 S1024x4096 S1x4096 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Pre.lean ====
/-
  FROM THE PRECONDITION TO THE TABLE. The program's first argument is one 32-bit word, the row of the embedding to read.
  The precondition says, beside the finiteness of the float arguments, that the word is at least 0 and below 50257.
  The host clamps the word into [0, 50256] and hands the result to the first kernel region as a prefetched table, whose one
  element is the first coordinate of the block that region's first window reads. Here: the word's range read back out of
  the printed precondition; the table holds the word itself (the clamp does nothing to a word in range); hence the block
  lies inside the array, which is the side condition the region's pipeline asks of its table, and the block's index is
  (the word's value, 0, 0). All of it for any float instance: nothing here looks at a float.
-/
import proofs.«408709_j86328842650330_3_alg».proof.Proof.Gen.Kernel.Regions
import proofs.«408709_j86328842650330_3_alg».proof.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 4096

noncomputable section

namespace Cert.Kernel.Hand

open Cert.Kernel Cert.Kernel.Gen
open Idealize.ShloMosaic Idealize.ShloMosaic.TcCoe Idealize.SL.Sem

/-! ## The printed precondition, read back at the word

The precondition is a conjunction, by `and`, of fifteen `jnp.all`s: thirteen say an argument array is finite, the
last two say every word of the first argument is at least 0 and below 50257, signed. The function is printed in parts,
each ending in the call of the next; reading it back goes part by part from the last: a conjunction that is one has both
conjuncts one, and an `all` that is one has every element one. -/

namespace PreWord

open Cert.Pre_finite_inputs

variable {F : FTy → Type} [FloatOps F] [Cert.Pre_finite_inputs.Facts]

/-- The scalar shape has one index. -/
instance : Subsingleton S_.Idx := ⟨fun a b => funext fun d => d.elim0⟩

/-- The last part: its result all ones says the conjunction it was handed is one and every word is below 50257, signed. -/
theorem part4_decode (a0 : IVec S1 32) (v67 : IVec S_ 1) (h : fn_part4 (F := F) a0 v67 = fun _ => 1#1) :
    v67 ValueIdx.ix0 = 1#1 ∧ ∀ i : S1.Idx, IntOp.cmpi .slt (a0 i) 50257#32 = 1#1 := by
  have e := congrFun h ValueIdx.ix0
  unfold fn_part4 at e
  simp only [andi] at e
  obtain ⟨h1, h2⟩ := IntOp.andi_eq_one.1 e
  refine ⟨h1, fun i => ?_⟩
  have := Host.reduce_andi_all _ _ _ _ ValueIdx.ix0 h2 i
  simpa only [cmpi, broadcastInDim, constantI] using this

/-- The part before it adds the conjunct "every word is at least 0, signed". -/
theorem part3_decode (a0 : IVec S1 32) (a12 : FVec F S50257x1024 .f32) (a13 : FVec F S50257 .f32) (v48 : IVec S_ 1)
    (v49 v50 : FVec F S4096 .f32) (h : fn_part3 (F := F) a0 a12 a13 v48 v49 v50 = fun _ => 1#1) (i : S1.Idx) :
    IntOp.cmpi .sge (a0 i) 0#32 = 1#1 ∧ IntOp.cmpi .slt (a0 i) 50257#32 = 1#1 := by
  unfold fn_part3 at h
  obtain ⟨h67, hlt⟩ := part4_decode a0 _ h
  simp only [andi] at h67
  obtain ⟨-, h66⟩ := IntOp.andi_eq_one.1 h67
  have := Host.reduce_andi_all _ _ _ _ ValueIdx.ix0 h66 i
  exact ⟨by simpa only [cmpi, broadcastInDim, constantI] using this, hlt i⟩

/-- The earlier parts only hand the word on. -/
theorem part2_decode (a0 : IVec S1 32) (a8 a9 : FVec F S4096x1024 .f32) (a10 a11 : FVec F S4096 .f32)
    (a12 : FVec F S50257x1024 .f32) (a13 : FVec F S50257 .f32) (v33 : IVec S_ 1)
    (h : fn_part2 (F := F) a0 a8 a9 a10 a11 a12 a13 v33 = fun _ => 1#1) (i : S1.Idx) :
    IntOp.cmpi .sge (a0 i) 0#32 = 1#1 ∧ IntOp.cmpi .slt (a0 i) 50257#32 = 1#1 := by
  unfold fn_part2 at h
  exact part3_decode a0 _ _ _ _ _ h i

theorem part1_decode (a0 : IVec S1 32) (a5 : FVec F S4096x1024 .f32) (a6 a7 : FVec F S4096 .f32) (a8 a9 : FVec F S4096x1024 .f32)
    (a10 a11 : FVec F S4096 .f32) (a12 : FVec F S50257x1024 .f32) (a13 : FVec F S50257 .f32) (v13 : IVec S_ 1)
    (v16 : IVec S4096x1024 1)
    (h : fn_part1 (F := F) a0 a5 a6 a7 a8 a9 a10 a11 a12 a13 v13 v16 = fun _ => 1#1) (i : S1.Idx) :
    IntOp.cmpi .sge (a0 i) 0#32 = 1#1 ∧ IntOp.cmpi .slt (a0 i) 50257#32 = 1#1 := by
  unfold fn_part1 at h
  exact part2_decode a0 _ _ _ _ _ _ _ h i

/-- THE PRECONDITION READ BACK: every word of the first argument is at least 0 and below 50257, as signed comparisons. -/
theorem fn_decode (a0 : IVec S1 32) (a1 a2 : FVec F S2x1x1024 .f32) (a3 : FVec F S50257x1024 .f32)
    (a4 a5 : FVec F S4096x1024 .f32) (a6 a7 : FVec F S4096 .f32) (a8 a9 : FVec F S4096x1024 .f32)
    (a10 a11 : FVec F S4096 .f32) (a12 : FVec F S50257x1024 .f32) (a13 : FVec F S50257 .f32)
    (h : fn (F := F) a0 a1 a2 a3 a4 a5 a6 a7 a8 a9 a10 a11 a12 a13 = fun _ => 1#1) (i : S1.Idx) :
    IntOp.cmpi .sge (a0 i) 0#32 = 1#1 ∧ IntOp.cmpi .slt (a0 i) 50257#32 = 1#1 := by
  unfold fn at h
  exact part1_decode a0 _ _ _ _ _ _ _ _ _ _ _ h i

end PreWord

/-! ## A word between 0 and 50257, signed -/

/-- The two comparisons as inequalities between the word's signed value and the bounds. -/
theorem toInt_range_of_cmp (w : BitVec 32) (h0 : IntOp.cmpi .sge w 0#32 = 1#1) (h1 : IntOp.cmpi .slt w 50257#32 = 1#1) :
    0 ≤ w.toInt ∧ w.toInt < 50257 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (50257#32 : BitVec 32).toInt = 50257 := by decide
  omega

/-- A word whose signed value is at least 0 reads the same unsigned. -/
theorem toNat_of_toInt_nonneg (w : BitVec 32) (h0 : 0 ≤ w.toInt) : (w.toNat : Int) = w.toInt := by
  have hlt := w.isLt
  rw [BitVec.toInt_eq_toNat_cond] at h0 ⊢
  split at h0 <;> rename_i hc
  · rw [if_pos hc]
  · omega

/-- In range signed, in range unsigned. -/
theorem toNat_lt_of_toInt_range (w : BitVec 32) (h : 0 ≤ w.toInt ∧ w.toInt < 50257) : w.toNat < 50257 := by
  have := toNat_of_toInt_nonneg w h.1
  omega

/-- The clamp to [0, 50256], as the host computes it (the larger of 0 and the word, then the smaller of 50256 and that),
    leaves a word already in range alone. -/
theorem clip_word (w : BitVec 32) (h : 0 ≤ w.toInt ∧ w.toInt < 50257) :
    IntOp.minsi 50256#32 (IntOp.maxsi 0#32 w) = w := by
  have e0 : (0#32 : BitVec 32).toInt = 0 := by decide
  have e1 : (50256#32 : BitVec 32).toInt = 50256 := by decide
  have hmax : IntOp.maxsi 0#32 w = w := by
    unfold IntOp.maxsi
    rw [if_neg]
    simp only [BitVec.slt, e0, decide_eq_true_eq]; omega
  rw [hmax]
  unfold IntOp.minsi
  rw [if_neg]
  simp only [BitVec.slt, e1, decide_eq_true_eq]; omega

/-! ## The table as region 0 finds it

Before region 0 the host writes the constants 0 and 50256 and clamps the word between them into the prefetched table:
the larger of 0 and the word, then the smaller of 50256 and that. Under the precondition the clamp changes nothing:
the table holds the word itself. Its one element is then the first coordinate of window 0's block, which lies inside
the [50257, 8, 128] array, and that is the pipeline's side condition. -/

variable {F : FTy → Type} [FloatOps F]
variable (m : (ℓ : Loc nD τ sig) → Buf (Elt F) ℓ)

/-- The first argument's buffer on core `c`: one 32-bit word. -/
abbrev wordBuf (c : Dev nD) : IVec S1 32 := m ((c.tc : Thread nD τ).loc main_arg0)

/-- The word itself. -/
abbrev word (c : Dev nD) : BitVec 32 := wordBuf m c (ValueIdx.ix1 0)

/-- The precondition over any float instance: the printed predicate of the fourteen argument buffers is all ones on every
    core. The claim's hypothesis on the program's memory is this at its float instance, by unfolding. -/
abbrev PreF [Cert.Pre_finite_inputs.Facts] : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      = fun _ => 1#1

/-- A [1] array has one index. -/
theorem S1_idx_eq (x : S1.Idx) : x = ValueIdx.ix1 0 := by
  rw [ValueIdx.eq_ix1 x]
  refine congrArg ValueIdx.ix1 (Fin.ext ?_)
  have hlt : (x 0).val < 1 := (x 0).isLt
  show (x 0).val = 0
  omega

/-- THE WORD IS IN RANGE: at least 0 and below 50257, as a signed value. -/
theorem word_range [Cert.Pre_finite_inputs.Facts] (h : PreF m) (c : Dev nD) :
    0 ≤ ((m ((c.tc : Thread nD τ).loc main_arg0) : IVec S1 32) (ValueIdx.ix1 0)).toInt
      ∧ ((m ((c.tc : Thread nD τ).loc main_arg0) : IVec S1 32) (ValueIdx.ix1 0)).toInt < 50257 := by
  obtain ⟨h0, h1⟩ := PreWord.fn_decode _ _ _ _ _ _ _ _ _ _ _ _ _ _ (h c) (ValueIdx.ix1 0)
  exact toInt_range_of_cmp _ h0 h1

/-- The same unsigned: the word's value is below 50257. -/
theorem word_toNat_lt [Cert.Pre_finite_inputs.Facts] (h : PreF m) (c : Dev nD) : (word m c).toNat < 50257 :=
  toNat_lt_of_toInt_range _ (word_range m h c)

/-- The word's signed and unsigned values agree. -/
theorem word_toInt_eq [Cert.Pre_finite_inputs.Facts] (h : PreF m) (c : Dev nD) : (word m c).toInt = (word m c).toNat :=
  (toNat_of_toInt_nonneg _ (word_range m h c).1).symm

/-- What the two host stretches before region 0 leave in the table: the clamp of the word between the two constants. -/
theorem V3_main_v0 (c : Dev nD) :
    (Gen.V3 m c main_v0 : IVec S1 32)
      = minsi (broadcastInDim S1 ![] bcast_S_S1 (constantI S_ 32 50256#32))
          (maxsi (broadcastInDim S1 ![] bcast_S_S1 (constantI S_ 32 0#32)) (wordBuf m c)) := by
  rw [Gen.V3_of m c main_v0 (by decide)]
  show StableHlo.after hostOps0_1 (StableHlo.after hostOps0 (fun b => m (c, b))) (Proc.devRef .tc main_v0) = _
  after_results
  rfl

/-- THE TABLE HOLDS THE WORD: under the precondition the clamp is the identity, so the table's buffer before region 0 is
    the first argument's buffer. -/
theorem V3_main_v0_eq [Cert.Pre_finite_inputs.Facts] (h : PreF m) (c : Dev nD) :
    (Gen.V3 m c main_v0 : IVec S1 32) = wordBuf m c := by
  rw [V3_main_v0]
  funext x
  rw [S1_idx_eq x]
  simp only [minsi, maxsi, broadcastInDim, constantI]
  exact clip_word _ (word_range m h c)

/-- There is one core. -/
theorem dev_eq_zero (c : Dev nD) : c = 0 := Subsingleton.elim _ _

/-- The prefetched table's contents as region 0 finds them (the program runs on one core: core 0's). -/
def tbl0 : pre0.Contents (Elt F) := fun k => Gen.V3 m (0 : Dev nD) (pre0.ref k)

/-- On every core the table holds those contents. -/
theorem tbl0_at (c : Dev nD) (k : Fin pre0.K) : Gen.V3 m c (pre0.ref k) = tbl0 m k := by
  rw [dev_eq_zero c]; rfl

/-- The word on any core is the word on core 0. -/
theorem word_at (c : Dev nD) : word m c = word m 0 := by
  rw [dev_eq_zero c]

/-- Every element of the table is the word. -/
theorem tbl0_apply [Cert.Pre_finite_inputs.Facts] (h : PreF m) (x : S1.Idx) :
    (tbl0 m 0 : IVec S1 32) x = word m 0 := by
  show (Gen.V3 m 0 main_v0 : IVec S1 32) x = _
  rw [V3_main_v0_eq m h 0, S1_idx_eq x]

/-- WINDOW 0's BLOCK INDEX at the table: (the word's value, 0, 0). -/
theorem cc0_transform_0_tbl0 [Cert.Pre_finite_inputs.Facts] (h : PreF m) (i : grid0.Coords) :
    cc0_transform_0 inb_S1_S1_0 numel1_S1 (tbl0 m) i = ![(word m 0).toNat, 0, 0] := by
  unfold cc0_transform_0
  exact congrArg (fun w : BitVec 32 => (![w.toNat, 0, 0] : Fin 3 → Nat)) (tbl0_apply m h _)

/-- REGION 0's SIDE CONDITION at the table: the block at (word, 0, 0) of extents (1, 8, 128) lies inside the
    [50257, 8, 128] array, the word being below 50257. -/
theorem ok0_tbl0 [Cert.Pre_finite_inputs.Facts] (h : PreF m) : ok0 (F := F) (tbl0 m) := by
  intro i
  have hw := word_toNat_lt m h 0
  refine ⟨fun a => ?_, Or.inl rfl⟩
  rw [cc0_transform_0_tbl0 m h i]
  match a with
  | ⟨0, _⟩ => show ((word m 0).toNat + 1) * 1 ≤ 50257; omega
  | ⟨1, _⟩ => show (0 + 1) * 8 ≤ 8; omega
  | ⟨2, _⟩ => show (0 + 1) * 128 ≤ 128; omega

/-- The admission of region 0's pipeline: the table's contents with the side condition. -/
def a0 [Cert.Pre_finite_inputs.Facts] (h : PreF m) : (pcfg0 (F := F)).Adm := ⟨tbl0 m, ok0_tbl0 m h⟩

theorem a0_val [Cert.Pre_finite_inputs.Facts] (h : PreF m) : (a0 m h).1 = tbl0 m := rfl

/-- On every core the table, as region 0 finds it, holds the admission's contents. -/
theorem a0_at [Cert.Pre_finite_inputs.Facts] (h : PreF m) (c : Dev nD) (k : Fin pre0.K) :
    Gen.V3 m c (pre0.ref k) = (a0 m h).1 k :=
  tbl0_at m c k

/-- Window 0's block index at the admission. -/
theorem cc0_transform_0_a0 [Cert.Pre_finite_inputs.Facts] (h : PreF m) (i : grid0.Coords) :
    cc0_transform_0 inb_S1_S1_0 numel1_S1 (a0 m h).1 i = ![(word m 0).toNat, 0, 0] :=
  cc0_transform_0_tbl0 m h i

end Cert.Kernel.Hand

end
-- ==== Proof.K.Reg3.lean ====
/-
  REGION 3 of the program: the projection kernel (pipeline 3) over a grid of 25 points, generic in the float model.

  The kernel reads the whole of `h2` (window 0, [1, 1024], fetched once), block `i` of the weight matrix (window 1,
  [2048, 1024] of [50257, 1024]) and of the bias (window 2, [2048] of [50257]), and stores
  `bf16 h2 · (bf16 W_blk)ᵀ + b_blk` whole into block `i` of the logits (window 3, [1, 2048] of [1, 50257]).
  50257 = 24 · 2048 + 1105: the last block of windows 1, 2 and 3 overhangs its array, so its fetch lands 1105 rows
  (lanes) in the staging buffer and leaves the other 943 at words nothing names, and its write-back moves 1105 lanes.
  These windows are loose: the body obligation states each buffer on the part the transfers move only.

  Here: each window's block at a point as the region finds it (`iblk3`, the part inside the array); what the body
  leaves in the output's buffer (`out3_3`, its one whole store; `out3_3_eq`: the payload of the three buffers' contents);
  the body's triple on whole staging memrefs (`sound_kernel3`); the proof data (`dat3`: after the body the input
  buffers at their blocks filled out with zeros past the arrays' end, the output's at `out3_3` of those) and what
  each buffer holds when the body runs (`before3_w`); and the body obligation in two forms. `body_obligation3_fgt`
  forgets the output window (any contents in, any contents out) and holds for every float model.
  `body_obligation3` names the output's block and needs `Loc3`: that the moved lanes of the product do not read the
  weight rows past the array's end — a fact about the model's `tpu.matmul`, which the class of float models does not
  state (the word-level model's product is a function of the whole right operand; the ideal model's is a sum per lane).
-/
import proofs.«408709_j86328842650330_3_alg».proof.Proof.Gen.Kernel.Launch
import proofs.«408709_j86328842650330_3_alg».proof.Proof.Gen.Kernel.Skeleton
import proofs.«408709_j86328842650330_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 3: the projection kernel (pipeline 3), at the entry contents `V` -/

/-! ## The windows' blocks -/

/-- Window `w`'s block at point `t`, read off its array as the region finds it: the part of the block inside
    the array (all of it but at the last point, where windows 1, 2, 3 keep 1105 of their 2048 rows or lanes). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S1x1024 := Rect.unit (s := S1x1024) ![0, 0] S1x1024.size inb_S1x1024_S1x1024_0_0
abbrev r3_1 : Rect S2048x1024 := Rect.unit (s := S2048x1024) ![0, 0] S2048x1024.size inb_S2048x1024_S2048x1024_0_0
abbrev r3_2 : Rect S2048 := Rect.unit (s := S2048) ![0] S2048.size inb_S2048_S2048_0
abbrev r3_3 : Rect S1x2048 := Rect.unit (s := S1x2048) ![0, 0] S1x2048.size inb_S1x2048_S1x2048_0_0

/-! ## What the body leaves in the output window's buffer -/

/-- Window 3's staging buffer after the body, from the three input buffers' contents: its one store, whole. -/
def out3_3 (x0 : Vec F S1x1024 .f32) (x1 : Vec F S2048x1024 .f32) (x2 : Vec F S2048 .f32) : Vec F S1x2048 .f32 :=
  View.canon [⟨r3_3, k3_pay1 (View.ld x0 r3_0) (View.ld x1 r3_1) (View.ld x2 r3_2)⟩]

/-- The store covers the buffer. -/
theorem cover3_3 (p0 : Vec F S1x2048 .f32) (y : S1x2048.Idx) :
    ∃ pc ∈ ([⟨r3_3, p0⟩] : List (View.Piece (Elt F) S1x2048 .f32)), y ∈ pc.1.set :=
  View.cover_of_tiled [⟨r3_3, p0⟩] S1x2048.size (by rfl) y

/-! ## The body's triple -/

set_option maxHeartbeats 1000000 in
/-- The kernel body on whole staging memrefs, the inputs' at contents `x0`, `x1`, `x2` and the output's at anything,
    runs to the continuation holding the inputs' as they were and the output's at `out3_3` of them. -/
theorem sound_kernel3 (c : Dev nD) (E : Set ℕ) (i : grid3.Coords)
    (arg1 : Memref sig .tc .vmem S1x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S1x2048 .f32) (harg4 : arg4.IsWhole)
    (x0 : Vec F S1x1024 .f32) (x1 : Vec F S2048x1024 .f32) (x2 : Vec F S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__proj_kernel i arg1 harg1 arg2 harg2 arg3 harg3 arg4 harg4) K := by
  simp only [cc3__proj_kernel_eq_skeleton]; unfold cc3__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The output's buffer as the payload -/

theorem hz3_2 : (![0, 0] : Fin 2 → Nat) = fun _ => 0 := funext fun a => by fin_cases a <;> rfl
theorem hz3_1 : (![0] : Fin 1 → Nat) = fun _ => 0 := funext fun a => by fin_cases a; rfl

/-- The loads and the store are whole: the output's buffer holds the payload of the three input buffers' contents. -/
theorem out3_3_eq (x0 : Vec F S1x1024 .f32) (x1 : Vec F S2048x1024 .f32) (x2 : Vec F S2048 .f32) :
    out3_3 x0 x1 x2 = k3_pay1 x0 x1 x2 := by
  unfold out3_3
  rw [View.canon_unit_zero hz3_2]
  simp only [View.ld_unit_zero (S := S1x1024) hz3_2, View.ld_unit_zero (S := S2048x1024) hz3_2,
    View.ld_unit_zero (S := S2048) hz3_1]

/-! ## The pipeline's proof data -/

/-- Windows 1 and 2's blocks filled out to the staging buffers' shape: the block's part inside the array, and past
    the array's end (at the last point: rows, resp. lanes, 1105 to 2047) the zero word, where nothing is stated. -/
def blk3_1 (c : Dev nD) (t : Fin cfg3.N) : S2048x1024.Idx → Elt F .f32 :=
  win3_1.fill (grid3.coords t) (fun _ => Scalar.ofBits .f32 0#32) (iblk3 V c 1 t)
def blk3_2 (c : Dev nD) (t : Fin cfg3.N) : S2048.Idx → Elt F .f32 :=
  win3_2.fill (grid3.coords t) (fun _ => Scalar.ofBits .f32 0#32) (iblk3 V c 2 t)

/-- The proof data of pipeline 3 on core `c`: the arrays as the region finds them (`V`); after the body at point
    `t` window 0's buffer at its block, windows 1 and 2's at their blocks filled out with zeros, the output's at
    `out3_3` of those; the invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => blk3_1 V c t
    | ⟨2, _⟩ => blk3_2 V c t
    | ⟨3, _⟩ => out3_3 (iblk3 V c 0 t) (blk3_1 V c t) (blk3_2 V c t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = blk3_1 V c t := by dsimp only [dat3]
theorem after3_2 (c : Dev nD) (t : Fin cfg3.N) : (dat3 V c).after 2 t = blk3_2 V c t := by dsimp only [dat3]
theorem after3_3 (c : Dev nD) (t : Fin cfg3.N) :
    (dat3 V c).after 3 t = out3_3 (iblk3 V c 0 t) (blk3_1 V c t) (blk3_2 V c t) := by dsimp only [dat3]

/-- Window 0 (the whole of `h2`, uncut, fetched at the first point only) holds its block at every point: unfetched,
    the block index has not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Windows 1 and 2 are fetched at every point: the buffer holds the block's part inside the array, and past it
    whatever the cut fetch left there (`d`). -/
theorem before3_1 (c : Dev nD) (t : Fin cfg3.N) (d) :
    (dat3 V c).before 1 t d = win3_1.fill (grid3.coords t) d (iblk3 V c 1 t) := by
  rw [(dat3 V c).before_fetched 1 t (fetch3_1 t) d]
  unfold Dat.fetched Dat.blockOf iblk3; rw [A_eq3]; try rfl
theorem before3_2 (c : Dev nD) (t : Fin cfg3.N) (d) :
    (dat3 V c).before 2 t d = win3_2.fill (grid3.coords t) d (iblk3 V c 2 t) := by
  rw [(dat3 V c).before_fetched 2 t (fetch3_2 t) d]
  unfold Dat.fetched Dat.blockOf iblk3; rw [A_eq3]; try rfl

/-- The output window is never fetched, -/
theorem fetch3_3 (t : Fin cfg3.N) : (cfg3.win 3).fetch t = false := rfl

/-- and written back at every point: the body finds its buffer at contents nothing names. -/
theorem before3_3 (c : Dev nD) (t : Fin cfg3.N) (d) : (dat3 V c).before 3 t d = d := by
  unfold Dat.before
  rw [if_neg (by rw [fetch3_3 t]; exact Bool.false_ne_true)]
  by_cases h0 : t.val = 0
  · rw [if_pos h0]
  · rw [if_neg h0]; exact if_pos (flush3_3 _)

/-! ## What of the result does not read past the array's end -/

/-- The part of the result block that the write-back moves does not read what windows 1 and 2's buffers hold past
    their arrays' end: with the blocks' parts inside the arrays `g1`, `g2` fixed, it is the same whatever fills the
    rest (`d1`, `d2` or `d1'`, `d2'`). Away from the last point nothing is cut and this says nothing; at the last
    point it says lanes 0 to 1104 of the product read rows 0 to 1104 of the weight block only. A property of the
    float model's `tpu.matmul`, which the class does not state: a proof for every model takes it as a hypothesis. -/
def Loc3 (F : FTy → Type) [FloatOps F] : Prop :=
  ∀ (i : grid3.Coords) (x0 : Vec F S1x1024 .f32)
    (d1 d1' : S2048x1024.Idx → Elt F .f32) (g1 : (win3_1.xblock i).Idx → Elt F .f32)
    (d2 d2' : S2048.Idx → Elt F .f32) (g2 : (win3_2.xblock i).Idx → Elt F .f32),
    win3_3.cut i (out3_3 x0 (win3_1.fill i d1 g1) (win3_2.fill i d2 g2))
      = win3_3.cut i (out3_3 x0 (win3_1.fill i d1' g1) (win3_2.fill i d2' g2))

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: window 0's buffer at its block; windows 1, 2 and 3's, which are loose, at what the proof
    data names on the part their transfers move and at anything elsewhere. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ d, owns (c : Thread nD τ) (st3_3 t) fullShare
        ((cfg3.win 3).fill (cfg3.grid.coords t) d ((cfg3.win 3).cut (cfg3.grid.coords t) ((dat3 V c).after 3 t)))))

/-- The same with the output window forgotten: handed over at any contents and taken back at any. -/
def bodyPre3F (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ X, owns (c : Thread nD τ) (st3_3 t) fullShare X))

def bodyPost3F (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ X, owns (c : Thread nD τ) (st3_3 t) fullShare X))

/-- A block filled out with zeros, cut back to the moved part and filled out with `d`, is the block filled out with `d`. -/
theorem refill3_1 (c : Dev nD) (t : Fin cfg3.N) (d : S2048x1024.Idx → Elt F .f32) :
    win3_1.fill (grid3.coords t) d (win3_1.cut (grid3.coords t) (blk3_1 V c t)) = win3_1.fill (grid3.coords t) d (iblk3 V c 1 t) := by
  unfold blk3_1; rw [win3_1.cut_fill]
theorem refill3_2 (c : Dev nD) (t : Fin cfg3.N) (d : S2048.Idx → Elt F .f32) :
    win3_2.fill (grid3.coords t) d (win3_2.cut (grid3.coords t) (blk3_2 V c t)) = win3_2.fill (grid3.coords t) d (iblk3 V c 2 t) := by
  unfold blk3_2; rw [win3_2.cut_fill]

/-- The body at any point, the output window forgotten: the inputs' buffers hold their blocks, filled out by the
    cut fetches with anything, so `sound_kernel3` applies; they come back as they were, which on the moved part is
    what the proof data names; the invariant and the core's `owes` pass through unread. -/
theorem sound_body3F (c : Dev nD) (t : Fin cfg3.N) :
    bodyPre3F V c t ⊢ wp frame (wpE (defs₀ (F := F)) Variants.none c none) Set.univ (bodyAt3 t) (fun _ => bodyPost3F V c t) := by
  unfold bodyPre3F bodyPost3F bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩, ⟨%X3, H3⟩⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st3_1 t) fullShare (win3_1.fill (grid3.coords t) d1 (win3_1.cut (grid3.coords t) (blk3_1 V c t)))
    rw [refill3_1]
  isplitl [H2]
  · iexists d2
    change _ ⊢ owns (c : Thread nD τ) (st3_2 t) fullShare (win3_2.fill (grid3.coords t) d2 (win3_2.cut (grid3.coords t) (blk3_2 V c t)))
    rw [refill3_2]
  iexists _; iexact H3

/-- The body at any point, under `Loc3`: as `sound_body3F`, and the output's buffer comes back at `out3_3` of the
    inputs' blocks filled out with what the cut fetches left, which on the part the write-back moves is `out3_3` of
    the blocks filled out with zeros (`Loc3`): what the proof data names. -/
theorem sound_body3 (hloc : Loc3 F) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st3_1 t) fullShare (win3_1.fill (grid3.coords t) d1 (win3_1.cut (grid3.coords t) (blk3_1 V c t)))
    rw [refill3_1]
  isplitl [H2]
  · iexists d2
    change _ ⊢ owns (c : Thread nD τ) (st3_2 t) fullShare (win3_2.fill (grid3.coords t) d2 (win3_2.cut (grid3.coords t) (blk3_2 V c t)))
    rw [refill3_2]
  iexists out3_3 (iblk3 V c 0 t) (win3_1.fill (grid3.coords t) d1 (iblk3 V c 1 t)) (win3_2.fill (grid3.coords t) d2 (iblk3 V c 2 t))
  change _ ⊢ owns (c : Thread nD τ) (st3_3 t) fullShare
    (win3_3.fill (grid3.coords t) (out3_3 (iblk3 V c 0 t) (win3_1.fill (grid3.coords t) d1 (iblk3 V c 1 t)) (win3_2.fill (grid3.coords t) d2 (iblk3 V c 2 t)))
      (win3_3.cut (grid3.coords t) (out3_3 (iblk3 V c 0 t) (blk3_1 V c t) (blk3_2 V c t))))
  rw [show win3_3.fill (grid3.coords t) (out3_3 (iblk3 V c 0 t) (win3_1.fill (grid3.coords t) d1 (iblk3 V c 1 t)) (win3_2.fill (grid3.coords t) d2 (iblk3 V c 2 t)))
        (win3_3.cut (grid3.coords t) (out3_3 (iblk3 V c 0 t) (blk3_1 V c t) (blk3_2 V c t)))
      = out3_3 (iblk3 V c 0 t) (win3_1.fill (grid3.coords t) d1 (iblk3 V c 1 t)) (win3_2.fill (grid3.coords t) d2 (iblk3 V c 2 t)) from
    win3_3.fill_congr_cut (grid3.coords t)
      (hloc (grid3.coords t) (iblk3 V c 0 t) d1 (fun _ => Scalar.ofBits .f32 0#32) (iblk3 V c 1 t) d2 (fun _ => Scalar.ofBits .f32 0#32) (iblk3 V c 2 t))]

/-! ## The library's body obligations -/

/-- The windows the relational reading forgets: the output's, window 3. -/
abbrev fgt3 : Fin 4 → Bool := fun | 0 => false | 1 => false | 2 => false | 3 => true | ⟨_ + 4, h⟩ => absurd h (Nat.not_lt.2 (Nat.le_add_left _ _))

/-- The body obligation with the output window forgotten, at every point, for any float model. -/
theorem body_obligation3_fgt (c : Dev nD) :
    BodyObligationLoose (dat3 (F := F) V c) (defs₀ (F := F)) Variants.none () Set.univ fgt3 := fun t => by
  rw [bigSep_W3, bigSep_W3]
  exact sound_body3F V c t

/-- The body obligation naming the output's block, at every point, for a float model with `Loc3`. -/
theorem body_obligation3 (hloc : Loc3 F) (c : Dev nD) :
    BodyObligationLoose (dat3 (F := F) V c) (defs₀ (F := F)) Variants.none () Set.univ := fun t => by
  rw [bigSep_W3, bigSep_W3]
  exact sound_body3 V hloc c t

end Cert.Kernel.Hand

end
-- ==== Proof.K.Reg3R.lean ====
/-
  REGION 3 read RELATIONALLY, for any float model: the last region's segment record with its output window forgotten.

  What the projection kernel leaves in its output block past the array's end — and, through the product, in the
  lanes it writes back at the last point — is not a function of the arrays for every float model (KI/Reg3.lean,
  `Loc3`). The frame does not read the output: the region is certified with window 3 forgotten
  (`body_obligation3_fgt`), its exit hands the output array back at SOME contents `o`, and the thread state after it
  is stated under `∃ o`. Here: the buffers' contents after the region over such an `o` (`W10`, and after the two host
  stretches that follow, `W11`, `W12`), the family of relational proof data (`rdatsR`: regions 0 to 2's exact data
  as they are, region 3's with the output forgotten), the arrays "at some contents they may hold" opened to one choice
  of contents (`arraysAt_open`), the join of a pipeline's arrays with the unscoped rest for relational data
  (`unscopedBufs_of_arraysR`), and the record `reg3R`: entry, invariant and waits as for an exact record; exit by
  `hexit_3R` — the three input arrays are never written, so they are back at their entry contents, and the output
  array is at the `o` the exit names.
-/
import proofs.«408709_j86328842650330_3_alg».proof.Proof.Gen.Kernel.Regions
import proofs.«408709_j86328842650330_3_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

variable (m : (ℓ : Loc nD τ sig) → Buf (Elt F) ℓ) (outs : Gen.Outs (F := F))

/-! ## The buffers' contents after the last region

The last region's output array is handed back at contents that are not named: `o` stands for them. -/

/-- The unscoped buffers after the last region, its output array at `o`. -/
abbrev W10 (c : Dev nD) (o : Buf (Elt F) ((c : Thread nD τ).loc main_v70)) : Valuation τ sig (Elt F) :=
  Function.update (Gen.V9 m outs c) main_v70 o
/-- after the stretch that follows it, -/
abbrev W11 (c : Dev nD) (o : Buf (Elt F) ((c : Thread nD τ).loc main_v70)) : Valuation τ sig (Elt F) :=
  StableHlo.after hostOps4 (W10 m outs c o)
/-- and after the last stretch. -/
abbrev W12 (c : Dev nD) (o : Buf (Elt F) ((c : Thread nD τ).loc main_v70)) : Valuation τ sig (Elt F) :=
  StableHlo.after hostOps4_1 (W11 m outs c o)

theorem W10_of (c : Dev nD) (o : Buf (Elt F) ((c : Thread nD τ).loc main_v70)) (r : Ref sig .tc)
    (h : r ∉ ([main_v70] : List (Ref sig .tc))) : W10 m outs c o r = Gen.V9 m outs c r := by
  simp only [W10, Function.update_of_ne (StableHlo.devRef_ne_of_ne (List.ne_of_not_mem_cons h) : (Proc.devRef .tc r : DevRef τ sig) ≠ Proc.devRef .tc main_v70)]
theorem W11_of (c : Dev nD) (o : Buf (Elt F) ((c : Thread nD τ).loc main_v70)) (r : Ref sig .tc)
    (h : r ∉ hostOps4_W) : W11 m outs c o r = W10 m outs c o r :=
  StableHlo.after_of_writes_sub hostOps4 _ hostOps4_writes h
theorem W12_of (c : Dev nD) (o : Buf (Elt F) ((c : Thread nD τ).loc main_v70)) (r : Ref sig .tc)
    (h : r ∉ hostOps4_1_W) : W12 m outs c o r = W11 m outs c o r :=
  StableHlo.after_of_writes_sub hostOps4_1 _ hostOps4_1_writes h

/-- A buffer that neither the last region's output nor the two last stretches touch holds at the end what it holds
    when the output array is at the named contents. -/
theorem W12_eq_V12 (c : Dev nD) (o : Buf (Elt F) ((c : Thread nD τ).loc main_v70)) (r : Ref sig .tc)
    (h10 : r ∉ ([main_v70] : List (Ref sig .tc))) (h11 : r ∉ hostOps4_W) (h12 : r ∉ hostOps4_1_W) :
    W12 m outs c o r = Gen.V12 m outs c r :=
  ((W12_of m outs c o r h12).trans ((W11_of m outs c o r h11).trans (W10_of m outs c o r h10))).trans
    ((Gen.V12_of m outs c r h12).trans ((Gen.V11_of m outs c r h11).trans (Gen.V10_of m outs c r h10))).symm

/-! ## The relational proof data and the last region's record -/

local notation "𝕄" => MT nD τ sig Unit (Elt F) ℕ (UR sig nD τ) ℕ

/-- The buffers as the last region finds them. -/
abbrev V9' : (c : Dev nD) → (b : Ref sig .tc) → Buf (Elt F) ((c : Thread nD τ).loc b) := fun c b => Gen.V9 m outs c b

/-- What rides beside the buffers: the generator register at some state, and nothing owed. -/
abbrev Rst (c : Dev nD) : sProp 𝕄 :=
  iprop((∃ r, prngReg c r) ∗ ∃ W, owes (c : Thread nD τ) (0 : CellTallies nD τ sig Unit) W)

variable (a : (p : Fin 4) → (pcfgs (F := F) p).Adm)
  (d0 : (c : Dev nD) → Dat τ (Elt F) Unit ℕ (UR sig nD τ) ℕ (Pipeline.pin (pcfgs (F := F)) a 0) c)
  (d1 : (c : Dev nD) → Dat τ (Elt F) Unit ℕ (UR sig nD τ) ℕ (Pipeline.pin (pcfgs (F := F)) a 1) c)
  (d2 : (c : Dev nD) → Dat τ (Elt F) Unit ℕ (UR sig nD τ) ℕ (Pipeline.pin (pcfgs (F := F)) a 2) c)

/-- Every pipeline's proof data read relationally: the first three regions' exact data as they are, the last region's
    with its output window forgotten. A literal `match`, so that the family at a numeral reduces. -/
def rdatsR : (p : Fin 4) → (c : Dev nD) → RDat τ (Elt F) Unit ℕ (UR sig nD τ) ℕ (Pipeline.pin (pcfgs (F := F)) a p) c
  | ⟨0, _⟩ => fun c => (d0 c).toR
  | ⟨1, _⟩ => fun c => (d1 c).toR
  | ⟨2, _⟩ => fun c => (d2 c).toR
  | ⟨3, _⟩ => fun c => (dat3 (V9' m outs) c).toRForget fgt3

/-- The arrays at some contents they may hold, opened: one choice of contents for all of them. -/
theorem arraysAt_open {cfg : Pipeline.Cfg sig Λ₀} {c : Dev nD} (rd : RDat τ (Elt F) Unit ℕ (UR sig nD τ) ℕ cfg c) (n : Nat) :
    (rd.arraysAt n : sProp 𝕄) ⊢ iprop(∃ A, ⌜∀ w, rd.ArrAt w n (A w)⌝ ∗ rd.arrays A) := by
  unfold RDat.arraysAt RDat.arrays
  iintro Ha
  ihave Ha' := (BI.bigSep_exists_pi Finset.univ (fun w G => iprop(⌜rd.ArrAt w n G⌝
      ∗ (cfg.win w).arr.view.loc (c.tc : Thread nD τ) ↦[(cfg.win w).arr.view.set]{rd.share w} G))) $$ Ha
  icases Ha' with ⟨%A, Ha⟩
  ihave Ha2 := (BI.bigSep_pure_sep Finset.univ (fun w => rd.ArrAt w n (A w))
      (fun w => (cfg.win w).arr.view.loc (c.tc : Thread nD τ) ↦[(cfg.win w).arr.view.set]{rd.share w} A w)) $$ Ha
  icases Ha2 with ⟨%hA', Ha⟩
  iexists A; isplitr; · ipureintro; exact fun w => hA' w (Finset.mem_univ w)
  iexact Ha

/-- A pipeline's arrays at contents `A` and the unscoped rest at `V` are the core's unscoped buffers at any valuation
    that has the arrays at `A` and agrees with `V` off them (relational proof data). -/
theorem unscopedBufs_of_arraysR (rdats : (p : Fin 4) → (c : Dev nD) → RDat τ (Elt F) Unit ℕ (UR sig nD τ) ℕ (Pipeline.pin (pcfgs (F := F)) a p) c)
    {p : Fin 4} (hw : Pipeline.WinFacts (Pipeline.pin (pcfgs (F := F)) a p).spec) (harr : ∀ w, ((Pipeline.pin (pcfgs (F := F)) a p).spec w).arr.IsWhole)
    (c : Dev nD) (hshare : ∀ w, (rdats p c).share w = fullShare)
    (V V' : (b : Ref sig .tc) → Buf (Elt F) ((c.tc : Thread nD τ).loc b))
    (A : (w : Fin (Pipeline.pin (pcfgs (F := F)) a p).W) → Buf (Elt F) (((Pipeline.pin (pcfgs (F := F)) a p).spec w).arr.view.loc (c.tc : Thread nD τ)))
    (hF : ∀ w, A w = V' (Pipeline.arrRef (Pipeline.pin (pcfgs (F := F)) a p).spec w))
    (hrest : ∀ b, b ∉ Finset.univ.image (Pipeline.arrRef (Pipeline.pin (pcfgs (F := F)) a p).spec) → V' b = V b) :
    iprop((rdats p c).arrays A ∗ Pipeline.unscopedRest (Pipeline.pin (pcfgs (F := F)) a p).spec c V) ⊢ (unscopedBufs c V' : sProp 𝕄) := by
  rw [Pipeline.unscopedBufs_split (Pipeline.pin (pcfgs (F := F)) a) p hw.arr_unscoped hw.arr_inj c V', Pipeline.RDat.arrays_eq (pcfgs (F := F)) a rdats p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-- The last region's output array, read back off the update that names its contents. -/
theorem W10_self (c : Dev nD) (o : Buf (Elt F) ((c : Thread nD τ).loc main_v70)) :
    o = W10 m outs c o (Pipeline.arrRef spec3 3) := by
  show o = Function.update (Gen.V9 m outs c) (Proc.devRef .tc main_v70) o (Proc.devRef .tc main_v70)
  rw [Function.update_self]

/-- Each of the last region's arrays, at contents `A` of which the inputs' are the entry contents, is what the
    valuation with the output array at `A 3` holds there. -/
theorem hF_3R (c : Dev nD) (A : (w : Fin 4) → Buf (Elt F) ((cfg3.win w).arr.view.loc (c.tc : Thread nD τ)))
    (hin : ∀ w : Fin 4, (cfg3.win w).isOut = false → A w = V9' m outs c (Pipeline.arrRef spec3 w)) :
    ∀ w : Fin 4, A w = W10 m outs c (A 3) (Pipeline.arrRef spec3 w) := fun
  | 0 => (hin 0 rfl).trans (W10_of m outs c (A 3) _ (by decide)).symm
  | 1 => (hin 1 rfl).trans (W10_of m outs c (A 3) _ (by decide)).symm
  | 2 => (hin 2 rfl).trans (W10_of m outs c (A 3) _ (by decide)).symm
  | 3 => W10_self m outs c (A 3)
  | ⟨_ + 4, h⟩ => absurd h (Nat.not_lt.2 (Nat.le_add_left _ _))

/-- Off the last region's arrays that valuation is the entry contents. -/
theorem hrest_3R (c : Dev nD) (o : Buf (Elt F) ((c : Thread nD τ).loc main_v70)) :
    ∀ b, b ∉ Finset.univ.image (Pipeline.arrRef spec3) → W10 m outs c o b = V9' m outs c b :=
  fun b hb => W10_of m outs c o b fun hmem => hb (by
    rw [List.mem_singleton] at hmem; subst hmem
    exact Finset.mem_image.mpr ⟨3, Finset.mem_univ _, rfl⟩)

set_option backward.isDefEq.respectTransparency.types false in
/-- So the arrays at `A` and the unscoped rest as entered are the core's unscoped buffers at that valuation. -/
theorem join_3R (c : Dev nD) (A : (w : Fin 4) → Buf (Elt F) ((cfg3.win w).arr.view.loc (c.tc : Thread nD τ)))
    (hin : ∀ w : Fin 4, (cfg3.win w).isOut = false → A w = V9' m outs c (Pipeline.arrRef spec3 w)) :
    iprop((rdatsR m outs a d0 d1 d2 3 c).arrays A ∗ Pipeline.unscopedRest spec3 c (V9' m outs c))
      ⊢ (unscopedBufs c (fun b => W10 m outs c (A 3) b) : sProp 𝕄) :=
  unscopedBufs_of_arraysR a (rdatsR m outs a d0 d1 d2) (p := 3) (launch3 (F := F)).win (launch3 (F := F)).arr_whole c
    ((rdatsR m outs a d0 d1 d2 3 c).share_full fun _ => rfl)
    (V9' m outs c) (fun b => W10 m outs c (A 3) b) A (hF_3R m outs c A hin) (hrest_3R m outs c (A 3))

set_option backward.isDefEq.respectTransparency.types false in
/-- THE EXIT of the last region: its arrays at some contents they may hold after the last write-back — the inputs',
    never written, at the entry contents; the output's at some `o` — with the unscoped rest, the generator register
    and the core's `owes` make the thread state after the region, at that `o`. -/
theorem hexit_3R (c : Dev nD) :
    iprop((rdatsR m outs a d0 d1 d2 3 c).arraysAt cfg3.N ∗ (rdatsR m outs a d0 d1 d2 3 c).owesAt () (Fin.last cfg3.N)
        ∗ (∃ r, prngReg c r) ∗ Pipeline.unscopedRest (Ix := Unit) (Name := ℕ) (U := UR sig nD τ) (Lvl := ℕ) spec3 c (V9' m outs c))
      ⊢ (|={Set.univ}=> iprop(∃ o : Buf (Elt F) ((c : Thread nD τ).loc main_v70),
          StableHlo.held (c : Thread nD τ) (Pipeline.ucRefs τ sig) (W10 m outs c o) ∗ Rst c) : sProp 𝕄) := by
  iintro ⟨Ha, HO, HY, Hrest⟩
  ihave Ha' := (arraysAt_open (rdatsR m outs a d0 d1 d2 3 c) cfg3.N) $$ Ha
  icases Ha' with ⟨%A, %hA, Ha⟩
  have hin : ∀ w : Fin 4, (cfg3.win w).isOut = false → A w = V9' m outs c (Pipeline.arrRef spec3 w) := fun w hw => by
    have h := hA w
    rw [(rdatsR m outs a d0 d1 d2 3 c).ArrAt_in w hw] at h
    exact h
  have hjoin := join_3R m outs a d0 d1 d2 c A hin
  rw [Pipeline.unscopedBufs_held] at hjoin
  imodintro
  iexists (A (3 : Fin 4))
  isplitl [Ha Hrest]
  · iapply hjoin; isplitl [Ha] <;> iassumption
  isplitl [HY]; · iexact HY
  unfold Pipeline.RDat.owesAt Pipeline.owesWithin
  icases HO with ⟨%W, -, HO⟩; iexists W; iexact HO

set_option backward.isDefEq.respectTransparency.types false in
/-- THE LAST REGION over the thread state: entered from every unscoped buffer at `V9`, left with its three input arrays
    as they were and its output array at SOME contents. -/
def reg3R : Pipeline.RDat.RegionSeg (pcfgs (F := F)) a (rdatsR m outs a d0 d1 d2) () defs₀ Variants.none (fun _ => ∅) (fun _ _ => 0) 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3_fgt (V9' m outs) c).toRForget
  hwaits := Pipeline.RDat.hwaits_of_owed_zero _ _ _ _ (fun _ => ∅) (fun _ _ => 0) 3 fun _ _ => rfl
  pre c := iprop(StableHlo.held (c : Thread nD τ) (Pipeline.ucRefs τ sig) (Gen.V9 m outs c) ∗ Rst c)
  post c := iprop(∃ o : Buf (Elt F) ((c : Thread nD τ).loc main_v70), StableHlo.held (c : Thread nD τ) (Pipeline.ucRefs τ sig) (W10 m outs c o) ∗ Rst c)
  X c := iprop(∃ r, prngReg c r)
  Y c := iprop(∃ r, prngReg c r)
  Z c := Pipeline.unscopedRest (Ix := Unit) (Name := ℕ) (U := UR sig nD τ) (Lvl := ℕ) spec3 c (V9' m outs c)
  hentry c := by
    rw [Pipeline.ownSems0_none]
    have hsplit := Pipeline.RDat.arrays_of_unscopedBufs (p := 3) (pcfgs (F := F)) a (rdatsR m outs a d0 d1 d2) (launch3 (F := F)).win (launch3 (F := F)).arr_whole c
      ((rdatsR m outs a d0 d1 d2 3 c).share_full fun _ => rfl) (V9' m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdatsR m outs a d0 d1 d2 3 c).Φ 0 = Pipeline.ΦA spec3 c from rfl]; unfold Pipeline.ΦA
    iintro ⟨Hp, -, Hr⟩
    isplitl [Hr]; · iexact Hr
    iexact Hp
  hout c := by
    rw [Pipeline.ownSems0_none, show (rdatsR m outs a d0 d1 d2 3 c).Φ (Fin.last _) = Pipeline.ΦA spec3 c from rfl]; unfold Pipeline.ΦA
    iintro ⟨Hr, Hp⟩
    isplitl [Hp]; · iexact Hp
    isplitr; · iempintro
    iexact Hr
  hexit c := hexit_3R m outs a d0 d1 d2 c

end Cert.Kernel.Hand

end
-- ==== Proof.K.Reg0.lean ====
/- REGION 0 of @main: custom_call 0, `cc0__embed_kernel`, a pipeline over a grid of one point with ONE PREFETCHED
   TABLE (the clipped word, one i32) and two windows: window 0 the block (1,8,128) of the embedding table viewed as
   [50257,8,128] at the block index the table's word names, window 1 the output [1,8,128], written back.
   Everything is stated at a PARAMETER `V` (the TensorCore's buffer contents when the region is entered) and at
   ADMISSIBLE contents `a0` of the prefetched table (contents with the pipeline's side condition: the block the word
   names lies inside the array), for any float interpretation `F`.
   The body loads window 0's block x, loads its own output window (the value is not used), and stores
   max(x, 0) over the whole output window; it never touches the table. So after the body the output window holds
   `out0_1 x`, and the table rides through the region inside the invariant, whole. -/
import proofs.«408709_j86328842650330_3_alg».proof.Proof.Gen.Kernel.Launch
import proofs.«408709_j86328842650330_3_alg».proof.Proof.Gen.Kernel.Skeleton
import proofs.«408709_j86328842650330_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))
variable (a0 : (pcfg0 (F := F)).Adm)

/-! ## The windows' blocks -/

/-- Window `w`'s block at point `t`, read off its array as the region finds it (`V`); window 0's block index is a
    function of the table's word (`a0`). -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-! ## The staging memrefs and the body at a point -/

/-- Each window's current staging memref at point `t`. -/
abbrev st0_0 (t : Fin (cfg0 a0).N) : Memref sig .tc .vmem S1x8x128 .f32 := spec0_0.stage ((cfg0 a0).slots t 0)
abbrev hst0_0 (t : Fin (cfg0 a0).N) : (st0_0 a0 t).IsWhole := hstage0_0 (((cfg0 a0).slots t 0).cast nbuf0_0)
abbrev st0_1 (t : Fin (cfg0 a0).N) : Memref sig .tc .vmem S1x8x128 .f32 := spec0_1.stage ((cfg0 a0).slots t 1)
abbrev hst0_1 (t : Fin (cfg0 a0).N) : (st0_1 a0 t).IsWhole := hstage0_1 (((cfg0 a0).slots t 1).cast nbuf0_1)

/-- The kernel body at point `t`, on what the pipeline calls it with: the table's whole buffer and the two
    current staging memrefs. -/
abbrev bodyAt0 (t : Fin (cfg0 a0).N) : Prog (TpuEff nD τ sig (Elt F) Λ₀ .tc) PUnit :=
  cc0__embed_kernel (grid0.coords t) (Memref.whole main_v0) (Memref.isWhole_whole _) (st0_0 a0 t) (hst0_0 a0 t) (st0_1 a0 t) (hst0_1 a0 t)

/-! ## What the body leaves in the output window's buffer -/

/-- The one rectangle the body reads and writes: the whole window. -/
abbrev r0_0 : Rect S1x8x128 := Rect.unit (s := S1x8x128) ![0, 0, 0] S1x8x128.size inb_S1x8x128_S1x8x128_0_0_0

/-- Window 1's staging buffer after the body, from window 0's block `x0`: its one store, of
    max(x0, 0) (the payload `k0_pay1`) over the whole window. -/
def out0_1 (x0 : Vec F S1x8x128 .f32) : Vec F S1x8x128 .f32 :=
  View.canon [⟨r0_0, k0_pay1 (View.ld x0 r0_0)⟩]

/-- The store's rectangle is the whole window, so it covers it. -/
theorem cover0_1 (p0 : Vec F S1x8x128 .f32) (y : S1x8x128.Idx) :
    ∃ pc ∈ ([⟨r0_0, p0⟩] : List (View.Piece (Elt F) S1x8x128 .f32)), y ∈ pc.1.set :=
  View.cover_of_tiled [⟨r0_0, p0⟩] S1x8x128.size (by rfl) y

/-! ## The body's triple -/

set_option maxHeartbeats 1000000 in
/-- The body on whole staging memrefs, window 0's at read contents `x0` and window 1's at anything, runs to the
    continuation holding window 0's as it was and window 1's at `out0_1 x0`. The table's memref `arg1` is
    never accessed, so nothing is asked of it. -/
theorem sound_kernel0 (c : Dev nD) (E : Set ℕ) (i : grid0.Coords) (arg1 : Memref sig .tc .smem S1 .i32) (harg1 : arg1.IsWhole)
    (arg2 : Memref sig .tc .vmem S1x8x128 .f32) (harg2 : arg2.IsWhole) (arg3 : Memref sig .tc .vmem S1x8x128 .f32) (harg3 : arg3.IsWhole)
    (x0 : Vec F S1x8x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## Window 0's staging buffer where the body finds it -/

/-- Input window 0's current staging buffer holds its block at every point, fetched there or not, for ANY proof
    data whose array is `V`'s (`hA`) and whose body leaves the block in place (`hafter`): the window is an
    input, never idle and uncut, so what the body finds is what a fetch there puts (the library's
    `Dat.before_in_eq_fetched`), which is the block read off the array. -/
theorem before0_0_of {c : Dev nD} (dat : Dat τ (Elt F) Unit ℕ (UR sig nD τ) ℕ (cfg0 a0) c)
    (hA : dat.A 0 = V c (Pipeline.arrRef spec0 0)) (hafter : ∀ t, dat.after 0 t = iblk0 V a0 c 0 t)
    (t : Fin (cfg0 a0).N) (d) : dat.before 0 t d = iblk0 V a0 c 0 t := by
  have hkeep : ∀ t, ((cfg0 a0).win 0).cut ((cfg0 a0).grid.coords t) (dat.after 0 t) = dat.blockOf 0 t := fun t => by
    rw [hafter]; unfold Dat.blockOf iblk0; rw [hA]; rfl
  rw [dat.before_in_eq_fetched 0 rfl (fun _ => rfl) (fun _ _ _ => rfl) hkeep t d]
  unfold Dat.fetched Dat.blockOf iblk0; rw [hA]; rfl

/-! ## The pipeline's proof data -/

/-- The proof data of pipeline 0 on core `c`, at the table's contents `a0`: the arrays as the region finds them
    (`V`); after the body at point `t` window 0's buffer at its block and window 1's at `out0_1` of that block; the
    invariant, the same at every point: the scoped rest and the generator register (`ΦA`) and the prefetched
    table held WHOLE at the contents `a0` (the body never reads it; the region hands it in whole and must hand it
    back whole); nothing owed; full shares. -/
def dat0 (c : Dev nD) : Dat τ (Elt F) Unit ℕ (UR sig nD τ) ℕ (cfg0 a0) c where
  A w := V c (Pipeline.arrRef spec0 w)
  after w t := match w with
    | ⟨0, _⟩ => iblk0 V a0 c 0 t
    | ⟨1, _⟩ => out0_1 (iblk0 V a0 c 0 t)
  Φ _ := iprop(Pipeline.ΦA spec0 c ∗ Pipeline.prefHeld pre0 c (fun _ => fullShare) a0.1)
  q _ := fullShare
  owed _ := 0

/-- The proof data's arrays are the region-entry contents. -/
theorem A_eq0 (c : Dev nD) (w : Fin (cfg0 a0).W) : (dat0 V a0 c).A w = V c (Pipeline.arrRef spec0 w) := by
  dsimp only [dat0]

/-- What the body leaves, window by window. -/
theorem after0_0 (c : Dev nD) (t : Fin (cfg0 a0).N) : (dat0 V a0 c).after 0 t = iblk0 V a0 c 0 t := by dsimp only [dat0]; try rfl
theorem after0_1 (c : Dev nD) (t : Fin (cfg0 a0).N) : (dat0 V a0 c).after 1 t = out0_1 (iblk0 V a0 c 0 t) := by dsimp only [dat0]; try rfl

/-- Window 0's current staging buffer holds its block at every point. -/
theorem before0_0 (c : Dev nD) (t : Fin (cfg0 a0).N) (d) : (dat0 V a0 c).before 0 t d = iblk0 V a0 c 0 t :=
  before0_0_of V a0 (dat0 V a0 c) (A_eq0 V a0 c 0) (after0_0 V a0 c) t d

/-- The invariant at every point, spelled out. -/
theorem Phi0_eq (c : Dev nD) (j : Fin ((cfg0 a0).N + 1)) :
    (dat0 V a0 c).Φ j = iprop(Pipeline.ΦA spec0 c ∗ Pipeline.prefHeld pre0 c (fun _ => fullShare) a0.1) := rfl

/-- The invariant at the first point from the class invariant and the table held whole, -/
theorem Phi0_in (c : Dev nD) :
    iprop(Pipeline.ΦA spec0 c ∗ Pipeline.prefHeld (pcfg0 (F := F)).pre c (fun _ => fullShare) a0.1) ⊢ (dat0 V a0 c).Φ 0 := by
  rw [Phi0_eq]

/-- and the same two back from the invariant at the last point. -/
theorem Phi0_out (c : Dev nD) :
    (dat0 V a0 c).Φ (Fin.last (cfg0 a0).N) ⊢ iprop(Pipeline.ΦA spec0 c ∗ Pipeline.prefHeld (pcfg0 (F := F)).pre c (fun _ => fullShare) a0.1) := by
  rw [Phi0_eq]

/-! ## The body obligation, at a generic point -/

/-- What the body is called with at point `t`, the windows one by one, -/
def bodyPre0 (c : Dev nD) (t : Fin (cfg0 a0).N) : sProp 𝕄 :=
  iprop((dat0 V a0 c).Φ t.castSucc ∗ (dat0 V a0 c).owesAt () t.castSucc
    ∗ (∃ d, owns (c : Thread nD τ) (st0_0 a0 t) fullShare ((dat0 V a0 c).before 0 t d))
    ∗ (∃ d, owns (c : Thread nD τ) (st0_1 a0 t) fullShare ((dat0 V a0 c).before 1 t d)))

/-- and what it returns. -/
def bodyPost0 (c : Dev nD) (t : Fin (cfg0 a0).N) : sProp 𝕄 :=
  iprop((dat0 V a0 c).Φ t.succ ∗ (dat0 V a0 c).owesAt () t.succ
    ∗ owns (c : Thread nD τ) (st0_0 a0 t) fullShare ((dat0 V a0 c).after 0 t)
    ∗ owns (c : Thread nD τ) (st0_1 a0 t) fullShare ((dat0 V a0 c).after 1 t))

/-- The body at any point: window 0's memref holds its block (`before0_0`), so `sound_kernel0` applies; the
    invariant (the table in it) and the core's `owes` pass through unread. -/
theorem sound_body0 (c : Dev nD) (t : Fin (cfg0 a0).N) :
    bodyPre0 V a0 c t ⊢ wp frame (wpE (defs₀ (F := F)) Variants.none c none) Set.univ (bodyAt0 a0 t) (fun _ => bodyPost0 V a0 c t) := by
  unfold bodyPre0 bodyPost0 bodyAt0
  simp only [before0_0]
  rw [show (dat0 V a0 c).Φ t.succ = (dat0 V a0 c).Φ t.castSucc from rfl,
    show (dat0 V a0 c).owesAt () t.succ = (dat0 V a0 c).owesAt () t.castSucc from rfl,
    after0_0, after0_1]
  iintro ⟨HΦ, Ho, ⟨%d0, H0⟩, ⟨%d1, H1⟩⟩
  iapply (sound_kernel0 c Set.univ _ _ _ _ _ _ _ (iblk0 V a0 c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) :
    BodyObligation (dat0 (F := F) V a0 c) (defs₀ (F := F)) Variants.none () Set.univ := fun t => by
  rw [bigSep_W0, bigSep_W0]
  exact sound_body0 V a0 c t

/-! ## The output window's contents read pointwise -/

/-- The offsets of the one rectangle are zero. -/
theorem r0_0_off : (![0, 0, 0] : Fin S1x8x128.rank → Nat) = fun _ => 0 := by
  funext a; fin_cases a <;> rfl

/-- The one store is of the whole window at zero offsets and the load before it reads the whole block, so what
    the body leaves in the output window is the payload itself: max(x0, 0), element by element. -/
theorem out0_1_eq (x0 : Vec F S1x8x128 .f32) : out0_1 x0 = k0_pay1 x0 := by
  unfold out0_1
  rw [View.canon_unit_zero r0_0_off, View.ld_unit_zero r0_0_off]

/-! ## The invariant at the region's two ends -/

/-- ENTRY: the generator register, the prefetched table held whole at `a0` and the scoped buffers no window
    stages make the invariant at the first point. -/
theorem hin0 (c : Dev nD) :
    iprop((∃ r, prngReg c r) ∗ Pipeline.prefHeld (pcfg0 (F := F)).pre c (fun _ => fullShare) a0.1
        ∗ Pipeline.scopedRest (cfg0 a0).spec c) ⊢ (dat0 V a0 c).Φ 0 := by
  rw [Phi0_eq]; unfold Pipeline.ΦA
  iintro ⟨Hp, Ht, Hr⟩
  isplitl [Hr Hp]
  · isplitl [Hr]; · iexact Hr
    iexact Hp
  iexact Ht

/-- EXIT: the invariant at the last point gives back the generator register and the table, whole, the kernel's
    own semaphores (it has none) and those scoped buffers. -/
theorem hout0 (c : Dev nD) :
    (dat0 V a0 c).Φ (Fin.last (cfg0 a0).N) ⊢ iprop(iprop((∃ r, prngReg c r) ∗ Pipeline.prefHeld (pcfg0 (F := F)).pre c (fun _ => fullShare) a0.1)
        ∗ Pipeline.ownSems0 (fun k : PEmpty => k.elim) c ∗ Pipeline.scopedRest (cfg0 a0).spec c) := by
  rw [Phi0_eq, Pipeline.ownSems0_none]; unfold Pipeline.ΦA
  iintro ⟨⟨Hr, Hp⟩, Ht⟩
  isplitl [Hp Ht]
  · isplitl [Hp]; · iexact Hp
    iexact Ht
  isplitr; · iempintro
  iexact Hr

end Region0

end Cert.Kernel.Hand

end
-- ==== Proof.K.Reg1.lean ====
import proofs.«408709_j86328842650330_3_alg».proof.Proof.Gen.Kernel.Launch
import proofs.«408709_j86328842650330_3_alg».proof.Proof.Gen.Kernel.Skeleton
import proofs.«408709_j86328842650330_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: the gate pipeline (seven windows over a grid of four points)

At each point the body reads its six input blocks whole (the two row vectors, the two weight blocks, the two bias
blocks), reads the output block (a value it never uses) and stores ONE value over the whole output block: the
two matrix products of the rounded operands plus the two biases. Everything is stated at any float
interpretation, over the buffer contents the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! An input window holds its block at every point, whether it was fetched there or not: where it was not, its
block index has not moved since the point before (the two row vectors are fetched once, at the first point). This
holds for any proof data over the entry contents whose body leaves the input blocks in place. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := by
    intro t; rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := by
    intro t; rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := by
    intro t; rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := by
    intro t; rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hkeep : ∀ t, (cfg1.win 4).cut (cfg1.grid.coords t) (dat.after 4 t) = dat.blockOf 4 t := by
    intro t; rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

theorem before1_5_of {c : Dev nD} (dat : Dat τ (Elt F) Unit ℕ (UR sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  have hkeep : ∀ t, (cfg1.win 5).cut (cfg1.grid.coords t) (dat.after 5 t) = dat.blockOf 5 t := by
    intro t; rw [hafter]; unfold Dat.blockOf iblk1; rw [hA]; try rfl
  rw [dat.before_in_eq_fetched 5 rfl (fun _ => rfl) (fun _ _ _ => rfl) hkeep t d]
  unfold Dat.fetched Dat.blockOf iblk1; rw [hA]; try rfl

/-! ## The body's accesses: every load and the store go through the whole buffer -/

abbrev r1_0 : Rect S1x1024 := Rect.unit (s := S1x1024) ![0, 0] S1x1024.size inb_S1x1024_S1x1024_0_0
abbrev r1_1 : Rect S1024x1024 := Rect.unit (s := S1024x1024) ![0, 0] S1024x1024.size inb_S1024x1024_S1024x1024_0_0
abbrev r1_2 : Rect S1024 := Rect.unit (s := S1024) ![0] S1024.size inb_S1024_S1024_0

/-! ## What the body leaves in the output window's buffer -/

/-- The output buffer after the body, from the six input blocks: its one store, whose value is the kernel's
    payload of the six loads. -/
def out1_6 (x0 x1 : Vec F S1x1024 .f32) (x2 x3 : Vec F S1024x1024 .f32) (x4 x5 : Vec F S1024 .f32) : Vec F S1x1024 .f32 :=
  View.canon [⟨r1_0, k1_pay1 (View.ld x0 r1_0) (View.ld x1 r1_0) (View.ld x2 r1_1) (View.ld x3 r1_1) (View.ld x4 r1_2) (View.ld x5 r1_2)⟩]

/-- Loads through the whole buffer read the contents and the one whole store leaves its value: the output buffer
    is the payload of the six input blocks themselves. -/
theorem out1_6_eq (x0 x1 : Vec F S1x1024 .f32) (x2 x3 : Vec F S1024x1024 .f32) (x4 x5 : Vec F S1024 .f32) :
    out1_6 x0 x1 x2 x3 x4 x5 = k1_pay1 x0 x1 x2 x3 x4 x5 := by
  unfold out1_6
  rw [View.canon_unit_zero (by funext a; fin_cases a <;> rfl)]
  rw [View.ld_unit_zero (by funext a; fin_cases a <;> rfl) inb_S1x1024_S1x1024_0_0 x0,
    View.ld_unit_zero (by funext a; fin_cases a <;> rfl) inb_S1x1024_S1x1024_0_0 x1,
    View.ld_unit_zero (by funext a; fin_cases a <;> rfl) inb_S1024x1024_S1024x1024_0_0 x2,
    View.ld_unit_zero (by funext a; fin_cases a <;> rfl) inb_S1024x1024_S1024x1024_0_0 x3,
    View.ld_unit_zero (by funext a; fin_cases a <;> rfl) inb_S1024_S1024_0 x4,
    View.ld_unit_zero (by funext a; fin_cases a <;> rfl) inb_S1024_S1024_0 x5]

/-- The one store covers the output buffer. -/
theorem cover1_6 (p0 : Vec F S1x1024 .f32) (y : S1x1024.Idx) :
    ∃ pc ∈ ([⟨r1_0, p0⟩] : List (View.Piece (Elt F) S1x1024 .f32)), y ∈ pc.1.set :=
  ⟨_, List.mem_singleton_self _, View.mem_set_unit_zero (by funext a; fin_cases a <;> rfl) inb_S1x1024_S1x1024_0_0 y⟩

/-! ## The body's triple -/

set_option maxHeartbeats 1000000 in
/-- The body on whole staging buffers, the six inputs' at contents `x0 … x5` and the output's at anything, runs to
    the continuation with the inputs' as they were and the output's at `out1_6` of them. The output buffer is read
    once before it is written; nothing depends on what was read. -/
theorem sound_kernel1 (c : Dev nD) (E : Set ℕ) (i : grid1.Coords)
    (arg1 : Memref sig .tc .vmem S1x1024 .f32) (harg1 : arg1.IsWhole)
    (arg2 : Memref sig .tc .vmem S1x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024 .f32) (harg5 : arg5.IsWhole)
    (arg6 : Memref sig .tc .vmem S1024 .f32) (harg6 : arg6.IsWhole)
    (arg7 : Memref sig .tc .vmem S1x1024 .f32) (harg7 : arg7.IsWhole)
    (x0 x1 : Vec F S1x1024 .f32) (x2 x3 : Vec F S1024x1024 .f32) (x4 x5 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gate_kernel i arg1 harg1 arg2 harg2 arg3 harg3 arg4 harg4 arg5 harg5 arg6 harg6 arg7 harg7) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays at the entry contents; after the body at point `t` each
    input's buffer at its block and the output's at `out1_6` of the six input blocks; the invariant that leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at any point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«408709_j86328842650330_3_alg».proof.Proof.Gen.Kernel.Launch
import proofs.«408709_j86328842650330_3_alg».proof.Proof.Gen.Kernel.Skeleton
import proofs.«408709_j86328842650330_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: the gate pipeline (seven windows over a grid of four points)

At each point the body reads its six input blocks whole (the two row vectors, the two weight blocks, the two bias
blocks), reads the output block (a value it never uses) and stores ONE value over the whole output block: the
two matrix products of the rounded operands plus the two biases. Everything is stated at any float
interpretation, over the buffer contents the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window `w`'s block at point `t`, read off its array at the entry contents. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! An input window holds its block at every point, whether it was fetched there or not: where it was not, its
block index has not moved since the point before (the two row vectors are fetched once, at the first point). This
holds for any proof data over the entry contents whose body leaves the input blocks in place. -/

theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  have hkeep : ∀ t, (cfg2.win 0).cut (cfg2.grid.coords t) (dat.after 0 t) = dat.blockOf 0 t := by
    intro t; rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  have hkeep : ∀ t, (cfg2.win 1).cut (cfg2.grid.coords t) (dat.after 1 t) = dat.blockOf 1 t := by
    intro t; rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  have hkeep : ∀ t, (cfg2.win 2).cut (cfg2.grid.coords t) (dat.after 2 t) = dat.blockOf 2 t := by
    intro t; rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

theorem before2_3_of {c : Dev nD} (dat : Dat τ (Elt F) Unit ℕ (UR sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  have hkeep : ∀ t, (cfg2.win 3).cut (cfg2.grid.coords t) (dat.after 3 t) = dat.blockOf 3 t := by
    intro t; rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

theorem before2_4_of {c : Dev nD} (dat : Dat τ (Elt F) Unit ℕ (UR sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  have hkeep : ∀ t, (cfg2.win 4).cut (cfg2.grid.coords t) (dat.after 4 t) = dat.blockOf 4 t := by
    intro t; rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

theorem before2_5_of {c : Dev nD} (dat : Dat τ (Elt F) Unit ℕ (UR sig nD τ) ℕ cfg2 c)
    (hA : dat.A 5 = V c (Pipeline.arrRef spec2 5)) (hafter : ∀ t, dat.after 5 t = iblk2 V c 5 t)
    (t : Fin cfg2.N) (d) : dat.before 5 t d = iblk2 V c 5 t := by
  have hkeep : ∀ t, (cfg2.win 5).cut (cfg2.grid.coords t) (dat.after 5 t) = dat.blockOf 5 t := by
    intro t; rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl

/-! ## The body's accesses: every load and the store go through the whole buffer -/

abbrev r2_0 : Rect S1x1024 := Rect.unit (s := S1x1024) ![0, 0] S1x1024.size inb_S1x1024_S1x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0

/-! ## What the body leaves in the output window's buffer -/

/-- The output buffer after the body, from the six input blocks: its one store, whose value is the kernel's
    payload of the six loads. -/
def out2_6 (x0 x1 : Vec F S1x1024 .f32) (x2 x3 : Vec F S1024x1024 .f32) (x4 x5 : Vec F S1024 .f32) : Vec F S1x1024 .f32 :=
  View.canon [⟨r2_0, k2_pay1 (View.ld x0 r2_0) (View.ld x1 r2_0) (View.ld x2 r2_1) (View.ld x3 r2_1) (View.ld x4 r2_2) (View.ld x5 r2_2)⟩]

/-- Loads through the whole buffer read the contents and the one whole store leaves its value: the output buffer
    is the payload of the six input blocks themselves. -/
theorem out2_6_eq (x0 x1 : Vec F S1x1024 .f32) (x2 x3 : Vec F S1024x1024 .f32) (x4 x5 : Vec F S1024 .f32) :
    out2_6 x0 x1 x2 x3 x4 x5 = k2_pay1 x0 x1 x2 x3 x4 x5 := by
  unfold out2_6
  rw [View.canon_unit_zero (by funext a; fin_cases a <;> rfl)]
  rw [View.ld_unit_zero (by funext a; fin_cases a <;> rfl) inb_S1x1024_S1x1024_0_0 x0,
    View.ld_unit_zero (by funext a; fin_cases a <;> rfl) inb_S1x1024_S1x1024_0_0 x1,
    View.ld_unit_zero (by funext a; fin_cases a <;> rfl) inb_S1024x1024_S1024x1024_0_0 x2,
    View.ld_unit_zero (by funext a; fin_cases a <;> rfl) inb_S1024x1024_S1024x1024_0_0 x3,
    View.ld_unit_zero (by funext a; fin_cases a <;> rfl) inb_S1024_S1024_0 x4,
    View.ld_unit_zero (by funext a; fin_cases a <;> rfl) inb_S1024_S1024_0 x5]

/-- The one store covers the output buffer. -/
theorem cover2_6 (p0 : Vec F S1x1024 .f32) (y : S1x1024.Idx) :
    ∃ pc ∈ ([⟨r2_0, p0⟩] : List (View.Piece (Elt F) S1x1024 .f32)), y ∈ pc.1.set :=
  ⟨_, List.mem_singleton_self _, View.mem_set_unit_zero (by funext a; fin_cases a <;> rfl) inb_S1x1024_S1x1024_0_0 y⟩

/-! ## The body's triple -/

set_option maxHeartbeats 1000000 in
/-- The body on whole staging buffers, the six inputs' at contents `x0 … x5` and the output's at anything, runs to
    the continuation with the inputs' as they were and the output's at `out2_6` of them. The output buffer is read
    once before it is written; nothing depends on what was read. -/
theorem sound_kernel2 (c : Dev nD) (E : Set ℕ) (i : grid2.Coords)
    (arg1 : Memref sig .tc .vmem S1x1024 .f32) (harg1 : arg1.IsWhole)
    (arg2 : Memref sig .tc .vmem S1x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024 .f32) (harg5 : arg5.IsWhole)
    (arg6 : Memref sig .tc .vmem S1024 .f32) (harg6 : arg6.IsWhole)
    (arg7 : Memref sig .tc .vmem S1x1024 .f32) (harg7 : arg7.IsWhole)
    (x0 x1 : Vec F S1x1024 .f32) (x2 x3 : Vec F S1024x1024 .f32) (x4 x5 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gate_kernel i arg1 harg1 arg2 harg2 arg3 harg3 arg4 harg4 arg5 harg5 arg6 harg6 arg7 harg7) K := by
  simp only [cc2__gate_kernel_eq_skeleton]; unfold cc2__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the pipeline on core `c`: the arrays at the entry contents; after the body at point `t` each
    input's buffer at its block and the output's at `out2_6` of the six input blocks; the invariant that leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at any point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.K.Run.lean ====
/-
  THE RUN of the program's four kernel regions among its host stretches, at any float instance `F`.

  Between two items a core holds every unscoped buffer whole at a valuation: the launch contents, then
  `StableHlo.after` each host stretch, then, at a region, the valuation updated at the one array the region writes.
  What a region writes is its output window's array after the last write-back (`Dat.arrAt … N`), computed from the
  contents the region finds. Region k+1 finds what region k left, so the family `outs` of what the regions leave is
  built in four stages, each stage reading only what the stages before it set; `outs_4 … outs_10` state the result
  over the finished family.

  Each region is a segment record: its arrays split out of the unscoped buffers at entry and put back at the exit
  valuation. Region 0's prefetched table, which holds the clipped word, leaves the unscoped rest whole at entry, passes
  through the invariant, and returns at the exit. `run_val` launches the twelve items and reads the three results and
  the fourteen arguments off the last valuation; `frame` keeps the arguments alone.
-/
import proofs.«408709_j86328842650330_3_alg».proof.Proof.Gen.Kernel.Launch
import proofs.«408709_j86328842650330_3_alg».proof.Proof.Gen.Kernel.Skeleton
import proofs.«408709_j86328842650330_3_alg».proof.Proof.Gen.Kernel.Points
import proofs.«408709_j86328842650330_3_alg».proof.Proof.Gen.Kernel.Regions
import proofs.«408709_j86328842650330_3_alg».proof.Proof.K.Reg0
import proofs.«408709_j86328842650330_3_alg».proof.Proof.K.Reg1
import proofs.«408709_j86328842650330_3_alg».proof.Proof.K.Reg2
import proofs.«408709_j86328842650330_3_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # THE RUN of the four-region program -/

variable (m : (ℓ : Loc nD τ sig) → Buf (Elt F) ℓ) (a0 : (pcfg0 (F := F)).Adm)

/-! ## What the regions leave: the generated valuations' unknowns, chosen region by region -/

/-- A valuation read at the TensorCore's references: what a region's proof data take as the contents it finds. -/
abbrev atTc (W : Dev nD → Valuation τ sig (Elt F)) : (c : Dev nD) → (b : Ref sig .tc) → Buf (Elt F) ((c : Thread nD τ).loc b) :=
  fun c b => W c b

/-- An unknown family set at one reference. -/
abbrev setAt (o : Gen.Outs (F := F)) (r₀ : Ref sig .tc) (x : (c : Dev nD) → Buf (Elt F) ((c : Thread nD τ).loc r₀)) : Gen.Outs (F := F) :=
  fun j r c => Function.update (β := fun r => Buf (Elt F) ((c : Thread nD τ).loc r)) (fun r => o j r c) r₀ (x c) r

/-- Region 0 leaves in `main_v2` its output window's array after the last write-back. -/
def o4 (c : Dev nD) : Buf (Elt F) ((c : Thread nD τ).loc main_v2) := (dat0 (atTc (Gen.V3 m)) a0 c).arrAt 1 (cfg0 a0).N
/-- Stage one: only `main_v2` is set; every other reference reads the launch memory (never read by a valuation). -/
def outsA : Gen.Outs (F := F) := setAt (fun _ r c => m ((c : Thread nD τ).loc r)) main_v2 (o4 m a0)
/-- Region 1 leaves in `main_v6` its output window's array, computed from what it finds after region 0 and the host stretch. -/
def o6 (c : Dev nD) : Buf (Elt F) ((c : Thread nD τ).loc main_v6) := (dat1 (atTc (Gen.V5 m (outsA m a0))) c).arrAt 6 cfg1.N
/-- Stage two: `main_v6` set beside `main_v2`. -/
def outsB : Gen.Outs (F := F) := setAt (outsA m a0) main_v6 (o6 m a0)
/-- Region 2 leaves in `main_v39` its output window's array, computed from what it finds after region 1 and the host stretch. -/
def o8 (c : Dev nD) : Buf (Elt F) ((c : Thread nD τ).loc main_v39) := (dat2 (atTc (Gen.V7 m (outsB m a0))) c).arrAt 6 cfg2.N
/-- Stage three: `main_v39` set as well. -/
def outsC : Gen.Outs (F := F) := setAt (outsB m a0) main_v39 (o8 m a0)
/-- Region 3 leaves in `main_v70` its output window's array, computed from what it finds after region 2 and the host stretch. -/
def o10 (c : Dev nD) : Buf (Elt F) ((c : Thread nD τ).loc main_v70) := (dat3 (atTc (Gen.V9 m (outsC m a0))) c).arrAt 3 cfg3.N
/-- What the four regions leave. -/
def outs : Gen.Outs (F := F) := setAt (outsC m a0) main_v70 (o10 m a0)

theorem outs_4' (c : Dev nD) : outs m a0 4 main_v2 c = o4 m a0 c := by
  simp only [outs, outsC, outsB, outsA, setAt, Function.update_of_ne (show main_v2 ≠ main_v70 by decide),
    Function.update_of_ne (show main_v2 ≠ main_v39 by decide), Function.update_of_ne (show main_v2 ≠ main_v6 by decide), Function.update_self]

/-! ## The admission family and the proof data family -/

/-- The prefetched tables' admitted contents: region 0's one table at `a0`; the other pipelines have none. -/
abbrev adm : (p : Fin 4) → (pcfgs (F := F) p).Adm
  | ⟨0, _⟩ => a0
  | ⟨1, _⟩ => cfg1.toPCfg_adm
  | ⟨2, _⟩ => cfg2.toPCfg_adm
  | ⟨3, _⟩ => cfg3.toPCfg_adm

/-- Every pipeline's proof data, each at the contents its region finds: a literal `match`, so that the pipeline pinned at
    a numeral reduces to the printed configuration. -/
def pdats : (p : Fin 4) → (c : Dev nD) → Dat τ (Elt F) Unit ℕ (UR sig nD τ) ℕ (Pipeline.pin (pcfgs (F := F)) (adm a0) p) c
  | ⟨0, _⟩ => fun c => dat0 (atTc (Gen.V3 m)) a0 c
  | ⟨1, _⟩ => fun c => dat1 (atTc (Gen.V5 m (outs m a0))) c
  | ⟨2, _⟩ => fun c => dat2 (atTc (Gen.V7 m (outs m a0))) c
  | ⟨3, _⟩ => fun c => dat3 (atTc (Gen.V9 m (outs m a0))) c

/-! ### Reading the unknowns back, stage by stage -/

theorem outsA_4 (c : Dev nD) : outsA m a0 4 main_v2 c = o4 m a0 c := by
  simp only [outsA, setAt, Function.update_self]
theorem outsB_6 (c : Dev nD) : outsB m a0 6 main_v6 c = o6 m a0 c := by
  simp only [outsB, setAt, Function.update_self]
theorem outsB_4 (c : Dev nD) : outsB m a0 4 main_v2 c = o4 m a0 c := by
  simp only [outsB, outsA, setAt, Function.update_of_ne (show main_v2 ≠ main_v6 by decide), Function.update_self]
theorem outsC_8 (c : Dev nD) : outsC m a0 8 main_v39 c = o8 m a0 c := by
  simp only [outsC, setAt, Function.update_self]
theorem outsC_6 (c : Dev nD) : outsC m a0 6 main_v6 c = o6 m a0 c := by
  simp only [outsC, outsB, setAt, Function.update_of_ne (show main_v6 ≠ main_v39 by decide), Function.update_self]
theorem outsC_4 (c : Dev nD) : outsC m a0 4 main_v2 c = o4 m a0 c := by
  simp only [outsC, outsB, outsA, setAt, Function.update_of_ne (show main_v2 ≠ main_v39 by decide),
    Function.update_of_ne (show main_v2 ≠ main_v6 by decide), Function.update_self]
theorem outs_10' (c : Dev nD) : outs m a0 10 main_v70 c = o10 m a0 c := by
  simp only [outs, setAt, Function.update_self]
theorem outs_8' (c : Dev nD) : outs m a0 8 main_v39 c = o8 m a0 c := by
  simp only [outs, outsC, setAt, Function.update_of_ne (show main_v39 ≠ main_v70 by decide), Function.update_self]
theorem outs_6' (c : Dev nD) : outs m a0 6 main_v6 c = o6 m a0 c := by
  simp only [outs, outsC, outsB, setAt, Function.update_of_ne (show main_v6 ≠ main_v70 by decide),
    Function.update_of_ne (show main_v6 ≠ main_v39 by decide), Function.update_self]

/-! ### A valuation depends on the unknowns only where it reads them -/

theorem V5_congr (o o' : Gen.Outs (F := F)) (c : Dev nD) (h4 : o 4 main_v2 c = o' 4 main_v2 c) :
    Gen.V5 m o c = Gen.V5 m o' c := by
  simp only [Gen.V5, Gen.V4, h4]
theorem V7_congr (o o' : Gen.Outs (F := F)) (c : Dev nD) (h4 : o 4 main_v2 c = o' 4 main_v2 c) (h6 : o 6 main_v6 c = o' 6 main_v6 c) :
    Gen.V7 m o c = Gen.V7 m o' c := by
  simp only [Gen.V7, Gen.V6, V5_congr m o o' c h4, h6]
theorem V9_congr (o o' : Gen.Outs (F := F)) (c : Dev nD) (h4 : o 4 main_v2 c = o' 4 main_v2 c) (h6 : o 6 main_v6 c = o' 6 main_v6 c)
    (h8 : o 8 main_v39 c = o' 8 main_v39 c) : Gen.V9 m o c = Gen.V9 m o' c := by
  simp only [Gen.V9, Gen.V8, V7_congr m o o' c h4 h6, h8]

theorem E1_eq : atTc (Gen.V5 m (outs m a0)) = atTc (Gen.V5 m (outsA m a0)) :=
  funext fun c => funext fun b => congrFun (V5_congr m _ _ c ((outs_4' m a0 c).trans (outsA_4 m a0 c).symm)) b
theorem E2_eq : atTc (Gen.V7 m (outs m a0)) = atTc (Gen.V7 m (outsB m a0)) :=
  funext fun c => funext fun b => congrFun (V7_congr m _ _ c ((outs_4' m a0 c).trans (outsB_4 m a0 c).symm)
    ((outs_6' m a0 c).trans (outsB_6 m a0 c).symm)) b
theorem E3_eq : atTc (Gen.V9 m (outs m a0)) = atTc (Gen.V9 m (outsC m a0)) :=
  funext fun c => funext fun b => congrFun (V9_congr m _ _ c ((outs_4' m a0 c).trans (outsC_4 m a0 c).symm)
    ((outs_6' m a0 c).trans (outsC_6 m a0 c).symm) ((outs_8' m a0 c).trans (outsC_8 m a0 c).symm)) b

/-- What each region leaves, stated over the one family `outs`: its output window's array after the last write-back,
    the proof data taken at the contents the region finds. -/
theorem outs_4 (c : Dev nD) : outs m a0 4 main_v2 c = (dat0 (atTc (Gen.V3 m)) a0 c).arrAt 1 (cfg0 a0).N := outs_4' m a0 c
theorem outs_6 (c : Dev nD) : outs m a0 6 main_v6 c = (dat1 (atTc (Gen.V5 m (outs m a0))) c).arrAt 6 cfg1.N :=
  (outs_6' m a0 c).trans (by rw [E1_eq m a0]; rfl)
theorem outs_8 (c : Dev nD) : outs m a0 8 main_v39 c = (dat2 (atTc (Gen.V7 m (outs m a0))) c).arrAt 6 cfg2.N :=
  (outs_8' m a0 c).trans (by rw [E2_eq m a0]; rfl)
theorem outs_10 (c : Dev nD) : outs m a0 10 main_v70 c = (dat3 (atTc (Gen.V9 m (outs m a0))) c).arrAt 3 cfg3.N :=
  (outs_10' m a0 c).trans (by rw [E3_eq m a0]; rfl)

/-! ## The thread state between items -/

/-- No host loop: no variant. -/
abbrev 𝒱₀ : Variants := Variants.none
/-- No core owes another anything: no level is assigned. -/
abbrev L : GSem nD τ sig → Finset Unit := fun _ => ∅
/-- The level of a pair, were one assigned. -/
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- The same rest between any two items. -/
abbrev E : Fin 5 → Dev nD → sProp 𝕄 := fun _ => R

/-! ## The sorting at a region's two ends, once for all regions -/

/-- No table, nothing held. -/
theorem prefHeld_none (c : Dev nD) (q : Fin (Pipeline.Prefetch.none (sig := sig)).K → PosShare TreeShare)
    (v : (Pipeline.Prefetch.none (sig := sig)).Contents (Elt F)) :
    (Pipeline.prefHeld (Ix := Unit) (Name := ℕ) (U := UR sig nD τ) (Lvl := ℕ) Pipeline.Prefetch.none c q v : sProp 𝕄) = BI.emp := by
  unfold Pipeline.prefHeld; rw [Finset.univ_eq_empty, BI.bigSep_empty]

/-- A core owing nothing owes the proof data's tallies wherever those are zero, -/
theorem owesAt_of_owes {cfg : Cfg sig Λ₀} {c : Dev nD} (dat : Dat τ (Elt F) Unit ℕ (UR sig nD τ) ℕ cfg c) (j : Fin (cfg.N + 1))
    (h0 : dat.owed j = 0) (hrec : ∀ x, x ∈ dat.recorded j) :
    (iprop(∃ W, owes (c : Thread nD τ) (0 : CellTallies nD τ sig Unit) W) : sProp 𝕄) ⊢ dat.owesAt () j := by
  unfold Pipeline.Dat.owesAt Pipeline.owesWithin
  rw [h0]
  iintro ⟨%W, HO⟩
  iexists W
  isplitr; · ipureintro; exact fun x _ => Or.inl (hrec x)
  iexact HO
/-- and back. -/
theorem owes_of_owesAt {cfg : Cfg sig Λ₀} {c : Dev nD} (dat : Dat τ (Elt F) Unit ℕ (UR sig nD τ) ℕ cfg c) (j : Fin (cfg.N + 1))
    (h0 : dat.owed j = 0) :
    dat.owesAt () j ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- ENTRY: the unscoped buffers split as the arrays, the tables and the rest (`hsplit`); the core's `owes` becomes the
    proof data's; the generator register goes to the invariant. -/
theorem entry_sort (c : Dev nD) (W : Valuation τ sig (Elt F)) {A Pf O Rest : sProp 𝕄}
    (hsplit : StableHlo.held (c : Thread nD τ) (Pipeline.ucRefs τ sig) W ⊢ iprop(A ∗ Pf ∗ Rest))
    (hO : (iprop(∃ W', owes (c : Thread nD τ) (0 : CellTallies nD τ sig Unit) W') : sProp 𝕄) ⊢ O) :
    iprop(iprop(StableHlo.held (c : Thread nD τ) (Pipeline.ucRefs τ sig) W ∗ R c) ∗ Pipeline.ownSems0 (fun k : PEmpty => k.elim) c ∗ levAts L lv)
      ⊢ |={Set.univ}=> iprop(A ∗ Pf ∗ O ∗ (∃ r, prngReg c r) ∗ Rest) := by
  iintro ⟨⟨Hub, Hp, HO⟩, -, -⟩
  ihave H := hsplit $$ Hub
  icases H with ⟨Ha, Hpf, Hrest⟩
  ihave HO' := hO $$ HO
  imodintro
  isplitl [Ha]; · iexact Ha
  isplitl [Hpf]; · iexact Hpf
  isplitl [HO']; · iexact HO'
  isplitl [Hp]; · iexact Hp
  iexact Hrest

/-- EXIT: the arrays and the rest are the unscoped buffers again at the exit contents (`hjoin`); the proof data's `owes`
    is the core's; the generator register comes back. -/
theorem exit_sort (c : Dev nD) (W' : Valuation τ sig (Elt F)) {A' O' Rest : sProp 𝕄}
    (hjoin : iprop(A' ∗ Rest) ⊢ StableHlo.held (c : Thread nD τ) (Pipeline.ucRefs τ sig) W')
    (hO : O' ⊢ (iprop(∃ W, owes (c : Thread nD τ) (0 : CellTallies nD τ sig Unit) W) : sProp 𝕄)) :
    iprop(A' ∗ O' ∗ (∃ r, prngReg c r) ∗ Rest) ⊢ |={Set.univ}=> iprop(StableHlo.held (c : Thread nD τ) (Pipeline.ucRefs τ sig) W' ∗ R c) := by
  iintro ⟨Ha, HO, Hp, Hrest⟩
  ihave HO' := hO $$ HO
  imodintro
  isplitl [Ha Hrest]
  · iapply hjoin; isplitl [Ha] <;> iassumption
  isplitl [Hp]; · iexact Hp
  iexact HO'

/-- The class invariant from the generator register and the scoped rest (a table handed in beside them is let go), -/
theorem hin_A {gr W : Nat} (win : Fin W → Pipeline.WinSpec sig gr) (c : Dev nD) (Pf : sProp 𝕄) :
    iprop((∃ r, prngReg c r) ∗ Pf ∗ Pipeline.scopedRest win c) ⊢ (Pipeline.ΦA win c : sProp 𝕄) := by
  unfold Pipeline.ΦA
  iintro ⟨Hp, -, Hr⟩
  isplitl [Hr]; · iexact Hr
  iexact Hp
/-- and back. -/
theorem hout_A {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

/-! ## What a region's exit valuation holds at its output -/

theorem V4_at (o : Gen.Outs (F := F)) (c : Dev nD) : Gen.V4 m o c main_v2 = o 4 main_v2 c := by simp only [Gen.V4, Function.update_self]
theorem V6_at (o : Gen.Outs (F := F)) (c : Dev nD) : Gen.V6 m o c main_v6 = o 6 main_v6 c := by simp only [Gen.V6, Function.update_self]
theorem V8_at (o : Gen.Outs (F := F)) (c : Dev nD) : Gen.V8 m o c main_v39 = o 8 main_v39 c := by simp only [Gen.V8, Function.update_self]
theorem V10_at (o : Gen.Outs (F := F)) (c : Dev nD) : Gen.V10 m o c main_v70 = o 10 main_v70 c := by simp only [Gen.V10, Function.update_self]

/-! ## Region 0: its arrays at the exit, and the table among the unscoped rest -/

/-- Window 0's array (the embedding table) is left as found; window 1's is what region 0 leaves. -/
theorem hF0 (c : Dev nD) : ∀ w : Fin (cfg0 a0).W, (pdats m a0 0 c).arrAt w (cfg0 a0).N = atTc (Gen.V4 m (outs m a0)) c (Pipeline.arrRef spec0 w)
  | ⟨0, _⟩ => ((pdats m a0 0 c).arrAt_in 0 rfl _).trans ((A_eq0 _ a0 c 0).trans (Gen.V4_of m (outs m a0) c _ (show Pipeline.arrRef spec0 (0 : Fin 2) ∉ ([main_v2] : List (Ref sig .tc)) by decide)).symm)
  | ⟨1, _⟩ => ((V4_at m (outs m a0) c).trans (outs_4 m a0 c)).symm
  | ⟨_ + 2, h⟩ => absurd h (Nat.not_lt.2 (Nat.le_add_left _ _))
/-- Every buffer that is no array of region 0 is left as found. -/
theorem hrest0 (c : Dev nD) : ∀ b, b ∉ Finset.univ.image (Pipeline.arrRef spec0) →
    atTc (Gen.V4 m (outs m a0)) c b = atTc (Gen.V3 m) c b :=
  fun b hb => Gen.V4_of m (outs m a0) c b fun h =>
    hb (Finset.mem_image.mpr ⟨1, Finset.mem_univ _, (List.mem_singleton.mp h).symm⟩)

/-- Of the unscoped buffers that are no array of region 0, the prefetched table holds the admitted contents (`htab`:
    what the host left in it) and the others are as the host left them. -/
theorem rest0_eq (htab : ∀ (c : Dev nD) (k : Fin pre0.K), Gen.V3 m c (pre0.ref k) = a0.1 k) (c : Dev nD) :
    (Pipeline.unscopedRest (Ix := Unit) (Name := ℕ) (U := UR sig nD τ) (Lvl := ℕ) spec0 c (atTc (Gen.V3 m) c) : sProp 𝕄)
      = iprop(Pipeline.prefHeld pre0 c (fun _ => fullShare) a0.1 ∗ Pipeline.unscopedRestP pre0 spec0 c (atTc (Gen.V3 m) c)) := by
  rw [Pipeline.unscopedRest_split preFacts0 c (atTc (Gen.V3 m) c)]
  congr 2
  funext k
  exact htab c k

/-- An input window's array is left as region 1 found it, and no item in between writes it. -/
theorem hF1_in (c : Dev nD) (w : Fin cfg1.W) (hin : (cfg1.win w).isOut = false)
    (hne : Pipeline.arrRef spec1 w ∉ ([main_v6] : List (Ref sig .tc))) :
    (pdats m a0 1 c).arrAt w cfg1.N = atTc (Gen.V6 m (outs m a0)) c (Pipeline.arrRef spec1 w) :=
  ((pdats m a0 1 c).arrAt_in w hin _).trans ((A_eq1 _ c w).trans (Gen.V6_of m (outs m a0) c _ hne).symm)
/-- At region 1's exit each of its arrays holds what the pipeline leaves, -/
theorem hF1 (c : Dev nD) : ∀ w : Fin cfg1.W, (pdats m a0 1 c).arrAt w cfg1.N = atTc (Gen.V6 m (outs m a0)) c (Pipeline.arrRef spec1 w)
  | ⟨0, _⟩ => hF1_in m a0 c 0 rfl (by decide)
  | ⟨1, _⟩ => hF1_in m a0 c 1 rfl (by decide)
  | ⟨2, _⟩ => hF1_in m a0 c 2 rfl (by decide)
  | ⟨3, _⟩ => hF1_in m a0 c 3 rfl (by decide)
  | ⟨4, _⟩ => hF1_in m a0 c 4 rfl (by decide)
  | ⟨5, _⟩ => hF1_in m a0 c 5 rfl (by decide)
  | ⟨6, _⟩ => ((V6_at m (outs m a0) c).trans (outs_6 m a0 c)).symm
  | ⟨_ + 7, h⟩ => absurd h (Nat.not_lt.2 (Nat.le_add_left _ _))
/-- and every other buffer what it held at entry. -/
theorem hrest1 (c : Dev nD) : ∀ b, b ∉ Finset.univ.image (Pipeline.arrRef spec1) →
    atTc (Gen.V6 m (outs m a0)) c b = atTc (Gen.V5 m (outs m a0)) c b :=
  fun b hb => Gen.V6_of m (outs m a0) c b fun h =>
    hb (Finset.mem_image.mpr ⟨6, Finset.mem_univ _, (List.mem_singleton.mp h).symm⟩)

/-- An input window's array is left as region 2 found it, and no item in between writes it. -/
theorem hF2_in (c : Dev nD) (w : Fin cfg2.W) (hin : (cfg2.win w).isOut = false)
    (hne : Pipeline.arrRef spec2 w ∉ ([main_v39] : List (Ref sig .tc))) :
    (pdats m a0 2 c).arrAt w cfg2.N = atTc (Gen.V8 m (outs m a0)) c (Pipeline.arrRef spec2 w) :=
  ((pdats m a0 2 c).arrAt_in w hin _).trans ((A_eq2 _ c w).trans (Gen.V8_of m (outs m a0) c _ hne).symm)
/-- At region 2's exit each of its arrays holds what the pipeline leaves, -/
theorem hF2 (c : Dev nD) : ∀ w : Fin cfg2.W, (pdats m a0 2 c).arrAt w cfg2.N = atTc (Gen.V8 m (outs m a0)) c (Pipeline.arrRef spec2 w)
  | ⟨0, _⟩ => hF2_in m a0 c 0 rfl (by decide)
  | ⟨1, _⟩ => hF2_in m a0 c 1 rfl (by decide)
  | ⟨2, _⟩ => hF2_in m a0 c 2 rfl (by decide)
  | ⟨3, _⟩ => hF2_in m a0 c 3 rfl (by decide)
  | ⟨4, _⟩ => hF2_in m a0 c 4 rfl (by decide)
  | ⟨5, _⟩ => hF2_in m a0 c 5 rfl (by decide)
  | ⟨6, _⟩ => ((V8_at m (outs m a0) c).trans (outs_8 m a0 c)).symm
  | ⟨_ + 7, h⟩ => absurd h (Nat.not_lt.2 (Nat.le_add_left _ _))
/-- and every other buffer what it held at entry. -/
theorem hrest2 (c : Dev nD) : ∀ b, b ∉ Finset.univ.image (Pipeline.arrRef spec2) →
    atTc (Gen.V8 m (outs m a0)) c b = atTc (Gen.V7 m (outs m a0)) c b :=
  fun b hb => Gen.V8_of m (outs m a0) c b fun h =>
    hb (Finset.mem_image.mpr ⟨6, Finset.mem_univ _, (List.mem_singleton.mp h).symm⟩)

/-- An input window's array is left as region 3 found it, and no item in between writes it. -/
theorem hF3_in (c : Dev nD) (w : Fin cfg3.W) (hin : (cfg3.win w).isOut = false)
    (hne : Pipeline.arrRef spec3 w ∉ ([main_v70] : List (Ref sig .tc))) :
    (pdats m a0 3 c).arrAt w cfg3.N = atTc (Gen.V10 m (outs m a0)) c (Pipeline.arrRef spec3 w) :=
  ((pdats m a0 3 c).arrAt_in w hin _).trans ((A_eq3 _ c w).trans (Gen.V10_of m (outs m a0) c _ hne).symm)
/-- At region 3's exit each of its arrays holds what the pipeline leaves, -/
theorem hF3 (c : Dev nD) : ∀ w : Fin cfg3.W, (pdats m a0 3 c).arrAt w cfg3.N = atTc (Gen.V10 m (outs m a0)) c (Pipeline.arrRef spec3 w)
  | ⟨0, _⟩ => hF3_in m a0 c 0 rfl (by decide)
  | ⟨1, _⟩ => hF3_in m a0 c 1 rfl (by decide)
  | ⟨2, _⟩ => hF3_in m a0 c 2 rfl (by decide)
  | ⟨3, _⟩ => ((V10_at m (outs m a0) c).trans (outs_10 m a0 c)).symm
  | ⟨_ + 4, h⟩ => absurd h (Nat.not_lt.2 (Nat.le_add_left _ _))
/-- and every other buffer what it held at entry. -/
theorem hrest3 (c : Dev nD) : ∀ b, b ∉ Finset.univ.image (Pipeline.arrRef spec3) →
    atTc (Gen.V10 m (outs m a0)) c b = atTc (Gen.V9 m (outs m a0)) c b :=
  fun b hb => Gen.V10_of m (outs m a0) c b fun h =>
    hb (Finset.mem_image.mpr ⟨3, Finset.mem_univ _, (List.mem_singleton.mp h).symm⟩)

/-! ## The regions as segments -/

set_option backward.isDefEq.respectTransparency.types false in
/-- REGION 0 over the thread state: entered from every unscoped buffer at `Gen.V3`, left at `Gen.V4`. Besides its arrays
    the prefetched table comes out of the unscoped buffers at entry, whole, passes through the invariant, and goes back
    among them at the exit. -/
def reg0 (htab : ∀ (c : Dev nD) (k : Fin pre0.K), Gen.V3 m c (pre0.ref k) = a0.1 k) : Pipeline.RegionSeg (pcfgs (F := F)) (adm a0) (pdats m a0) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (Gen.V3 m)) a0 c).loose
  hwaits := Pipeline.hwaits_of_owed_zero _ _ _ _ L lv 0 fun _ _ => rfl
  pre c := iprop(StableHlo.held (c : Thread nD τ) (Pipeline.ucRefs τ sig) (Gen.V3 m c) ∗ E 0 c)
  post c := iprop(StableHlo.held (c : Thread nD τ) (Pipeline.ucRefs τ sig) (Gen.V4 m (outs m a0) c) ∗ E 1 c)
  X c := iprop(∃ r, prngReg c r)
  Y c := iprop((∃ r, prngReg c r) ∗ Pipeline.prefHeld (pcfg0 (F := F)).pre c (fun _ => fullShare) a0.1)
  Z c := Pipeline.unscopedRestP (Ix := Unit) (Name := ℕ) (U := UR sig nD τ) (Lvl := ℕ) pre0 spec0 c (atTc (Gen.V3 m) c)
  hentry c := by
    have hs := Pipeline.arrays_of_unscopedBufs (p := 0) (pcfgs (F := F)) (adm a0) (pdats m a0) (launch0 (F := F)).win (launch0 (F := F)).arr_whole c
      ((pdats m a0 0 c).share_full fun _ => rfl) (atTc (Gen.V3 m) c) fun _ => rfl
    rw [Pipeline.unscopedBufs_held] at hs
    refine entry_sort c _ ?_ (owesAt_of_owes (pdats m a0 0 c) 0 rfl fun _ => trivial)
    iintro H
    ihave H' := hs $$ H
    icases H' with ⟨Ha, Hr⟩
    ihave Hr' := (Entails.of_eq (rest0_eq m a0 htab c)) $$ Hr
    icases Hr' with ⟨Ht, Hz⟩
    isplitl [Ha]; · iexact Ha
    isplitl [Ht]; · iexact Ht
    iexact Hz
  hin c := hin0 (atTc (Gen.V3 m)) a0 c
  hout c := hout0 (atTc (Gen.V3 m)) a0 c
  hexit c := by
    have hj := Pipeline.unscopedBufs_of_arrays (p := 0) (pcfgs (F := F)) (adm a0) (Ix := Unit) (Name := ℕ) (U := UR sig nD τ) (Lvl := ℕ)
      (launch0 (F := F)).win (launch0 (F := F)).arr_whole c (pdats m a0) ((pdats m a0 0 c).share_full fun _ => rfl)
      (atTc (Gen.V3 m) c) (atTc (Gen.V4 m (outs m a0)) c) ((pdats m a0 0 c).arrAt · (cfg0 a0).N) (hF0 m a0 c) (hrest0 m a0 c)
    rw [Pipeline.unscopedBufs_held] at hj
    iintro ⟨Ha, HO, ⟨Hp, Ht⟩, Hz⟩
    iapply (exit_sort c _ hj (owes_of_owesAt (pdats m a0 0 c) _ rfl))
    isplitl [Ha]; · iexact Ha
    isplitl [HO]; · iexact HO
    isplitl [Hp]; · iexact Hp
    iapply (Entails.of_eq (rest0_eq m a0 htab c).symm)
    isplitl [Ht]; · iexact Ht
    iexact Hz

set_option backward.isDefEq.respectTransparency.types false in
/-- REGION 1 over the thread state: entered from every unscoped buffer at `Gen.V5`, left at `Gen.V6`; its arrays
    split out of the unscoped buffers and put back at the exit contents, the generator register into the class invariant
    and out, nothing owed, no semaphore of the kernel's own. -/
def reg1 : Pipeline.RegionSeg (pcfgs (F := F)) (adm a0) (pdats m a0) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atTc (Gen.V5 m (outs m a0))) c).loose
  hwaits := Pipeline.hwaits_of_owed_zero _ _ _ _ L lv 1 fun _ _ => rfl
  pre c := iprop(StableHlo.held (c : Thread nD τ) (Pipeline.ucRefs τ sig) (Gen.V5 m (outs m a0) c) ∗ E 1 c)
  post c := iprop(StableHlo.held (c : Thread nD τ) (Pipeline.ucRefs τ sig) (Gen.V6 m (outs m a0) c) ∗ E 2 c)
  X c := iprop(∃ r, prngReg c r)
  Y c := iprop(∃ r, prngReg c r)
  Z c := Pipeline.unscopedRest (Ix := Unit) (Name := ℕ) (U := UR sig nD τ) (Lvl := ℕ) spec1 c (atTc (Gen.V5 m (outs m a0)) c)
  hentry c := by
    have hs := Pipeline.arrays_of_unscopedBufs (p := 1) (pcfgs (F := F)) (adm a0) (pdats m a0) (launch1 (F := F)).win (launch1 (F := F)).arr_whole c
      ((pdats m a0 1 c).share_full fun _ => rfl) (atTc (Gen.V5 m (outs m a0)) c) fun _ => rfl
    rw [Pipeline.unscopedBufs_held] at hs
    refine entry_sort c _ ?_ (owesAt_of_owes (pdats m a0 1 c) 0 rfl fun _ => trivial)
    iintro H
    ihave H' := hs $$ H
    icases H' with ⟨Ha, Hr⟩
    isplitl [Ha]; · iexact Ha
    isplitr; · iapply (Entails.of_eq (prefHeld_none c _ _).symm); iempintro
    iexact Hr
  hin c := hin_A spec1 c _
  hout c := hout_A spec1 c
  hexit c := by
    have hj := Pipeline.unscopedBufs_of_arrays (p := 1) (pcfgs (F := F)) (adm a0) (Ix := Unit) (Name := ℕ) (U := UR sig nD τ) (Lvl := ℕ)
      (launch1 (F := F)).win (launch1 (F := F)).arr_whole c (pdats m a0) ((pdats m a0 1 c).share_full fun _ => rfl)
      (atTc (Gen.V5 m (outs m a0)) c) (atTc (Gen.V6 m (outs m a0)) c) ((pdats m a0 1 c).arrAt · cfg1.N) (hF1 m a0 c) (hrest1 m a0 c)
    rw [Pipeline.unscopedBufs_held] at hj
    exact exit_sort c _ hj (owes_of_owesAt (pdats m a0 1 c) _ rfl)

set_option backward.isDefEq.respectTransparency.types false in
/-- REGION 2 over the thread state: entered from every unscoped buffer at `Gen.V7`, left at `Gen.V8`; its arrays
    split out of the unscoped buffers and put back at the exit contents, the generator register into the class invariant
    and out, nothing owed, no semaphore of the kernel's own. -/
def reg2 : Pipeline.RegionSeg (pcfgs (F := F)) (adm a0) (pdats m a0) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atTc (Gen.V7 m (outs m a0))) c).loose
  hwaits := Pipeline.hwaits_of_owed_zero _ _ _ _ L lv 2 fun _ _ => rfl
  pre c := iprop(StableHlo.held (c : Thread nD τ) (Pipeline.ucRefs τ sig) (Gen.V7 m (outs m a0) c) ∗ E 2 c)
  post c := iprop(StableHlo.held (c : Thread nD τ) (Pipeline.ucRefs τ sig) (Gen.V8 m (outs m a0) c) ∗ E 3 c)
  X c := iprop(∃ r, prngReg c r)
  Y c := iprop(∃ r, prngReg c r)
  Z c := Pipeline.unscopedRest (Ix := Unit) (Name := ℕ) (U := UR sig nD τ) (Lvl := ℕ) spec2 c (atTc (Gen.V7 m (outs m a0)) c)
  hentry c := by
    have hs := Pipeline.arrays_of_unscopedBufs (p := 2) (pcfgs (F := F)) (adm a0) (pdats m a0) (launch2 (F := F)).win (launch2 (F := F)).arr_whole c
      ((pdats m a0 2 c).share_full fun _ => rfl) (atTc (Gen.V7 m (outs m a0)) c) fun _ => rfl
    rw [Pipeline.unscopedBufs_held] at hs
    refine entry_sort c _ ?_ (owesAt_of_owes (pdats m a0 2 c) 0 rfl fun _ => trivial)
    iintro H
    ihave H' := hs $$ H
    icases H' with ⟨Ha, Hr⟩
    isplitl [Ha]; · iexact Ha
    isplitr; · iapply (Entails.of_eq (prefHeld_none c _ _).symm); iempintro
    iexact Hr
  hin c := hin_A spec2 c _
  hout c := hout_A spec2 c
  hexit c := by
    have hj := Pipeline.unscopedBufs_of_arrays (p := 2) (pcfgs (F := F)) (adm a0) (Ix := Unit) (Name := ℕ) (U := UR sig nD τ) (Lvl := ℕ)
      (launch2 (F := F)).win (launch2 (F := F)).arr_whole c (pdats m a0) ((pdats m a0 2 c).share_full fun _ => rfl)
      (atTc (Gen.V7 m (outs m a0)) c) (atTc (Gen.V8 m (outs m a0)) c) ((pdats m a0 2 c).arrAt · cfg2.N) (hF2 m a0 c) (hrest2 m a0 c)
    rw [Pipeline.unscopedBufs_held] at hj
    exact exit_sort c _ hj (owes_of_owesAt (pdats m a0 2 c) _ rfl)

set_option backward.isDefEq.respectTransparency.types false in
/-- REGION 3 over the thread state: entered from every unscoped buffer at `Gen.V9`, left at `Gen.V10`; its arrays
    split out of the unscoped buffers and put back at the exit contents, the generator register into the class invariant
    and out, nothing owed, no semaphore of the kernel's own. -/
def reg3 (hb3 : ∀ c : Dev nD, BodyObligationLoose (dat3 (F := F) (atTc (Gen.V9 m (outs m a0))) c) (defs₀ (F := F)) Variants.none () Set.univ) : Pipeline.RegionSeg (pcfgs (F := F)) (adm a0) (pdats m a0) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := hb3 c
  hwaits := Pipeline.hwaits_of_owed_zero _ _ _ _ L lv 3 fun _ _ => rfl
  pre c := iprop(StableHlo.held (c : Thread nD τ) (Pipeline.ucRefs τ sig) (Gen.V9 m (outs m a0) c) ∗ E 3 c)
  post c := iprop(StableHlo.held (c : Thread nD τ) (Pipeline.ucRefs τ sig) (Gen.V10 m (outs m a0) c) ∗ E 4 c)
  X c := iprop(∃ r, prngReg c r)
  Y c := iprop(∃ r, prngReg c r)
  Z c := Pipeline.unscopedRest (Ix := Unit) (Name := ℕ) (U := UR sig nD τ) (Lvl := ℕ) spec3 c (atTc (Gen.V9 m (outs m a0)) c)
  hentry c := by
    have hs := Pipeline.arrays_of_unscopedBufs (p := 3) (pcfgs (F := F)) (adm a0) (pdats m a0) (launch3 (F := F)).win (launch3 (F := F)).arr_whole c
      ((pdats m a0 3 c).share_full fun _ => rfl) (atTc (Gen.V9 m (outs m a0)) c) fun _ => rfl
    rw [Pipeline.unscopedBufs_held] at hs
    refine entry_sort c _ ?_ (owesAt_of_owes (pdats m a0 3 c) 0 rfl fun _ => trivial)
    iintro H
    ihave H' := hs $$ H
    icases H' with ⟨Ha, Hr⟩
    isplitl [Ha]; · iexact Ha
    isplitr; · iapply (Entails.of_eq (prefHeld_none c _ _).symm); iempintro
    iexact Hr
  hin c := hin_A spec3 c _
  hout c := hout_A spec3 c
  hexit c := by
    have hj := Pipeline.unscopedBufs_of_arrays (p := 3) (pcfgs (F := F)) (adm a0) (Ix := Unit) (Name := ℕ) (U := UR sig nD τ) (Lvl := ℕ)
      (launch3 (F := F)).win (launch3 (F := F)).arr_whole c (pdats m a0) ((pdats m a0 3 c).share_full fun _ => rfl)
      (atTc (Gen.V9 m (outs m a0)) c) (atTc (Gen.V10 m (outs m a0)) c) ((pdats m a0 3 c).arrAt · cfg3.N) (hF3 m a0 c) (hrest3 m a0 c)
    rw [Pipeline.unscopedBufs_held] at hj
    exact exit_sort c _ hj (owes_of_owesAt (pdats m a0 3 c) _ rfl)

/-! ## The launch -/

/-- The rest between items ends owing nothing. -/
theorem hE4 (c : Dev nD) : E (F := F) 4 c ⊢ (iprop(∃ W, owes (c : Thread nD τ) (0 : CellTallies nD τ sig Unit) W) : sProp 𝕄) := by
  iintro ⟨-, H⟩; iexact H

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory `m` with zero counters whose clipped word the table admits (`htab`), given region 3's body
    obligation at the contents it finds (`hb3`), every weakly fair execution of @main terminates, and every final memory
    holds the three results at what the last valuation says — the host stretches' `StableHlo.after` over what the four
    regions leave (`outs`) — and every argument as launched: the launch over the twelve items, each region entered from
    the thread state the item before it left, the last thread state read against the final state. -/
theorem run_val (htab : ∀ (c : Dev nD) (k : Fin pre0.K), Gen.V3 m c (pre0.ref k) = a0.1 k) (hb3 : ∀ c : Dev nD, BodyObligationLoose (dat3 (F := F) (atTc (Gen.V9 m (outs m a0))) c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_v71) = Gen.V12 m (outs m a0) c main_v71
      ∧ r.2.mem ((c.tc : Thread nD τ).loc main_v74) = Gen.V12 m (outs m a0) c main_v74
      ∧ r.2.mem ((c.tc : Thread nD τ).loc main_v77) = Gen.V12 m (outs m a0) c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) (adm a0) (pdats m a0) () (cellOf_inj (adm a0)) emb₁ defs₀ 𝒱₀ L lv m ρ main
    (Gen.segs m (outs m a0) 𝒱₀ L lv E () (adm a0) (pdats m a0) (reg0 m a0 htab) (reg1 m a0) (reg2 m a0) (reg3 m a0 hb3))
    (fun c Q => by
      rewrite [main_chain c, Pipeline.Seg.run_eq_chain,
        show (Gen.segs m (outs m a0) 𝒱₀ L lv E () (adm a0) (pdats m a0) (reg0 m a0 htab) (reg1 m a0) (reg2 m a0) (reg3 m a0 hb3) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a0)) (cellOf_inj (adm a0))) (Pipeline.launchToks (Pipeline.pin (pcfgs (F := F)) (adm a0)) (cellOf_inj (adm a0))))
    (hu₀ := by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m (outs m a0) c))
    (hch := fun c => ⟨.rfl, .rfl, .rfl, .rfl, .rfl, .rfl, .rfl, .rfl, .rfl, .rfl, .rfl, .rfl, sep_mono .rfl (hE4 c)⟩)
    (hinit := ?_)
    (QY := fun c s => s.mem ((c.tc : Thread nD τ).loc main_v71) = Gen.V12 m (outs m a0) c main_v71
      ∧ s.mem ((c.tc : Thread nD τ).loc main_v74) = Gen.V12 m (outs m a0) c main_v74
      ∧ s.mem ((c.tc : Thread nD τ).loc main_v77) = Gen.V12 m (outs m a0) c main_v77
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are held at the launch contents, the generator register and the empty dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the results and the arguments read off the last valuation
    unfold StableHlo.held
    iintro ⟨Hh, HSI⟩
    ihave Hr := (pointsTo_read_all (Pipeline.ucRefs τ sig) (fun b => ((c : Thread nD τ).1, b)) (Gen.V12 m (outs m a0) c) s') $$ [Hh HSI]
    · isplitl [Hh] <;> iassumption
    icases Hr with ⟨%h, HSI⟩
    imodintro
    isplitr
    · ipureintro
      exact ⟨h (Proc.devRef .tc main_v71) (mem_uc main_v71 (by decide)),
        h (Proc.devRef .tc main_v74) (mem_uc main_v74 (by decide)),
        h (Proc.devRef .tc main_v77) (mem_uc main_v77 (by decide)),
        (h (Proc.devRef .tc main_arg0) (mem_uc main_arg0 (by decide))).trans (Gen.V12_main_arg0 m (outs m a0) c),
        (h (Proc.devRef .tc main_arg1) (mem_uc main_arg1 (by decide))).trans (Gen.V12_main_arg1 m (outs m a0) c),
        (h (Proc.devRef .tc main_arg2) (mem_uc main_arg2 (by decide))).trans (Gen.V12_main_arg2 m (outs m a0) c),
        (h (Proc.devRef .tc main_arg3) (mem_uc main_arg3 (by decide))).trans (Gen.V12_main_arg3 m (outs m a0) c),
        (h (Proc.devRef .tc main_arg4) (mem_uc main_arg4 (by decide))).trans (Gen.V12_main_arg4 m (outs m a0) c),
        (h (Proc.devRef .tc main_arg5) (mem_uc main_arg5 (by decide))).trans (Gen.V12_main_arg5 m (outs m a0) c),
        (h (Proc.devRef .tc main_arg6) (mem_uc main_arg6 (by decide))).trans (Gen.V12_main_arg6 m (outs m a0) c),
        (h (Proc.devRef .tc main_arg7) (mem_uc main_arg7 (by decide))).trans (Gen.V12_main_arg7 m (outs m a0) c),
        (h (Proc.devRef .tc main_arg8) (mem_uc main_arg8 (by decide))).trans (Gen.V12_main_arg8 m (outs m a0) c),
        (h (Proc.devRef .tc main_arg9) (mem_uc main_arg9 (by decide))).trans (Gen.V12_main_arg9 m (outs m a0) c),
        (h (Proc.devRef .tc main_arg10) (mem_uc main_arg10 (by decide))).trans (Gen.V12_main_arg10 m (outs m a0) c),
        (h (Proc.devRef .tc main_arg11) (mem_uc main_arg11 (by decide))).trans (Gen.V12_main_arg11 m (outs m a0) c),
        (h (Proc.devRef .tc main_arg12) (mem_uc main_arg12 (by decide))).trans (Gen.V12_main_arg12 m (outs m a0) c),
        (h (Proc.devRef .tc main_arg13) (mem_uc main_arg13 (by decide))).trans (Gen.V12_main_arg13 m (outs m a0) c)⟩
    · iexact HSI

/-- THE FRAME at any `F`: the run's post less the results — every argument ends as launched. -/
theorem frame (htab : ∀ (c : Dev nD) (k : Fin pre0.K), Gen.V3 m c (pre0.ref k) = a0.1 k) (hb3 : ∀ c : Dev nD, BodyObligationLoose (dat3 (F := F) (atTc (Gen.V9 m (outs m a0))) c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2.2.2) (run_val m a0 htab hb3 ρ)

end Cert.Kernel.Hand

end
-- ==== Proof.K.RunR.lean ====
import proofs.«408709_j86328842650330_3_alg».proof.Proof.K.Reg3R
import proofs.«408709_j86328842650330_3_alg».proof.Proof.K.Run

/-! # The run over relational proof data: the frame at any float model

The last region's body multiplies by a tile whose rows past the array's end hold words the machine picks, and at a
general float model nothing says the product ignores them. So the contents that region leaves in its output array
cannot be named. The run below therefore reads every region's proof data relationally — the first three regions'
exact data as they are, the last region's with its output window forgotten — and carries the output array through the
two last host stretches at contents quantified existentially. The frame claim reads only the fourteen argument
arrays, none of which those stretches or that region's output touch. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg Cfg Window BodyObligation BodyObligationLoose cellOf)

variable {F : FTy → Type} [FloatOps F]

section Generic

variable (m : (ℓ : Loc nD τ sig) → Buf (Elt F) ℓ) (outs : Gen.Outs (F := F))

section Segs

variable {Ix : Type} [DecidableEq Ix] {U : Type} [URA U] {Lvl : Type} [Preorder Lvl]
variable (𝒱₀ : Variants) (L : GSem nD τ sig → Finset Ix) (lv : GSem nD τ sig → Ix → Lvl)

set_option backward.isDefEq.respectTransparency.types false in
/-- A line of host operations over the unscoped buffers held at a valuation that is one of a family (`∃ o`), the rest
    `R` riding along: it runs to the buffers at `StableHlo.after ops` of that member. -/
def hostSegEx (ops : List (HloOp τ sig (Elt F))) (hS : ∀ op ∈ ops, op.bufs ⊆ Pipeline.ucRefs τ sig) (hf : ∀ op ∈ ops, op.fresh = ∅)
    (κ : Dev nD → Type) (V : (c : Dev nD) → κ c → Valuation τ sig (Elt F)) (R : Dev nD → sProp (MT nD τ sig Ix (Elt F) ℕ U Lvl)) :
    HostSeg (Ix := Ix) (Name := ℕ) (U := U) (Lvl := Lvl) (pcfgs (F := F)) defs₀ 𝒱₀ L lv where
  prog := StableHlo.seq ops
  pre c := iprop(∃ o : κ c, StableHlo.held (c.tc : Thread nD τ) (Pipeline.ucRefs τ sig) (V c o) ∗ R c)
  post c := iprop(∃ o : κ c, StableHlo.held (c.tc : Thread nD τ) (Pipeline.ucRefs τ sig) (StableHlo.after ops (V c o)) ∗ R c)
  run c {β} k K := by
    iintro ⟨Hk, Hbd, Hpre, -⟩
    icases Hpre with ⟨%o, Hh, HR⟩
    have hseq := StableHlo.wp_seq (defs := Pipeline.defs (pcfgs (F := F)) defs₀) (Variants.lift 𝒱₀) none Set.univ c (Pipeline.ucRefs τ sig) k (K := K) ops hS hf (V c o)
    iapply hseq $$ [Hbd Hh]
    · isplitl [Hbd] <;> iassumption
    iintro ⟨Hbd, Hh⟩
    iapply Hk
    isplitl [Hbd]; · iexact Hbd
    iexists o
    isplitl [Hh] <;> iassumption

variable (E : Fin 5 → Dev nD → sProp (MT nD τ sig Ix (Elt F) ℕ U Lvl))

/-- The stretch after the last region, from the buffers at `W10` of some `o`. -/
def seg10R : HostSeg (Ix := Ix) (Name := ℕ) (U := U) (Lvl := Lvl) (pcfgs (F := F)) defs₀ 𝒱₀ L lv :=
  hostSegEx 𝒱₀ L lv hostOps4
    (fun op h => Pipeline.sub_ucRefs op ((List.forall_iff_forall_mem.mp hostOps4_sub) op h))
    (fun op h => (List.forall_iff_forall_mem.mp hostOps4_fresh) op h)
    (fun c => Buf (Elt F) ((c : Thread nD τ).loc main_v70)) (W10 m outs) (E 4)
/-- The last stretch, from the buffers at `W11` of some `o`. -/
def seg11R : HostSeg (Ix := Ix) (Name := ℕ) (U := U) (Lvl := Lvl) (pcfgs (F := F)) defs₀ 𝒱₀ L lv :=
  hostSegEx 𝒱₀ L lv hostOps4_1
    (fun op h => Pipeline.sub_ucRefs op ((List.forall_iff_forall_mem.mp hostOps4_1_sub) op h))
    (fun op h => (List.forall_iff_forall_mem.mp hostOps4_1_fresh) op h)
    (fun c => Buf (Elt F) ((c : Thread nD τ).loc main_v70)) (W11 m outs) (E 4)

end Segs

section

variable {Ix : Type} [DecidableEq Ix] {U : Type} [URA U] {Lvl : Type} [Preorder Lvl]

/-- @main's items as segments over relational proof data: the host stretches before the last region as generated, the
    regions' the given records, the two stretches after the last region from buffers at contents not named. -/
abbrev segsR (𝒱₀ : Variants) (L : GSem nD τ sig → Finset Ix) (lv : GSem nD τ sig → Ix → Lvl) (E : Fin 5 → Dev nD → sProp (MT nD τ sig Ix (Elt F) ℕ U Lvl)) (ι : Ix)
    (a : (p : Fin 4) → (pcfgs (F := F) p).Adm) (rdats : (p : Fin 4) → (c : Dev nD) → RDat τ (Elt F) Ix ℕ U Lvl (Pipeline.pin (pcfgs (F := F)) a p) c)
    (R0 : Pipeline.RDat.RegionSeg (pcfgs (F := F)) a rdats ι defs₀ 𝒱₀ L lv 0) (R1 : Pipeline.RDat.RegionSeg (pcfgs (F := F)) a rdats ι defs₀ 𝒱₀ L lv 1)
    (R2 : Pipeline.RDat.RegionSeg (pcfgs (F := F)) a rdats ι defs₀ 𝒱₀ L lv 2) (R3 : Pipeline.RDat.RegionSeg (pcfgs (F := F)) a rdats ι defs₀ 𝒱₀ L lv 3) (c : Dev nD) :
    List (Pipeline.RDat.Seg (pcfgs (F := F)) a rdats ι defs₀ 𝒱₀ L lv) :=
  [.host (Gen.seg0 m 𝒱₀ L lv E), .host (Gen.seg1 m 𝒱₀ L lv E), .host (Gen.seg2 m 𝒱₀ L lv E), .region R0, .host (Gen.seg4 m outs 𝒱₀ L lv E), .region R1,
   .host (Gen.seg6 m outs 𝒱₀ L lv E), .region R2, .host (Gen.seg8 m outs 𝒱₀ L lv E), .region R3, .host (seg10R m outs 𝒱₀ L lv E), .host (seg11R m outs 𝒱₀ L lv E)]

end

set_option backward.isDefEq.respectTransparency.types false in
/-- The frame from relational records. Given, per region, a segment record over relational proof data entered from
    the thread state before it and left at the one after it — the last region leaving its output array at SOME
    contents —, every weakly fair execution of @main from memory `m` with zero counters terminates and every final
    memory holds each argument as launched. -/
theorem frame_condR {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F)) (a : (p : Fin 4) → (pcfgs (F := F) p).Adm)
    (rdats : (p : Fin 4) → (c : Dev nD) → RDat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : Pipeline.RDat.RegionSeg (pcfgs (F := F)) a rdats ι defs₀ 𝒱₀ L lv 0)
    (hpre0 : ∀ c : Dev nD, iprop(StableHlo.held (c : Thread nD τ) (Pipeline.ucRefs τ sig) (Gen.V3 m c) ∗ E 0 c) ⊢ R0.pre c)
    (hpost0 : ∀ c : Dev nD, R0.post c ⊢ iprop(StableHlo.held (c : Thread nD τ) (Pipeline.ucRefs τ sig) (Gen.V4 m outs c) ∗ E 1 c))
    (R1 : Pipeline.RDat.RegionSeg (pcfgs (F := F)) a rdats ι defs₀ 𝒱₀ L lv 1)
    (hpre1 : ∀ c : Dev nD, iprop(StableHlo.held (c : Thread nD τ) (Pipeline.ucRefs τ sig) (Gen.V5 m outs c) ∗ E 1 c) ⊢ R1.pre c)
    (hpost1 : ∀ c : Dev nD, R1.post c ⊢ iprop(StableHlo.held (c : Thread nD τ) (Pipeline.ucRefs τ sig) (Gen.V6 m outs c) ∗ E 2 c))
    (R2 : Pipeline.RDat.RegionSeg (pcfgs (F := F)) a rdats ι defs₀ 𝒱₀ L lv 2)
    (hpre2 : ∀ c : Dev nD, iprop(StableHlo.held (c : Thread nD τ) (Pipeline.ucRefs τ sig) (Gen.V7 m outs c) ∗ E 2 c) ⊢ R2.pre c)
    (hpost2 : ∀ c : Dev nD, R2.post c ⊢ iprop(StableHlo.held (c : Thread nD τ) (Pipeline.ucRefs τ sig) (Gen.V8 m outs c) ∗ E 3 c))
    (R3 : Pipeline.RDat.RegionSeg (pcfgs (F := F)) a rdats ι defs₀ 𝒱₀ L lv 3)
    (hpre3 : ∀ c : Dev nD, iprop(StableHlo.held (c : Thread nD τ) (Pipeline.ucRefs τ sig) (Gen.V9 m outs c) ∗ E 3 c) ⊢ R3.pre c)
    (hpost3 : ∀ c : Dev nD, R3.post c ⊢ iprop(∃ o : Buf (Elt F) ((c : Thread nD τ).loc main_v70), StableHlo.held (c : Thread nD τ) (Pipeline.ucRefs τ sig) (W10 m outs c o) ∗ E 4 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.RDat.θ_run_regions_kit_dev (pcfgs (F := F)) a rdats ι (cellOf_inj a) EP defs₀ 𝒱₀ L lv m ρ main
    (segsR m outs 𝒱₀ L lv E ι a rdats R0 R1 R2 R3)
    (fun c Q => by
      rewrite [main_chain c, Pipeline.RDat.Seg.run_eq_chain,
        show (segsR m outs 𝒱₀ L lv E ι a rdats R0 R1 R2 R3 c).map Pipeline.RDat.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [segsR, Pipeline.RDat.Seg.pipes_host, Pipeline.RDat.Seg.pipes_region, Pipeline.RDat.Seg.pipes_nil]; decide) O₀ hL G u₀ hu₀
    (T₀ := fun c => iprop(StableHlo.held (c : Thread nD τ) (Pipeline.ucRefs τ sig) (Gen.V0 m c) ∗ E 0 c))
    (Tₙ := fun c => iprop(∃ o : Buf (Elt F) ((c : Thread nD τ).loc main_v70), StableHlo.held (c : Thread nD τ) (Pipeline.ucRefs τ sig) (W12 m outs c o)))
    (hch := fun c => ⟨.rfl, .rfl, .rfl, hpre0 c, hpost0 c, hpre1 c, hpost1 c, hpre2 c, hpost2 c, hpre3 c, hpost3 c, .rfl, ?_⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the last stretch leaves the buffers at some member of the family, beside the rest, which owes nothing
    show iprop(∃ o : Buf (Elt F) ((c : Thread nD τ).loc main_v70), StableHlo.held (c.tc : Thread nD τ) (Pipeline.ucRefs τ sig) (W12 m outs c o) ∗ E 4 c) ⊢ _
    iintro ⟨%o, Hh, HE⟩
    isplitl [Hh]
    · iexists o; iexact Hh
    iapply (hE4 c); iexact HE
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation, whatever the last region's output holds
    unfold StableHlo.held
    iintro ⟨⟨%o, Hh⟩, HSI⟩
    ihave Hr := (pointsTo_read_all (Pipeline.ucRefs τ sig) (fun b => ((c : Thread nD τ).1, b)) (W12 m outs c o) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans ((W12_eq_V12 m outs c o main_arg0 (by decide) (by decide) (by decide)).trans (Gen.V12_main_arg0 m outs c)),
        (h (Proc.devRef .tc main_arg1) (Finset.mem_filter.mpr ⟨StableHlo.devRef_mem_tcRefs main_arg1, by decide⟩)).trans ((W12_eq_V12 m outs c o main_arg1 (by decide) (by decide) (by decide)).trans (Gen.V12_main_arg1 m outs c)),
        (h (Proc.devRef .tc main_arg2) (Finset.mem_filter.mpr ⟨StableHlo.devRef_mem_tcRefs main_arg2, by decide⟩)).trans ((W12_eq_V12 m outs c o main_arg2 (by decide) (by decide) (by decide)).trans (Gen.V12_main_arg2 m outs c)),
        (h (Proc.devRef .tc main_arg3) (Finset.mem_filter.mpr ⟨StableHlo.devRef_mem_tcRefs main_arg3, by decide⟩)).trans ((W12_eq_V12 m outs c o main_arg3 (by decide) (by decide) (by decide)).trans (Gen.V12_main_arg3 m outs c)),
        (h (Proc.devRef .tc main_arg4) (Finset.mem_filter.mpr ⟨StableHlo.devRef_mem_tcRefs main_arg4, by decide⟩)).trans ((W12_eq_V12 m outs c o main_arg4 (by decide) (by decide) (by decide)).trans (Gen.V12_main_arg4 m outs c)),
        (h (Proc.devRef .tc main_arg5) (Finset.mem_filter.mpr ⟨StableHlo.devRef_mem_tcRefs main_arg5, by decide⟩)).trans ((W12_eq_V12 m outs c o main_arg5 (by decide) (by decide) (by decide)).trans (Gen.V12_main_arg5 m outs c)),
        (h (Proc.devRef .tc main_arg6) (Finset.mem_filter.mpr ⟨StableHlo.devRef_mem_tcRefs main_arg6, by decide⟩)).trans ((W12_eq_V12 m outs c o main_arg6 (by decide) (by decide) (by decide)).trans (Gen.V12_main_arg6 m outs c)),
        (h (Proc.devRef .tc main_arg7) (Finset.mem_filter.mpr ⟨StableHlo.devRef_mem_tcRefs main_arg7, by decide⟩)).trans ((W12_eq_V12 m outs c o main_arg7 (by decide) (by decide) (by decide)).trans (Gen.V12_main_arg7 m outs c)),
        (h (Proc.devRef .tc main_arg8) (Finset.mem_filter.mpr ⟨StableHlo.devRef_mem_tcRefs main_arg8, by decide⟩)).trans ((W12_eq_V12 m outs c o main_arg8 (by decide) (by decide) (by decide)).trans (Gen.V12_main_arg8 m outs c)),
        (h (Proc.devRef .tc main_arg9) (Finset.mem_filter.mpr ⟨StableHlo.devRef_mem_tcRefs main_arg9, by decide⟩)).trans ((W12_eq_V12 m outs c o main_arg9 (by decide) (by decide) (by decide)).trans (Gen.V12_main_arg9 m outs c)),
        (h (Proc.devRef .tc main_arg10) (Finset.mem_filter.mpr ⟨StableHlo.devRef_mem_tcRefs main_arg10, by decide⟩)).trans ((W12_eq_V12 m outs c o main_arg10 (by decide) (by decide) (by decide)).trans (Gen.V12_main_arg10 m outs c)),
        (h (Proc.devRef .tc main_arg11) (Finset.mem_filter.mpr ⟨StableHlo.devRef_mem_tcRefs main_arg11, by decide⟩)).trans ((W12_eq_V12 m outs c o main_arg11 (by decide) (by decide) (by decide)).trans (Gen.V12_main_arg11 m outs c)),
        (h (Proc.devRef .tc main_arg12) (Finset.mem_filter.mpr ⟨StableHlo.devRef_mem_tcRefs main_arg12, by decide⟩)).trans ((W12_eq_V12 m outs c o main_arg12 (by decide) (by decide) (by decide)).trans (Gen.V12_main_arg12 m outs c)),
        (h (Proc.devRef .tc main_arg13) (Finset.mem_filter.mpr ⟨StableHlo.devRef_mem_tcRefs main_arg13, by decide⟩)).trans ((W12_eq_V12 m outs c o main_arg13 (by decide) (by decide) (by decide)).trans (Gen.V12_main_arg13 m outs c))⟩
    · iexact HSI

end Generic

local notation "𝕄" => MT nD τ sig Unit (Elt F) ℕ (UR sig nD τ) ℕ

variable (m : (ℓ : Loc nD τ sig) → Buf (Elt F) ℓ) (a0 : (pcfg0 (F := F)).Adm)

/-! ## The first three regions' records read relationally, and the frame -/

/-- Every pipeline's proof data read relationally, the last region's output window forgotten. -/
abbrev rdats := rdatsR m (outs m a0) (adm a0) (pdats m a0 0) (pdats m a0 1) (pdats m a0 2)

set_option backward.isDefEq.respectTransparency.types false in
/-- Region 0's record over the relational family: the exact record's fields, its body obligation read relationally,
    its exit fed the arrays at the contents the exact data names. -/
def reg0R (htab : ∀ (c : Dev nD) (k : Fin pre0.K), Gen.V3 m c (pre0.ref k) = a0.1 k) : Pipeline.RDat.RegionSeg (pcfgs (F := F)) (adm a0) (rdats m a0) () defs₀ 𝒱₀ L lv 0 where
  win := (reg0 m a0 htab).win
  block_pos := (reg0 m a0 htab).block_pos
  stage_whole := (reg0 m a0 htab).stage_whole
  K := (reg0 m a0 htab).K
  fK := (reg0 m a0 htab).fK
  osem := (reg0 m a0 htab).osem
  ho := (reg0 m a0 htab).ho
  hbody c := ((reg0 m a0 htab).hbody c).toR
  hwaits := Pipeline.RDat.hwaits_of_owed_zero _ _ _ _ L lv 0 fun _ _ => rfl
  pre := (reg0 m a0 htab).pre
  post := (reg0 m a0 htab).post
  X := (reg0 m a0 htab).X
  Y := (reg0 m a0 htab).Y
  Z := (reg0 m a0 htab).Z
  hentry := (reg0 m a0 htab).hentry
  hin := (reg0 m a0 htab).hin
  hout := (reg0 m a0 htab).hout
  hexit c := (sep_mono (Entails.of_eq ((pdats m a0 0 c).toR_arraysAt_eq (Pipeline.pin (pcfgs (F := F)) (adm a0) 0).N)) .rfl).trans ((reg0 m a0 htab).hexit c)

set_option backward.isDefEq.respectTransparency.types false in
/-- Region 1's record over the relational family: the exact record's fields, its body obligation read relationally,
    its exit fed the arrays at the contents the exact data names. -/
def reg1R : Pipeline.RDat.RegionSeg (pcfgs (F := F)) (adm a0) (rdats m a0) () defs₀ 𝒱₀ L lv 1 where
  win := (reg1 m a0).win
  block_pos := (reg1 m a0).block_pos
  stage_whole := (reg1 m a0).stage_whole
  K := (reg1 m a0).K
  fK := (reg1 m a0).fK
  osem := (reg1 m a0).osem
  ho := (reg1 m a0).ho
  hbody c := ((reg1 m a0).hbody c).toR
  hwaits := Pipeline.RDat.hwaits_of_owed_zero _ _ _ _ L lv 1 fun _ _ => rfl
  pre := (reg1 m a0).pre
  post := (reg1 m a0).post
  X := (reg1 m a0).X
  Y := (reg1 m a0).Y
  Z := (reg1 m a0).Z
  hentry := (reg1 m a0).hentry
  hin := (reg1 m a0).hin
  hout := (reg1 m a0).hout
  hexit c := (sep_mono (Entails.of_eq ((pdats m a0 1 c).toR_arraysAt_eq (Pipeline.pin (pcfgs (F := F)) (adm a0) 1).N)) .rfl).trans ((reg1 m a0).hexit c)

set_option backward.isDefEq.respectTransparency.types false in
/-- Region 2's record over the relational family: the exact record's fields, its body obligation read relationally,
    its exit fed the arrays at the contents the exact data names. -/
def reg2R : Pipeline.RDat.RegionSeg (pcfgs (F := F)) (adm a0) (rdats m a0) () defs₀ 𝒱₀ L lv 2 where
  win := (reg2 m a0).win
  block_pos := (reg2 m a0).block_pos
  stage_whole := (reg2 m a0).stage_whole
  K := (reg2 m a0).K
  fK := (reg2 m a0).fK
  osem := (reg2 m a0).osem
  ho := (reg2 m a0).ho
  hbody c := ((reg2 m a0).hbody c).toR
  hwaits := Pipeline.RDat.hwaits_of_owed_zero _ _ _ _ L lv 2 fun _ _ => rfl
  pre := (reg2 m a0).pre
  post := (reg2 m a0).post
  X := (reg2 m a0).X
  Y := (reg2 m a0).Y
  Z := (reg2 m a0).Z
  hentry := (reg2 m a0).hentry
  hin := (reg2 m a0).hin
  hout := (reg2 m a0).hout
  hexit c := (sep_mono (Entails.of_eq ((pdats m a0 2 c).toR_arraysAt_eq (Pipeline.pin (pcfgs (F := F)) (adm a0) 2).N)) .rfl).trans ((reg2 m a0).hexit c)

set_option backward.isDefEq.respectTransparency.types false in
/-- THE FRAME at any float model. From any memory `m` with zero counters whose clipped word the table admits (`htab`),
    every weakly fair execution of @main terminates, nothing faulting, and every final memory holds each of the fourteen
    argument arrays as launched. The last region is run with its output window forgotten, so nothing is asked of
    what its body computes. -/
theorem frameR (htab : ∀ (c : Dev nD) (k : Fin pre0.K), Gen.V3 m c (pre0.ref k) = a0.1 k) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_condR m emb₁ () 𝒱₀ L lv (fun _ _ => rfl) ρ (outs m a0) (adm a0) (rdats m a0) 0 (fun _ => iprop(emp))
    (initOf (Pipeline.cells (Pipeline.pin (pcfgs (F := F)) (adm a0)) (cellOf_inj (adm a0))) (Pipeline.launchToks (Pipeline.pin (pcfgs (F := F)) (adm a0)) (cellOf_inj (adm a0))))
    (by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (hE4 (F := F))
    (reg0R m a0 htab) (fun _ => .rfl) (fun _ => .rfl)
    (reg1R m a0) (fun _ => .rfl) (fun _ => .rfl)
    (reg2R m a0) (fun _ => .rfl) (fun _ => .rfl)
    (reg3R m (outs m a0) (adm a0) (pdats m a0 0) (pdats m a0 1) (pdats m a0 2)) (fun c => .rfl) (fun c => .rfl)

end Cert.Kernel.Hand

end
-- ==== Proof.Spec.lean ====
/-
  The three array functions the kernel's regions compute, at the extended reals, index by index.
  Each is stated on literal index types, so that both programs' value lemmas meet at the same terms.
-/
import Idealize.ShloMosaic.PureOps.Ideal
import Idealize.ShloMosaic.PureOps.Ideal.Laws
import Idealize.ShloMosaic.Lib.ValueIdx

noncomputable section

open scoped BigOperators

namespace Cert.Spec

/-- Row `w` of the embedding table, each entry replaced by its maximum with zero. -/
def embRelu (emb : Fin 50257 → Fin 1024 → EReal) (w : Fin 50257) : Fin 1024 → EReal :=
  fun k => max (emb w k) 0

/-- The four gates' pre-activations: entry `j` is the input's product with row `j` of the input weights, plus the
    input bias, plus the hidden state's product with row `j` of the recurrent weights, plus the recurrent bias —
    associated in that order. -/
def gate (x h : Fin 1024 → EReal) (Wih Whh : Fin 4096 → Fin 1024 → EReal) (bih bhh : Fin 4096 → EReal) :
    Fin 4096 → EReal :=
  fun j => (((∑ k, x k * Wih j k) + bih j) + ∑ k, h k * Whh j k) + bhh j

/-- The output projection: entry `v` is the hidden state's product with row `v` of the weights, plus the bias. -/
def logit (h : Fin 1024 → EReal) (W : Fin 50257 → Fin 1024 → EReal) (b : Fin 50257 → EReal) :
    Fin 50257 → EReal :=
  fun v => (∑ k, h k * W v k) + b v

end Cert.Spec
-- ==== Proof.SpecHost.lean ====
/-
  The host chains shared by the kernel program and the reference, at ideal (extended-real) floats, each as one
  function of the values going in:

  * `cell`   — the LSTM epilogue on a row of 4096 gate pre-activations and the previous cell state:
               with the gates i, f, g, o the four consecutive blocks of 1024 columns and σ x = 1 / (1 + exp (-x)),
               c' = σ f * c + σ i * tanh g and h' = σ o * tanh c'; it returns (h', c').
  * `lsm`    — log-softmax along the row: with M the maximum of the row (folded from -∞, then the maximum with -∞),
               z = x - M and lsm x = z - log (Σ exp z).
  * `stack2` — two rows [1,1024] stacked as a [2,1,1024] array.
  * the layout maps: layer k's row of a [2,1,1024] state, the [1,8,128] block read as a row of 1024, and the
    [50257,1024] table read as [50257,8,128].

  Every operation is the library's, in the order and with the operand order the two programs print.
-/
import Idealize.ShloMosaic.PureOps.Ideal

noncomputable section

namespace Cert.SpecHost

open Idealize.ShloMosaic

local notation "S_" => (⟨0, ![]⟩ : Shape)
local notation "S1" => (⟨1, ![1]⟩ : Shape)
local notation "S1x1" => (⟨2, ![1, 1]⟩ : Shape)
local notation "S1x1024" => (⟨2, ![1, 1024]⟩ : Shape)
local notation "S1x4096" => (⟨2, ![1, 4096]⟩ : Shape)
local notation "S1x50257" => (⟨2, ![1, 50257]⟩ : Shape)
local notation "S1x1x1024" => (⟨3, ![1, 1, 1024]⟩ : Shape)
local notation "S2x1x1024" => (⟨3, ![2, 1, 1024]⟩ : Shape)
local notation "S1x8x128" => (⟨3, ![1, 8, 128]⟩ : Shape)
local notation "S50257x1024" => (⟨2, ![50257, 1024]⟩ : Shape)
local notation "S50257x8x128" => (⟨3, ![50257, 8, 128]⟩ : Shape)

/-! ## The shape facts the operations ask for -/

theorem slices_gates_0 : Shape.Slices S1x4096 ![0, 0] S1x1024 := by decide
theorem slices_gates_1024 : Shape.Slices S1x4096 ![0, 1024] S1x1024 := by decide
theorem slices_gates_2048 : Shape.Slices S1x4096 ![0, 2048] S1x1024 := by decide
theorem slices_gates_3072 : Shape.Slices S1x4096 ![0, 3072] S1x1024 := by decide
theorem bcast_scalar_row : Shape.BroadcastsInDim S_ S1x1024 (![] : Fin 0 → Fin 2) := by decide
theorem bcast_scalar_one : Shape.BroadcastsInDim S_ S1 (![] : Fin 0 → Fin 1) := by decide
theorem bcast_one_col : Shape.BroadcastsInDim S1 S1x1 (![0] : Fin 1 → Fin 2) := by decide
theorem bcast_col_logits : Shape.BroadcastsInDim S1x1 S1x50257 (![0, 1] : Fin 2 → Fin 2) := by decide
theorem reduces_logits : Shape.ReducesTo S1x50257 [1] S1 := by decide
theorem scalar_pos : 0 < Shape.numel S_ := by decide
theorem bcast_row_layer : Shape.BroadcastsInDim S1x1024 S1x1x1024 (![1, 2] : Fin 2 → Fin 3) := by decide
theorem concat_layers : Shape.Concatenates [S1x1x1024, S1x1x1024] S2x1x1024 0 := by decide
theorem slices_layer_0 : Shape.Slices S2x1x1024 ![0, 0, 0] S1x1x1024 := by decide
theorem slices_layer_1 : Shape.Slices S2x1x1024 ![1, 0, 0] S1x1x1024 := by decide
theorem casts_layer_row : Shape.ShapeCasts S1x1x1024 S1x1024 := by decide
theorem casts_block_row : Shape.ShapeCasts S1x8x128 S1x1024 := by decide
theorem casts_table : Shape.ShapeCasts S50257x1024 S50257x8x128 := by decide

/-! ## The LSTM epilogue -/

/-- (h', c') from the gate pre-activations and the previous cell state: the forget gate's factor first, then the
    input gate's times tanh of the candidate, their sum the new cell state, and the output gate's factor times its
    tanh the new hidden state. -/
def cell (gates : FVec Ideal S1x4096 .f32) (c : FVec Ideal S1x1024 .f32) :
    FVec Ideal S1x1024 .f32 × FVec Ideal S1x1024 .f32 :=
  ( mulf
      (Host.divf (broadcastInDim (s := S_) S1x1024 ![] bcast_scalar_row (constant (F := Ideal) S_ .f32 0x3F800000#32))
        (addf (broadcastInDim (s := S_) S1x1024 ![] bcast_scalar_row (constant (F := Ideal) S_ .f32 0x3F800000#32))
          (Host.exp (Host.negf (extractStridedSlice (s := S1x4096) S1x1024 ![0, 3072] gates slices_gates_3072)))))
      (Host.tanh
        (addf
          (mulf
            (Host.divf (broadcastInDim (s := S_) S1x1024 ![] bcast_scalar_row (constant (F := Ideal) S_ .f32 0x3F800000#32))
              (addf (broadcastInDim (s := S_) S1x1024 ![] bcast_scalar_row (constant (F := Ideal) S_ .f32 0x3F800000#32))
                (Host.exp (Host.negf (extractStridedSlice (s := S1x4096) S1x1024 ![0, 1024] gates slices_gates_1024)))))
            c)
          (mulf
            (Host.divf (broadcastInDim (s := S_) S1x1024 ![] bcast_scalar_row (constant (F := Ideal) S_ .f32 0x3F800000#32))
              (addf (broadcastInDim (s := S_) S1x1024 ![] bcast_scalar_row (constant (F := Ideal) S_ .f32 0x3F800000#32))
                (Host.exp (Host.negf (extractStridedSlice (s := S1x4096) S1x1024 ![0, 0] gates slices_gates_0)))))
            (Host.tanh (extractStridedSlice (s := S1x4096) S1x1024 ![0, 2048] gates slices_gates_2048))))),
    addf
      (mulf
        (Host.divf (broadcastInDim (s := S_) S1x1024 ![] bcast_scalar_row (constant (F := Ideal) S_ .f32 0x3F800000#32))
          (addf (broadcastInDim (s := S_) S1x1024 ![] bcast_scalar_row (constant (F := Ideal) S_ .f32 0x3F800000#32))
            (Host.exp (Host.negf (extractStridedSlice (s := S1x4096) S1x1024 ![0, 1024] gates slices_gates_1024)))))
        c)
      (mulf
        (Host.divf (broadcastInDim (s := S_) S1x1024 ![] bcast_scalar_row (constant (F := Ideal) S_ .f32 0x3F800000#32))
          (addf (broadcastInDim (s := S_) S1x1024 ![] bcast_scalar_row (constant (F := Ideal) S_ .f32 0x3F800000#32))
            (Host.exp (Host.negf (extractStridedSlice (s := S1x4096) S1x1024 ![0, 0] gates slices_gates_0)))))
        (Host.tanh (extractStridedSlice (s := S1x4096) S1x1024 ![0, 2048] gates slices_gates_2048))) )

/-! ## log-softmax -/

/-- x - M - log (Σ exp (x - M)) along the row, M the row's maximum. -/
def lsm (logits : FVec Ideal S1x50257 .f32) : FVec Ideal S1x50257 .f32 :=
  subf
    (subf logits
      (broadcastInDim (s := S1x1) S1x50257 ![0, 1] bcast_col_logits
        (broadcastInDim (s := S1) S1x1 ![0] bcast_one_col
          (maximumf
            (broadcastInDim (s := S_) S1 ![] bcast_scalar_one (constant (F := Ideal) S_ .f32 0xFF800000#32))
            (Host.reduce (FloatOps.maximumf (F := Ideal) (φ := .f32)) logits
              (constant (F := Ideal) S_ .f32 0xFF800000#32) reduces_logits scalar_pos)))))
    (broadcastInDim (s := S1x1) S1x50257 ![0, 1] bcast_col_logits
      (Host.log
        (broadcastInDim (s := S1) S1x1 ![0] bcast_one_col
          (Host.reduceAdd
            (Host.exp
              (subf logits
                (broadcastInDim (s := S1x1) S1x50257 ![0, 1] bcast_col_logits
                  (broadcastInDim (s := S1) S1x1 ![0] bcast_one_col
                    (maximumf
                      (broadcastInDim (s := S_) S1 ![] bcast_scalar_one (constant (F := Ideal) S_ .f32 0xFF800000#32))
                      (Host.reduce (FloatOps.maximumf (F := Ideal) (φ := .f32)) logits
                        (constant (F := Ideal) S_ .f32 0xFF800000#32) reduces_logits scalar_pos))))))
            (constant (F := Ideal) S_ .f32 0x00000000#32) reduces_logits scalar_pos))))

/-! ## The stack of the two layers' rows -/

/-- Rows `a` (layer 0) and `b` (layer 1) as one [2,1,1024] array. -/
def stack2 (a b : FVec Ideal S1x1024 .f32) : FVec Ideal S2x1x1024 .f32 :=
  concatenate S2x1x1024 0
    [⟨S1x1x1024, broadcastInDim (s := S1x1024) S1x1x1024 ![1, 2] bcast_row_layer a⟩,
     ⟨S1x1x1024, broadcastInDim (s := S1x1024) S1x1x1024 ![1, 2] bcast_row_layer b⟩] concat_layers

/-! ## The layout maps -/

/-- Layer 0's row of a [2,1,1024] state. -/
def layer0 (x : FVec Ideal S2x1x1024 .f32) : FVec Ideal S1x1024 .f32 :=
  shapeCast S1x1024 (extractStridedSlice (s := S2x1x1024) S1x1x1024 ![0, 0, 0] x slices_layer_0) casts_layer_row

/-- Layer 1's row of a [2,1,1024] state. -/
def layer1 (x : FVec Ideal S2x1x1024 .f32) : FVec Ideal S1x1024 .f32 :=
  shapeCast S1x1024 (extractStridedSlice (s := S2x1x1024) S1x1x1024 ![1, 0, 0] x slices_layer_1) casts_layer_row

/-- A [1,8,128] block read row-major as a row of 1024. -/
def blockRow (x : FVec Ideal S1x8x128 .f32) : FVec Ideal S1x1024 .f32 :=
  shapeCast S1x1024 x casts_block_row

/-- The [50257,1024] table read row-major as [50257,8,128]. -/
def tableView (x : FVec Ideal S50257x1024 .f32) : FVec Ideal S50257x8x128 .f32 :=
  shapeCast S50257x8x128 x casts_table

end Cert.SpecHost

end
-- ==== Proof.SpecOut.lean ====
/-
  The three results as ONE term each of the fourteen argument arrays and the word's index: the index-level
  formulas of Spec read into arrays, threaded through the shared host chains of SpecHost.
-/
import proofs.«408709_j86328842650330_3_alg».proof.Proof.Spec
import proofs.«408709_j86328842650330_3_alg».proof.Proof.SpecHost
import Idealize.ShloMosaic.Lib.ValueIdx

noncomputable section

namespace Cert.SpecOut

open Idealize.ShloMosaic Idealize.ShloMosaic.ValueIdx

/-- A function of the column as a one-row array. -/
def row {n : Nat} (f : Fin n → EReal) : FVec Ideal (⟨2, ![1, n]⟩ : Shape) .f32 := fun i => f (i 1)
/-- The row of a one-row array as a function of the column. -/
def unrow {n : Nat} (x : FVec Ideal (⟨2, ![1, n]⟩ : Shape) .f32) : Fin n → EReal := fun k => x (ix2 (0 : Fin 1) k)
/-- A rank-2 array as a function of row and column. -/
def mat {a b : Nat} (x : FVec Ideal (⟨2, ![a, b]⟩ : Shape) .f32) : Fin a → Fin b → EReal := fun p q => x (ix2 p q)
/-- A rank-1 array as a function of its position. -/
def vec {a : Nat} (x : FVec Ideal (⟨1, ![a]⟩ : Shape) .f32) : Fin a → EReal := fun p => x (ix1 p)

section
variable (w : Fin 50257)
  (h0 c0 : FVec Ideal (⟨3, ![2, 1, 1024]⟩ : Shape) .f32) (emb : FVec Ideal (⟨2, ![50257, 1024]⟩ : Shape) .f32)
  (Wih0 Whh0 : FVec Ideal (⟨2, ![4096, 1024]⟩ : Shape) .f32) (bih0 bhh0 : FVec Ideal (⟨1, ![4096]⟩ : Shape) .f32)
  (Wih1 Whh1 : FVec Ideal (⟨2, ![4096, 1024]⟩ : Shape) .f32) (bih1 bhh1 : FVec Ideal (⟨1, ![4096]⟩ : Shape) .f32)
  (Wout : FVec Ideal (⟨2, ![50257, 1024]⟩ : Shape) .f32) (bout : FVec Ideal (⟨1, ![50257]⟩ : Shape) .f32)

/-- Layer 0's gate pre-activations: the embedded, rectified word against layer 0's weights. -/
def G0 : FVec Ideal (⟨2, ![1, 4096]⟩ : Shape) .f32 :=
  row (Cert.Spec.gate (Cert.Spec.embRelu (mat emb) w) (unrow (Cert.SpecHost.layer0 h0)) (mat Wih0) (mat Whh0) (vec bih0) (vec bhh0))
/-- Layer 0's new hidden and cell state. -/
def HC1 := Cert.SpecHost.cell (G0 w h0 emb Wih0 Whh0 bih0 bhh0) (Cert.SpecHost.layer0 c0)
/-- Layer 1's gate pre-activations: layer 0's new hidden state against layer 1's weights. -/
def G1 : FVec Ideal (⟨2, ![1, 4096]⟩ : Shape) .f32 :=
  row (Cert.Spec.gate (unrow (HC1 w h0 c0 emb Wih0 Whh0 bih0 bhh0).1) (unrow (Cert.SpecHost.layer1 h0)) (mat Wih1) (mat Whh1) (vec bih1) (vec bhh1))
/-- Layer 1's new hidden and cell state. -/
def HC2 := Cert.SpecHost.cell (G1 w h0 c0 emb Wih0 Whh0 bih0 bhh0 Wih1 Whh1 bih1 bhh1) (Cert.SpecHost.layer1 c0)
/-- The output projection of layer 1's new hidden state. -/
def logits : FVec Ideal (⟨2, ![1, 50257]⟩ : Shape) .f32 :=
  row (Cert.Spec.logit (unrow (HC2 w h0 c0 emb Wih0 Whh0 bih0 bhh0 Wih1 Whh1 bih1 bhh1).1) (mat Wout) (vec bout))
/-- Result 0: the log-probabilities. -/
def out0 := Cert.SpecHost.lsm (logits w h0 c0 emb Wih0 Whh0 bih0 bhh0 Wih1 Whh1 bih1 bhh1 Wout bout)
/-- Result 1: the two layers' new hidden states, stacked. -/
def out1 := Cert.SpecHost.stack2 (HC1 w h0 c0 emb Wih0 Whh0 bih0 bhh0).1 (HC2 w h0 c0 emb Wih0 Whh0 bih0 bhh0 Wih1 Whh1 bih1 bhh1).1
/-- Result 2: the two layers' new cell states, stacked. -/
def out2 := Cert.SpecHost.stack2 (HC1 w h0 c0 emb Wih0 Whh0 bih0 bhh0).2 (HC2 w h0 c0 emb Wih0 Whh0 bih0 bhh0 Wih1 Whh1 bih1 bhh1).2
end

end Cert.SpecOut

end
-- ==== Proof.KI.Pre.lean ====
/-
  FROM THE PRECONDITION TO THE TABLE. The program's first argument is one 32-bit word, the row of the embedding to read.
  The precondition says, beside the finiteness of the float arguments, that the word is at least 0 and below 50257.
  The host clamps the word into [0, 50256] and hands the result to the first kernel region as a prefetched table, whose one
  element is the first coordinate of the block that region's first window reads. Here: the word's range read back out of
  the printed precondition; the table holds the word itself (the clamp does nothing to a word in range); hence the block
  lies inside the array, which is the side condition the region's pipeline asks of its table, and the block's index is
  (the word's value, 0, 0). All of it for any float instance: nothing here looks at a float.
-/
import proofs.«408709_j86328842650330_3_alg».proof.Proof.Gen.KernelIdeal.Regions
import proofs.«408709_j86328842650330_3_alg».proof.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 4096

noncomputable section

namespace Cert.KernelIdeal.Hand

open Cert.KernelIdeal Cert.KernelIdeal.Gen
open Idealize.ShloMosaic Idealize.ShloMosaic.TcCoe Idealize.SL.Sem

/-! ## The printed precondition, read back at the word

The precondition is a conjunction, by `and`, of fifteen `jnp.all`s: thirteen say an argument array is finite, the
last two say every word of the first argument is at least 0 and below 50257, signed. The function is printed in parts,
each ending in the call of the next; reading it back goes part by part from the last: a conjunction that is one has both
conjuncts one, and an `all` that is one has every element one. -/

namespace PreWord

open Cert.Pre_finite_inputs

variable {F : FTy → Type} [FloatOps F] [Cert.Pre_finite_inputs.Facts]

/-- The scalar shape has one index. -/
instance : Subsingleton S_.Idx := ⟨fun a b => funext fun d => d.elim0⟩

/-- The last part: its result all ones says the conjunction it was handed is one and every word is below 50257, signed. -/
theorem part4_decode (a0 : IVec S1 32) (v67 : IVec S_ 1) (h : fn_part4 (F := F) a0 v67 = fun _ => 1#1) :
    v67 ValueIdx.ix0 = 1#1 ∧ ∀ i : S1.Idx, IntOp.cmpi .slt (a0 i) 50257#32 = 1#1 := by
  have e := congrFun h ValueIdx.ix0
  unfold fn_part4 at e
  simp only [andi] at e
  obtain ⟨h1, h2⟩ := IntOp.andi_eq_one.1 e
  refine ⟨h1, fun i => ?_⟩
  have := Host.reduce_andi_all _ _ _ _ ValueIdx.ix0 h2 i
  simpa only [cmpi, broadcastInDim, constantI] using this

/-- The part before it adds the conjunct "every word is at least 0, signed". -/
theorem part3_decode (a0 : IVec S1 32) (a12 : FVec F S50257x1024 .f32) (a13 : FVec F S50257 .f32) (v48 : IVec S_ 1)
    (v49 v50 : FVec F S4096 .f32) (h : fn_part3 (F := F) a0 a12 a13 v48 v49 v50 = fun _ => 1#1) (i : S1.Idx) :
    IntOp.cmpi .sge (a0 i) 0#32 = 1#1 ∧ IntOp.cmpi .slt (a0 i) 50257#32 = 1#1 := by
  unfold fn_part3 at h
  obtain ⟨h67, hlt⟩ := part4_decode a0 _ h
  simp only [andi] at h67
  obtain ⟨-, h66⟩ := IntOp.andi_eq_one.1 h67
  have := Host.reduce_andi_all _ _ _ _ ValueIdx.ix0 h66 i
  exact ⟨by simpa only [cmpi, broadcastInDim, constantI] using this, hlt i⟩

/-- The earlier parts only hand the word on. -/
theorem part2_decode (a0 : IVec S1 32) (a8 a9 : FVec F S4096x1024 .f32) (a10 a11 : FVec F S4096 .f32)
    (a12 : FVec F S50257x1024 .f32) (a13 : FVec F S50257 .f32) (v33 : IVec S_ 1)
    (h : fn_part2 (F := F) a0 a8 a9 a10 a11 a12 a13 v33 = fun _ => 1#1) (i : S1.Idx) :
    IntOp.cmpi .sge (a0 i) 0#32 = 1#1 ∧ IntOp.cmpi .slt (a0 i) 50257#32 = 1#1 := by
  unfold fn_part2 at h
  exact part3_decode a0 _ _ _ _ _ h i

theorem part1_decode (a0 : IVec S1 32) (a5 : FVec F S4096x1024 .f32) (a6 a7 : FVec F S4096 .f32) (a8 a9 : FVec F S4096x1024 .f32)
    (a10 a11 : FVec F S4096 .f32) (a12 : FVec F S50257x1024 .f32) (a13 : FVec F S50257 .f32) (v13 : IVec S_ 1)
    (v16 : IVec S4096x1024 1)
    (h : fn_part1 (F := F) a0 a5 a6 a7 a8 a9 a10 a11 a12 a13 v13 v16 = fun _ => 1#1) (i : S1.Idx) :
    IntOp.cmpi .sge (a0 i) 0#32 = 1#1 ∧ IntOp.cmpi .slt (a0 i) 50257#32 = 1#1 := by
  unfold fn_part1 at h
  exact part2_decode a0 _ _ _ _ _ _ _ h i

/-- THE PRECONDITION READ BACK: every word of the first argument is at least 0 and below 50257, as signed comparisons. -/
theorem fn_decode (a0 : IVec S1 32) (a1 a2 : FVec F S2x1x1024 .f32) (a3 : FVec F S50257x1024 .f32)
    (a4 a5 : FVec F S4096x1024 .f32) (a6 a7 : FVec F S4096 .f32) (a8 a9 : FVec F S4096x1024 .f32)
    (a10 a11 : FVec F S4096 .f32) (a12 : FVec F S50257x1024 .f32) (a13 : FVec F S50257 .f32)
    (h : fn (F := F) a0 a1 a2 a3 a4 a5 a6 a7 a8 a9 a10 a11 a12 a13 = fun _ => 1#1) (i : S1.Idx) :
    IntOp.cmpi .sge (a0 i) 0#32 = 1#1 ∧ IntOp.cmpi .slt (a0 i) 50257#32 = 1#1 := by
  unfold fn at h
  exact part1_decode a0 _ _ _ _ _ _ _ _ _ _ _ h i

end PreWord

/-! ## A word between 0 and 50257, signed -/

/-- The two comparisons as inequalities between the word's signed value and the bounds. -/
theorem toInt_range_of_cmp (w : BitVec 32) (h0 : IntOp.cmpi .sge w 0#32 = 1#1) (h1 : IntOp.cmpi .slt w 50257#32 = 1#1) :
    0 ≤ w.toInt ∧ w.toInt < 50257 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (50257#32 : BitVec 32).toInt = 50257 := by decide
  omega

/-- A word whose signed value is at least 0 reads the same unsigned. -/
theorem toNat_of_toInt_nonneg (w : BitVec 32) (h0 : 0 ≤ w.toInt) : (w.toNat : Int) = w.toInt := by
  have hlt := w.isLt
  rw [BitVec.toInt_eq_toNat_cond] at h0 ⊢
  split at h0 <;> rename_i hc
  · rw [if_pos hc]
  · omega

/-- In range signed, in range unsigned. -/
theorem toNat_lt_of_toInt_range (w : BitVec 32) (h : 0 ≤ w.toInt ∧ w.toInt < 50257) : w.toNat < 50257 := by
  have := toNat_of_toInt_nonneg w h.1
  omega

/-- The clamp to [0, 50256], as the host computes it (the larger of 0 and the word, then the smaller of 50256 and that),
    leaves a word already in range alone. -/
theorem clip_word (w : BitVec 32) (h : 0 ≤ w.toInt ∧ w.toInt < 50257) :
    IntOp.minsi 50256#32 (IntOp.maxsi 0#32 w) = w := by
  have e0 : (0#32 : BitVec 32).toInt = 0 := by decide
  have e1 : (50256#32 : BitVec 32).toInt = 50256 := by decide
  have hmax : IntOp.maxsi 0#32 w = w := by
    unfold IntOp.maxsi
    rw [if_neg]
    simp only [BitVec.slt, e0, decide_eq_true_eq]; omega
  rw [hmax]
  unfold IntOp.minsi
  rw [if_neg]
  simp only [BitVec.slt, e1, decide_eq_true_eq]; omega

/-! ## The table as region 0 finds it

Before region 0 the host writes the constants 0 and 50256 and clamps the word between them into the prefetched table:
the larger of 0 and the word, then the smaller of 50256 and that. Under the precondition the clamp changes nothing:
the table holds the word itself. Its one element is then the first coordinate of window 0's block, which lies inside
the [50257, 8, 128] array, and that is the pipeline's side condition. -/

variable {F : FTy → Type} [FloatOps F]
variable (m : (ℓ : Loc nD τ sig) → Buf (Elt F) ℓ)

/-- The first argument's buffer on core `c`: one 32-bit word. -/
abbrev wordBuf (c : Dev nD) : IVec S1 32 := m ((c.tc : Thread nD τ).loc main_arg0)

/-- The word itself. -/
abbrev word (c : Dev nD) : BitVec 32 := wordBuf m c (ValueIdx.ix1 0)

/-- The precondition over any float instance: the printed predicate of the fourteen argument buffers is all ones on every
    core. The claim's hypothesis on the program's memory is this at its float instance, by unfolding. -/
abbrev PreF [Cert.Pre_finite_inputs.Facts] : Prop :=
  ∀ c : Dev nD,
    Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      = fun _ => 1#1

/-- A [1] array has one index. -/
theorem S1_idx_eq (x : S1.Idx) : x = ValueIdx.ix1 0 := by
  rw [ValueIdx.eq_ix1 x]
  refine congrArg ValueIdx.ix1 (Fin.ext ?_)
  have hlt : (x 0).val < 1 := (x 0).isLt
  show (x 0).val = 0
  omega

/-- THE WORD IS IN RANGE: at least 0 and below 50257, as a signed value. -/
theorem word_range [Cert.Pre_finite_inputs.Facts] (h : PreF m) (c : Dev nD) :
    0 ≤ ((m ((c.tc : Thread nD τ).loc main_arg0) : IVec S1 32) (ValueIdx.ix1 0)).toInt
      ∧ ((m ((c.tc : Thread nD τ).loc main_arg0) : IVec S1 32) (ValueIdx.ix1 0)).toInt < 50257 := by
  obtain ⟨h0, h1⟩ := PreWord.fn_decode _ _ _ _ _ _ _ _ _ _ _ _ _ _ (h c) (ValueIdx.ix1 0)
  exact toInt_range_of_cmp _ h0 h1

/-- The same unsigned: the word's value is below 50257. -/
theorem word_toNat_lt [Cert.Pre_finite_inputs.Facts] (h : PreF m) (c : Dev nD) : (word m c).toNat < 50257 :=
  toNat_lt_of_toInt_range _ (word_range m h c)

/-- The word's signed and unsigned values agree. -/
theorem word_toInt_eq [Cert.Pre_finite_inputs.Facts] (h : PreF m) (c : Dev nD) : (word m c).toInt = (word m c).toNat :=
  (toNat_of_toInt_nonneg _ (word_range m h c).1).symm

/-- What the two host stretches before region 0 leave in the table: the clamp of the word between the two constants. -/
theorem V3_main_v0 (c : Dev nD) :
    (Gen.V3 m c main_v0 : IVec S1 32)
      = minsi (broadcastInDim S1 ![] bcast_S_S1 (constantI S_ 32 50256#32))
          (maxsi (broadcastInDim S1 ![] bcast_S_S1 (constantI S_ 32 0#32)) (wordBuf m c)) := by
  rw [Gen.V3_of m c main_v0 (by decide)]
  show StableHlo.after hostOps0_1 (StableHlo.after hostOps0 (fun b => m (c, b))) (Proc.devRef .tc main_v0) = _
  after_results
  rfl

/-- THE TABLE HOLDS THE WORD: under the precondition the clamp is the identity, so the table's buffer before region 0 is
    the first argument's buffer. -/
theorem V3_main_v0_eq [Cert.Pre_finite_inputs.Facts] (h : PreF m) (c : Dev nD) :
    (Gen.V3 m c main_v0 : IVec S1 32) = wordBuf m c := by
  rw [V3_main_v0]
  funext x
  rw [S1_idx_eq x]
  simp only [minsi, maxsi, broadcastInDim, constantI]
  exact clip_word _ (word_range m h c)

/-- There is one core. -/
theorem dev_eq_zero (c : Dev nD) : c = 0 := Subsingleton.elim _ _

/-- The prefetched table's contents as region 0 finds them (the program runs on one core: core 0's). -/
def tbl0 : pre0.Contents (Elt F) := fun k => Gen.V3 m (0 : Dev nD) (pre0.ref k)

/-- On every core the table holds those contents. -/
theorem tbl0_at (c : Dev nD) (k : Fin pre0.K) : Gen.V3 m c (pre0.ref k) = tbl0 m k := by
  rw [dev_eq_zero c]; rfl

/-- The word on any core is the word on core 0. -/
theorem word_at (c : Dev nD) : word m c = word m 0 := by
  rw [dev_eq_zero c]

/-- Every element of the table is the word. -/
theorem tbl0_apply [Cert.Pre_finite_inputs.Facts] (h : PreF m) (x : S1.Idx) :
    (tbl0 m 0 : IVec S1 32) x = word m 0 := by
  show (Gen.V3 m 0 main_v0 : IVec S1 32) x = _
  rw [V3_main_v0_eq m h 0, S1_idx_eq x]

/-- WINDOW 0's BLOCK INDEX at the table: (the word's value, 0, 0). -/
theorem cc0_transform_0_tbl0 [Cert.Pre_finite_inputs.Facts] (h : PreF m) (i : grid0.Coords) :
    cc0_transform_0 inb_S1_S1_0 numel1_S1 (tbl0 m) i = ![(word m 0).toNat, 0, 0] := by
  unfold cc0_transform_0
  exact congrArg (fun w : BitVec 32 => (![w.toNat, 0, 0] : Fin 3 → Nat)) (tbl0_apply m h _)

/-- REGION 0's SIDE CONDITION at the table: the block at (word, 0, 0) of extents (1, 8, 128) lies inside the
    [50257, 8, 128] array, the word being below 50257. -/
theorem ok0_tbl0 [Cert.Pre_finite_inputs.Facts] (h : PreF m) : ok0 (F := F) (tbl0 m) := by
  intro i
  have hw := word_toNat_lt m h 0
  refine ⟨fun a => ?_, Or.inl rfl⟩
  rw [cc0_transform_0_tbl0 m h i]
  match a with
  | ⟨0, _⟩ => show ((word m 0).toNat + 1) * 1 ≤ 50257; omega
  | ⟨1, _⟩ => show (0 + 1) * 8 ≤ 8; omega
  | ⟨2, _⟩ => show (0 + 1) * 128 ≤ 128; omega

/-- The admission of region 0's pipeline: the table's contents with the side condition. -/
def a0 [Cert.Pre_finite_inputs.Facts] (h : PreF m) : (pcfg0 (F := F)).Adm := ⟨tbl0 m, ok0_tbl0 m h⟩

theorem a0_val [Cert.Pre_finite_inputs.Facts] (h : PreF m) : (a0 m h).1 = tbl0 m := rfl

/-- On every core the table, as region 0 finds it, holds the admission's contents. -/
theorem a0_at [Cert.Pre_finite_inputs.Facts] (h : PreF m) (c : Dev nD) (k : Fin pre0.K) :
    Gen.V3 m c (pre0.ref k) = (a0 m h).1 k :=
  tbl0_at m c k

/-- Window 0's block index at the admission. -/
theorem cc0_transform_0_a0 [Cert.Pre_finite_inputs.Facts] (h : PreF m) (i : grid0.Coords) :
    cc0_transform_0 inb_S1_S1_0 numel1_S1 (a0 m h).1 i = ![(word m 0).toNat, 0, 0] :=
  cc0_transform_0_tbl0 m h i

end Cert.KernelIdeal.Hand

end
-- ==== Proof.KI.Reg3.lean ====
/-
  REGION 3 of the program: the projection kernel (pipeline 3) over a grid of 25 points, generic in the float model.

  The kernel reads the whole of `h2` (window 0, [1, 1024], fetched once), block `i` of the weight matrix (window 1,
  [2048, 1024] of [50257, 1024]) and of the bias (window 2, [2048] of [50257]), and stores
  `bf16 h2 · (bf16 W_blk)ᵀ + b_blk` whole into block `i` of the logits (window 3, [1, 2048] of [1, 50257]).
  50257 = 24 · 2048 + 1105: the last block of windows 1, 2 and 3 overhangs its array, so its fetch lands 1105 rows
  (lanes) in the staging buffer and leaves the other 943 at words nothing names, and its write-back moves 1105 lanes.
  These windows are loose: the body obligation states each buffer on the part the transfers move only.

  Here: each window's block at a point as the region finds it (`iblk3`, the part inside the array); what the body
  leaves in the output's buffer (`out3_3`, its one whole store; `out3_3_eq`: the payload of the three buffers' contents);
  the body's triple on whole staging memrefs (`sound_kernel3`); the proof data (`dat3`: after the body the input
  buffers at their blocks filled out with zeros past the arrays' end, the output's at `out3_3` of those) and what
  each buffer holds when the body runs (`before3_w`); and the body obligation in two forms. `body_obligation3_fgt`
  forgets the output window (any contents in, any contents out) and holds for every float model.
  `body_obligation3` names the output's block and needs `Loc3`: that the moved lanes of the product do not read the
  weight rows past the array's end — a fact about the model's `tpu.matmul`, which the class of float models does not
  state (the word-level model's product is a function of the whole right operand; the ideal model's is a sum per lane).
-/
import proofs.«408709_j86328842650330_3_alg».proof.Proof.Gen.KernelIdeal.Launch
import proofs.«408709_j86328842650330_3_alg».proof.Proof.Gen.KernelIdeal.Skeleton
import proofs.«408709_j86328842650330_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 3: the projection kernel (pipeline 3), at the entry contents `V` -/

/-! ## The windows' blocks -/

/-- Window `w`'s block at point `t`, read off its array as the region finds it: the part of the block inside
    the array (all of it but at the last point, where windows 1, 2, 3 keep 1105 of their 2048 rows or lanes). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S1x1024 := Rect.unit (s := S1x1024) ![0, 0] S1x1024.size inb_S1x1024_S1x1024_0_0
abbrev r3_1 : Rect S2048x1024 := Rect.unit (s := S2048x1024) ![0, 0] S2048x1024.size inb_S2048x1024_S2048x1024_0_0
abbrev r3_2 : Rect S2048 := Rect.unit (s := S2048) ![0] S2048.size inb_S2048_S2048_0
abbrev r3_3 : Rect S1x2048 := Rect.unit (s := S1x2048) ![0, 0] S1x2048.size inb_S1x2048_S1x2048_0_0

/-! ## What the body leaves in the output window's buffer -/

/-- Window 3's staging buffer after the body, from the three input buffers' contents: its one store, whole. -/
def out3_3 (x0 : Vec F S1x1024 .f32) (x1 : Vec F S2048x1024 .f32) (x2 : Vec F S2048 .f32) : Vec F S1x2048 .f32 :=
  View.canon [⟨r3_3, k3_pay1 (View.ld x0 r3_0) (View.ld x1 r3_1) (View.ld x2 r3_2)⟩]

/-- The store covers the buffer. -/
theorem cover3_3 (p0 : Vec F S1x2048 .f32) (y : S1x2048.Idx) :
    ∃ pc ∈ ([⟨r3_3, p0⟩] : List (View.Piece (Elt F) S1x2048 .f32)), y ∈ pc.1.set :=
  View.cover_of_tiled [⟨r3_3, p0⟩] S1x2048.size (by rfl) y

/-! ## The body's triple -/

set_option maxHeartbeats 1000000 in
/-- The kernel body on whole staging memrefs, the inputs' at contents `x0`, `x1`, `x2` and the output's at anything,
    runs to the continuation holding the inputs' as they were and the output's at `out3_3` of them. -/
theorem sound_kernel3 (c : Dev nD) (E : Set ℕ) (i : grid3.Coords)
    (arg1 : Memref sig .tc .vmem S1x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S1x2048 .f32) (harg4 : arg4.IsWhole)
    (x0 : Vec F S1x1024 .f32) (x1 : Vec F S2048x1024 .f32) (x2 : Vec F S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__proj_kernel i arg1 harg1 arg2 harg2 arg3 harg3 arg4 harg4) K := by
  simp only [cc3__proj_kernel_eq_skeleton]; unfold cc3__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The output's buffer as the payload -/

theorem hz3_2 : (![0, 0] : Fin 2 → Nat) = fun _ => 0 := funext fun a => by fin_cases a <;> rfl
theorem hz3_1 : (![0] : Fin 1 → Nat) = fun _ => 0 := funext fun a => by fin_cases a; rfl

/-- The loads and the store are whole: the output's buffer holds the payload of the three input buffers' contents. -/
theorem out3_3_eq (x0 : Vec F S1x1024 .f32) (x1 : Vec F S2048x1024 .f32) (x2 : Vec F S2048 .f32) :
    out3_3 x0 x1 x2 = k3_pay1 x0 x1 x2 := by
  unfold out3_3
  rw [View.canon_unit_zero hz3_2]
  simp only [View.ld_unit_zero (S := S1x1024) hz3_2, View.ld_unit_zero (S := S2048x1024) hz3_2,
    View.ld_unit_zero (S := S2048) hz3_1]

/-! ## The pipeline's proof data -/

/-- Windows 1 and 2's blocks filled out to the staging buffers' shape: the block's part inside the array, and past
    the array's end (at the last point: rows, resp. lanes, 1105 to 2047) the zero word, where nothing is stated. -/
def blk3_1 (c : Dev nD) (t : Fin cfg3.N) : S2048x1024.Idx → Elt F .f32 :=
  win3_1.fill (grid3.coords t) (fun _ => Scalar.ofBits .f32 0#32) (iblk3 V c 1 t)
def blk3_2 (c : Dev nD) (t : Fin cfg3.N) : S2048.Idx → Elt F .f32 :=
  win3_2.fill (grid3.coords t) (fun _ => Scalar.ofBits .f32 0#32) (iblk3 V c 2 t)

/-- The proof data of pipeline 3 on core `c`: the arrays as the region finds them (`V`); after the body at point
    `t` window 0's buffer at its block, windows 1 and 2's at their blocks filled out with zeros, the output's at
    `out3_3` of those; the invariant the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => blk3_1 V c t
    | ⟨2, _⟩ => blk3_2 V c t
    | ⟨3, _⟩ => out3_3 (iblk3 V c 0 t) (blk3_1 V c t) (blk3_2 V c t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = blk3_1 V c t := by dsimp only [dat3]
theorem after3_2 (c : Dev nD) (t : Fin cfg3.N) : (dat3 V c).after 2 t = blk3_2 V c t := by dsimp only [dat3]
theorem after3_3 (c : Dev nD) (t : Fin cfg3.N) :
    (dat3 V c).after 3 t = out3_3 (iblk3 V c 0 t) (blk3_1 V c t) (blk3_2 V c t) := by dsimp only [dat3]

/-- Window 0 (the whole of `h2`, uncut, fetched at the first point only) holds its block at every point: unfetched,
    the block index has not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Windows 1 and 2 are fetched at every point: the buffer holds the block's part inside the array, and past it
    whatever the cut fetch left there (`d`). -/
theorem before3_1 (c : Dev nD) (t : Fin cfg3.N) (d) :
    (dat3 V c).before 1 t d = win3_1.fill (grid3.coords t) d (iblk3 V c 1 t) := by
  rw [(dat3 V c).before_fetched 1 t (fetch3_1 t) d]
  unfold Dat.fetched Dat.blockOf iblk3; rw [A_eq3]; try rfl
theorem before3_2 (c : Dev nD) (t : Fin cfg3.N) (d) :
    (dat3 V c).before 2 t d = win3_2.fill (grid3.coords t) d (iblk3 V c 2 t) := by
  rw [(dat3 V c).before_fetched 2 t (fetch3_2 t) d]
  unfold Dat.fetched Dat.blockOf iblk3; rw [A_eq3]; try rfl

/-- The output window is never fetched, -/
theorem fetch3_3 (t : Fin cfg3.N) : (cfg3.win 3).fetch t = false := rfl

/-- and written back at every point: the body finds its buffer at contents nothing names. -/
theorem before3_3 (c : Dev nD) (t : Fin cfg3.N) (d) : (dat3 V c).before 3 t d = d := by
  unfold Dat.before
  rw [if_neg (by rw [fetch3_3 t]; exact Bool.false_ne_true)]
  by_cases h0 : t.val = 0
  · rw [if_pos h0]
  · rw [if_neg h0]; exact if_pos (flush3_3 _)

/-! ## What of the result does not read past the array's end -/

/-- The part of the result block that the write-back moves does not read what windows 1 and 2's buffers hold past
    their arrays' end: with the blocks' parts inside the arrays `g1`, `g2` fixed, it is the same whatever fills the
    rest (`d1`, `d2` or `d1'`, `d2'`). Away from the last point nothing is cut and this says nothing; at the last
    point it says lanes 0 to 1104 of the product read rows 0 to 1104 of the weight block only. A property of the
    float model's `tpu.matmul`, which the class does not state: a proof for every model takes it as a hypothesis. -/
def Loc3 (F : FTy → Type) [FloatOps F] : Prop :=
  ∀ (i : grid3.Coords) (x0 : Vec F S1x1024 .f32)
    (d1 d1' : S2048x1024.Idx → Elt F .f32) (g1 : (win3_1.xblock i).Idx → Elt F .f32)
    (d2 d2' : S2048.Idx → Elt F .f32) (g2 : (win3_2.xblock i).Idx → Elt F .f32),
    win3_3.cut i (out3_3 x0 (win3_1.fill i d1 g1) (win3_2.fill i d2 g2))
      = win3_3.cut i (out3_3 x0 (win3_1.fill i d1' g1) (win3_2.fill i d2' g2))

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: window 0's buffer at its block; windows 1, 2 and 3's, which are loose, at what the proof
    data names on the part their transfers move and at anything elsewhere. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ d, owns (c : Thread nD τ) (st3_3 t) fullShare
        ((cfg3.win 3).fill (cfg3.grid.coords t) d ((cfg3.win 3).cut (cfg3.grid.coords t) ((dat3 V c).after 3 t)))))

/-- The same with the output window forgotten: handed over at any contents and taken back at any. -/
def bodyPre3F (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ X, owns (c : Thread nD τ) (st3_3 t) fullShare X))

def bodyPost3F (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ X, owns (c : Thread nD τ) (st3_3 t) fullShare X))

/-- A block filled out with zeros, cut back to the moved part and filled out with `d`, is the block filled out with `d`. -/
theorem refill3_1 (c : Dev nD) (t : Fin cfg3.N) (d : S2048x1024.Idx → Elt F .f32) :
    win3_1.fill (grid3.coords t) d (win3_1.cut (grid3.coords t) (blk3_1 V c t)) = win3_1.fill (grid3.coords t) d (iblk3 V c 1 t) := by
  unfold blk3_1; rw [win3_1.cut_fill]
theorem refill3_2 (c : Dev nD) (t : Fin cfg3.N) (d : S2048.Idx → Elt F .f32) :
    win3_2.fill (grid3.coords t) d (win3_2.cut (grid3.coords t) (blk3_2 V c t)) = win3_2.fill (grid3.coords t) d (iblk3 V c 2 t) := by
  unfold blk3_2; rw [win3_2.cut_fill]

/-- The body at any point, the output window forgotten: the inputs' buffers hold their blocks, filled out by the
    cut fetches with anything, so `sound_kernel3` applies; they come back as they were, which on the moved part is
    what the proof data names; the invariant and the core's `owes` pass through unread. -/
theorem sound_body3F (c : Dev nD) (t : Fin cfg3.N) :
    bodyPre3F V c t ⊢ wp frame (wpE (defs₀ (F := F)) Variants.none c none) Set.univ (bodyAt3 t) (fun _ => bodyPost3F V c t) := by
  unfold bodyPre3F bodyPost3F bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩, ⟨%X3, H3⟩⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st3_1 t) fullShare (win3_1.fill (grid3.coords t) d1 (win3_1.cut (grid3.coords t) (blk3_1 V c t)))
    rw [refill3_1]
  isplitl [H2]
  · iexists d2
    change _ ⊢ owns (c : Thread nD τ) (st3_2 t) fullShare (win3_2.fill (grid3.coords t) d2 (win3_2.cut (grid3.coords t) (blk3_2 V c t)))
    rw [refill3_2]
  iexists _; iexact H3

/-- The body at any point, under `Loc3`: as `sound_body3F`, and the output's buffer comes back at `out3_3` of the
    inputs' blocks filled out with what the cut fetches left, which on the part the write-back moves is `out3_3` of
    the blocks filled out with zeros (`Loc3`): what the proof data names. -/
theorem sound_body3 (hloc : Loc3 F) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st3_1 t) fullShare (win3_1.fill (grid3.coords t) d1 (win3_1.cut (grid3.coords t) (blk3_1 V c t)))
    rw [refill3_1]
  isplitl [H2]
  · iexists d2
    change _ ⊢ owns (c : Thread nD τ) (st3_2 t) fullShare (win3_2.fill (grid3.coords t) d2 (win3_2.cut (grid3.coords t) (blk3_2 V c t)))
    rw [refill3_2]
  iexists out3_3 (iblk3 V c 0 t) (win3_1.fill (grid3.coords t) d1 (iblk3 V c 1 t)) (win3_2.fill (grid3.coords t) d2 (iblk3 V c 2 t))
  change _ ⊢ owns (c : Thread nD τ) (st3_3 t) fullShare
    (win3_3.fill (grid3.coords t) (out3_3 (iblk3 V c 0 t) (win3_1.fill (grid3.coords t) d1 (iblk3 V c 1 t)) (win3_2.fill (grid3.coords t) d2 (iblk3 V c 2 t)))
      (win3_3.cut (grid3.coords t) (out3_3 (iblk3 V c 0 t) (blk3_1 V c t) (blk3_2 V c t))))
  rw [show win3_3.fill (grid3.coords t) (out3_3 (iblk3 V c 0 t) (win3_1.fill (grid3.coords t) d1 (iblk3 V c 1 t)) (win3_2.fill (grid3.coords t) d2 (iblk3 V c 2 t)))
        (win3_3.cut (grid3.coords t) (out3_3 (iblk3 V c 0 t) (blk3_1 V c t) (blk3_2 V c t)))
      = out3_3 (iblk3 V c 0 t) (win3_1.fill (grid3.coords t) d1 (iblk3 V c 1 t)) (win3_2.fill (grid3.coords t) d2 (iblk3 V c 2 t)) from
    win3_3.fill_congr_cut (grid3.coords t)
      (hloc (grid3.coords t) (iblk3 V c 0 t) d1 (fun _ => Scalar.ofBits .f32 0#32) (iblk3 V c 1 t) d2 (fun _ => Scalar.ofBits .f32 0#32) (iblk3 V c 2 t))]

/-! ## The library's body obligations -/

/-- The windows the relational reading forgets: the output's, window 3. -/
abbrev fgt3 : Fin 4 → Bool := fun | 0 => false | 1 => false | 2 => false | 3 => true | ⟨_ + 4, h⟩ => absurd h (Nat.not_lt.2 (Nat.le_add_left _ _))

/-- The body obligation with the output window forgotten, at every point, for any float model. -/
theorem body_obligation3_fgt (c : Dev nD) :
    BodyObligationLoose (dat3 (F := F) V c) (defs₀ (F := F)) Variants.none () Set.univ fgt3 := fun t => by
  rw [bigSep_W3, bigSep_W3]
  exact sound_body3F V c t

/-- The body obligation naming the output's block, at every point, for a float model with `Loc3`. -/
theorem body_obligation3 (hloc : Loc3 F) (c : Dev nD) :
    BodyObligationLoose (dat3 (F := F) V c) (defs₀ (F := F)) Variants.none () Set.univ := fun t => by
  rw [bigSep_W3, bigSep_W3]
  exact sound_body3 V hloc c t

end Cert.KernelIdeal.Hand

end
-- ==== Proof.KI.Reg3Ideal.lean ====
/-
  `Loc3` at the ideal values: the one fact about the float model that region 3's body obligation takes as a
  hypothesis (KI/Reg3.lean). At the ideal values `tpu.matmul` is the accumulator plus, lane by lane, the sum over the
  contraction of the operands' products; lane `y 1` of `h2 · (W_blk)ᵀ` reads row `y 1` of the weight block, and the
  bias is added lane by lane. A lane the write-back moves lies below the cut of the result block, which is the cut of
  the weight and bias blocks on the axis they move along; so what it reads lies inside the arrays, where any two
  fillings of the blocks agree.
-/
import proofs.«408709_j86328842650330_3_alg».proof.Proof.KI.Reg3
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

/-- The cuts of windows 1, 2 and 3 agree on the axis their blocks move along, and window 1 is uncut on the other
    (decided over the 25 points). -/
theorem xsize3 : ∀ i : grid3.Coords, win3_1.xsize i 0 = win3_3.xsize i 1 ∧ win3_2.xsize i 0 = win3_3.xsize i 1 ∧ win3_1.xsize i 1 = 1024 := by
  decide +kernel

/-- Two fillings of a block agree where the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- At the ideal values, lane `y 1` of the payload reads row `y 1` of the weight block and element `y 1` of the
    bias block only: the product is a sum per lane over the contraction, whose right factors are the transposed
    block's column `y 1`, that is the block's row `y 1`; the bias is added lane by lane. -/
theorem k3_pay1_loc (x0 : Vec Ideal S1x1024 .f32) (x1 x1' : Vec Ideal S2048x1024 .f32) (x2 x2' : Vec Ideal S2048 .f32)
    (y : S1x2048.Idx)
    (h1 : ∀ k : S2048x1024.Idx, (k 0).val = (y 1).val → x1 k = x1' k)
    (h2 : ∀ k : S2048.Idx, (k 0).val = (y 1).val → x2 k = x2' k) :
    k3_pay1 x0 x1 x2 y = k3_pay1 x0 x1' x2' y := by
  have e2 : shapeCast S1x2048 x2 shapeCasts_S2048_S1x2048 y = shapeCast S1x2048 x2' shapeCasts_S2048_S1x2048 y :=
    (shapeCast_addUnit_apply (n := 1) ![2048] x2 shapeCasts_S2048_S1x2048 y).trans
      ((h2 _ rfl).trans (shapeCast_addUnit_apply (n := 1) ![2048] x2' shapeCasts_S2048_S1x2048 y).symm)
  have e1 : ∀ k : dot_S1x1024_S1024x2048_S1x2048_1_0_0_1_n_n.contr.Idx,
      transpose S1024x2048 [1, 0] (truncf (F := Ideal) .bf16 (x1 : FVec Ideal S2048x1024 .f32) bitsLt_bf16_f32) transposes_S2048x1024_p1_0_S1024x2048 (dot_S1x1024_S1024x2048_S1x2048_1_0_0_1_n_n.rhsIdx y k)
        = transpose S1024x2048 [1, 0] (truncf (F := Ideal) .bf16 (x1' : FVec Ideal S2048x1024 .f32) bitsLt_bf16_f32) transposes_S2048x1024_p1_0_S1024x2048 (dot_S1x1024_S1024x2048_S1x2048_1_0_0_1_n_n.rhsIdx y k) := fun k => by
    unfold transpose truncf; rw [h1 _ rfl]
  unfold k3_pay1
  simp only [addf, matmul, Ideal.matmul_apply, e1, e2]

/-- `Loc3` at the ideal values: a moved lane of the result block is below the cut, so the weight row and the bias
    element it reads are below the cut of their windows, which is the same cut: inside the arrays, where the two
    fillings agree. -/
theorem loc3_ideal : Loc3 Ideal := by
  intro i x0 d1 d1' g1 d2 d2' g2
  funext j
  show out3_3 x0 (win3_1.fill i d1 g1) (win3_2.fill i d2 g2) (win3_3.xinj i j)
    = out3_3 x0 (win3_1.fill i d1' g1) (win3_2.fill i d2' g2) (win3_3.xinj i j)
  rw [out3_3_eq, out3_3_eq]
  obtain ⟨e1, e2, e3⟩ := xsize3 i
  have hj : (j 1).val < win3_3.xsize i 1 := (j 1).isLt
  refine k3_pay1_loc x0 _ _ _ _ _
    (fun k hk => fill_eq_of_moved win3_1 i d1 d1' g1 ((win3_1.moved_iff i k).mpr fun a => ?_))
    (fun k hk => fill_eq_of_moved win3_2 i d2 d2' g2 ((win3_2.moved_iff i k).mpr fun a => ?_))
  · match a with
    | ⟨0, _⟩ => show (k 0).val < win3_1.xsize i 0; rw [e1, hk]; exact hj
    | ⟨1, _⟩ => show (k 1).val < win3_1.xsize i 1; rw [e3]; exact (k 1).isLt
  · match a with
    | ⟨0, _⟩ => show (k 0).val < win3_2.xsize i 0; rw [e2, hk]; exact hj

end Cert.KernelIdeal.Hand

end
-- ==== Proof.KI.Reg0.lean ====
/- REGION 0 of @main: custom_call 0, `cc0__embed_kernel`, a pipeline over a grid of one point with ONE PREFETCHED
   TABLE (the clipped word, one i32) and two windows: window 0 the block (1,8,128) of the embedding table viewed as
   [50257,8,128] at the block index the table's word names, window 1 the output [1,8,128], written back.
   Everything is stated at a PARAMETER `V` (the TensorCore's buffer contents when the region is entered) and at
   ADMISSIBLE contents `a0` of the prefetched table (contents with the pipeline's side condition: the block the word
   names lies inside the array), for any float interpretation `F`.
   The body loads window 0's block x, loads its own output window (the value is not used), and stores
   max(x, 0) over the whole output window; it never touches the table. So after the body the output window holds
   `out0_1 x`, and the table rides through the region inside the invariant, whole. -/
import proofs.«408709_j86328842650330_3_alg».proof.Proof.Gen.KernelIdeal.Launch
import proofs.«408709_j86328842650330_3_alg».proof.Proof.Gen.KernelIdeal.Skeleton
import proofs.«408709_j86328842650330_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))
variable (a0 : (pcfg0 (F := F)).Adm)

/-! ## The windows' blocks -/

/-- Window `w`'s block at point `t`, read off its array as the region finds it (`V`); window 0's block index is a
    function of the table's word (`a0`). -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-! ## The staging memrefs and the body at a point -/

/-- Each window's current staging memref at point `t`. -/
abbrev st0_0 (t : Fin (cfg0 a0).N) : Memref sig .tc .vmem S1x8x128 .f32 := spec0_0.stage ((cfg0 a0).slots t 0)
abbrev hst0_0 (t : Fin (cfg0 a0).N) : (st0_0 a0 t).IsWhole := hstage0_0 (((cfg0 a0).slots t 0).cast nbuf0_0)
abbrev st0_1 (t : Fin (cfg0 a0).N) : Memref sig .tc .vmem S1x8x128 .f32 := spec0_1.stage ((cfg0 a0).slots t 1)
abbrev hst0_1 (t : Fin (cfg0 a0).N) : (st0_1 a0 t).IsWhole := hstage0_1 (((cfg0 a0).slots t 1).cast nbuf0_1)

/-- The kernel body at point `t`, on what the pipeline calls it with: the table's whole buffer and the two
    current staging memrefs. -/
abbrev bodyAt0 (t : Fin (cfg0 a0).N) : Prog (TpuEff nD τ sig (Elt F) Λ₀ .tc) PUnit :=
  cc0__embed_kernel (grid0.coords t) (Memref.whole main_v0) (Memref.isWhole_whole _) (st0_0 a0 t) (hst0_0 a0 t) (st0_1 a0 t) (hst0_1 a0 t)

/-! ## What the body leaves in the output window's buffer -/

/-- The one rectangle the body reads and writes: the whole window. -/
abbrev r0_0 : Rect S1x8x128 := Rect.unit (s := S1x8x128) ![0, 0, 0] S1x8x128.size inb_S1x8x128_S1x8x128_0_0_0

/-- Window 1's staging buffer after the body, from window 0's block `x0`: its one store, of
    max(x0, 0) (the payload `k0_pay1`) over the whole window. -/
def out0_1 (x0 : Vec F S1x8x128 .f32) : Vec F S1x8x128 .f32 :=
  View.canon [⟨r0_0, k0_pay1 (View.ld x0 r0_0)⟩]

/-- The store's rectangle is the whole window, so it covers it. -/
theorem cover0_1 (p0 : Vec F S1x8x128 .f32) (y : S1x8x128.Idx) :
    ∃ pc ∈ ([⟨r0_0, p0⟩] : List (View.Piece (Elt F) S1x8x128 .f32)), y ∈ pc.1.set :=
  View.cover_of_tiled [⟨r0_0, p0⟩] S1x8x128.size (by rfl) y

/-! ## The body's triple -/

set_option maxHeartbeats 1000000 in
/-- The body on whole staging memrefs, window 0's at read contents `x0` and window 1's at anything, runs to the
    continuation holding window 0's as it was and window 1's at `out0_1 x0`. The table's memref `arg1` is
    never accessed, so nothing is asked of it. -/
theorem sound_kernel0 (c : Dev nD) (E : Set ℕ) (i : grid0.Coords) (arg1 : Memref sig .tc .smem S1 .i32) (harg1 : arg1.IsWhole)
    (arg2 : Memref sig .tc .vmem S1x8x128 .f32) (harg2 : arg2.IsWhole) (arg3 : Memref sig .tc .vmem S1x8x128 .f32) (harg3 : arg3.IsWhole)
    (x0 : Vec F S1x8x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## Window 0's staging buffer where the body finds it -/

/-- Input window 0's current staging buffer holds its block at every point, fetched there or not, for ANY proof
    data whose array is `V`'s (`hA`) and whose body leaves the block in place (`hafter`): the window is an
    input, never idle and uncut, so what the body finds is what a fetch there puts (the library's
    `Dat.before_in_eq_fetched`), which is the block read off the array. -/
theorem before0_0_of {c : Dev nD} (dat : Dat τ (Elt F) Unit ℕ (UR sig nD τ) ℕ (cfg0 a0) c)
    (hA : dat.A 0 = V c (Pipeline.arrRef spec0 0)) (hafter : ∀ t, dat.after 0 t = iblk0 V a0 c 0 t)
    (t : Fin (cfg0 a0).N) (d) : dat.before 0 t d = iblk0 V a0 c 0 t := by
  have hkeep : ∀ t, ((cfg0 a0).win 0).cut ((cfg0 a0).grid.coords t) (dat.after 0 t) = dat.blockOf 0 t := fun t => by
    rw [hafter]; unfold Dat.blockOf iblk0; rw [hA]; rfl
  rw [dat.before_in_eq_fetched 0 rfl (fun _ => rfl) (fun _ _ _ => rfl) hkeep t d]
  unfold Dat.fetched Dat.blockOf iblk0; rw [hA]; rfl

/-! ## The pipeline's proof data -/

/-- The proof data of pipeline 0 on core `c`, at the table's contents `a0`: the arrays as the region finds them
    (`V`); after the body at point `t` window 0's buffer at its block and window 1's at `out0_1` of that block; the
    invariant, the same at every point: the scoped rest and the generator register (`ΦA`) and the prefetched
    table held WHOLE at the contents `a0` (the body never reads it; the region hands it in whole and must hand it
    back whole); nothing owed; full shares. -/
def dat0 (c : Dev nD) : Dat τ (Elt F) Unit ℕ (UR sig nD τ) ℕ (cfg0 a0) c where
  A w := V c (Pipeline.arrRef spec0 w)
  after w t := match w with
    | ⟨0, _⟩ => iblk0 V a0 c 0 t
    | ⟨1, _⟩ => out0_1 (iblk0 V a0 c 0 t)
  Φ _ := iprop(Pipeline.ΦA spec0 c ∗ Pipeline.prefHeld pre0 c (fun _ => fullShare) a0.1)
  q _ := fullShare
  owed _ := 0

/-- The proof data's arrays are the region-entry contents. -/
theorem A_eq0 (c : Dev nD) (w : Fin (cfg0 a0).W) : (dat0 V a0 c).A w = V c (Pipeline.arrRef spec0 w) := by
  dsimp only [dat0]

/-- What the body leaves, window by window. -/
theorem after0_0 (c : Dev nD) (t : Fin (cfg0 a0).N) : (dat0 V a0 c).after 0 t = iblk0 V a0 c 0 t := by dsimp only [dat0]; try rfl
theorem after0_1 (c : Dev nD) (t : Fin (cfg0 a0).N) : (dat0 V a0 c).after 1 t = out0_1 (iblk0 V a0 c 0 t) := by dsimp only [dat0]; try rfl

/-- Window 0's current staging buffer holds its block at every point. -/
theorem before0_0 (c : Dev nD) (t : Fin (cfg0 a0).N) (d) : (dat0 V a0 c).before 0 t d = iblk0 V a0 c 0 t :=
  before0_0_of V a0 (dat0 V a0 c) (A_eq0 V a0 c 0) (after0_0 V a0 c) t d

/-- The invariant at every point, spelled out. -/
theorem Phi0_eq (c : Dev nD) (j : Fin ((cfg0 a0).N + 1)) :
    (dat0 V a0 c).Φ j = iprop(Pipeline.ΦA spec0 c ∗ Pipeline.prefHeld pre0 c (fun _ => fullShare) a0.1) := rfl

/-- The invariant at the first point from the class invariant and the table held whole, -/
theorem Phi0_in (c : Dev nD) :
    iprop(Pipeline.ΦA spec0 c ∗ Pipeline.prefHeld (pcfg0 (F := F)).pre c (fun _ => fullShare) a0.1) ⊢ (dat0 V a0 c).Φ 0 := by
  rw [Phi0_eq]

/-- and the same two back from the invariant at the last point. -/
theorem Phi0_out (c : Dev nD) :
    (dat0 V a0 c).Φ (Fin.last (cfg0 a0).N) ⊢ iprop(Pipeline.ΦA spec0 c ∗ Pipeline.prefHeld (pcfg0 (F := F)).pre c (fun _ => fullShare) a0.1) := by
  rw [Phi0_eq]

/-! ## The body obligation, at a generic point -/

/-- What the body is called with at point `t`, the windows one by one, -/
def bodyPre0 (c : Dev nD) (t : Fin (cfg0 a0).N) : sProp 𝕄 :=
  iprop((dat0 V a0 c).Φ t.castSucc ∗ (dat0 V a0 c).owesAt () t.castSucc
    ∗ (∃ d, owns (c : Thread nD τ) (st0_0 a0 t) fullShare ((dat0 V a0 c).before 0 t d))
    ∗ (∃ d, owns (c : Thread nD τ) (st0_1 a0 t) fullShare ((dat0 V a0 c).before 1 t d)))

/-- and what it returns. -/
def bodyPost0 (c : Dev nD) (t : Fin (cfg0 a0).N) : sProp 𝕄 :=
  iprop((dat0 V a0 c).Φ t.succ ∗ (dat0 V a0 c).owesAt () t.succ
    ∗ owns (c : Thread nD τ) (st0_0 a0 t) fullShare ((dat0 V a0 c).after 0 t)
    ∗ owns (c : Thread nD τ) (st0_1 a0 t) fullShare ((dat0 V a0 c).after 1 t))

/-- The body at any point: window 0's memref holds its block (`before0_0`), so `sound_kernel0` applies; the
    invariant (the table in it) and the core's `owes` pass through unread. -/
theorem sound_body0 (c : Dev nD) (t : Fin (cfg0 a0).N) :
    bodyPre0 V a0 c t ⊢ wp frame (wpE (defs₀ (F := F)) Variants.none c none) Set.univ (bodyAt0 a0 t) (fun _ => bodyPost0 V a0 c t) := by
  unfold bodyPre0 bodyPost0 bodyAt0
  simp only [before0_0]
  rw [show (dat0 V a0 c).Φ t.succ = (dat0 V a0 c).Φ t.castSucc from rfl,
    show (dat0 V a0 c).owesAt () t.succ = (dat0 V a0 c).owesAt () t.castSucc from rfl,
    after0_0, after0_1]
  iintro ⟨HΦ, Ho, ⟨%d0, H0⟩, ⟨%d1, H1⟩⟩
  iapply (sound_kernel0 c Set.univ _ _ _ _ _ _ _ (iblk0 V a0 c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) :
    BodyObligation (dat0 (F := F) V a0 c) (defs₀ (F := F)) Variants.none () Set.univ := fun t => by
  rw [bigSep_W0, bigSep_W0]
  exact sound_body0 V a0 c t

/-! ## The output window's contents read pointwise -/

/-- The offsets of the one rectangle are zero. -/
theorem r0_0_off : (![0, 0, 0] : Fin S1x8x128.rank → Nat) = fun _ => 0 := by
  funext a; fin_cases a <;> rfl

/-- The one store is of the whole window at zero offsets and the load before it reads the whole block, so what
    the body leaves in the output window is the payload itself: max(x0, 0), element by element. -/
theorem out0_1_eq (x0 : Vec F S1x8x128 .f32) : out0_1 x0 = k0_pay1 x0 := by
  unfold out0_1
  rw [View.canon_unit_zero r0_0_off, View.ld_unit_zero r0_0_off]

/-! ## The invariant at the region's two ends -/

/-- ENTRY: the generator register, the prefetched table held whole at `a0` and the scoped buffers no window
    stages make the invariant at the first point. -/
theorem hin0 (c : Dev nD) :
    iprop((∃ r, prngReg c r) ∗ Pipeline.prefHeld (pcfg0 (F := F)).pre c (fun _ => fullShare) a0.1
        ∗ Pipeline.scopedRest (cfg0 a0).spec c) ⊢ (dat0 V a0 c).Φ 0 := by
  rw [Phi0_eq]; unfold Pipeline.ΦA
  iintro ⟨Hp, Ht, Hr⟩
  isplitl [Hr Hp]
  · isplitl [Hr]; · iexact Hr
    iexact Hp
  iexact Ht

/-- EXIT: the invariant at the last point gives back the generator register and the table, whole, the kernel's
    own semaphores (it has none) and those scoped buffers. -/
theorem hout0 (c : Dev nD) :
    (dat0 V a0 c).Φ (Fin.last (cfg0 a0).N) ⊢ iprop(iprop((∃ r, prngReg c r) ∗ Pipeline.prefHeld (pcfg0 (F := F)).pre c (fun _ => fullShare) a0.1)
        ∗ Pipeline.ownSems0 (fun k : PEmpty => k.elim) c ∗ Pipeline.scopedRest (cfg0 a0).spec c) := by
  rw [Phi0_eq, Pipeline.ownSems0_none]; unfold Pipeline.ΦA
  iintro ⟨⟨Hr, Hp⟩, Ht⟩
  isplitl [Hp Ht]
  · isplitl [Hp]; · iexact Hp
    iexact Ht
  isplitr; · iempintro
  iexact Hr

end Region0

end Cert.KernelIdeal.Hand

end
-- ==== Proof.KI.Reg1.lean ====
import proofs.«408709_j86328842650330_3_alg».proof.Proof.Gen.KernelIdeal.Launch
import proofs.«408709_j86328842650330_3_alg».proof.Proof.Gen.KernelIdeal.Skeleton
import proofs.«408709_j86328842650330_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: the gate pipeline (seven windows over a grid of four points)

At each point the body reads its six input blocks whole (the two row vectors, the two weight blocks, the two bias
blocks), reads the output block (a value it never uses) and stores ONE value over the whole output block: the
two matrix products of the rounded operands plus the two biases. Everything is stated at any float
interpretation, over the buffer contents the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! An input window holds its block at every point, whether it was fetched there or not: where it was not, its
block index has not moved since the point before (the two row vectors are fetched once, at the first point). This
holds for any proof data over the entry contents whose body leaves the input blocks in place. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have hkeep : ∀ t, (cfg1.win 0).cut (cfg1.grid.coords t) (dat.after 0 t) = dat.blockOf 0 t := by
    intro t; rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have hkeep : ∀ t, (cfg1.win 1).cut (cfg1.grid.coords t) (dat.after 1 t) = dat.blockOf 1 t := by
    intro t; rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have hkeep : ∀ t, (cfg1.win 2).cut (cfg1.grid.coords t) (dat.after 2 t) = dat.blockOf 2 t := by
    intro t; rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have hkeep : ∀ t, (cfg1.win 3).cut (cfg1.grid.coords t) (dat.after 3 t) = dat.blockOf 3 t := by
    intro t; rw [hafter]; unfold Dat.blockOf iblk1; rw [hA]; try rfl
  rw [dat.before_in_eq_fetched 3 rfl (fun _ => rfl) (fun _ _ _ => rfl) hkeep t d]
  unfold Dat.fetched Dat.blockOf iblk1; rw [hA]; try rfl

theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have hkeep : ∀ t, (cfg1.win 4).cut (cfg1.grid.coords t) (dat.after 4 t) = dat.blockOf 4 t := by
    intro t; rw [hafter]; unfold Dat.blockOf iblk1; rw [hA]; try rfl
  rw [dat.before_in_eq_fetched 4 rfl (fun _ => rfl) (fun _ _ _ => rfl) hkeep t d]
  unfold Dat.fetched Dat.blockOf iblk1; rw [hA]; try rfl

theorem before1_5_of {c : Dev nD} (dat : Dat τ (Elt F) Unit ℕ (UR sig nD τ) ℕ cfg1 c)
    (hA : dat.A 5 = V c (Pipeline.arrRef spec1 5)) (hafter : ∀ t, dat.after 5 t = iblk1 V c 5 t)
    (t : Fin cfg1.N) (d) : dat.before 5 t d = iblk1 V c 5 t := by
  have hkeep : ∀ t, (cfg1.win 5).cut (cfg1.grid.coords t) (dat.after 5 t) = dat.blockOf 5 t := by
    intro t; rw [hafter]; unfold Dat.blockOf iblk1; rw [hA]; try rfl
  rw [dat.before_in_eq_fetched 5 rfl (fun _ => rfl) (fun _ _ _ => rfl) hkeep t d]
  unfold Dat.fetched Dat.blockOf iblk1; rw [hA]; try rfl

/-! ## The body's accesses: every load and the store go through the whole buffer -/

abbrev r1_0 : Rect S1x1024 := Rect.unit (s := S1x1024) ![0, 0] S1x1024.size inb_S1x1024_S1x1024_0_0
abbrev r1_1 : Rect S1024x1024 := Rect.unit (s := S1024x1024) ![0, 0] S1024x1024.size inb_S1024x1024_S1024x1024_0_0
abbrev r1_2 : Rect S1024 := Rect.unit (s := S1024) ![0] S1024.size inb_S1024_S1024_0

/-! ## What the body leaves in the output window's buffer -/

/-- The output buffer after the body, from the six input blocks: its one store, whose value is the kernel's
    payload of the six loads. -/
def out1_6 (x0 x1 : Vec F S1x1024 .f32) (x2 x3 : Vec F S1024x1024 .f32) (x4 x5 : Vec F S1024 .f32) : Vec F S1x1024 .f32 :=
  View.canon [⟨r1_0, k1_pay1 (View.ld x0 r1_0) (View.ld x1 r1_0) (View.ld x2 r1_1) (View.ld x3 r1_1) (View.ld x4 r1_2) (View.ld x5 r1_2)⟩]

/-- Loads through the whole buffer read the contents and the one whole store leaves its value: the output buffer
    is the payload of the six input blocks themselves. -/
theorem out1_6_eq (x0 x1 : Vec F S1x1024 .f32) (x2 x3 : Vec F S1024x1024 .f32) (x4 x5 : Vec F S1024 .f32) :
    out1_6 x0 x1 x2 x3 x4 x5 = k1_pay1 x0 x1 x2 x3 x4 x5 := by
  unfold out1_6
  rw [View.canon_unit_zero (by funext a; fin_cases a <;> rfl)]
  rw [View.ld_unit_zero (by funext a; fin_cases a <;> rfl) inb_S1x1024_S1x1024_0_0 x0,
    View.ld_unit_zero (by funext a; fin_cases a <;> rfl) inb_S1x1024_S1x1024_0_0 x1,
    View.ld_unit_zero (by funext a; fin_cases a <;> rfl) inb_S1024x1024_S1024x1024_0_0 x2,
    View.ld_unit_zero (by funext a; fin_cases a <;> rfl) inb_S1024x1024_S1024x1024_0_0 x3,
    View.ld_unit_zero (by funext a; fin_cases a <;> rfl) inb_S1024_S1024_0 x4,
    View.ld_unit_zero (by funext a; fin_cases a <;> rfl) inb_S1024_S1024_0 x5]

/-- The one store covers the output buffer. -/
theorem cover1_6 (p0 : Vec F S1x1024 .f32) (y : S1x1024.Idx) :
    ∃ pc ∈ ([⟨r1_0, p0⟩] : List (View.Piece (Elt F) S1x1024 .f32)), y ∈ pc.1.set :=
  ⟨_, List.mem_singleton_self _, View.mem_set_unit_zero (by funext a; fin_cases a <;> rfl) inb_S1x1024_S1x1024_0_0 y⟩

/-! ## The body's triple -/

set_option maxHeartbeats 1000000 in
/-- The body on whole staging buffers, the six inputs' at contents `x0 … x5` and the output's at anything, runs to
    the continuation with the inputs' as they were and the output's at `out1_6` of them. The output buffer is read
    once before it is written; nothing depends on what was read. -/
theorem sound_kernel1 (c : Dev nD) (E : Set ℕ) (i : grid1.Coords)
    (arg1 : Memref sig .tc .vmem S1x1024 .f32) (harg1 : arg1.IsWhole)
    (arg2 : Memref sig .tc .vmem S1x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024 .f32) (harg5 : arg5.IsWhole)
    (arg6 : Memref sig .tc .vmem S1024 .f32) (harg6 : arg6.IsWhole)
    (arg7 : Memref sig .tc .vmem S1x1024 .f32) (harg7 : arg7.IsWhole)
    (x0 x1 : Vec F S1x1024 .f32) (x2 x3 : Vec F S1024x1024 .f32) (x4 x5 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gate_kernel i arg1 harg1 arg2 harg2 arg3 harg3 arg4 harg4 arg5 harg5 arg6 harg6 arg7 harg7) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays at the entry contents; after the body at point `t` each
    input's buffer at its block and the output's at `out1_6` of the six input blocks; the invariant that leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at any point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«408709_j86328842650330_3_alg».proof.Proof.Gen.KernelIdeal.Launch
import proofs.«408709_j86328842650330_3_alg».proof.Proof.Gen.KernelIdeal.Skeleton
import proofs.«408709_j86328842650330_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2: the gate pipeline (seven windows over a grid of four points)

At each point the body reads its six input blocks whole (the two row vectors, the two weight blocks, the two bias
blocks), reads the output block (a value it never uses) and stores ONE value over the whole output block: the
two matrix products of the rounded operands plus the two biases. Everything is stated at any float
interpretation, over the buffer contents the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window `w`'s block at point `t`, read off its array at the entry contents. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! An input window holds its block at every point, whether it was fetched there or not: where it was not, its
block index has not moved since the point before (the two row vectors are fetched once, at the first point). This
holds for any proof data over the entry contents whose body leaves the input blocks in place. -/

theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  have hkeep : ∀ t, (cfg2.win 0).cut (cfg2.grid.coords t) (dat.after 0 t) = dat.blockOf 0 t := by
    intro t; rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  have hkeep : ∀ t, (cfg2.win 1).cut (cfg2.grid.coords t) (dat.after 1 t) = dat.blockOf 1 t := by
    intro t; rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  have hkeep : ∀ t, (cfg2.win 2).cut (cfg2.grid.coords t) (dat.after 2 t) = dat.blockOf 2 t := by
    intro t; rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

theorem before2_3_of {c : Dev nD} (dat : Dat τ (Elt F) Unit ℕ (UR sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  have hkeep : ∀ t, (cfg2.win 3).cut (cfg2.grid.coords t) (dat.after 3 t) = dat.blockOf 3 t := by
    intro t; rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

theorem before2_4_of {c : Dev nD} (dat : Dat τ (Elt F) Unit ℕ (UR sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  have hkeep : ∀ t, (cfg2.win 4).cut (cfg2.grid.coords t) (dat.after 4 t) = dat.blockOf 4 t := by
    intro t; rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

theorem before2_5_of {c : Dev nD} (dat : Dat τ (Elt F) Unit ℕ (UR sig nD τ) ℕ cfg2 c)
    (hA : dat.A 5 = V c (Pipeline.arrRef spec2 5)) (hafter : ∀ t, dat.after 5 t = iblk2 V c 5 t)
    (t : Fin cfg2.N) (d) : dat.before 5 t d = iblk2 V c 5 t := by
  have hkeep : ∀ t, (cfg2.win 5).cut (cfg2.grid.coords t) (dat.after 5 t) = dat.blockOf 5 t := by
    intro t; rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl

/-! ## The body's accesses: every load and the store go through the whole buffer -/

abbrev r2_0 : Rect S1x1024 := Rect.unit (s := S1x1024) ![0, 0] S1x1024.size inb_S1x1024_S1x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0

/-! ## What the body leaves in the output window's buffer -/

/-- The output buffer after the body, from the six input blocks: its one store, whose value is the kernel's
    payload of the six loads. -/
def out2_6 (x0 x1 : Vec F S1x1024 .f32) (x2 x3 : Vec F S1024x1024 .f32) (x4 x5 : Vec F S1024 .f32) : Vec F S1x1024 .f32 :=
  View.canon [⟨r2_0, k2_pay1 (View.ld x0 r2_0) (View.ld x1 r2_0) (View.ld x2 r2_1) (View.ld x3 r2_1) (View.ld x4 r2_2) (View.ld x5 r2_2)⟩]

/-- Loads through the whole buffer read the contents and the one whole store leaves its value: the output buffer
    is the payload of the six input blocks themselves. -/
theorem out2_6_eq (x0 x1 : Vec F S1x1024 .f32) (x2 x3 : Vec F S1024x1024 .f32) (x4 x5 : Vec F S1024 .f32) :
    out2_6 x0 x1 x2 x3 x4 x5 = k2_pay1 x0 x1 x2 x3 x4 x5 := by
  unfold out2_6
  rw [View.canon_unit_zero (by funext a; fin_cases a <;> rfl)]
  rw [View.ld_unit_zero (by funext a; fin_cases a <;> rfl) inb_S1x1024_S1x1024_0_0 x0,
    View.ld_unit_zero (by funext a; fin_cases a <;> rfl) inb_S1x1024_S1x1024_0_0 x1,
    View.ld_unit_zero (by funext a; fin_cases a <;> rfl) inb_S1024x1024_S1024x1024_0_0 x2,
    View.ld_unit_zero (by funext a; fin_cases a <;> rfl) inb_S1024x1024_S1024x1024_0_0 x3,
    View.ld_unit_zero (by funext a; fin_cases a <;> rfl) inb_S1024_S1024_0 x4,
    View.ld_unit_zero (by funext a; fin_cases a <;> rfl) inb_S1024_S1024_0 x5]

/-- The one store covers the output buffer. -/
theorem cover2_6 (p0 : Vec F S1x1024 .f32) (y : S1x1024.Idx) :
    ∃ pc ∈ ([⟨r2_0, p0⟩] : List (View.Piece (Elt F) S1x1024 .f32)), y ∈ pc.1.set :=
  ⟨_, List.mem_singleton_self _, View.mem_set_unit_zero (by funext a; fin_cases a <;> rfl) inb_S1x1024_S1x1024_0_0 y⟩

/-! ## The body's triple -/

set_option maxHeartbeats 1000000 in
/-- The body on whole staging buffers, the six inputs' at contents `x0 … x5` and the output's at anything, runs to
    the continuation with the inputs' as they were and the output's at `out2_6` of them. The output buffer is read
    once before it is written; nothing depends on what was read. -/
theorem sound_kernel2 (c : Dev nD) (E : Set ℕ) (i : grid2.Coords)
    (arg1 : Memref sig .tc .vmem S1x1024 .f32) (harg1 : arg1.IsWhole)
    (arg2 : Memref sig .tc .vmem S1x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024 .f32) (harg5 : arg5.IsWhole)
    (arg6 : Memref sig .tc .vmem S1024 .f32) (harg6 : arg6.IsWhole)
    (arg7 : Memref sig .tc .vmem S1x1024 .f32) (harg7 : arg7.IsWhole)
    (x0 x1 : Vec F S1x1024 .f32) (x2 x3 : Vec F S1024x1024 .f32) (x4 x5 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gate_kernel i arg1 harg1 arg2 harg2 arg3 harg3 arg4 harg4 arg5 harg5 arg6 harg6 arg7 harg7) K := by
  simp only [cc2__gate_kernel_eq_skeleton]; unfold cc2__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the pipeline on core `c`: the arrays at the entry contents; after the body at point `t` each
    input's buffer at its block and the output's at `out2_6` of the six input blocks; the invariant that leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at any point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  THE RUN of the program's four kernel regions among its host stretches, at any float instance `F`.

  Between two items a core holds every unscoped buffer whole at a valuation: the launch contents, then
  `StableHlo.after` each host stretch, then, at a region, the valuation updated at the one array the region writes.
  What a region writes is its output window's array after the last write-back (`Dat.arrAt … N`), computed from the
  contents the region finds. Region k+1 finds what region k left, so the family `outs` of what the regions leave is
  built in four stages, each stage reading only what the stages before it set; `outs_4 … outs_10` state the result
  over the finished family.

  Each region is a segment record: its arrays split out of the unscoped buffers at entry and put back at the exit
  valuation. Region 0's prefetched table, which holds the clipped word, leaves the unscoped rest whole at entry, passes
  through the invariant, and returns at the exit. `run_val` launches the twelve items and reads the three results and
  the fourteen arguments off the last valuation; `frame` keeps the arguments alone.
-/
import proofs.«408709_j86328842650330_3_alg».proof.Proof.Gen.KernelIdeal.Launch
import proofs.«408709_j86328842650330_3_alg».proof.Proof.Gen.KernelIdeal.Skeleton
import proofs.«408709_j86328842650330_3_alg».proof.Proof.Gen.KernelIdeal.Points
import proofs.«408709_j86328842650330_3_alg».proof.Proof.Gen.KernelIdeal.Regions
import proofs.«408709_j86328842650330_3_alg».proof.Proof.KI.Reg0
import proofs.«408709_j86328842650330_3_alg».proof.Proof.KI.Reg1
import proofs.«408709_j86328842650330_3_alg».proof.Proof.KI.Reg2
import proofs.«408709_j86328842650330_3_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # THE RUN of the four-region program -/

variable (m : (ℓ : Loc nD τ sig) → Buf (Elt F) ℓ) (a0 : (pcfg0 (F := F)).Adm)

/-! ## What the regions leave: the generated valuations' unknowns, chosen region by region -/

/-- A valuation read at the TensorCore's references: what a region's proof data take as the contents it finds. -/
abbrev atTc (W : Dev nD → Valuation τ sig (Elt F)) : (c : Dev nD) → (b : Ref sig .tc) → Buf (Elt F) ((c : Thread nD τ).loc b) :=
  fun c b => W c b

/-- An unknown family set at one reference. -/
abbrev setAt (o : Gen.Outs (F := F)) (r₀ : Ref sig .tc) (x : (c : Dev nD) → Buf (Elt F) ((c : Thread nD τ).loc r₀)) : Gen.Outs (F := F) :=
  fun j r c => Function.update (β := fun r => Buf (Elt F) ((c : Thread nD τ).loc r)) (fun r => o j r c) r₀ (x c) r

/-- Region 0 leaves in `main_v2` its output window's array after the last write-back. -/
def o4 (c : Dev nD) : Buf (Elt F) ((c : Thread nD τ).loc main_v2) := (dat0 (atTc (Gen.V3 m)) a0 c).arrAt 1 (cfg0 a0).N
/-- Stage one: only `main_v2` is set; every other reference reads the launch memory (never read by a valuation). -/
def outsA : Gen.Outs (F := F) := setAt (fun _ r c => m ((c : Thread nD τ).loc r)) main_v2 (o4 m a0)
/-- Region 1 leaves in `main_v6` its output window's array, computed from what it finds after region 0 and the host stretch. -/
def o6 (c : Dev nD) : Buf (Elt F) ((c : Thread nD τ).loc main_v6) := (dat1 (atTc (Gen.V5 m (outsA m a0))) c).arrAt 6 cfg1.N
/-- Stage two: `main_v6` set beside `main_v2`. -/
def outsB : Gen.Outs (F := F) := setAt (outsA m a0) main_v6 (o6 m a0)
/-- Region 2 leaves in `main_v39` its output window's array, computed from what it finds after region 1 and the host stretch. -/
def o8 (c : Dev nD) : Buf (Elt F) ((c : Thread nD τ).loc main_v39) := (dat2 (atTc (Gen.V7 m (outsB m a0))) c).arrAt 6 cfg2.N
/-- Stage three: `main_v39` set as well. -/
def outsC : Gen.Outs (F := F) := setAt (outsB m a0) main_v39 (o8 m a0)
/-- Region 3 leaves in `main_v70` its output window's array, computed from what it finds after region 2 and the host stretch. -/
def o10 (c : Dev nD) : Buf (Elt F) ((c : Thread nD τ).loc main_v70) := (dat3 (atTc (Gen.V9 m (outsC m a0))) c).arrAt 3 cfg3.N
/-- What the four regions leave. -/
def outs : Gen.Outs (F := F) := setAt (outsC m a0) main_v70 (o10 m a0)

theorem outs_4' (c : Dev nD) : outs m a0 4 main_v2 c = o4 m a0 c := by
  simp only [outs, outsC, outsB, outsA, setAt, Function.update_of_ne (show main_v2 ≠ main_v70 by decide),
    Function.update_of_ne (show main_v2 ≠ main_v39 by decide), Function.update_of_ne (show main_v2 ≠ main_v6 by decide), Function.update_self]

/-! ## The admission family and the proof data family -/

/-- The prefetched tables' admitted contents: region 0's one table at `a0`; the other pipelines have none. -/
abbrev adm : (p : Fin 4) → (pcfgs (F := F) p).Adm
  | ⟨0, _⟩ => a0
  | ⟨1, _⟩ => cfg1.toPCfg_adm
  | ⟨2, _⟩ => cfg2.toPCfg_adm
  | ⟨3, _⟩ => cfg3.toPCfg_adm

/-- Every pipeline's proof data, each at the contents its region finds: a literal `match`, so that the pipeline pinned at
    a numeral reduces to the printed configuration. -/
def pdats : (p : Fin 4) → (c : Dev nD) → Dat τ (Elt F) Unit ℕ (UR sig nD τ) ℕ (Pipeline.pin (pcfgs (F := F)) (adm a0) p) c
  | ⟨0, _⟩ => fun c => dat0 (atTc (Gen.V3 m)) a0 c
  | ⟨1, _⟩ => fun c => dat1 (atTc (Gen.V5 m (outs m a0))) c
  | ⟨2, _⟩ => fun c => dat2 (atTc (Gen.V7 m (outs m a0))) c
  | ⟨3, _⟩ => fun c => dat3 (atTc (Gen.V9 m (outs m a0))) c

/-! ### Reading the unknowns back, stage by stage -/

theorem outsA_4 (c : Dev nD) : outsA m a0 4 main_v2 c = o4 m a0 c := by
  simp only [outsA, setAt, Function.update_self]
theorem outsB_6 (c : Dev nD) : outsB m a0 6 main_v6 c = o6 m a0 c := by
  simp only [outsB, setAt, Function.update_self]
theorem outsB_4 (c : Dev nD) : outsB m a0 4 main_v2 c = o4 m a0 c := by
  simp only [outsB, outsA, setAt, Function.update_of_ne (show main_v2 ≠ main_v6 by decide), Function.update_self]
theorem outsC_8 (c : Dev nD) : outsC m a0 8 main_v39 c = o8 m a0 c := by
  simp only [outsC, setAt, Function.update_self]
theorem outsC_6 (c : Dev nD) : outsC m a0 6 main_v6 c = o6 m a0 c := by
  simp only [outsC, outsB, setAt, Function.update_of_ne (show main_v6 ≠ main_v39 by decide), Function.update_self]
theorem outsC_4 (c : Dev nD) : outsC m a0 4 main_v2 c = o4 m a0 c := by
  simp only [outsC, outsB, outsA, setAt, Function.update_of_ne (show main_v2 ≠ main_v39 by decide),
    Function.update_of_ne (show main_v2 ≠ main_v6 by decide), Function.update_self]
theorem outs_10' (c : Dev nD) : outs m a0 10 main_v70 c = o10 m a0 c := by
  simp only [outs, setAt, Function.update_self]
theorem outs_8' (c : Dev nD) : outs m a0 8 main_v39 c = o8 m a0 c := by
  simp only [outs, outsC, setAt, Function.update_of_ne (show main_v39 ≠ main_v70 by decide), Function.update_self]
theorem outs_6' (c : Dev nD) : outs m a0 6 main_v6 c = o6 m a0 c := by
  simp only [outs, outsC, outsB, setAt, Function.update_of_ne (show main_v6 ≠ main_v70 by decide),
    Function.update_of_ne (show main_v6 ≠ main_v39 by decide), Function.update_self]

/-! ### A valuation depends on the unknowns only where it reads them -/

theorem V5_congr (o o' : Gen.Outs (F := F)) (c : Dev nD) (h4 : o 4 main_v2 c = o' 4 main_v2 c) :
    Gen.V5 m o c = Gen.V5 m o' c := by
  simp only [Gen.V5, Gen.V4, h4]
theorem V7_congr (o o' : Gen.Outs (F := F)) (c : Dev nD) (h4 : o 4 main_v2 c = o' 4 main_v2 c) (h6 : o 6 main_v6 c = o' 6 main_v6 c) :
    Gen.V7 m o c = Gen.V7 m o' c := by
  simp only [Gen.V7, Gen.V6, V5_congr m o o' c h4, h6]
theorem V9_congr (o o' : Gen.Outs (F := F)) (c : Dev nD) (h4 : o 4 main_v2 c = o' 4 main_v2 c) (h6 : o 6 main_v6 c = o' 6 main_v6 c)
    (h8 : o 8 main_v39 c = o' 8 main_v39 c) : Gen.V9 m o c = Gen.V9 m o' c := by
  simp only [Gen.V9, Gen.V8, V7_congr m o o' c h4 h6, h8]

theorem E1_eq : atTc (Gen.V5 m (outs m a0)) = atTc (Gen.V5 m (outsA m a0)) :=
  funext fun c => funext fun b => congrFun (V5_congr m _ _ c ((outs_4' m a0 c).trans (outsA_4 m a0 c).symm)) b
theorem E2_eq : atTc (Gen.V7 m (outs m a0)) = atTc (Gen.V7 m (outsB m a0)) :=
  funext fun c => funext fun b => congrFun (V7_congr m _ _ c ((outs_4' m a0 c).trans (outsB_4 m a0 c).symm)
    ((outs_6' m a0 c).trans (outsB_6 m a0 c).symm)) b
theorem E3_eq : atTc (Gen.V9 m (outs m a0)) = atTc (Gen.V9 m (outsC m a0)) :=
  funext fun c => funext fun b => congrFun (V9_congr m _ _ c ((outs_4' m a0 c).trans (outsC_4 m a0 c).symm)
    ((outs_6' m a0 c).trans (outsC_6 m a0 c).symm) ((outs_8' m a0 c).trans (outsC_8 m a0 c).symm)) b

/-- What each region leaves, stated over the one family `outs`: its output window's array after the last write-back,
    the proof data taken at the contents the region finds. -/
theorem outs_4 (c : Dev nD) : outs m a0 4 main_v2 c = (dat0 (atTc (Gen.V3 m)) a0 c).arrAt 1 (cfg0 a0).N := outs_4' m a0 c
theorem outs_6 (c : Dev nD) : outs m a0 6 main_v6 c = (dat1 (atTc (Gen.V5 m (outs m a0))) c).arrAt 6 cfg1.N :=
  (outs_6' m a0 c).trans (by rw [E1_eq m a0]; rfl)
theorem outs_8 (c : Dev nD) : outs m a0 8 main_v39 c = (dat2 (atTc (Gen.V7 m (outs m a0))) c).arrAt 6 cfg2.N :=
  (outs_8' m a0 c).trans (by rw [E2_eq m a0]; rfl)
theorem outs_10 (c : Dev nD) : outs m a0 10 main_v70 c = (dat3 (atTc (Gen.V9 m (outs m a0))) c).arrAt 3 cfg3.N :=
  (outs_10' m a0 c).trans (by rw [E3_eq m a0]; rfl)

/-! ## The thread state between items -/

/-- No host loop: no variant. -/
abbrev 𝒱₀ : Variants := Variants.none
/-- No core owes another anything: no level is assigned. -/
abbrev L : GSem nD τ sig → Finset Unit := fun _ => ∅
/-- The level of a pair, were one assigned. -/
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- The same rest between any two items. -/
abbrev E : Fin 5 → Dev nD → sProp 𝕄 := fun _ => R

/-! ## The sorting at a region's two ends, once for all regions -/

/-- No table, nothing held. -/
theorem prefHeld_none (c : Dev nD) (q : Fin (Pipeline.Prefetch.none (sig := sig)).K → PosShare TreeShare)
    (v : (Pipeline.Prefetch.none (sig := sig)).Contents (Elt F)) :
    (Pipeline.prefHeld (Ix := Unit) (Name := ℕ) (U := UR sig nD τ) (Lvl := ℕ) Pipeline.Prefetch.none c q v : sProp 𝕄) = BI.emp := by
  unfold Pipeline.prefHeld; rw [Finset.univ_eq_empty, BI.bigSep_empty]

/-- A core owing nothing owes the proof data's tallies wherever those are zero, -/
theorem owesAt_of_owes {cfg : Cfg sig Λ₀} {c : Dev nD} (dat : Dat τ (Elt F) Unit ℕ (UR sig nD τ) ℕ cfg c) (j : Fin (cfg.N + 1))
    (h0 : dat.owed j = 0) (hrec : ∀ x, x ∈ dat.recorded j) :
    (iprop(∃ W, owes (c : Thread nD τ) (0 : CellTallies nD τ sig Unit) W) : sProp 𝕄) ⊢ dat.owesAt () j := by
  unfold Pipeline.Dat.owesAt Pipeline.owesWithin
  rw [h0]
  iintro ⟨%W, HO⟩
  iexists W
  isplitr; · ipureintro; exact fun x _ => Or.inl (hrec x)
  iexact HO
/-- and back. -/
theorem owes_of_owesAt {cfg : Cfg sig Λ₀} {c : Dev nD} (dat : Dat τ (Elt F) Unit ℕ (UR sig nD τ) ℕ cfg c) (j : Fin (cfg.N + 1))
    (h0 : dat.owed j = 0) :
    dat.owesAt () j ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- ENTRY: the unscoped buffers split as the arrays, the tables and the rest (`hsplit`); the core's `owes` becomes the
    proof data's; the generator register goes to the invariant. -/
theorem entry_sort (c : Dev nD) (W : Valuation τ sig (Elt F)) {A Pf O Rest : sProp 𝕄}
    (hsplit : StableHlo.held (c : Thread nD τ) (Pipeline.ucRefs τ sig) W ⊢ iprop(A ∗ Pf ∗ Rest))
    (hO : (iprop(∃ W', owes (c : Thread nD τ) (0 : CellTallies nD τ sig Unit) W') : sProp 𝕄) ⊢ O) :
    iprop(iprop(StableHlo.held (c : Thread nD τ) (Pipeline.ucRefs τ sig) W ∗ R c) ∗ Pipeline.ownSems0 (fun k : PEmpty => k.elim) c ∗ levAts L lv)
      ⊢ |={Set.univ}=> iprop(A ∗ Pf ∗ O ∗ (∃ r, prngReg c r) ∗ Rest) := by
  iintro ⟨⟨Hub, Hp, HO⟩, -, -⟩
  ihave H := hsplit $$ Hub
  icases H with ⟨Ha, Hpf, Hrest⟩
  ihave HO' := hO $$ HO
  imodintro
  isplitl [Ha]; · iexact Ha
  isplitl [Hpf]; · iexact Hpf
  isplitl [HO']; · iexact HO'
  isplitl [Hp]; · iexact Hp
  iexact Hrest

/-- EXIT: the arrays and the rest are the unscoped buffers again at the exit contents (`hjoin`); the proof data's `owes`
    is the core's; the generator register comes back. -/
theorem exit_sort (c : Dev nD) (W' : Valuation τ sig (Elt F)) {A' O' Rest : sProp 𝕄}
    (hjoin : iprop(A' ∗ Rest) ⊢ StableHlo.held (c : Thread nD τ) (Pipeline.ucRefs τ sig) W')
    (hO : O' ⊢ (iprop(∃ W, owes (c : Thread nD τ) (0 : CellTallies nD τ sig Unit) W) : sProp 𝕄)) :
    iprop(A' ∗ O' ∗ (∃ r, prngReg c r) ∗ Rest) ⊢ |={Set.univ}=> iprop(StableHlo.held (c : Thread nD τ) (Pipeline.ucRefs τ sig) W' ∗ R c) := by
  iintro ⟨Ha, HO, Hp, Hrest⟩
  ihave HO' := hO $$ HO
  imodintro
  isplitl [Ha Hrest]
  · iapply hjoin; isplitl [Ha] <;> iassumption
  isplitl [Hp]; · iexact Hp
  iexact HO'

/-- The class invariant from the generator register and the scoped rest (a table handed in beside them is let go), -/
theorem hin_A {gr W : Nat} (win : Fin W → Pipeline.WinSpec sig gr) (c : Dev nD) (Pf : sProp 𝕄) :
    iprop((∃ r, prngReg c r) ∗ Pf ∗ Pipeline.scopedRest win c) ⊢ (Pipeline.ΦA win c : sProp 𝕄) := by
  unfold Pipeline.ΦA
  iintro ⟨Hp, -, Hr⟩
  isplitl [Hr]; · iexact Hr
  iexact Hp
/-- and back. -/
theorem hout_A {gr W : Nat} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

/-! ## What a region's exit valuation holds at its output -/

theorem V4_at (o : Gen.Outs (F := F)) (c : Dev nD) : Gen.V4 m o c main_v2 = o 4 main_v2 c := by simp only [Gen.V4, Function.update_self]
theorem V6_at (o : Gen.Outs (F := F)) (c : Dev nD) : Gen.V6 m o c main_v6 = o 6 main_v6 c := by simp only [Gen.V6, Function.update_self]
theorem V8_at (o : Gen.Outs (F := F)) (c : Dev nD) : Gen.V8 m o c main_v39 = o 8 main_v39 c := by simp only [Gen.V8, Function.update_self]
theorem V10_at (o : Gen.Outs (F := F)) (c : Dev nD) : Gen.V10 m o c main_v70 = o 10 main_v70 c := by simp only [Gen.V10, Function.update_self]

/-! ## Region 0: its arrays at the exit, and the table among the unscoped rest -/

/-- Window 0's array (the embedding table) is left as found; window 1's is what region 0 leaves. -/
theorem hF0 (c : Dev nD) : ∀ w : Fin (cfg0 a0).W, (pdats m a0 0 c).arrAt w (cfg0 a0).N = atTc (Gen.V4 m (outs m a0)) c (Pipeline.arrRef spec0 w)
  | ⟨0, _⟩ => ((pdats m a0 0 c).arrAt_in 0 rfl _).trans ((A_eq0 _ a0 c 0).trans (Gen.V4_of m (outs m a0) c _ (show Pipeline.arrRef spec0 (0 : Fin 2) ∉ ([main_v2] : List (Ref sig .tc)) by decide)).symm)
  | ⟨1, _⟩ => ((V4_at m (outs m a0) c).trans (outs_4 m a0 c)).symm
  | ⟨_ + 2, h⟩ => absurd h (Nat.not_lt.2 (Nat.le_add_left _ _))
/-- Every buffer that is no array of region 0 is left as found. -/
theorem hrest0 (c : Dev nD) : ∀ b, b ∉ Finset.univ.image (Pipeline.arrRef spec0) →
    atTc (Gen.V4 m (outs m a0)) c b = atTc (Gen.V3 m) c b :=
  fun b hb => Gen.V4_of m (outs m a0) c b fun h =>
    hb (Finset.mem_image.mpr ⟨1, Finset.mem_univ _, (List.mem_singleton.mp h).symm⟩)

/-- Of the unscoped buffers that are no array of region 0, the prefetched table holds the admitted contents (`htab`:
    what the host left in it) and the others are as the host left them. -/
theorem rest0_eq (htab : ∀ (c : Dev nD) (k : Fin pre0.K), Gen.V3 m c (pre0.ref k) = a0.1 k) (c : Dev nD) :
    (Pipeline.unscopedRest (Ix := Unit) (Name := ℕ) (U := UR sig nD τ) (Lvl := ℕ) spec0 c (atTc (Gen.V3 m) c) : sProp 𝕄)
      = iprop(Pipeline.prefHeld pre0 c (fun _ => fullShare) a0.1 ∗ Pipeline.unscopedRestP pre0 spec0 c (atTc (Gen.V3 m) c)) := by
  rw [Pipeline.unscopedRest_split preFacts0 c (atTc (Gen.V3 m) c)]
  congr 2
  funext k
  exact htab c k

/-- An input window's array is left as region 1 found it, and no item in between writes it. -/
theorem hF1_in (c : Dev nD) (w : Fin cfg1.W) (hin : (cfg1.win w).isOut = false)
    (hne : Pipeline.arrRef spec1 w ∉ ([main_v6] : List (Ref sig .tc))) :
    (pdats m a0 1 c).arrAt w cfg1.N = atTc (Gen.V6 m (outs m a0)) c (Pipeline.arrRef spec1 w) :=
  ((pdats m a0 1 c).arrAt_in w hin _).trans ((A_eq1 _ c w).trans (Gen.V6_of m (outs m a0) c _ hne).symm)
/-- At region 1's exit each of its arrays holds what the pipeline leaves, -/
theorem hF1 (c : Dev nD) : ∀ w : Fin cfg1.W, (pdats m a0 1 c).arrAt w cfg1.N = atTc (Gen.V6 m (outs m a0)) c (Pipeline.arrRef spec1 w)
  | ⟨0, _⟩ => hF1_in m a0 c 0 rfl (by decide)
  | ⟨1, _⟩ => hF1_in m a0 c 1 rfl (by decide)
  | ⟨2, _⟩ => hF1_in m a0 c 2 rfl (by decide)
  | ⟨3, _⟩ => hF1_in m a0 c 3 rfl (by decide)
  | ⟨4, _⟩ => hF1_in m a0 c 4 rfl (by decide)
  | ⟨5, _⟩ => hF1_in m a0 c 5 rfl (by decide)
  | ⟨6, _⟩ => ((V6_at m (outs m a0) c).trans (outs_6 m a0 c)).symm
  | ⟨_ + 7, h⟩ => absurd h (Nat.not_lt.2 (Nat.le_add_left _ _))
/-- and every other buffer what it held at entry. -/
theorem hrest1 (c : Dev nD) : ∀ b, b ∉ Finset.univ.image (Pipeline.arrRef spec1) →
    atTc (Gen.V6 m (outs m a0)) c b = atTc (Gen.V5 m (outs m a0)) c b :=
  fun b hb => Gen.V6_of m (outs m a0) c b fun h =>
    hb (Finset.mem_image.mpr ⟨6, Finset.mem_univ _, (List.mem_singleton.mp h).symm⟩)

/-- An input window's array is left as region 2 found it, and no item in between writes it. -/
theorem hF2_in (c : Dev nD) (w : Fin cfg2.W) (hin : (cfg2.win w).isOut = false)
    (hne : Pipeline.arrRef spec2 w ∉ ([main_v39] : List (Ref sig .tc))) :
    (pdats m a0 2 c).arrAt w cfg2.N = atTc (Gen.V8 m (outs m a0)) c (Pipeline.arrRef spec2 w) :=
  ((pdats m a0 2 c).arrAt_in w hin _).trans ((A_eq2 _ c w).trans (Gen.V8_of m (outs m a0) c _ hne).symm)
/-- At region 2's exit each of its arrays holds what the pipeline leaves, -/
theorem hF2 (c : Dev nD) : ∀ w : Fin cfg2.W, (pdats m a0 2 c).arrAt w cfg2.N = atTc (Gen.V8 m (outs m a0)) c (Pipeline.arrRef spec2 w)
  | ⟨0, _⟩ => hF2_in m a0 c 0 rfl (by decide)
  | ⟨1, _⟩ => hF2_in m a0 c 1 rfl (by decide)
  | ⟨2, _⟩ => hF2_in m a0 c 2 rfl (by decide)
  | ⟨3, _⟩ => hF2_in m a0 c 3 rfl (by decide)
  | ⟨4, _⟩ => hF2_in m a0 c 4 rfl (by decide)
  | ⟨5, _⟩ => hF2_in m a0 c 5 rfl (by decide)
  | ⟨6, _⟩ => ((V8_at m (outs m a0) c).trans (outs_8 m a0 c)).symm
  | ⟨_ + 7, h⟩ => absurd h (Nat.not_lt.2 (Nat.le_add_left _ _))
/-- and every other buffer what it held at entry. -/
theorem hrest2 (c : Dev nD) : ∀ b, b ∉ Finset.univ.image (Pipeline.arrRef spec2) →
    atTc (Gen.V8 m (outs m a0)) c b = atTc (Gen.V7 m (outs m a0)) c b :=
  fun b hb => Gen.V8_of m (outs m a0) c b fun h =>
    hb (Finset.mem_image.mpr ⟨6, Finset.mem_univ _, (List.mem_singleton.mp h).symm⟩)

/-- An input window's array is left as region 3 found it, and no item in between writes it. -/
theorem hF3_in (c : Dev nD) (w : Fin cfg3.W) (hin : (cfg3.win w).isOut = false)
    (hne : Pipeline.arrRef spec3 w ∉ ([main_v70] : List (Ref sig .tc))) :
    (pdats m a0 3 c).arrAt w cfg3.N = atTc (Gen.V10 m (outs m a0)) c (Pipeline.arrRef spec3 w) :=
  ((pdats m a0 3 c).arrAt_in w hin _).trans ((A_eq3 _ c w).trans (Gen.V10_of m (outs m a0) c _ hne).symm)
/-- At region 3's exit each of its arrays holds what the pipeline leaves, -/
theorem hF3 (c : Dev nD) : ∀ w : Fin cfg3.W, (pdats m a0 3 c).arrAt w cfg3.N = atTc (Gen.V10 m (outs m a0)) c (Pipeline.arrRef spec3 w)
  | ⟨0, _⟩ => hF3_in m a0 c 0 rfl (by decide)
  | ⟨1, _⟩ => hF3_in m a0 c 1 rfl (by decide)
  | ⟨2, _⟩ => hF3_in m a0 c 2 rfl (by decide)
  | ⟨3, _⟩ => ((V10_at m (outs m a0) c).trans (outs_10 m a0 c)).symm
  | ⟨_ + 4, h⟩ => absurd h (Nat.not_lt.2 (Nat.le_add_left _ _))
/-- and every other buffer what it held at entry. -/
theorem hrest3 (c : Dev nD) : ∀ b, b ∉ Finset.univ.image (Pipeline.arrRef spec3) →
    atTc (Gen.V10 m (outs m a0)) c b = atTc (Gen.V9 m (outs m a0)) c b :=
  fun b hb => Gen.V10_of m (outs m a0) c b fun h =>
    hb (Finset.mem_image.mpr ⟨3, Finset.mem_univ _, (List.mem_singleton.mp h).symm⟩)

/-! ## The regions as segments -/

set_option backward.isDefEq.respectTransparency.types false in
/-- REGION 0 over the thread state: entered from every unscoped buffer at `Gen.V3`, left at `Gen.V4`. Besides its arrays
    the prefetched table comes out of the unscoped buffers at entry, whole, passes through the invariant, and goes back
    among them at the exit. -/
def reg0 (htab : ∀ (c : Dev nD) (k : Fin pre0.K), Gen.V3 m c (pre0.ref k) = a0.1 k) : Pipeline.RegionSeg (pcfgs (F := F)) (adm a0) (pdats m a0) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atTc (Gen.V3 m)) a0 c).loose
  hwaits := Pipeline.hwaits_of_owed_zero _ _ _ _ L lv 0 fun _ _ => rfl
  pre c := iprop(StableHlo.held (c : Thread nD τ) (Pipeline.ucRefs τ sig) (Gen.V3 m c) ∗ E 0 c)
  post c := iprop(StableHlo.held (c : Thread nD τ) (Pipeline.ucRefs τ sig) (Gen.V4 m (outs m a0) c) ∗ E 1 c)
  X c := iprop(∃ r, prngReg c r)
  Y c := iprop((∃ r, prngReg c r) ∗ Pipeline.prefHeld (pcfg0 (F := F)).pre c (fun _ => fullShare) a0.1)
  Z c := Pipeline.unscopedRestP (Ix := Unit) (Name := ℕ) (U := UR sig nD τ) (Lvl := ℕ) pre0 spec0 c (atTc (Gen.V3 m) c)
  hentry c := by
    have hs := Pipeline.arrays_of_unscopedBufs (p := 0) (pcfgs (F := F)) (adm a0) (pdats m a0) (launch0 (F := F)).win (launch0 (F := F)).arr_whole c
      ((pdats m a0 0 c).share_full fun _ => rfl) (atTc (Gen.V3 m) c) fun _ => rfl
    rw [Pipeline.unscopedBufs_held] at hs
    refine entry_sort c _ ?_ (owesAt_of_owes (pdats m a0 0 c) 0 rfl fun _ => trivial)
    iintro H
    ihave H' := hs $$ H
    icases H' with ⟨Ha, Hr⟩
    ihave Hr' := (Entails.of_eq (rest0_eq m a0 htab c)) $$ Hr
    icases Hr' with ⟨Ht, Hz⟩
    isplitl [Ha]; · iexact Ha
    isplitl [Ht]; · iexact Ht
    iexact Hz
  hin c := hin0 (atTc (Gen.V3 m)) a0 c
  hout c := hout0 (atTc (Gen.V3 m)) a0 c
  hexit c := by
    have hj := Pipeline.unscopedBufs_of_arrays (p := 0) (pcfgs (F := F)) (adm a0) (Ix := Unit) (Name := ℕ) (U := UR sig nD τ) (Lvl := ℕ)
      (launch0 (F := F)).win (launch0 (F := F)).arr_whole c (pdats m a0) ((pdats m a0 0 c).share_full fun _ => rfl)
      (atTc (Gen.V3 m) c) (atTc (Gen.V4 m (outs m a0)) c) ((pdats m a0 0 c).arrAt · (cfg0 a0).N) (hF0 m a0 c) (hrest0 m a0 c)
    rw [Pipeline.unscopedBufs_held] at hj
    iintro ⟨Ha, HO, ⟨Hp, Ht⟩, Hz⟩
    iapply (exit_sort c _ hj (owes_of_owesAt (pdats m a0 0 c) _ rfl))
    isplitl [Ha]; · iexact Ha
    isplitl [HO]; · iexact HO
    isplitl [Hp]; · iexact Hp
    iapply (Entails.of_eq (rest0_eq m a0 htab c).symm)
    isplitl [Ht]; · iexact Ht
    iexact Hz

set_option backward.isDefEq.respectTransparency.types false in
/-- REGION 1 over the thread state: entered from every unscoped buffer at `Gen.V5`, left at `Gen.V6`; its arrays
    split out of the unscoped buffers and put back at the exit contents, the generator register into the class invariant
    and out, nothing owed, no semaphore of the kernel's own. -/
def reg1 : Pipeline.RegionSeg (pcfgs (F := F)) (adm a0) (pdats m a0) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atTc (Gen.V5 m (outs m a0))) c).loose
  hwaits := Pipeline.hwaits_of_owed_zero _ _ _ _ L lv 1 fun _ _ => rfl
  pre c := iprop(StableHlo.held (c : Thread nD τ) (Pipeline.ucRefs τ sig) (Gen.V5 m (outs m a0) c) ∗ E 1 c)
  post c := iprop(StableHlo.held (c : Thread nD τ) (Pipeline.ucRefs τ sig) (Gen.V6 m (outs m a0) c) ∗ E 2 c)
  X c := iprop(∃ r, prngReg c r)
  Y c := iprop(∃ r, prngReg c r)
  Z c := Pipeline.unscopedRest (Ix := Unit) (Name := ℕ) (U := UR sig nD τ) (Lvl := ℕ) spec1 c (atTc (Gen.V5 m (outs m a0)) c)
  hentry c := by
    have hs := Pipeline.arrays_of_unscopedBufs (p := 1) (pcfgs (F := F)) (adm a0) (pdats m a0) (launch1 (F := F)).win (launch1 (F := F)).arr_whole c
      ((pdats m a0 1 c).share_full fun _ => rfl) (atTc (Gen.V5 m (outs m a0)) c) fun _ => rfl
    rw [Pipeline.unscopedBufs_held] at hs
    refine entry_sort c _ ?_ (owesAt_of_owes (pdats m a0 1 c) 0 rfl fun _ => trivial)
    iintro H
    ihave H' := hs $$ H
    icases H' with ⟨Ha, Hr⟩
    isplitl [Ha]; · iexact Ha
    isplitr; · iapply (Entails.of_eq (prefHeld_none c _ _).symm); iempintro
    iexact Hr
  hin c := hin_A spec1 c _
  hout c := hout_A spec1 c
  hexit c := by
    have hj := Pipeline.unscopedBufs_of_arrays (p := 1) (pcfgs (F := F)) (adm a0) (Ix := Unit) (Name := ℕ) (U := UR sig nD τ) (Lvl := ℕ)
      (launch1 (F := F)).win (launch1 (F := F)).arr_whole c (pdats m a0) ((pdats m a0 1 c).share_full fun _ => rfl)
      (atTc (Gen.V5 m (outs m a0)) c) (atTc (Gen.V6 m (outs m a0)) c) ((pdats m a0 1 c).arrAt · cfg1.N) (hF1 m a0 c) (hrest1 m a0 c)
    rw [Pipeline.unscopedBufs_held] at hj
    exact exit_sort c _ hj (owes_of_owesAt (pdats m a0 1 c) _ rfl)

set_option backward.isDefEq.respectTransparency.types false in
/-- REGION 2 over the thread state: entered from every unscoped buffer at `Gen.V7`, left at `Gen.V8`; its arrays
    split out of the unscoped buffers and put back at the exit contents, the generator register into the class invariant
    and out, nothing owed, no semaphore of the kernel's own. -/
def reg2 : Pipeline.RegionSeg (pcfgs (F := F)) (adm a0) (pdats m a0) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atTc (Gen.V7 m (outs m a0))) c).loose
  hwaits := Pipeline.hwaits_of_owed_zero _ _ _ _ L lv 2 fun _ _ => rfl
  pre c := iprop(StableHlo.held (c : Thread nD τ) (Pipeline.ucRefs τ sig) (Gen.V7 m (outs m a0) c) ∗ E 2 c)
  post c := iprop(StableHlo.held (c : Thread nD τ) (Pipeline.ucRefs τ sig) (Gen.V8 m (outs m a0) c) ∗ E 3 c)
  X c := iprop(∃ r, prngReg c r)
  Y c := iprop(∃ r, prngReg c r)
  Z c := Pipeline.unscopedRest (Ix := Unit) (Name := ℕ) (U := UR sig nD τ) (Lvl := ℕ) spec2 c (atTc (Gen.V7 m (outs m a0)) c)
  hentry c := by
    have hs := Pipeline.arrays_of_unscopedBufs (p := 2) (pcfgs (F := F)) (adm a0) (pdats m a0) (launch2 (F := F)).win (launch2 (F := F)).arr_whole c
      ((pdats m a0 2 c).share_full fun _ => rfl) (atTc (Gen.V7 m (outs m a0)) c) fun _ => rfl
    rw [Pipeline.unscopedBufs_held] at hs
    refine entry_sort c _ ?_ (owesAt_of_owes (pdats m a0 2 c) 0 rfl fun _ => trivial)
    iintro H
    ihave H' := hs $$ H
    icases H' with ⟨Ha, Hr⟩
    isplitl [Ha]; · iexact Ha
    isplitr; · iapply (Entails.of_eq (prefHeld_none c _ _).symm); iempintro
    iexact Hr
  hin c := hin_A spec2 c _
  hout c := hout_A spec2 c
  hexit c := by
    have hj := Pipeline.unscopedBufs_of_arrays (p := 2) (pcfgs (F := F)) (adm a0) (Ix := Unit) (Name := ℕ) (U := UR sig nD τ) (Lvl := ℕ)
      (launch2 (F := F)).win (launch2 (F := F)).arr_whole c (pdats m a0) ((pdats m a0 2 c).share_full fun _ => rfl)
      (atTc (Gen.V7 m (outs m a0)) c) (atTc (Gen.V8 m (outs m a0)) c) ((pdats m a0 2 c).arrAt · cfg2.N) (hF2 m a0 c) (hrest2 m a0 c)
    rw [Pipeline.unscopedBufs_held] at hj
    exact exit_sort c _ hj (owes_of_owesAt (pdats m a0 2 c) _ rfl)

set_option backward.isDefEq.respectTransparency.types false in
/-- REGION 3 over the thread state: entered from every unscoped buffer at `Gen.V9`, left at `Gen.V10`; its arrays
    split out of the unscoped buffers and put back at the exit contents, the generator register into the class invariant
    and out, nothing owed, no semaphore of the kernel's own. -/
def reg3 (hb3 : ∀ c : Dev nD, BodyObligationLoose (dat3 (F := F) (atTc (Gen.V9 m (outs m a0))) c) (defs₀ (F := F)) Variants.none () Set.univ) : Pipeline.RegionSeg (pcfgs (F := F)) (adm a0) (pdats m a0) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := hb3 c
  hwaits := Pipeline.hwaits_of_owed_zero _ _ _ _ L lv 3 fun _ _ => rfl
  pre c := iprop(StableHlo.held (c : Thread nD τ) (Pipeline.ucRefs τ sig) (Gen.V9 m (outs m a0) c) ∗ E 3 c)
  post c := iprop(StableHlo.held (c : Thread nD τ) (Pipeline.ucRefs τ sig) (Gen.V10 m (outs m a0) c) ∗ E 4 c)
  X c := iprop(∃ r, prngReg c r)
  Y c := iprop(∃ r, prngReg c r)
  Z c := Pipeline.unscopedRest (Ix := Unit) (Name := ℕ) (U := UR sig nD τ) (Lvl := ℕ) spec3 c (atTc (Gen.V9 m (outs m a0)) c)
  hentry c := by
    have hs := Pipeline.arrays_of_unscopedBufs (p := 3) (pcfgs (F := F)) (adm a0) (pdats m a0) (launch3 (F := F)).win (launch3 (F := F)).arr_whole c
      ((pdats m a0 3 c).share_full fun _ => rfl) (atTc (Gen.V9 m (outs m a0)) c) fun _ => rfl
    rw [Pipeline.unscopedBufs_held] at hs
    refine entry_sort c _ ?_ (owesAt_of_owes (pdats m a0 3 c) 0 rfl fun _ => trivial)
    iintro H
    ihave H' := hs $$ H
    icases H' with ⟨Ha, Hr⟩
    isplitl [Ha]; · iexact Ha
    isplitr; · iapply (Entails.of_eq (prefHeld_none c _ _).symm); iempintro
    iexact Hr
  hin c := hin_A spec3 c _
  hout c := hout_A spec3 c
  hexit c := by
    have hj := Pipeline.unscopedBufs_of_arrays (p := 3) (pcfgs (F := F)) (adm a0) (Ix := Unit) (Name := ℕ) (U := UR sig nD τ) (Lvl := ℕ)
      (launch3 (F := F)).win (launch3 (F := F)).arr_whole c (pdats m a0) ((pdats m a0 3 c).share_full fun _ => rfl)
      (atTc (Gen.V9 m (outs m a0)) c) (atTc (Gen.V10 m (outs m a0)) c) ((pdats m a0 3 c).arrAt · cfg3.N) (hF3 m a0 c) (hrest3 m a0 c)
    rw [Pipeline.unscopedBufs_held] at hj
    exact exit_sort c _ hj (owes_of_owesAt (pdats m a0 3 c) _ rfl)

/-! ## The launch -/

/-- The rest between items ends owing nothing. -/
theorem hE4 (c : Dev nD) : E (F := F) 4 c ⊢ (iprop(∃ W, owes (c : Thread nD τ) (0 : CellTallies nD τ sig Unit) W) : sProp 𝕄) := by
  iintro ⟨-, H⟩; iexact H

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory `m` with zero counters whose clipped word the table admits (`htab`), given region 3's body
    obligation at the contents it finds (`hb3`), every weakly fair execution of @main terminates, and every final memory
    holds the three results at what the last valuation says — the host stretches' `StableHlo.after` over what the four
    regions leave (`outs`) — and every argument as launched: the launch over the twelve items, each region entered from
    the thread state the item before it left, the last thread state read against the final state. -/
theorem run_val (htab : ∀ (c : Dev nD) (k : Fin pre0.K), Gen.V3 m c (pre0.ref k) = a0.1 k) (hb3 : ∀ c : Dev nD, BodyObligationLoose (dat3 (F := F) (atTc (Gen.V9 m (outs m a0))) c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_v71) = Gen.V12 m (outs m a0) c main_v71
      ∧ r.2.mem ((c.tc : Thread nD τ).loc main_v74) = Gen.V12 m (outs m a0) c main_v74
      ∧ r.2.mem ((c.tc : Thread nD τ).loc main_v77) = Gen.V12 m (outs m a0) c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) (adm a0) (pdats m a0) () (cellOf_inj (adm a0)) emb₁ defs₀ 𝒱₀ L lv m ρ main
    (Gen.segs m (outs m a0) 𝒱₀ L lv E () (adm a0) (pdats m a0) (reg0 m a0 htab) (reg1 m a0) (reg2 m a0) (reg3 m a0 hb3))
    (fun c Q => by
      rewrite [main_chain c, Pipeline.Seg.run_eq_chain,
        show (Gen.segs m (outs m a0) 𝒱₀ L lv E () (adm a0) (pdats m a0) (reg0 m a0 htab) (reg1 m a0) (reg2 m a0) (reg3 m a0 hb3) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a0)) (cellOf_inj (adm a0))) (Pipeline.launchToks (Pipeline.pin (pcfgs (F := F)) (adm a0)) (cellOf_inj (adm a0))))
    (hu₀ := by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m (outs m a0) c))
    (hch := fun c => ⟨.rfl, .rfl, .rfl, .rfl, .rfl, .rfl, .rfl, .rfl, .rfl, .rfl, .rfl, .rfl, sep_mono .rfl (hE4 c)⟩)
    (hinit := ?_)
    (QY := fun c s => s.mem ((c.tc : Thread nD τ).loc main_v71) = Gen.V12 m (outs m a0) c main_v71
      ∧ s.mem ((c.tc : Thread nD τ).loc main_v74) = Gen.V12 m (outs m a0) c main_v74
      ∧ s.mem ((c.tc : Thread nD τ).loc main_v77) = Gen.V12 m (outs m a0) c main_v77
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are held at the launch contents, the generator register and the empty dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the results and the arguments read off the last valuation
    unfold StableHlo.held
    iintro ⟨Hh, HSI⟩
    ihave Hr := (pointsTo_read_all (Pipeline.ucRefs τ sig) (fun b => ((c : Thread nD τ).1, b)) (Gen.V12 m (outs m a0) c) s') $$ [Hh HSI]
    · isplitl [Hh] <;> iassumption
    icases Hr with ⟨%h, HSI⟩
    imodintro
    isplitr
    · ipureintro
      exact ⟨h (Proc.devRef .tc main_v71) (mem_uc main_v71 (by decide)),
        h (Proc.devRef .tc main_v74) (mem_uc main_v74 (by decide)),
        h (Proc.devRef .tc main_v77) (mem_uc main_v77 (by decide)),
        (h (Proc.devRef .tc main_arg0) (mem_uc main_arg0 (by decide))).trans (Gen.V12_main_arg0 m (outs m a0) c),
        (h (Proc.devRef .tc main_arg1) (mem_uc main_arg1 (by decide))).trans (Gen.V12_main_arg1 m (outs m a0) c),
        (h (Proc.devRef .tc main_arg2) (mem_uc main_arg2 (by decide))).trans (Gen.V12_main_arg2 m (outs m a0) c),
        (h (Proc.devRef .tc main_arg3) (mem_uc main_arg3 (by decide))).trans (Gen.V12_main_arg3 m (outs m a0) c),
        (h (Proc.devRef .tc main_arg4) (mem_uc main_arg4 (by decide))).trans (Gen.V12_main_arg4 m (outs m a0) c),
        (h (Proc.devRef .tc main_arg5) (mem_uc main_arg5 (by decide))).trans (Gen.V12_main_arg5 m (outs m a0) c),
        (h (Proc.devRef .tc main_arg6) (mem_uc main_arg6 (by decide))).trans (Gen.V12_main_arg6 m (outs m a0) c),
        (h (Proc.devRef .tc main_arg7) (mem_uc main_arg7 (by decide))).trans (Gen.V12_main_arg7 m (outs m a0) c),
        (h (Proc.devRef .tc main_arg8) (mem_uc main_arg8 (by decide))).trans (Gen.V12_main_arg8 m (outs m a0) c),
        (h (Proc.devRef .tc main_arg9) (mem_uc main_arg9 (by decide))).trans (Gen.V12_main_arg9 m (outs m a0) c),
        (h (Proc.devRef .tc main_arg10) (mem_uc main_arg10 (by decide))).trans (Gen.V12_main_arg10 m (outs m a0) c),
        (h (Proc.devRef .tc main_arg11) (mem_uc main_arg11 (by decide))).trans (Gen.V12_main_arg11 m (outs m a0) c),
        (h (Proc.devRef .tc main_arg12) (mem_uc main_arg12 (by decide))).trans (Gen.V12_main_arg12 m (outs m a0) c),
        (h (Proc.devRef .tc main_arg13) (mem_uc main_arg13 (by decide))).trans (Gen.V12_main_arg13 m (outs m a0) c)⟩
    · iexact HSI

/-- THE FRAME at any `F`: the run's post less the results — every argument ends as launched. -/
theorem frame (htab : ∀ (c : Dev nD) (k : Fin pre0.K), Gen.V3 m c (pre0.ref k) = a0.1 k) (hb3 : ∀ c : Dev nD, BodyObligationLoose (dat3 (F := F) (atTc (Gen.V9 m (outs m a0))) c) (defs₀ (F := F)) Variants.none () Set.univ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2.2.2) (run_val m a0 htab hb3 ρ)

end Cert.KernelIdeal.Hand

end
-- ==== Proof.KI.KPay.lean ====
/-
  The kernels' stored values at the extended reals, read at one index of the stored block: each body's arithmetic as a
  function of the blocks it loaded. A change of float format is the identity there, a matrix product into the zero
  accumulator is the sum over the contracted coordinate, and the transposes and shape casts only rename indices.
-/
import proofs.«408709_j86328842650330_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Idealize.ShloMosaic Idealize.ShloMosaic.ValueIdx

/-! ## The embedding kernel: the block's maximum with zero -/

/-- The embedding kernel's stored value at an index of its block: the loaded entry's maximum with zero. -/
theorem pay0_apply (v0 : Vec Ideal S1x8x128 .f32) (i : S1x8x128.Idx) :
    Gen.k0_pay1 (F := Ideal) v0 i = max (v0 i) 0 := by
  unfold Gen.k0_pay1
  rw [shapeCast_self]
  show max (v0 i) (Ideal.ofBits .f32 0x00000000#32) = _
  rw [Ideal.ofBits_zero_f32]

/-! ## The gates' contraction: a row vector against the rows of a square block -/

theorem lhs_gate_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhs_gate_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem rhs_gate_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
theorem rhs_gate_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- The product of a row vector with the transpose of a square block, accumulated into zero, read at column `q`: the
    sum over `k` of the vector's entry `k` times the block's entry `(q, k)`. -/
theorem gate_matmul_apply {φ₁ φ₂ : FTy} (x : FVec Ideal S1x1024 φ₁) (W : FVec Ideal S1024x1024 φ₂)
    (hT : S1024x1024.Transposes [1, 0] S1024x1024) (p : Fin 1) (q : Fin 1024) :
    matmul dot_S1x1024_S1024x1024_S1x1024_1_0_0_1_n_n none x (transpose S1024x1024 [1, 0] W hT) (constant (F := Ideal) S1x1024 .f32 0x00000000#32) (ix2 p q)
      = ∑ k : Fin 1024, x (ix2 p k) * W (ix2 q k) := by
  simp only [matmul]
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 p q) ((contrEquiv1 dot_S1x1024_S1024x1024_S1x1024_1_0_0_1_n_n 1024 rfl rfl).symm k) = ix2 p k := funext fun a => Fin.ext (by
    match a with
    | ⟨0, _⟩ => exact lhs_gate_0 _ _
    | ⟨1, _⟩ => exact (lhs_gate_1 _ _).trans hk)
  have er : dot_S1x1024_S1024x1024_S1x1024_1_0_0_1_n_n.rhsIdx (ix2 p q) ((contrEquiv1 dot_S1x1024_S1024x1024_S1x1024_1_0_0_1_n_n 1024 rfl rfl).symm k) = ix2 k q := funext fun a => Fin.ext (by
    match a with
    | ⟨0, _⟩ => exact (rhs_gate_0 _ _).trans hk
    | ⟨1, _⟩ => exact rhs_gate_1 _ _)
  rw [el, er, transpose_apply [1, 0] W hT (ix2 k q) (ix2 q k) (fun b => match b with
    | ⟨0, _⟩ => rfl
    | ⟨1, _⟩ => rfl)]

/-- A vector of 1024 entries viewed as one row reads its entry `q` at `(p, q)`. -/
theorem row_cast_apply {α : Type} (b : S1024.Idx → α) (h : S1024.ShapeCasts S1x1024) (p : Fin 1) (q : Fin 1024) :
    shapeCast S1x1024 b h (ix2 p q) = b (ix1 q) := by
  refine shapeCast_apply b h (ix2 p q) (ix1 q) ?_
  rw [Shape.rowMajor_val_one, Shape.rowMajor_val_two]
  show q.val = p.val * 1024 + q.val
  have := p.isLt
  omega

/-- The gate kernel's stored value at column `q` of its block: the two contractions and the two biases, associated
    as the body adds them. -/
theorem pay1_apply (v0 v3 : Vec Ideal S1x1024 .f32) (v6 v8 : Vec Ideal S1024x1024 .f32) (v12 v18 : Vec Ideal S1024 .f32)
    (p : Fin 1) (q : Fin 1024) :
    Gen.k1_pay1 (F := Ideal) v0 v3 v6 v8 v12 v18 (ix2 p q)
      = (((∑ k : Fin 1024, v0 (ix2 p k) * v6 (ix2 q k)) + v12 (ix1 q)) + ∑ k : Fin 1024, v3 (ix2 p k) * v8 (ix2 q k)) + v18 (ix1 q) := by
  unfold Gen.k1_pay1
  simp only [addf_apply]
  rw [gate_matmul_apply, gate_matmul_apply, row_cast_apply, row_cast_apply]
  simp only [shapeCast_self, truncf_apply]

/-- The second layer's gate kernel is the same body: the same value at column `q`. -/
theorem pay2_apply (v0 v3 : Vec Ideal S1x1024 .f32) (v6 v8 : Vec Ideal S1024x1024 .f32) (v12 v18 : Vec Ideal S1024 .f32)
    (p : Fin 1) (q : Fin 1024) :
    Gen.k2_pay1 (F := Ideal) v0 v3 v6 v8 v12 v18 (ix2 p q)
      = (((∑ k : Fin 1024, v0 (ix2 p k) * v6 (ix2 q k)) + v12 (ix1 q)) + ∑ k : Fin 1024, v3 (ix2 p k) * v8 (ix2 q k)) + v18 (ix1 q) := by
  unfold Gen.k2_pay1
  simp only [addf_apply]
  rw [gate_matmul_apply, gate_matmul_apply, row_cast_apply, row_cast_apply]
  simp only [shapeCast_self, truncf_apply]

/-! ## The projection's contraction: a row vector against the rows of a 2048-row block -/

theorem lhs_proj_0 (i : S1x2048.Idx) (q : dot_S1x1024_S1024x2048_S1x2048_1_0_0_1_n_n.contr.Idx) :
    (dot_S1x1024_S1024x2048_S1x2048_1_0_0_1_n_n.lhsIdx i q 0).val = (i 0).val := by
  unfold DotDims.lhsIdx
  rw [dif_neg (show ¬(0 : Fin S1x1024.rank) ∈ dot_S1x1024_S1024x2048_S1x2048_1_0_0_1_n_n.lhsBatch by decide), dif_pos (show (0 : Fin S1x1024.rank) ∈ dot_S1x1024_S1024x2048_S1x2048_1_0_0_1_n_n.lhsNonContracting by decide)]
  rfl
theorem lhs_proj_1 (i : S1x2048.Idx) (q : dot_S1x1024_S1024x2048_S1x2048_1_0_0_1_n_n.contr.Idx) :
    (dot_S1x1024_S1024x2048_S1x2048_1_0_0_1_n_n.lhsIdx i q 1).val = (q ⟨0, by decide⟩).val :=
  dot_S1x1024_S1024x2048_S1x2048_1_0_0_1_n_n.lhsIdx_val_of_single rfl i q
theorem rhs_proj_0 (i : S1x2048.Idx) (q : dot_S1x1024_S1024x2048_S1x2048_1_0_0_1_n_n.contr.Idx) :
    (dot_S1x1024_S1024x2048_S1x2048_1_0_0_1_n_n.rhsIdx i q 0).val = (q ⟨0, by decide⟩).val :=
  dot_S1x1024_S1024x2048_S1x2048_1_0_0_1_n_n.rhsIdx_val_of_single rfl i q
theorem rhs_proj_1 (i : S1x2048.Idx) (q : dot_S1x1024_S1024x2048_S1x2048_1_0_0_1_n_n.contr.Idx) :
    (dot_S1x1024_S1024x2048_S1x2048_1_0_0_1_n_n.rhsIdx i q 1).val = (i 1).val := by
  unfold DotDims.rhsIdx
  rw [dif_neg (show ¬(1 : Fin S1024x2048.rank) ∈ dot_S1x1024_S1024x2048_S1x2048_1_0_0_1_n_n.rhsBatch by decide), dif_pos (show (1 : Fin S1024x2048.rank) ∈ dot_S1x1024_S1024x2048_S1x2048_1_0_0_1_n_n.rhsNonContracting by decide)]
  rfl

/-- The product of a row vector with the transpose of a 2048-row block, accumulated into zero, read at column `q`:
    the sum over `k` of the vector's entry `k` times the block's entry `(q, k)`. -/
theorem proj_matmul_apply {φ₁ φ₂ : FTy} (x : FVec Ideal S1x1024 φ₁) (W : FVec Ideal S2048x1024 φ₂)
    (hT : S2048x1024.Transposes [1, 0] S1024x2048) (p : Fin 1) (q : Fin 2048) :
    matmul dot_S1x1024_S1024x2048_S1x2048_1_0_0_1_n_n none x (transpose S1024x2048 [1, 0] W hT) (constant (F := Ideal) S1x2048 .f32 0x00000000#32) (ix2 p q)
      = ∑ k : Fin 1024, x (ix2 p k) * W (ix2 q k) := by
  simp only [matmul]
  rw [Ideal.matmul_constant_zero_apply, ← Equiv.sum_comp (contrEquiv1 dot_S1x1024_S1024x2048_S1x2048_1_0_0_1_n_n 1024 rfl rfl).symm]
  refine Finset.sum_congr rfl fun k _ => ?_
  have hk := contrEquiv1_symm_val dot_S1x1024_S1024x2048_S1x2048_1_0_0_1_n_n 1024 rfl rfl k
  have el : dot_S1x1024_S1024x2048_S1x2048_1_0_0_1_n_n.lhsIdx (ix2 p q) ((contrEquiv1 dot_S1x1024_S1024x2048_S1x2048_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S1x1024_S1024x2048_S1x2048_1_0_0_1_n_n.rhsIdx (ix2 p q) ((contrEquiv1 dot_S1x1024_S1024x2048_S1x2048_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er, transpose_apply [1, 0] W hT (ix2 k q) (ix2 q k) (fun b => match b with
    | ⟨0, _⟩ => rfl
    | ⟨1, _⟩ => rfl)]

/-- A vector of 2048 entries viewed as one row reads its entry `q` at `(p, q)`. -/
theorem row_cast2048_apply {α : Type} (b : S2048.Idx → α) (h : S2048.ShapeCasts S1x2048) (p : Fin 1) (q : Fin 2048) :
    shapeCast S1x2048 b h (ix2 p q) = b (ix1 q) := by
  refine shapeCast_apply b h (ix2 p q) (ix1 q) ?_
  rw [Shape.rowMajor_val_one, Shape.rowMajor_val_two]
  show q.val = p.val * 2048 + q.val
  have := p.isLt
  omega

/-- The projection kernel's stored value at column `q` of its block: the contraction plus the bias. -/
theorem pay3_apply (v0 : Vec Ideal S1x1024 .f32) (v3 : Vec Ideal S2048x1024 .f32) (v7 : Vec Ideal S2048 .f32)
    (p : Fin 1) (q : Fin 2048) :
    Gen.k3_pay1 (F := Ideal) v0 v3 v7 (ix2 p q)
      = (∑ k : Fin 1024, v0 (ix2 p k) * v3 (ix2 q k)) + v7 (ix1 q) := by
  unfold Gen.k3_pay1
  simp only [addf_apply]
  rw [proj_matmul_apply, row_cast2048_apply]
  simp only [shapeCast_self, truncf_apply]

end Cert.KernelIdeal.Hand
-- ==== Proof.KI.KVal0.lean ====
/- REGION 0's VALUE at the extended reals. What the embedding kernel's region leaves in its output array, as one
   function of what the region found: the output array [1,8,128] holds, at (0, a, b), the maximum with zero of the
   embedding table's entry (w, a*128 + b), w the table word's value — that is, row w of the table, rectified,
   laid out as eight rows of 128. The grid has one point and the output window's one block is the whole array, so
   the array after the region is that block; window 0's block is the (1,8,128) block at block index (w,0,0) of the
   table viewed as [50257,8,128], and the host's reshape makes that view from the [50257,1024] argument row-major. -/
import proofs.«408709_j86328842650330_3_alg».proof.Proof.KI.Reg0
import proofs.«408709_j86328842650330_3_alg».proof.Proof.KI.KPay
import proofs.«408709_j86328842650330_3_alg».proof.Proof.Spec
import proofs.«408709_j86328842650330_3_alg».proof.Proof.SpecOut
import proofs.«408709_j86328842650330_3_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Generic

variable (V : (c : Dev nD) → (b : Ref sig .tc) → Buf (Elt Ideal) ((c : Thread nD τ).loc b))
variable (a0 : (pcfg0 (F := Ideal)).Adm) (w : Fin 50257)

/-- The embedding table as region 0 finds it, viewed as [50257,8,128]. -/
abbrev tab3 (c : Dev nD) : FVec Ideal S50257x8x128 .f32 := V c main_v1

/-- A [1,8,128] index has leading coordinate 0. -/
theorem lead0 (y : S1x8x128.Idx) : (y 0).val = 0 := by
  have h : (y 0).val < 1 := (y 0).isLt
  omega

/-- Window 0's block at the one point: the (1,8,128) block at block index (w,0,0), read off the table. -/
theorem iblk0_apply (hix : ∀ i : grid0.Coords, cc0_transform_0 inb_S1_S1_0 numel1_S1 a0.1 i = ![w.val, 0, 0])
    (c : Dev nD) (t : Fin (cfg0 a0).N) (j : S1x8x128.Idx) :
    iblk0 V a0 c 0 t j = tab3 V c (ix3 w (j 1) (j 2)) := by
  show tab3 V c ((((cfg0 a0).win 0).blk t).view.emb j) = tab3 V c (ix3 w (j 1) (j 2))
  refine congrArg (tab3 V c) (funext fun a => Fin.ext ?_)
  simp only [View.emb_slice, Function.Embedding.trans_apply, Function.Embedding.refl_apply]
  have hi := hix (grid0.coords t)
  match a with
  | ⟨0, _⟩ =>
    show cc0_transform_0 inb_S1_S1_0 numel1_S1 a0.1 (grid0.coords t) 0 * 1 + 1 * (j 0).val = w.val
    rw [hi]
    have := lead0 j
    show w.val * 1 + 1 * (j 0).val = w.val
    omega
  | ⟨1, _⟩ =>
    show cc0_transform_0 inb_S1_S1_0 numel1_S1 a0.1 (grid0.coords t) 1 * 8 + 1 * (j 1).val = (j 1).val
    rw [hi]
    show 0 * 8 + 1 * (j 1).val = (j 1).val
    omega
  | ⟨2, _⟩ =>
    show cc0_transform_0 inb_S1_S1_0 numel1_S1 a0.1 (grid0.coords t) 2 * 128 + 1 * (j 2).val = (j 2).val
    rw [hi]
    show 0 * 128 + 1 * (j 2).val = (j 2).val
    omega

/-! ## The output window: one block, the whole array -/

/-- Window 1's block index is (0,0,0) at every point. -/
theorem ix1_zero (i : grid0.Coords) (k : Fin 3) : cc0_transform_1 i k = 0 := by
  match k with
  | ⟨0, _⟩ => rfl
  | ⟨1, _⟩ => rfl
  | ⟨2, _⟩ => rfl

/-- Window 1 is written back at the one point, whatever the table holds (its index map reads no table). -/
theorem flush0_1 (t : Fin (cfg0 a0).N) : ((cfg0 a0).win 1).flush t = true :=
  (by decide +kernel : ∀ t : Fin grid0.N, Pipeline.Window.flushOf grid0 true cc0_transform_1 t = true) t

/-- The output window's block sits at the array's origin and has its extents: an index of the block is the same
    index of the array. -/
theorem blk1_emb (t : Fin (cfg0 a0).N) (j : S1x8x128.Idx) :
    ((((cfg0 a0).win 1).blk t).view.emb j : S1x8x128.Idx) = j := by
  refine funext fun a => Fin.ext ?_
  simp only [View.emb_slice, Function.Embedding.trans_apply, Function.Embedding.refl_apply]
  match a with
  | ⟨0, _⟩ =>
    show cc0_transform_1 (grid0.coords t) 0 * 1 + 1 * (j 0).val = (j 0).val
    rw [ix1_zero]; omega
  | ⟨1, _⟩ =>
    show cc0_transform_1 (grid0.coords t) 1 * 8 + 1 * (j 1).val = (j 1).val
    rw [ix1_zero]; omega
  | ⟨2, _⟩ =>
    show cc0_transform_1 (grid0.coords t) 2 * 128 + 1 * (j 2).val = (j 2).val
    rw [ix1_zero]; omega

/-- The output block read back through its (whole-array) rectangle is the array's function itself. -/
theorem blk1_read (f : FVec Ideal S1x8x128 .f32) (t : Fin (cfg0 a0).N) (j : S1x8x128.Idx) :
    (((cfg0 a0).win 1).blk t).view.read (Elt Ideal) f j = f j :=
  congrArg f (blk1_emb a0 t j)

/-- What the body leaves in the output window, entry by entry: the loaded block's entry, rectified. -/
theorem out0_1_apply (x0 : Vec Ideal S1x8x128 .f32) (j : S1x8x128.Idx) : out0_1 x0 j = max (x0 j) 0 :=
  (congrFun (out0_1_eq x0) j).trans (pay0_apply x0 j)

/-- What the region leaves in its output array: at (0, a, b) the table's entry (w, a, b), rectified. -/
def res0 (c : Dev nD) : FVec Ideal S1x8x128 .f32 := fun j => max (tab3 V c (ix3 w (j 1) (j 2))) 0

/-- At the one point the block written back is `res0` read through the block: the body leaves the payload of
    window 0's block, the maximum with zero entry by entry, and that block is the table's at (w,0,0). -/
theorem flushed0_1 (hix : ∀ i : grid0.Coords, cc0_transform_0 inb_S1_S1_0 numel1_S1 a0.1 i = ![w.val, 0, 0])
    (c : Dev nD) (t : Fin (cfg0 a0).N) (_ : ((cfg0 a0).win 1).flush t = true) :
    (dat0 V a0 c).flushed 1 t = (((cfg0 a0).win 1).blk t).view.read (Elt Ideal) (res0 V w c) := by
  have h1 : (dat0 V a0 c).flushed 1 t = out0_1 (iblk0 V a0 c 0 t) := by
    show ((cfg0 a0).win 1).cut ((cfg0 a0).grid.coords t) ((dat0 V a0 c).after 1 t) = _
    rw [after0_1]; rfl
  refine h1.trans (funext fun j => ?_)
  refine Eq.trans ?_ (blk1_read a0 (res0 V w c) t j).symm
  exact (out0_1_apply (iblk0 V a0 c 0 t) j).trans
    (congrArg (fun x : EReal => max x 0) (iblk0_apply V a0 w hix c t j))

/-- The one block is the whole output array. -/
theorem cover0 (i : S1x8x128.Idx) :
    ∃ t : Fin (cfg0 a0).N, ((cfg0 a0).win 1).flush t = true ∧ i ∈ (((cfg0 a0).win 1).blk t).view.set := by
  refine ⟨t0_0, flush0_1 a0 _, ?_⟩
  have h := (((cfg0 a0).win 1).blk t0_0).view.emb_mem_set i
  rw [blk1_emb a0 t0_0 i] at h
  exact h

/-- So the output array ends holding `res0`. -/
theorem arrAt0 (hix : ∀ i : grid0.Coords, cc0_transform_0 inb_S1_S1_0 numel1_S1 a0.1 i = ![w.val, 0, 0]) (c : Dev nD) :
    (dat0 V a0 c).arrAt 1 (cfg0 a0).N = res0 V w c :=
  (dat0 V a0 c).arrAt_eq_of_cover 1 (res0 V w c) (flushed0_1 V a0 w hix c) (cover0 a0)

end Generic

/-! ## At the region's entry contents: the table is the host's reshape of the embedding argument -/

section AtEntry

variable (m : (ℓ : Loc nD τ sig) → Buf (Elt Ideal) ℓ)

/-- The embedding argument, [50257,1024], as launched. -/
abbrev emb0 (c : Dev nD) : FVec Ideal S50257x1024 .f32 := Gen.V0 m c main_arg3

/-- What the host stretches before region 0 leave in the table's array: the embedding argument reshaped to
    [50257,8,128] (the stretches before write neither). -/
theorem V3_main_v1 (c : Dev nD) :
    (Gen.V3 m c main_v1 : FVec Ideal S50257x8x128 .f32)
      = shapeCast S50257x8x128 (emb0 m c) shapeCasts_S50257x1024_S50257x8x128 := by
  show StableHlo.after hostOps0_2 (StableHlo.after hostOps0_1 (StableHlo.after hostOps0 (fun b => m (c, b)))) (Proc.devRef .tc main_v1) = _
  after_results
  rfl

/-- The table at (w, a, b) is the embedding argument's entry (w, a*128 + b): the reshape keeps the row-major order. -/
theorem V3_main_v1_apply (c : Dev nD) (w : Fin 50257) (a : Fin 8) (b : Fin 128) (hk : a.val * 128 + b.val < 1024) :
    (Gen.V3 m c main_v1 : FVec Ideal S50257x8x128 .f32) (ix3 w a b) = emb0 m c (ix2 w ⟨a.val * 128 + b.val, hk⟩) := by
  rw [V3_main_v1]
  refine shapeCast_apply (emb0 m c) shapeCasts_S50257x1024_S50257x8x128 (ix3 w a b) (ix2 w ⟨a.val * 128 + b.val, hk⟩) ?_
  rw [Shape.rowMajor_val_two, Shape.rowMajor_val_three]
  show w.val * 1024 + (a.val * 128 + b.val) = (w.val * 8 + a.val) * 128 + b.val
  omega

/-- A column of a [1,8,128] index: eight rows of 128, row-major. -/
theorem col_lt (j : S1x8x128.Idx) : (j 1).val * 128 + (j 2).val < 1024 := by
  have h1 : (j 1).val < 8 := (j 1).isLt
  have h2 : (j 2).val < 128 := (j 2).isLt
  omega

/-- REGION 0's VALUE. Entered at what the host stretches before it leave (`Gen.V3 m`), with the table's word naming
    block index (w,0,0), region 0 leaves in its output array row `w` of the embedding argument, rectified
    (`Cert.Spec.embRelu`), laid out row-major as [1,8,128]. -/
theorem kval0 (a0 : (pcfg0 (F := Ideal)).Adm) (w : Fin 50257)
    (hix : ∀ i : grid0.Coords, cc0_transform_0 inb_S1_S1_0 numel1_S1 a0.1 i = ![w.val, 0, 0])
    (hc : S1x1024.ShapeCasts S1x8x128) (c : Dev nD) :
    ((dat0 (fun c b => Gen.V3 m c b) a0 c).arrAt 1 (cfg0 a0).N : FVec Ideal S1x8x128 .f32)
      = shapeCast S1x8x128 (Cert.SpecOut.row (Cert.Spec.embRelu (Cert.SpecOut.mat (emb0 m c)) w)) hc := by
  rw [arrAt0 (fun c b => Gen.V3 m c b) a0 w hix c]
  funext j
  have hk := col_lt j
  rw [shapeCast_apply (Cert.SpecOut.row (Cert.Spec.embRelu (Cert.SpecOut.mat (emb0 m c)) w)) hc j
    (ix2 (0 : Fin 1) ⟨(j 1).val * 128 + (j 2).val, hk⟩) (by
      rw [Shape.rowMajor_val_two, Shape.rowMajor_val_three]
      have h0 := lead0 j
      show (0 : Nat) * 1024 + ((j 1).val * 128 + (j 2).val) = ((j 0).val * 8 + (j 1).val) * 128 + (j 2).val
      omega)]
  exact congrArg (fun x : EReal => max x 0) (V3_main_v1_apply m c w (j 1) (j 2) hk)

/-- A row of 1024 reads row-major as a [1,8,128] block. -/
theorem casts_row_block : Shape.ShapeCasts S1x1024 S1x8x128 := by decide

/-- The same read as a row: the output array, read row-major as a row of 1024, is row `w` of the embedding argument,
    rectified. -/
theorem arr0_embRelu (a0 : (pcfg0 (F := Ideal)).Adm) (w : Fin 50257)
    (hix : ∀ i : grid0.Coords, cc0_transform_0 inb_S1_S1_0 numel1_S1 a0.1 i = ![w.val, 0, 0]) (c : Dev nD) :
    Cert.SpecOut.unrow (Cert.SpecHost.blockRow ((dat0 (F := Ideal) (fun c b => Gen.V3 m c b) a0 c).arrAt 1 (cfg0 a0).N))
      = Cert.Spec.embRelu (Cert.SpecOut.mat (emb0 m c)) w := by
  rw [kval0 m a0 w hix casts_row_block c]
  unfold Cert.SpecHost.blockRow
  rw [shapeCast_shapeCast]
  rfl

end AtEntry

end Cert.KernelIdeal.Hand

end
-- ==== Proof.KI.KVal1.lean ====
import proofs.«408709_j86328842650330_3_alg».proof.Proof.KI.Reg1
import proofs.«408709_j86328842650330_3_alg».proof.Proof.KI.KPay
import proofs.«408709_j86328842650330_3_alg».proof.Proof.Spec
import proofs.«408709_j86328842650330_3_alg».proof.Proof.SpecOut
import Idealize.ShloMosaic.Lib.Pipeline.Value
import Idealize.ShloMosaic.Lib.ValueIdx

/-! # Region 1: the gate region's output array at the extended reals

The region leaves in its output array ONE function of the arrays it finds: entry `(0, j)` is the input row's product
with row `j` of the input weights, plus the input bias, plus the hidden row's product with row `j` of the recurrent
weights, plus the recurrent bias. Point `g` of the grid of four writes columns `g·1024 …`, reading rows `g·1024 …` of
the weights and of the biases; the four blocks tile the 4096 columns. -/

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-! ## Region 1: one stored block against the specification -/

/-- The gate body's block at the grid point whose output block index is `g`: if the six loaded blocks are the arrays'
    blocks there (the two row vectors whole, rows `g·1024 …` of the weights and of the biases), the stored value at column
    `q` is the specification's gate pre-activation at `g·1024 + q`. -/
theorem gate_block1 (x h : FVec Ideal S1x1024 .f32) (Wih Whh : FVec Ideal S4096x1024 .f32) (bih bhh : FVec Ideal S4096 .f32)
    (b0 b1 : Vec Ideal S1x1024 .f32) (b2 b3 : Vec Ideal S1024x1024 .f32) (b4 b5 : Vec Ideal S1024 .f32)
    (g : Nat) (hg : g < 4)
    (e0 : ∀ k : Fin 1024, b0 (ix2 (0 : Fin 1) k) = x (ix2 (0 : Fin 1) k))
    (e1 : ∀ k : Fin 1024, b1 (ix2 (0 : Fin 1) k) = h (ix2 (0 : Fin 1) k))
    (e2 : ∀ q k : Fin 1024, b2 (ix2 q k) = Wih (ix2 (⟨g * 1024 + q.val, by have := q.isLt; omega⟩ : Fin 4096) k))
    (e3 : ∀ q k : Fin 1024, b3 (ix2 q k) = Whh (ix2 (⟨g * 1024 + q.val, by have := q.isLt; omega⟩ : Fin 4096) k))
    (e4 : ∀ q : Fin 1024, b4 (ix1 q) = bih (ix1 (⟨g * 1024 + q.val, by have := q.isLt; omega⟩ : Fin 4096)))
    (e5 : ∀ q : Fin 1024, b5 (ix1 q) = bhh (ix1 (⟨g * 1024 + q.val, by have := q.isLt; omega⟩ : Fin 4096)))
    (p : Fin 1) (q : Fin 1024) :
    Gen.k1_pay1 (F := Ideal) b0 b1 b2 b3 b4 b5 (ix2 p q)
      = Cert.Spec.gate (Cert.SpecOut.unrow x) (Cert.SpecOut.unrow h) (Cert.SpecOut.mat Wih) (Cert.SpecOut.mat Whh)
          (Cert.SpecOut.vec bih) (Cert.SpecOut.vec bhh) (⟨g * 1024 + q.val, by have := q.isLt; omega⟩ : Fin 4096) := by
  obtain rfl : p = 0 := Subsingleton.elim p 0
  rw [pay1_apply]
  simp only [e0, e1, e2, e3, e4, e5]
  rfl

/-! ## Region 1: where the blocks sit -/

/-- The index maps over the four points: the two row vectors' blocks stay at the origin, the weight and bias blocks are
    at the row block equal to the output's column block, and that column block is below four. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = win1_6.index t (1 : Fin 2) ∧ win1_2.index t (1 : Fin 2) = 0
    ∧ win1_3.index t (0 : Fin 2) = win1_6.index t (1 : Fin 2) ∧ win1_3.index t (1 : Fin 2) = 0
    ∧ win1_4.index t (0 : Fin 1) = win1_6.index t (1 : Fin 2)
    ∧ win1_5.index t (0 : Fin 1) = win1_6.index t (1 : Fin 2)
    ∧ win1_6.index t (0 : Fin 2) = 0 ∧ win1_6.index t (1 : Fin 2) < 4 :=
  (by decide +kernel : ∀ t : Fin grid1.N, _)

/-- Every one of the four column blocks is some point's. -/
theorem idx_onto1 : ∀ g : Fin 4, ∃ t : Fin cfg1.N, win1_6.index t = ![0, g.val] :=
  (by decide +kernel : ∀ g : Fin 4, ∃ t : Fin grid1.N, win1_6.index t = ![0, g.val])

/-- An index of the output array is in point `t`'s block iff each coordinate is in the block's range on its axis. -/
theorem mem_blk1 (t : Fin cfg1.N) (i : S1x4096.Idx) :
    i ∈ ((cfg1.win 6).blk t).view.set ↔ ∀ a : Fin 2, win1_6.index t a * S1x1024.size a ≤ (i a).val
      ∧ (i a).val < win1_6.index t a * S1x1024.size a + S1x1024.size a := by
  show i ∈ ((View.whole main_v6).slice (win1_6.rect t)).set ↔ _
  rw [View.set_slice_whole, Rect.mem_set_unit]
  exact Iff.rfl

/-- The four blocks tile the output array: column `j` is in the block of the point whose column block is `j / 1024`. -/
theorem cover1 (i : S1x4096.Idx) :
    ∃ t : Fin cfg1.N, (cfg1.win 6).flush t = true ∧ i ∈ ((cfg1.win 6).blk t).view.set := by
  have hi0 : (i 0).val < 1 := (i 0).isLt
  have hi1 : (i 1).val < 4096 := (i 1).isLt
  obtain ⟨t, ht⟩ := idx_onto1 ⟨(i 1).val / 1024, by omega⟩
  have q0 : win1_6.index t (0 : Fin 2) = 0 := congrFun ht 0
  have q1 : win1_6.index t (1 : Fin 2) = (i 1).val / 1024 := congrFun ht 1
  refine ⟨t, flush1_6 t, ?_⟩
  rw [mem_blk1]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 1024 ≤ (i 1).val ∧ (i 1).val < win1_6.index t (1 : Fin 2) * 1024 + 1024; omega

/-! ## Region 1: what a point writes back, and the array after the region -/

/-- What point `t` writes back is its block of the gate pre-activations of the arrays the region finds: each input
    block is read where the output block's column block says (a block's coordinate is its block index times the block
    size plus the coordinate inside). -/
theorem flushed1_eq (c : Dev nD) (t : Fin cfg1.N) :
    (dat1 (F := Ideal) V c).flushed 6 t = ((cfg1.win 6).blk t).view.read (Elt Ideal)
      (Cert.SpecOut.row (Cert.Spec.gate (Cert.SpecOut.unrow (V c main_v3)) (Cert.SpecOut.unrow (V c main_v5))
        (Cert.SpecOut.mat (V c main_arg4)) (Cert.SpecOut.mat (V c main_arg5))
        (Cert.SpecOut.vec (V c main_arg6)) (Cert.SpecOut.vec (V c main_arg7)))) := by
  show (cfg1.win 6).cut (grid1.coords t) ((dat1 (F := Ideal) V c).after 6 t) = _
  rw [after1_6, out1_6_eq]
  obtain ⟨a0, a1, b0, b1, c0, c1, d0, d1, e0, f0, g0, g1⟩ := idx_facts1 t
  funext j
  obtain ⟨p, q, rfl⟩ : ∃ (p : Fin 1) (q : Fin 1024), j = ix2 p q := ⟨j 0, j 1, eq_ix2 j⟩
  refine (gate_block1 (V c main_v3) (V c main_v5) (V c main_arg4) (V c main_arg5) (V c main_arg6) (V c main_arg7)
    (iblk1 V c 0 t) (iblk1 V c 1 t) (iblk1 V c 2 t) (iblk1 V c 3 t) (iblk1 V c 4 t) (iblk1 V c 5 t)
    (win1_6.index t (1 : Fin 2)) g1 ?_ ?_ ?_ ?_ ?_ ?_ p q).trans ?_
  · intro k
    show V c main_v3 (((cfg1.win 0).blk t).view.emb (ix2 (0 : Fin 1) k)) = V c main_v3 (ix2 (0 : Fin 1) k)
    refine congrArg _ (funext fun a => Fin.ext ?_)
    match a with
    | ⟨0, _⟩ => show win1_0.index t (0 : Fin 2) * 1 + 1 * 0 = 0; omega
    | ⟨1, _⟩ => show win1_0.index t (1 : Fin 2) * 1024 + 1 * k.val = k.val; omega
  · intro k
    show V c main_v5 (((cfg1.win 1).blk t).view.emb (ix2 (0 : Fin 1) k)) = V c main_v5 (ix2 (0 : Fin 1) k)
    refine congrArg _ (funext fun a => Fin.ext ?_)
    match a with
    | ⟨0, _⟩ => show win1_1.index t (0 : Fin 2) * 1 + 1 * 0 = 0; omega
    | ⟨1, _⟩ => show win1_1.index t (1 : Fin 2) * 1024 + 1 * k.val = k.val; omega
  · intro q' k
    show V c main_arg4 (((cfg1.win 2).blk t).view.emb (ix2 q' k)) = V c main_arg4 (ix2 _ k)
    refine congrArg _ (funext fun a => Fin.ext ?_)
    match a with
    | ⟨0, _⟩ => show win1_2.index t (0 : Fin 2) * 1024 + 1 * q'.val = win1_6.index t (1 : Fin 2) * 1024 + q'.val; omega
    | ⟨1, _⟩ => show win1_2.index t (1 : Fin 2) * 1024 + 1 * k.val = k.val; omega
  · intro q' k
    show V c main_arg5 (((cfg1.win 3).blk t).view.emb (ix2 q' k)) = V c main_arg5 (ix2 _ k)
    refine congrArg _ (funext fun a => Fin.ext ?_)
    match a with
    | ⟨0, _⟩ => show win1_3.index t (0 : Fin 2) * 1024 + 1 * q'.val = win1_6.index t (1 : Fin 2) * 1024 + q'.val; omega
    | ⟨1, _⟩ => show win1_3.index t (1 : Fin 2) * 1024 + 1 * k.val = k.val; omega
  · intro q'
    show V c main_arg6 (((cfg1.win 4).blk t).view.emb (ix1 q')) = V c main_arg6 (ix1 _)
    refine congrArg _ (funext fun a => Fin.ext ?_)
    match a with
    | ⟨0, _⟩ => show win1_4.index t (0 : Fin 1) * 1024 + 1 * q'.val = win1_6.index t (1 : Fin 2) * 1024 + q'.val; omega
  · intro q'
    show V c main_arg7 (((cfg1.win 5).blk t).view.emb (ix1 q')) = V c main_arg7 (ix1 _)
    refine congrArg _ (funext fun a => Fin.ext ?_)
    match a with
    | ⟨0, _⟩ => show win1_5.index t (0 : Fin 1) * 1024 + 1 * q'.val = win1_6.index t (1 : Fin 2) * 1024 + q'.val; omega
  · show Cert.Spec.gate _ _ _ _ _ _ _ = Cert.Spec.gate _ _ _ _ _ _ ((((cfg1.win 6).blk t).view.emb (ix2 p q)) 1)
    refine congrArg _ (Fin.ext ?_)
    show win1_6.index t (1 : Fin 2) * 1024 + q.val = win1_6.index t (1 : Fin 2) * 1024 + 1 * q.val
    omega

/-- The output array after the region: the gate pre-activations of the arrays the region finds — the input row, the
    hidden row, the two weight matrices and the two biases — in the specification's own terms. -/
theorem arr1_gate (c : Dev nD) :
    (dat1 (F := Ideal) V c).arrAt 6 cfg1.N
      = Cert.SpecOut.row (Cert.Spec.gate (Cert.SpecOut.unrow (V c main_v3)) (Cert.SpecOut.unrow (V c main_v5))
          (Cert.SpecOut.mat (V c main_arg4)) (Cert.SpecOut.mat (V c main_arg5))
          (Cert.SpecOut.vec (V c main_arg6)) (Cert.SpecOut.vec (V c main_arg7))) :=
  (dat1 (F := Ideal) V c).arrAt_eq_of_cover 6 _ (fun t _ => flushed1_eq V c t) (cover1)

end Cert.KernelIdeal.Hand

end
-- ==== Proof.KI.KVal2.lean ====
import proofs.«408709_j86328842650330_3_alg».proof.Proof.KI.Reg2
import proofs.«408709_j86328842650330_3_alg».proof.Proof.KI.KPay
import proofs.«408709_j86328842650330_3_alg».proof.Proof.Spec
import proofs.«408709_j86328842650330_3_alg».proof.Proof.SpecOut
import Idealize.ShloMosaic.Lib.Pipeline.Value
import Idealize.ShloMosaic.Lib.ValueIdx

/-! # Region 2: the gate region's output array at the extended reals

The region leaves in its output array ONE function of the arrays it finds: entry `(0, j)` is the input row's product
with row `j` of the input weights, plus the input bias, plus the hidden row's product with row `j` of the recurrent
weights, plus the recurrent bias. Point `g` of the grid of four writes columns `g·1024 …`, reading rows `g·1024 …` of
the weights and of the biases; the four blocks tile the 4096 columns. -/

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with
variable (V : (c : Dev nD) → (b : Ref sig .tc) → Buf (Elt Ideal) ((c : Thread nD τ).loc b))

/-! ## Region 2: one stored block against the specification -/

/-- The gate body's block at the grid point whose output block index is `g`: if the six loaded blocks are the arrays'
    blocks there (the two row vectors whole, rows `g·1024 …` of the weights and of the biases), the stored value at column
    `q` is the specification's gate pre-activation at `g·1024 + q`. -/
theorem gate_block2 (x h : FVec Ideal S1x1024 .f32) (Wih Whh : FVec Ideal S4096x1024 .f32) (bih bhh : FVec Ideal S4096 .f32)
    (b0 b1 : Vec Ideal S1x1024 .f32) (b2 b3 : Vec Ideal S1024x1024 .f32) (b4 b5 : Vec Ideal S1024 .f32)
    (g : Nat) (hg : g < 4)
    (e0 : ∀ k : Fin 1024, b0 (ix2 (0 : Fin 1) k) = x (ix2 (0 : Fin 1) k))
    (e1 : ∀ k : Fin 1024, b1 (ix2 (0 : Fin 1) k) = h (ix2 (0 : Fin 1) k))
    (e2 : ∀ q k : Fin 1024, b2 (ix2 q k) = Wih (ix2 (⟨g * 1024 + q.val, by have := q.isLt; omega⟩ : Fin 4096) k))
    (e3 : ∀ q k : Fin 1024, b3 (ix2 q k) = Whh (ix2 (⟨g * 1024 + q.val, by have := q.isLt; omega⟩ : Fin 4096) k))
    (e4 : ∀ q : Fin 1024, b4 (ix1 q) = bih (ix1 (⟨g * 1024 + q.val, by have := q.isLt; omega⟩ : Fin 4096)))
    (e5 : ∀ q : Fin 1024, b5 (ix1 q) = bhh (ix1 (⟨g * 1024 + q.val, by have := q.isLt; omega⟩ : Fin 4096)))
    (p : Fin 1) (q : Fin 1024) :
    Gen.k2_pay1 (F := Ideal) b0 b1 b2 b3 b4 b5 (ix2 p q)
      = Cert.Spec.gate (Cert.SpecOut.unrow x) (Cert.SpecOut.unrow h) (Cert.SpecOut.mat Wih) (Cert.SpecOut.mat Whh)
          (Cert.SpecOut.vec bih) (Cert.SpecOut.vec bhh) (⟨g * 1024 + q.val, by have := q.isLt; omega⟩ : Fin 4096) := by
  obtain rfl : p = 0 := Subsingleton.elim p 0
  rw [pay2_apply]
  simp only [e0, e1, e2, e3, e4, e5]
  rfl

/-! ## Region 2: where the blocks sit -/

/-- The index maps over the four points: the two row vectors' blocks stay at the origin, the weight and bias blocks are
    at the row block equal to the output's column block, and that column block is below four. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = win2_6.index t (1 : Fin 2) ∧ win2_2.index t (1 : Fin 2) = 0
    ∧ win2_3.index t (0 : Fin 2) = win2_6.index t (1 : Fin 2) ∧ win2_3.index t (1 : Fin 2) = 0
    ∧ win2_4.index t (0 : Fin 1) = win2_6.index t (1 : Fin 2)
    ∧ win2_5.index t (0 : Fin 1) = win2_6.index t (1 : Fin 2)
    ∧ win2_6.index t (0 : Fin 2) = 0 ∧ win2_6.index t (1 : Fin 2) < 4 :=
  (by decide +kernel : ∀ t : Fin grid2.N, _)

/-- Every one of the four column blocks is some point's. -/
theorem idx_onto2 : ∀ g : Fin 4, ∃ t : Fin cfg2.N, win2_6.index t = ![0, g.val] :=
  (by decide +kernel : ∀ g : Fin 4, ∃ t : Fin grid2.N, win2_6.index t = ![0, g.val])

/-- An index of the output array is in point `t`'s block iff each coordinate is in the block's range on its axis. -/
theorem mem_blk2 (t : Fin cfg2.N) (i : S1x4096.Idx) :
    i ∈ ((cfg2.win 6).blk t).view.set ↔ ∀ a : Fin 2, win2_6.index t a * S1x1024.size a ≤ (i a).val
      ∧ (i a).val < win2_6.index t a * S1x1024.size a + S1x1024.size a := by
  show i ∈ ((View.whole main_v39).slice (win2_6.rect t)).set ↔ _
  rw [View.set_slice_whole, Rect.mem_set_unit]
  exact Iff.rfl

/-- The four blocks tile the output array: column `j` is in the block of the point whose column block is `j / 1024`. -/
theorem cover2 (i : S1x4096.Idx) :
    ∃ t : Fin cfg2.N, (cfg2.win 6).flush t = true ∧ i ∈ ((cfg2.win 6).blk t).view.set := by
  have hi0 : (i 0).val < 1 := (i 0).isLt
  have hi1 : (i 1).val < 4096 := (i 1).isLt
  obtain ⟨t, ht⟩ := idx_onto2 ⟨(i 1).val / 1024, by omega⟩
  have q0 : win2_6.index t (0 : Fin 2) = 0 := congrFun ht 0
  have q1 : win2_6.index t (1 : Fin 2) = (i 1).val / 1024 := congrFun ht 1
  refine ⟨t, flush2_6 t, ?_⟩
  rw [mem_blk2]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 1024 ≤ (i 1).val ∧ (i 1).val < win2_6.index t (1 : Fin 2) * 1024 + 1024; omega

/-! ## Region 2: what a point writes back, and the array after the region -/

/-- What point `t` writes back is its block of the gate pre-activations of the arrays the region finds: each input
    block is read where the output block's column block says (a block's coordinate is its block index times the block
    size plus the coordinate inside). -/
theorem flushed2_eq (c : Dev nD) (t : Fin cfg2.N) :
    (dat2 (F := Ideal) V c).flushed 6 t = ((cfg2.win 6).blk t).view.read (Elt Ideal)
      (Cert.SpecOut.row (Cert.Spec.gate (Cert.SpecOut.unrow (V c main_v36)) (Cert.SpecOut.unrow (V c main_v38))
        (Cert.SpecOut.mat (V c main_arg8)) (Cert.SpecOut.mat (V c main_arg9))
        (Cert.SpecOut.vec (V c main_arg10)) (Cert.SpecOut.vec (V c main_arg11)))) := by
  show (cfg2.win 6).cut (grid2.coords t) ((dat2 (F := Ideal) V c).after 6 t) = _
  rw [after2_6, out2_6_eq]
  obtain ⟨a0, a1, b0, b1, c0, c1, d0, d1, e0, f0, g0, g1⟩ := idx_facts2 t
  funext j
  obtain ⟨p, q, rfl⟩ : ∃ (p : Fin 1) (q : Fin 1024), j = ix2 p q := ⟨j 0, j 1, eq_ix2 j⟩
  refine (gate_block2 (V c main_v36) (V c main_v38) (V c main_arg8) (V c main_arg9) (V c main_arg10) (V c main_arg11)
    (iblk2 V c 0 t) (iblk2 V c 1 t) (iblk2 V c 2 t) (iblk2 V c 3 t) (iblk2 V c 4 t) (iblk2 V c 5 t)
    (win2_6.index t (1 : Fin 2)) g1 ?_ ?_ ?_ ?_ ?_ ?_ p q).trans ?_
  · intro k
    show V c main_v36 (((cfg2.win 0).blk t).view.emb (ix2 (0 : Fin 1) k)) = V c main_v36 (ix2 (0 : Fin 1) k)
    refine congrArg _ (funext fun a => Fin.ext ?_)
    match a with
    | ⟨0, _⟩ => show win2_0.index t (0 : Fin 2) * 1 + 1 * 0 = 0; omega
    | ⟨1, _⟩ => show win2_0.index t (1 : Fin 2) * 1024 + 1 * k.val = k.val; omega
  · intro k
    show V c main_v38 (((cfg2.win 1).blk t).view.emb (ix2 (0 : Fin 1) k)) = V c main_v38 (ix2 (0 : Fin 1) k)
    refine congrArg _ (funext fun a => Fin.ext ?_)
    match a with
    | ⟨0, _⟩ => show win2_1.index t (0 : Fin 2) * 1 + 1 * 0 = 0; omega
    | ⟨1, _⟩ => show win2_1.index t (1 : Fin 2) * 1024 + 1 * k.val = k.val; omega
  · intro q' k
    show V c main_arg8 (((cfg2.win 2).blk t).view.emb (ix2 q' k)) = V c main_arg8 (ix2 _ k)
    refine congrArg _ (funext fun a => Fin.ext ?_)
    match a with
    | ⟨0, _⟩ => show win2_2.index t (0 : Fin 2) * 1024 + 1 * q'.val = win2_6.index t (1 : Fin 2) * 1024 + q'.val; omega
    | ⟨1, _⟩ => show win2_2.index t (1 : Fin 2) * 1024 + 1 * k.val = k.val; omega
  · intro q' k
    show V c main_arg9 (((cfg2.win 3).blk t).view.emb (ix2 q' k)) = V c main_arg9 (ix2 _ k)
    refine congrArg _ (funext fun a => Fin.ext ?_)
    match a with
    | ⟨0, _⟩ => show win2_3.index t (0 : Fin 2) * 1024 + 1 * q'.val = win2_6.index t (1 : Fin 2) * 1024 + q'.val; omega
    | ⟨1, _⟩ => show win2_3.index t (1 : Fin 2) * 1024 + 1 * k.val = k.val; omega
  · intro q'
    show V c main_arg10 (((cfg2.win 4).blk t).view.emb (ix1 q')) = V c main_arg10 (ix1 _)
    refine congrArg _ (funext fun a => Fin.ext ?_)
    match a with
    | ⟨0, _⟩ => show win2_4.index t (0 : Fin 1) * 1024 + 1 * q'.val = win2_6.index t (1 : Fin 2) * 1024 + q'.val; omega
  · intro q'
    show V c main_arg11 (((cfg2.win 5).blk t).view.emb (ix1 q')) = V c main_arg11 (ix1 _)
    refine congrArg _ (funext fun a => Fin.ext ?_)
    match a with
    | ⟨0, _⟩ => show win2_5.index t (0 : Fin 1) * 1024 + 1 * q'.val = win2_6.index t (1 : Fin 2) * 1024 + q'.val; omega
  · show Cert.Spec.gate _ _ _ _ _ _ _ = Cert.Spec.gate _ _ _ _ _ _ ((((cfg2.win 6).blk t).view.emb (ix2 p q)) 1)
    refine congrArg _ (Fin.ext ?_)
    show win2_6.index t (1 : Fin 2) * 1024 + q.val = win2_6.index t (1 : Fin 2) * 1024 + 1 * q.val
    omega

/-- The output array after the region: the gate pre-activations of the arrays the region finds — the input row, the
    hidden row, the two weight matrices and the two biases — in the specification's own terms. -/
theorem arr2_gate (c : Dev nD) :
    (dat2 (F := Ideal) V c).arrAt 6 cfg2.N
      = Cert.SpecOut.row (Cert.Spec.gate (Cert.SpecOut.unrow (V c main_v36)) (Cert.SpecOut.unrow (V c main_v38))
          (Cert.SpecOut.mat (V c main_arg8)) (Cert.SpecOut.mat (V c main_arg9))
          (Cert.SpecOut.vec (V c main_arg10)) (Cert.SpecOut.vec (V c main_arg11))) :=
  (dat2 (F := Ideal) V c).arrAt_eq_of_cover 6 _ (fun t _ => flushed2_eq V c t) (cover2)

end Cert.KernelIdeal.Hand

end
-- ==== Proof.KI.KVal3.lean ====
/-
  Region 3 at the extended reals: the array the projection pipeline leaves is the specification's logits of the
  arrays it finds, as a one-row array.

  The vocabulary axis (50257 columns) is walked in 25 blocks of 2048; the last block overhangs the array by 943
  columns, and its transfers are cut to the 1105 columns inside. The body multiplies the hidden row with the
  transposed weight block and adds the bias block; a column of the result reads one row of the weight block and one
  entry of the bias block, so the columns that are written back — those inside the array — read only rows inside the
  array, where the blocks filled out to the buffers' shape are the arrays' own blocks. Hence every point writes back
  the logits read through its block, the blocks cover the array, and the array ends holding the logits.
-/
import proofs.«408709_j86328842650330_3_alg».proof.Proof.Spec
import proofs.«408709_j86328842650330_3_alg».proof.Proof.SpecOut
import proofs.«408709_j86328842650330_3_alg».proof.Proof.KI.KPay
import proofs.«408709_j86328842650330_3_alg».proof.Proof.KI.Reg3
import Idealize.ShloMosaic.Lib.Pipeline.Value
import Idealize.ShloMosaic.PureOps.Ideal.Laws
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## One stored block against the specification -/

/-- The projection kernel's block at grid point `g`, of which the first `n` columns lie inside the array: if the
    loaded blocks are the arrays' blocks there on those rows (the row vector whole, rows `g·2048 …` of the weights and
    the bias), the stored value at a column `q < n` is the specification's logit at `g·2048 + q`. Rows past `n` of
    the loaded blocks are not read by such a column. -/
theorem proj_block (h : FVec Ideal S1x1024 .f32) (W : FVec Ideal S50257x1024 .f32) (b : FVec Ideal S50257 .f32)
    (b0 : Vec Ideal S1x1024 .f32) (b1 : Vec Ideal S2048x1024 .f32) (b2 : Vec Ideal S2048 .f32)
    (g n : Nat) (hn : g * 2048 + n ≤ 50257)
    (e0 : ∀ k : Fin 1024, b0 (ix2 (0 : Fin 1) k) = h (ix2 (0 : Fin 1) k))
    (e1 : ∀ (q : Fin 2048) (hq : q.val < n) (k : Fin 1024), b1 (ix2 q k) = W (ix2 (⟨g * 2048 + q.val, by omega⟩ : Fin 50257) k))
    (e2 : ∀ (q : Fin 2048) (hq : q.val < n), b2 (ix1 q) = b (ix1 (⟨g * 2048 + q.val, by omega⟩ : Fin 50257)))
    (p : Fin 1) (q : Fin 2048) (hq : q.val < n) :
    Gen.k3_pay1 (F := Ideal) b0 b1 b2 (ix2 p q)
      = Cert.Spec.logit (Cert.SpecOut.unrow h) (Cert.SpecOut.mat W) (Cert.SpecOut.vec b) (⟨g * 2048 + q.val, by omega⟩ : Fin 50257) := by
  obtain rfl : p = 0 := Subsingleton.elim p 0
  rw [pay3_apply, e2 q hq]
  simp only [e0, e1 q hq]
  rfl

/-! ## The printed index maps and cuts, decided over the grid's 25 points -/

/-- The row vector's window stays at block (0, 0); the weights' and the bias's windows move with the output's along
    the vocabulary axis; the windows over the vocabulary are cut alike, and the output's block ends where the next
    begins or, at the last point, at the array's end. -/
theorem idx_facts3 : ∀ t : Fin cfg3.N,
    win3_0.index t (0 : Fin 2) = 0 ∧ win3_0.index t (1 : Fin 2) = 0
    ∧ win3_1.index t (0 : Fin 2) = win3_3.index t (1 : Fin 2) ∧ win3_1.index t (1 : Fin 2) = 0
    ∧ win3_2.index t (0 : Fin 1) = win3_3.index t (1 : Fin 2)
    ∧ win3_3.index t (0 : Fin 2) = 0 ∧ win3_3.index t (1 : Fin 2) < 25
    ∧ win3_1.xsize (grid3.coords t) (0 : Fin 2) = win3_3.xsize (grid3.coords t) (1 : Fin 2)
    ∧ win3_1.xsize (grid3.coords t) (1 : Fin 2) = 1024
    ∧ win3_2.xsize (grid3.coords t) (0 : Fin 1) = win3_3.xsize (grid3.coords t) (1 : Fin 2)
    ∧ win3_3.xsize (grid3.coords t) (0 : Fin 2) = 1
    ∧ (((win3_3.index t (1 : Fin 2) + 1) * 2048 ≤ 50257 ∧ win3_3.xsize (grid3.coords t) (1 : Fin 2) = 2048)
        ∨ (50257 < (win3_3.index t (1 : Fin 2) + 1) * 2048
            ∧ win3_3.index t (1 : Fin 2) * 2048 + win3_3.xsize (grid3.coords t) (1 : Fin 2) = 50257)) :=
  (by decide +kernel : ∀ t : Fin grid3.N, _)

/-- Every block index along the vocabulary axis is some point's. -/
theorem idx_onto3 : ∀ g : Fin 25, ∃ t : Fin cfg3.N, win3_3.index t = ![0, g.val] :=
  (by decide +kernel : ∀ g : Fin 25, ∃ t : Fin grid3.N, win3_3.index t = ![0, g.val])

variable (V : (c : Dev nD) → (b : Ref sig .tc) → Buf (Elt Ideal) ((c : Thread nD τ).loc b))

/-! ## The output array the region leaves -/

/-- The logits: the specification's projection of the hidden row the region finds, against the weights and the bias
    it finds, as a one-row array. -/
abbrev logits3 (c : Dev nD) : FVec Ideal S1x50257 .f32 :=
  Cert.SpecOut.row (Cert.Spec.logit (Cert.SpecOut.unrow (n := 1024) (V c main_v69))
    (Cert.SpecOut.mat (a := 50257) (b := 1024) (V c main_arg12)) (Cert.SpecOut.vec (a := 50257) (V c main_arg13)))

theorem cut_pay3 (c : Dev nD) (t : Fin cfg3.N) :
    win3_3.cut (grid3.coords t) (k3_pay1 (F := Ideal) (iblk3 V c 0 t) (blk3_1 V c t) (blk3_2 V c t))
      = (win3_3.blk t).view.read (Elt Ideal) (logits3 V c) := by
  obtain ⟨a0, a1, b0, b1, c0, d0, d1, x10, x11, x20, x30, hend⟩ := idx_facts3 t
  funext j
  have hj1 : (j 1).val < win3_3.xsize (grid3.coords t) (1 : Fin 2) := (j 1).isLt
  have hj0 : (j 0).val < win3_3.xsize (grid3.coords t) (0 : Fin 2) := (j 0).isLt
  have hlt : (j 1).val < 2048 := by omega
  have hlt0 : (j 0).val < 1 := by omega
  have e : win3_3.xinj (grid3.coords t) j = ix2 (⟨(j 0).val, hlt0⟩ : Fin 1) (⟨(j 1).val, hlt⟩ : Fin 2048) :=
    funext fun a => by match a with | ⟨0, _⟩ => rfl | ⟨1, _⟩ => rfl
  show k3_pay1 (F := Ideal) (iblk3 V c 0 t) (blk3_1 V c t) (blk3_2 V c t) (win3_3.xinj (grid3.coords t) j) = _
  rw [e]
  refine (proj_block (V c main_v69) (V c main_arg12) (V c main_arg13) _ _ _ (win3_3.index t (1 : Fin 2))
    (win3_3.xsize (grid3.coords t) (1 : Fin 2)) (by omega) ?_ ?_ ?_ _ _ hj1).trans ?_
  · -- the row vector's block is the whole row
    intro k
    show V c main_v69 ((win3_0.blk t).view.emb (ix2 (0 : Fin 1) k)) = V c main_v69 (ix2 (0 : Fin 1) k)
    refine congrArg _ (funext fun a => Fin.ext ?_)
    match a with
    | ⟨0, _⟩ => show win3_0.index t (0 : Fin 2) * 1 + 1 * 0 = 0; omega
    | ⟨1, _⟩ => show win3_0.index t (1 : Fin 2) * 1024 + 1 * k.val = k.val; omega
  · -- a row inside the array of the filled-out weight block is the weights' row
    intro q hq k
    have hm : win3_1.moved (grid3.coords t) (ix2 q k) = true := (win3_1.moved_iff _ _).mpr fun a => by
      match a with
      | ⟨0, _⟩ => show q.val < win3_1.xsize (grid3.coords t) (0 : Fin 2); omega
      | ⟨1, _⟩ => show k.val < win3_1.xsize (grid3.coords t) (1 : Fin 2); have := k.isLt; omega
    unfold blk3_1 Pipeline.Window.fill
    rw [dif_pos hm]
    show V c main_arg12 ((win3_1.blk t).view.emb _) = V c main_arg12 _
    refine congrArg _ (funext fun a => Fin.ext ?_)
    match a with
    | ⟨0, _⟩ => show win3_1.index t (0 : Fin 2) * 2048 + 1 * q.val = win3_3.index t (1 : Fin 2) * 2048 + q.val; omega
    | ⟨1, _⟩ => show win3_1.index t (1 : Fin 2) * 1024 + 1 * k.val = k.val; omega
  · -- likewise the bias
    intro q hq
    have hm : win3_2.moved (grid3.coords t) (ix1 q) = true := (win3_2.moved_iff _ _).mpr fun a => by
      match a with
      | ⟨0, _⟩ => show q.val < win3_2.xsize (grid3.coords t) (0 : Fin 1); omega
    unfold blk3_2 Pipeline.Window.fill
    rw [dif_pos hm]
    show V c main_arg13 ((win3_2.blk t).view.emb _) = V c main_arg13 _
    refine congrArg _ (funext fun a => Fin.ext ?_)
    match a with
    | ⟨0, _⟩ => show win3_2.index t (0 : Fin 1) * 2048 + 1 * q.val = win3_3.index t (1 : Fin 2) * 2048 + q.val; omega
  · -- the column's place in the array
    show _ = Cert.Spec.logit _ _ _ (((win3_3.blk t).view.emb j) 1)
    refine congrArg _ (Fin.ext ?_)
    show win3_3.index t (1 : Fin 2) * 2048 + (j 1).val = win3_3.index t (1 : Fin 2) * 2048 + 1 * (j 1).val
    omega

/-- WHAT POINT `t` WRITES BACK is the logits array read through the point's block. -/
theorem flushed3_eq (c : Dev nD) (t : Fin cfg3.N) :
    (dat3 (F := Ideal) V c).flushed 3 t = ((cfg3.win 3).blk t).view.read (Elt Ideal) (logits3 V c) := by
  show (cfg3.win 3).cut (grid3.coords t) ((dat3 V c).after 3 t) = _
  rw [after3_3, out3_3_eq]
  exact cut_pay3 V c t

/-- An index of the array is in point `t`'s block iff each coordinate is in the block's range on its axis, cut at the
    array's end. -/
theorem mem_blk3 (t : Fin cfg3.N) (i : S1x50257.Idx) :
    i ∈ ((cfg3.win 3).blk t).view.set ↔ ∀ a : Fin 2, win3_3.index t a * S1x2048.size a ≤ (i a).val
      ∧ (i a).val < win3_3.index t a * S1x2048.size a + win3_3.xsize (grid3.coords t) a := by
  show i ∈ ((View.whole main_v70).slice (win3_3.rect t)).set ↔ _
  rw [View.set_slice_whole, Rect.mem_set_unit]
  exact Iff.rfl

/-- The blocks cover the array: column `v` lies in the block of the point whose block index is `v / 2048` — the last
    block, cut at column 50257, included. -/
theorem cover3 (i : S1x50257.Idx) :
    ∃ t : Fin cfg3.N, (cfg3.win 3).flush t = true ∧ i ∈ ((cfg3.win 3).blk t).view.set := by
  have hi0 : (i 0).val < 1 := (i 0).isLt
  have hi1 : (i 1).val < 50257 := (i 1).isLt
  obtain ⟨t, ht⟩ := idx_onto3 ⟨(i 1).val / 2048, by omega⟩
  have q0 : win3_3.index t (0 : Fin 2) = 0 := congrFun ht 0
  have q1 : win3_3.index t (1 : Fin 2) = (i 1).val / 2048 := congrFun ht 1
  obtain ⟨a0, a1, b0, b1, c0, d0, d1, x10, x11, x20, x30, hend⟩ := idx_facts3 t
  refine ⟨t, flush3_3 t, ?_⟩
  rw [mem_blk3]
  intro a
  match a with
  | ⟨0, _⟩ =>
    show win3_3.index t (0 : Fin 2) * 1 ≤ (i 0).val ∧ (i 0).val < win3_3.index t (0 : Fin 2) * 1 + win3_3.xsize (grid3.coords t) (0 : Fin 2)
    omega
  | ⟨1, _⟩ =>
    show win3_3.index t (1 : Fin 2) * 2048 ≤ (i 1).val ∧ (i 1).val < win3_3.index t (1 : Fin 2) * 2048 + win3_3.xsize (grid3.coords t) (1 : Fin 2)
    omega

/-- THE ARRAY after the region: the logits, whole. -/
theorem arr3_logit (c : Dev nD) :
    (dat3 (F := Ideal) V c).arrAt 3 cfg3.N
      = Cert.SpecOut.row (Cert.Spec.logit (Cert.SpecOut.unrow (V c main_v69)) (Cert.SpecOut.mat (V c main_arg12))
          (Cert.SpecOut.vec (V c main_arg13))) :=
  (dat3 (F := Ideal) V c).arrAt_eq_of_cover 3 (logits3 V c) (fun t _ => flushed3_eq V c t) cover3

end Cert.KernelIdeal.Hand

end
-- ==== Proof.KI.KHost.lean ====
/-
  The kernel program's host stretches at ideal floats.

  Between two kernel regions the program runs host operations on the arrays the regions leave. With the regions'
  outputs as unknowns (`outs`), each array a later item reads is stated here as one of the shared host chains applied
  to those outputs and to the launch contents of the arguments:

  * before region 0 the embedding table is viewed in blocks of [8,128];
  * before region 1 the embedded block is read as a row of 1024, and layer 0's hidden row is cut from the state;
  * after region 1 the LSTM epilogue of layer 0 gives its new hidden and cell rows, and layer 1's hidden row is cut;
  * after region 2 the epilogue of layer 1 gives its new rows;
  * after region 3 the log-softmax of the logits and the two stacks of new rows are the three results.

  No host stretch writes an argument array and no region may change one, so wherever an item reads an argument it
  holds its launch contents; and an array a region leaves is that region's unknown.
-/
import proofs.«408709_j86328842650330_3_alg».proof.Proof.Gen.KernelIdeal.Regions
import proofs.«408709_j86328842650330_3_alg».proof.Proof.SpecHost

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (outs : Gen.Outs (F := Ideal)) (c : Dev nD)

/-! ## What a region leaves in its output array -/

theorem V4_main_v2 : Gen.V4 m outs c main_v2 = outs 4 main_v2 c := by
  dsimp only [Gen.V4]; exact Function.update_self ..
theorem V6_main_v6 : Gen.V6 m outs c main_v6 = outs 6 main_v6 c := by
  dsimp only [Gen.V6]; exact Function.update_self ..
theorem V8_main_v39 : Gen.V8 m outs c main_v39 = outs 8 main_v39 c := by
  dsimp only [Gen.V8]; exact Function.update_self ..
theorem V10_main_v70 : Gen.V10 m outs c main_v70 = outs 10 main_v70 c := by
  dsimp only [Gen.V10]; exact Function.update_self ..

/-! ## The argument arrays where an item reads them: as launched

No host stretch writes an argument and no region may change one, so at every item each argument array holds its launch
contents; stated at the items that read them. -/

theorem V2_main_arg3 : Gen.V2 m c main_arg3 = m ((c : Thread nD τ).loc main_arg3) :=
  (Gen.V2_of m c main_arg3 (by decide)).trans <| (Gen.V1_of m c main_arg3 (by decide)).trans rfl

theorem V4_main_arg1 : Gen.V4 m outs c main_arg1 = m ((c : Thread nD τ).loc main_arg1) :=
  (Gen.V4_of m outs c main_arg1 (by decide)).trans <| (Gen.V3_of m c main_arg1 (by decide)).trans <|
    (Gen.V2_of m c main_arg1 (by decide)).trans <| (Gen.V1_of m c main_arg1 (by decide)).trans rfl

theorem V5_main_arg4 : Gen.V5 m outs c main_arg4 = m ((c : Thread nD τ).loc main_arg4) :=
  (Gen.V5_of m outs c main_arg4 (by decide)).trans <| (Gen.V4_of m outs c main_arg4 (by decide)).trans <|
    (Gen.V3_of m c main_arg4 (by decide)).trans <| (Gen.V2_of m c main_arg4 (by decide)).trans <|
    (Gen.V1_of m c main_arg4 (by decide)).trans rfl
theorem V5_main_arg5 : Gen.V5 m outs c main_arg5 = m ((c : Thread nD τ).loc main_arg5) :=
  (Gen.V5_of m outs c main_arg5 (by decide)).trans <| (Gen.V4_of m outs c main_arg5 (by decide)).trans <|
    (Gen.V3_of m c main_arg5 (by decide)).trans <| (Gen.V2_of m c main_arg5 (by decide)).trans <|
    (Gen.V1_of m c main_arg5 (by decide)).trans rfl
theorem V5_main_arg6 : Gen.V5 m outs c main_arg6 = m ((c : Thread nD τ).loc main_arg6) :=
  (Gen.V5_of m outs c main_arg6 (by decide)).trans <| (Gen.V4_of m outs c main_arg6 (by decide)).trans <|
    (Gen.V3_of m c main_arg6 (by decide)).trans <| (Gen.V2_of m c main_arg6 (by decide)).trans <|
    (Gen.V1_of m c main_arg6 (by decide)).trans rfl
theorem V5_main_arg7 : Gen.V5 m outs c main_arg7 = m ((c : Thread nD τ).loc main_arg7) :=
  (Gen.V5_of m outs c main_arg7 (by decide)).trans <| (Gen.V4_of m outs c main_arg7 (by decide)).trans <|
    (Gen.V3_of m c main_arg7 (by decide)).trans <| (Gen.V2_of m c main_arg7 (by decide)).trans <|
    (Gen.V1_of m c main_arg7 (by decide)).trans rfl

theorem V6_main_arg1 : Gen.V6 m outs c main_arg1 = m ((c : Thread nD τ).loc main_arg1) :=
  (Gen.V6_of m outs c main_arg1 (by decide)).trans <| (Gen.V5_of m outs c main_arg1 (by decide)).trans <|
    V4_main_arg1 m outs c
theorem V6_main_arg2 : Gen.V6 m outs c main_arg2 = m ((c : Thread nD τ).loc main_arg2) :=
  (Gen.V6_of m outs c main_arg2 (by decide)).trans <| (Gen.V5_of m outs c main_arg2 (by decide)).trans <|
    (Gen.V4_of m outs c main_arg2 (by decide)).trans <| (Gen.V3_of m c main_arg2 (by decide)).trans <|
    (Gen.V2_of m c main_arg2 (by decide)).trans <| (Gen.V1_of m c main_arg2 (by decide)).trans rfl

theorem V7_main_arg8 : Gen.V7 m outs c main_arg8 = m ((c : Thread nD τ).loc main_arg8) :=
  (Gen.V7_of m outs c main_arg8 (by decide)).trans <| (Gen.V6_of m outs c main_arg8 (by decide)).trans <|
    (Gen.V5_of m outs c main_arg8 (by decide)).trans <| (Gen.V4_of m outs c main_arg8 (by decide)).trans <|
    (Gen.V3_of m c main_arg8 (by decide)).trans <| (Gen.V2_of m c main_arg8 (by decide)).trans <|
    (Gen.V1_of m c main_arg8 (by decide)).trans rfl
theorem V7_main_arg9 : Gen.V7 m outs c main_arg9 = m ((c : Thread nD τ).loc main_arg9) :=
  (Gen.V7_of m outs c main_arg9 (by decide)).trans <| (Gen.V6_of m outs c main_arg9 (by decide)).trans <|
    (Gen.V5_of m outs c main_arg9 (by decide)).trans <| (Gen.V4_of m outs c main_arg9 (by decide)).trans <|
    (Gen.V3_of m c main_arg9 (by decide)).trans <| (Gen.V2_of m c main_arg9 (by decide)).trans <|
    (Gen.V1_of m c main_arg9 (by decide)).trans rfl
theorem V7_main_arg10 : Gen.V7 m outs c main_arg10 = m ((c : Thread nD τ).loc main_arg10) :=
  (Gen.V7_of m outs c main_arg10 (by decide)).trans <| (Gen.V6_of m outs c main_arg10 (by decide)).trans <|
    (Gen.V5_of m outs c main_arg10 (by decide)).trans <| (Gen.V4_of m outs c main_arg10 (by decide)).trans <|
    (Gen.V3_of m c main_arg10 (by decide)).trans <| (Gen.V2_of m c main_arg10 (by decide)).trans <|
    (Gen.V1_of m c main_arg10 (by decide)).trans rfl
theorem V7_main_arg11 : Gen.V7 m outs c main_arg11 = m ((c : Thread nD τ).loc main_arg11) :=
  (Gen.V7_of m outs c main_arg11 (by decide)).trans <| (Gen.V6_of m outs c main_arg11 (by decide)).trans <|
    (Gen.V5_of m outs c main_arg11 (by decide)).trans <| (Gen.V4_of m outs c main_arg11 (by decide)).trans <|
    (Gen.V3_of m c main_arg11 (by decide)).trans <| (Gen.V2_of m c main_arg11 (by decide)).trans <|
    (Gen.V1_of m c main_arg11 (by decide)).trans rfl

theorem V8_main_arg2 : Gen.V8 m outs c main_arg2 = m ((c : Thread nD τ).loc main_arg2) :=
  (Gen.V8_of m outs c main_arg2 (by decide)).trans <| (Gen.V7_of m outs c main_arg2 (by decide)).trans <|
    V6_main_arg2 m outs c

theorem V9_main_arg12 : Gen.V9 m outs c main_arg12 = m ((c : Thread nD τ).loc main_arg12) :=
  (Gen.V9_of m outs c main_arg12 (by decide)).trans <| (Gen.V8_of m outs c main_arg12 (by decide)).trans <|
    (Gen.V7_of m outs c main_arg12 (by decide)).trans <| (Gen.V6_of m outs c main_arg12 (by decide)).trans <|
    (Gen.V5_of m outs c main_arg12 (by decide)).trans <| (Gen.V4_of m outs c main_arg12 (by decide)).trans <|
    (Gen.V3_of m c main_arg12 (by decide)).trans <| (Gen.V2_of m c main_arg12 (by decide)).trans <|
    (Gen.V1_of m c main_arg12 (by decide)).trans rfl
theorem V9_main_arg13 : Gen.V9 m outs c main_arg13 = m ((c : Thread nD τ).loc main_arg13) :=
  (Gen.V9_of m outs c main_arg13 (by decide)).trans <| (Gen.V8_of m outs c main_arg13 (by decide)).trans <|
    (Gen.V7_of m outs c main_arg13 (by decide)).trans <| (Gen.V6_of m outs c main_arg13 (by decide)).trans <|
    (Gen.V5_of m outs c main_arg13 (by decide)).trans <| (Gen.V4_of m outs c main_arg13 (by decide)).trans <|
    (Gen.V3_of m c main_arg13 (by decide)).trans <| (Gen.V2_of m c main_arg13 (by decide)).trans <|
    (Gen.V1_of m c main_arg13 (by decide)).trans rfl

/-! ## Before region 0: the table viewed in blocks of [8,128] -/

theorem V3_main_v1_view :
    (Gen.V3 m c main_v1 : FVec Ideal S50257x8x128 .f32)
      = Cert.SpecHost.tableView (m ((c : Thread nD τ).loc main_arg3)) := by
  dsimp only [Gen.V3, Gen.hostOps0_2]
  after_results
  rfl

/-! ## Before region 1: the embedded row and layer 0's hidden state -/

theorem V5_main_v3 :
    (Gen.V5 m outs c main_v3 : FVec Ideal S1x1024 .f32) = Cert.SpecHost.blockRow (outs 4 main_v2 c) := by
  dsimp only [Gen.V5, Gen.hostOps1]
  after_results
  rw [V4_main_v2]
  rfl

theorem V5_main_v5 :
    (Gen.V5 m outs c main_v5 : FVec Ideal S1x1024 .f32)
      = Cert.SpecHost.layer0 (m ((c : Thread nD τ).loc main_arg1)) := by
  dsimp only [Gen.V5, Gen.hostOps1]
  after_results
  rw [V4_main_arg1]
  rfl

/-! ## After region 1: layer 0's epilogue, and layer 1's hidden state -/

theorem V7_main_v36 :
    (Gen.V7 m outs c main_v36 : FVec Ideal S1x1024 .f32)
      = (Cert.SpecHost.cell (outs 6 main_v6 c)
          (Cert.SpecHost.layer0 (m ((c : Thread nD τ).loc main_arg2)))).1 := by
  dsimp only [Gen.V7, Gen.hostOps2]
  after_results_simp
  rw [V6_main_v6, V6_main_arg2]
  rfl

theorem V7_main_v28 :
    (Gen.V7 m outs c main_v28 : FVec Ideal S1x1024 .f32)
      = (Cert.SpecHost.cell (outs 6 main_v6 c)
          (Cert.SpecHost.layer0 (m ((c : Thread nD τ).loc main_arg2)))).2 := by
  dsimp only [Gen.V7, Gen.hostOps2]
  after_results_simp
  rw [V6_main_v6, V6_main_arg2]
  rfl

theorem V7_main_v38 :
    (Gen.V7 m outs c main_v38 : FVec Ideal S1x1024 .f32)
      = Cert.SpecHost.layer1 (m ((c : Thread nD τ).loc main_arg1)) := by
  dsimp only [Gen.V7, Gen.hostOps2]
  after_results_simp
  rw [V6_main_arg1]
  rfl

/-! ## After region 2: layer 1's epilogue -/

theorem V9_main_v69 :
    (Gen.V9 m outs c main_v69 : FVec Ideal S1x1024 .f32)
      = (Cert.SpecHost.cell (outs 8 main_v39 c)
          (Cert.SpecHost.layer1 (m ((c : Thread nD τ).loc main_arg2)))).1 := by
  dsimp only [Gen.V9, Gen.hostOps3]
  after_results_simp
  rw [V8_main_v39, V8_main_arg2]
  rfl

theorem V9_main_v61 :
    (Gen.V9 m outs c main_v61 : FVec Ideal S1x1024 .f32)
      = (Cert.SpecHost.cell (outs 8 main_v39 c)
          (Cert.SpecHost.layer1 (m ((c : Thread nD τ).loc main_arg2)))).2 := by
  dsimp only [Gen.V9, Gen.hostOps3]
  after_results_simp
  rw [V8_main_v39, V8_main_arg2]
  rfl

/-! ## After region 3: the log-softmax of the logits and the stacked states

The two stacks read the hidden and cell rows the epilogues left; nothing in between writes them. -/

theorem V11_main_v36 : Gen.V11 m outs c main_v36 = Gen.V7 m outs c main_v36 :=
  (Gen.V11_of m outs c main_v36 (by decide)).trans <| (Gen.V10_of m outs c main_v36 (by decide)).trans <|
    (Gen.V9_of m outs c main_v36 (by decide)).trans <| Gen.V8_of m outs c main_v36 (by decide)
theorem V11_main_v28 : Gen.V11 m outs c main_v28 = Gen.V7 m outs c main_v28 :=
  (Gen.V11_of m outs c main_v28 (by decide)).trans <| (Gen.V10_of m outs c main_v28 (by decide)).trans <|
    (Gen.V9_of m outs c main_v28 (by decide)).trans <| Gen.V8_of m outs c main_v28 (by decide)
theorem V11_main_v69 : Gen.V11 m outs c main_v69 = Gen.V9 m outs c main_v69 :=
  (Gen.V11_of m outs c main_v69 (by decide)).trans <| Gen.V10_of m outs c main_v69 (by decide)
theorem V11_main_v61 : Gen.V11 m outs c main_v61 = Gen.V9 m outs c main_v61 :=
  (Gen.V11_of m outs c main_v61 (by decide)).trans <| Gen.V10_of m outs c main_v61 (by decide)

/-- Contents carried to a typed reference's buffer and back are the contents. -/
theorem ofBuf_toBuf {T : BufTy} (x : StableHlo.TRef sig T) (v : T.Contents (Elt Ideal)) :
    x.ofBuf (x.toBuf v) = v := by
  obtain ⟨r, h, h1, h2⟩ := x
  subst h
  rfl

theorem V12_main_v71 :
    (Gen.V12 m outs c main_v71 : FVec Ideal S1x50257 .f32) = Cert.SpecHost.lsm (outs 10 main_v70 c) := by
  rw [Gen.V12_of m outs c main_v71 (by decide)]
  have h70 := V10_main_v70 m outs c
  dsimp only [Gen.V11, Gen.hostOps4]
  generalize Gen.V10 m outs c = W at h70 ⊢
  after_results_simp
  simp only [ofBuf_toBuf]
  rw [h70]
  rfl

theorem V12_main_v74 :
    (Gen.V12 m outs c main_v74 : FVec Ideal S2x1x1024 .f32)
      = Cert.SpecHost.stack2
          (Cert.SpecHost.cell (outs 6 main_v6 c) (Cert.SpecHost.layer0 (m ((c : Thread nD τ).loc main_arg2)))).1
          (Cert.SpecHost.cell (outs 8 main_v39 c) (Cert.SpecHost.layer1 (m ((c : Thread nD τ).loc main_arg2)))).1 := by
  have h1 := (V11_main_v36 m outs c).trans (V7_main_v36 m outs c)
  have h2 := (V11_main_v69 m outs c).trans (V9_main_v69 m outs c)
  dsimp only [Gen.V12, Gen.hostOps4_1]
  generalize Gen.V11 m outs c = W at h1 h2 ⊢
  after_results
  rw [h1, h2]
  rfl

theorem V12_main_v77 :
    (Gen.V12 m outs c main_v77 : FVec Ideal S2x1x1024 .f32)
      = Cert.SpecHost.stack2
          (Cert.SpecHost.cell (outs 6 main_v6 c) (Cert.SpecHost.layer0 (m ((c : Thread nD τ).loc main_arg2)))).2
          (Cert.SpecHost.cell (outs 8 main_v39 c) (Cert.SpecHost.layer1 (m ((c : Thread nD τ).loc main_arg2)))).2 := by
  have h1 := (V11_main_v28 m outs c).trans (V7_main_v28 m outs c)
  have h2 := (V11_main_v61 m outs c).trans (V9_main_v61 m outs c)
  dsimp only [Gen.V12, Gen.hostOps4_1]
  generalize Gen.V11 m outs c = W at h1 h2 ⊢
  after_results
  rw [h1, h2]
  rfl

end Cert.KernelIdeal.Hand

end
-- ==== Proof.KI.KFinal.lean ====
/-
  The kernel program's three results as the specification's terms of the argument arrays.

  Between two regions the host only reshapes, slices and applies the shared pointwise chains, and each region leaves
  the specification's function of what it finds: the embedding row with its maximum against zero, the two layers' gate
  pre-activations, the logits. Reading the chain from the last valuation back — the log-softmax of the logits, the
  logits of layer 1's new hidden state, that state from layer 1's gates, those from layer 0's new hidden state, and so
  on down to the embedding row of the word — gives each result as one term of the word's row index and the thirteen
  float arrays.
-/
import proofs.«408709_j86328842650330_3_alg».proof.Proof.Gen.KernelIdeal.Regions
import proofs.«408709_j86328842650330_3_alg».proof.Proof.Spec
import proofs.«408709_j86328842650330_3_alg».proof.Proof.SpecHost
import proofs.«408709_j86328842650330_3_alg».proof.Proof.SpecOut
import proofs.«408709_j86328842650330_3_alg».proof.Proof.KI.Pre
import proofs.«408709_j86328842650330_3_alg».proof.Proof.KI.KVal0
import proofs.«408709_j86328842650330_3_alg».proof.Proof.KI.KVal1
import proofs.«408709_j86328842650330_3_alg».proof.Proof.KI.KVal2
import proofs.«408709_j86328842650330_3_alg».proof.Proof.KI.KVal3
import proofs.«408709_j86328842650330_3_alg».proof.Proof.KI.KHost
import proofs.«408709_j86328842650330_3_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

/-! ## The chain, over what each module contributes

For any family `outs` of region outputs: if each region's output is its proof data's array after the last write-back,
region 0's array read as a row is the embedding row against zero, region 3's array is the logits of what it finds, and
the host stretches read as the shared chains, then the three results are the specification's terms. -/

section Chain

variable (m : (ℓ : Loc nD τ sig) → Buf (Elt Ideal) ℓ) (outs : Gen.Outs (F := Ideal)) (a0 : (pcfg0 (F := Ideal)).Adm)
  (w : Fin 50257) (c : Dev nD)
  (houts_4 : outs 4 main_v2 c = (dat0 (F := Ideal) (fun c b => Gen.V3 m c b) a0 c).arrAt 1 (cfg0 a0).N)
  (houts_6 : outs 6 main_v6 c = (dat1 (F := Ideal) (fun c b => Gen.V5 m outs c b) c).arrAt 6 cfg1.N)
  (houts_8 : outs 8 main_v39 c = (dat2 (F := Ideal) (fun c b => Gen.V7 m outs c b) c).arrAt 6 cfg2.N)
  (houts_10 : outs 10 main_v70 c = (dat3 (F := Ideal) (fun c b => Gen.V9 m outs c b) c).arrAt 3 cfg3.N)
  (harr0 : Cert.SpecOut.unrow (Cert.SpecHost.blockRow ((dat0 (F := Ideal) (fun c b => Gen.V3 m c b) a0 c).arrAt 1 (cfg0 a0).N)) = Cert.Spec.embRelu (Cert.SpecOut.mat (m ((c : Thread nD τ).loc main_arg3))) w)
  (harr3 : ∀ (V : (c : Dev nD) → (b : Ref sig .tc) → Buf (Elt Ideal) ((c : Thread nD τ).loc b)) (c : Dev nD), (dat3 (F := Ideal) V c).arrAt 3 cfg3.N = Cert.SpecOut.row (Cert.Spec.logit (Cert.SpecOut.unrow (V c main_v69)) (Cert.SpecOut.mat (V c main_arg12)) (Cert.SpecOut.vec (V c main_arg13))))
  (hV5_main_v3 : (Gen.V5 m outs c main_v3 : FVec Ideal S1x1024 .f32) = Cert.SpecHost.blockRow (outs 4 main_v2 c))
  (hV5_main_v5 : (Gen.V5 m outs c main_v5 : FVec Ideal S1x1024 .f32) = Cert.SpecHost.layer0 (m ((c : Thread nD τ).loc main_arg1)))
  (hV5_main_arg4 : Gen.V5 m outs c main_arg4 = m ((c : Thread nD τ).loc main_arg4))
  (hV5_main_arg5 : Gen.V5 m outs c main_arg5 = m ((c : Thread nD τ).loc main_arg5))
  (hV5_main_arg6 : Gen.V5 m outs c main_arg6 = m ((c : Thread nD τ).loc main_arg6))
  (hV5_main_arg7 : Gen.V5 m outs c main_arg7 = m ((c : Thread nD τ).loc main_arg7))
  (hV7_main_v36 : (Gen.V7 m outs c main_v36 : FVec Ideal S1x1024 .f32) = (Cert.SpecHost.cell (outs 6 main_v6 c) (Cert.SpecHost.layer0 (m ((c : Thread nD τ).loc main_arg2)))).1)
  (hV7_main_v38 : (Gen.V7 m outs c main_v38 : FVec Ideal S1x1024 .f32) = Cert.SpecHost.layer1 (m ((c : Thread nD τ).loc main_arg1)))
  (hV7_main_arg8 : Gen.V7 m outs c main_arg8 = m ((c : Thread nD τ).loc main_arg8))
  (hV7_main_arg9 : Gen.V7 m outs c main_arg9 = m ((c : Thread nD τ).loc main_arg9))
  (hV7_main_arg10 : Gen.V7 m outs c main_arg10 = m ((c : Thread nD τ).loc main_arg10))
  (hV7_main_arg11 : Gen.V7 m outs c main_arg11 = m ((c : Thread nD τ).loc main_arg11))
  (hV9_main_v69 : (Gen.V9 m outs c main_v69 : FVec Ideal S1x1024 .f32) = (Cert.SpecHost.cell (outs 8 main_v39 c) (Cert.SpecHost.layer1 (m ((c : Thread nD τ).loc main_arg2)))).1)
  (hV9_main_arg12 : Gen.V9 m outs c main_arg12 = m ((c : Thread nD τ).loc main_arg12))
  (hV9_main_arg13 : Gen.V9 m outs c main_arg13 = m ((c : Thread nD τ).loc main_arg13))
  (hV12_main_v71 : (Gen.V12 m outs c main_v71 : FVec Ideal S1x50257 .f32) = Cert.SpecHost.lsm (outs 10 main_v70 c))
  (hV12_main_v74 : (Gen.V12 m outs c main_v74 : FVec Ideal S2x1x1024 .f32) = Cert.SpecHost.stack2 (Cert.SpecHost.cell (outs 6 main_v6 c) (Cert.SpecHost.layer0 (m ((c : Thread nD τ).loc main_arg2)))).1 (Cert.SpecHost.cell (outs 8 main_v39 c) (Cert.SpecHost.layer1 (m ((c : Thread nD τ).loc main_arg2)))).1)
  (hV12_main_v77 : (Gen.V12 m outs c main_v77 : FVec Ideal S2x1x1024 .f32) = Cert.SpecHost.stack2 (Cert.SpecHost.cell (outs 6 main_v6 c) (Cert.SpecHost.layer0 (m ((c : Thread nD τ).loc main_arg2)))).2 (Cert.SpecHost.cell (outs 8 main_v39 c) (Cert.SpecHost.layer1 (m ((c : Thread nD τ).loc main_arg2)))).2)

include houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77

theorem e4 : Cert.SpecOut.unrow (Cert.SpecHost.blockRow (outs 4 main_v2 c)) = Cert.Spec.embRelu (Cert.SpecOut.mat (m ((c : Thread nD τ).loc main_arg3))) w := by
  rw [houts_4]; exact harr0

theorem e6 : outs 6 main_v6 c = Cert.SpecOut.G0 w (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [houts_6, arr1_gate]
  rw [hV5_main_v3, hV5_main_v5, hV5_main_arg4, hV5_main_arg5, hV5_main_arg6, hV5_main_arg7, e4 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77]
  rfl

theorem e8 : outs 8 main_v39 c = Cert.SpecOut.G1 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [houts_8, arr2_gate]
  rw [hV7_main_v36, hV7_main_v38, hV7_main_arg8, hV7_main_arg9, hV7_main_arg10, hV7_main_arg11, e6 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77]
  rfl

theorem e10 : outs 10 main_v70 c = Cert.SpecOut.logits w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [houts_10, harr3]
  rw [hV9_main_v69, hV9_main_arg12, hV9_main_arg13, e8 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77]
  rfl

theorem chain_out0 : (Gen.V12 m outs c main_v71 : FVec Ideal S1x50257 .f32) = Cert.SpecOut.out0 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [hV12_main_v71, e10 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77]
  rfl

theorem chain_out1 : (Gen.V12 m outs c main_v74 : FVec Ideal S2x1x1024 .f32) = Cert.SpecOut.out1 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [hV12_main_v74, e8 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77, e6 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77]
  rfl

theorem chain_out2 : (Gen.V12 m outs c main_v77 : FVec Ideal S2x1x1024 .f32) = Cert.SpecOut.out2 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [hV12_main_v77, e8 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77, e6 m outs a0 w c houts_4 houts_6 houts_8 houts_10 harr0 harr3 hV5_main_v3 hV5_main_v5 hV5_main_arg4 hV5_main_arg5 hV5_main_arg6 hV5_main_arg7 hV7_main_v36 hV7_main_v38 hV7_main_arg8 hV7_main_arg9 hV7_main_arg10 hV7_main_arg11 hV9_main_v69 hV9_main_arg12 hV9_main_arg13 hV12_main_v71 hV12_main_v74 hV12_main_v77]
  rfl

end Chain

/-! ## The chain with the host stretches and the regions' values read -/

section Values

variable (m : (ℓ : Loc nD τ sig) → Buf (Elt Ideal) ℓ) (outs : Gen.Outs (F := Ideal)) (a0 : (pcfg0 (F := Ideal)).Adm)
  (w : Fin 50257) (hix : ∀ i : grid0.Coords, cc0_transform_0 inb_S1_S1_0 numel1_S1 a0.1 i = ![w.val, 0, 0]) (c : Dev nD)
    (houts_4 : outs 4 main_v2 c = (dat0 (F := Ideal) (fun c b => Gen.V3 m c b) a0 c).arrAt 1 (cfg0 a0).N)
    (houts_6 : outs 6 main_v6 c = (dat1 (F := Ideal) (fun c b => Gen.V5 m outs c b) c).arrAt 6 cfg1.N)
    (houts_8 : outs 8 main_v39 c = (dat2 (F := Ideal) (fun c b => Gen.V7 m outs c b) c).arrAt 6 cfg2.N)
    (houts_10 : outs 10 main_v70 c = (dat3 (F := Ideal) (fun c b => Gen.V9 m outs c b) c).arrAt 3 cfg3.N)

include hix houts_4 houts_6 houts_8 houts_10

/-- Result 0 from the four regions' outputs being their arrays. -/
theorem out0_of_outs : (Gen.V12 m outs c main_v71 : FVec Ideal S1x50257 .f32) = Cert.SpecOut.out0 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  chain_out0 m outs a0 w c houts_4 houts_6 houts_8 houts_10 (arr0_embRelu m a0 w hix c) (fun V c => arr3_logit V c) (V5_main_v3 m outs c) (V5_main_v5 m outs c) (V5_main_arg4 m outs c) (V5_main_arg5 m outs c) (V5_main_arg6 m outs c) (V5_main_arg7 m outs c) (V7_main_v36 m outs c) (V7_main_v38 m outs c) (V7_main_arg8 m outs c) (V7_main_arg9 m outs c) (V7_main_arg10 m outs c) (V7_main_arg11 m outs c) (V9_main_v69 m outs c) (V9_main_arg12 m outs c) (V9_main_arg13 m outs c) (V12_main_v71 m outs c) (V12_main_v74 m outs c) (V12_main_v77 m outs c)

/-- Result 1 likewise. -/
theorem out1_of_outs : (Gen.V12 m outs c main_v74 : FVec Ideal S2x1x1024 .f32) = Cert.SpecOut.out1 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  chain_out1 m outs a0 w c houts_4 houts_6 houts_8 houts_10 (arr0_embRelu m a0 w hix c) (fun V c => arr3_logit V c) (V5_main_v3 m outs c) (V5_main_v5 m outs c) (V5_main_arg4 m outs c) (V5_main_arg5 m outs c) (V5_main_arg6 m outs c) (V5_main_arg7 m outs c) (V7_main_v36 m outs c) (V7_main_v38 m outs c) (V7_main_arg8 m outs c) (V7_main_arg9 m outs c) (V7_main_arg10 m outs c) (V7_main_arg11 m outs c) (V9_main_v69 m outs c) (V9_main_arg12 m outs c) (V9_main_arg13 m outs c) (V12_main_v71 m outs c) (V12_main_v74 m outs c) (V12_main_v77 m outs c)

/-- Result 2 likewise. -/
theorem out2_of_outs : (Gen.V12 m outs c main_v77 : FVec Ideal S2x1x1024 .f32) = Cert.SpecOut.out2 w (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  chain_out2 m outs a0 w c houts_4 houts_6 houts_8 houts_10 (arr0_embRelu m a0 w hix c) (fun V c => arr3_logit V c) (V5_main_v3 m outs c) (V5_main_v5 m outs c) (V5_main_arg4 m outs c) (V5_main_arg5 m outs c) (V5_main_arg6 m outs c) (V5_main_arg7 m outs c) (V7_main_v36 m outs c) (V7_main_v38 m outs c) (V7_main_arg8 m outs c) (V7_main_arg9 m outs c) (V7_main_arg10 m outs c) (V7_main_arg11 m outs c) (V9_main_v69 m outs c) (V9_main_arg12 m outs c) (V9_main_arg13 m outs c) (V12_main_v71 m outs c) (V12_main_v74 m outs c) (V12_main_v77 m outs c)

end Values

/-! ## The three results of the kernel program

Under the precondition the word is a row index of the table, region 0's block index is that row, and the family of
region outputs is the run's own: each result is the specification's term at the word's row. -/

section Results

variable (m : (ℓ : Loc nD τ sig) → Buf (Elt Ideal) ℓ) [Cert.Pre_finite_inputs.Facts] (h : PreF m) (c : Dev nD)

/-- Result 0, the log-probabilities. -/
theorem kfinal_out0 : (Gen.V12 m (outs m (a0 m h)) c main_v71 : FVec Ideal S1x50257 .f32)
    = Cert.SpecOut.out0 (⟨(word m 0).toNat, word_toNat_lt m h 0⟩ : Fin 50257) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  out0_of_outs m (outs m (a0 m h)) (a0 m h) (⟨(word m 0).toNat, word_toNat_lt m h 0⟩ : Fin 50257) (cc0_transform_0_a0 m h) c
    (outs_4 m (a0 m h) c) (outs_6 m (a0 m h) c) (outs_8 m (a0 m h) c) (outs_10 m (a0 m h) c)

/-- Result 1, the two layers' new hidden states. -/
theorem kfinal_out1 : (Gen.V12 m (outs m (a0 m h)) c main_v74 : FVec Ideal S2x1x1024 .f32)
    = Cert.SpecOut.out1 (⟨(word m 0).toNat, word_toNat_lt m h 0⟩ : Fin 50257) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  out1_of_outs m (outs m (a0 m h)) (a0 m h) (⟨(word m 0).toNat, word_toNat_lt m h 0⟩ : Fin 50257) (cc0_transform_0_a0 m h) c
    (outs_4 m (a0 m h) c) (outs_6 m (a0 m h) c) (outs_8 m (a0 m h) c) (outs_10 m (a0 m h) c)

/-- Result 2, the two layers' new cell states. -/
theorem kfinal_out2 : (Gen.V12 m (outs m (a0 m h)) c main_v77 : FVec Ideal S2x1x1024 .f32)
    = Cert.SpecOut.out2 (⟨(word m 0).toNat, word_toNat_lt m h 0⟩ : Fin 50257) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  out2_of_outs m (outs m (a0 m h)) (a0 m h) (⟨(word m 0).toNat, word_toNat_lt m h 0⟩ : Fin 50257) (cc0_transform_0_a0 m h) c
    (outs_4 m (a0 m h) c) (outs_6 m (a0 m h) c) (outs_8 m (a0 m h) c) (outs_10 m (a0 m h) c)

end Results

end Cert.KernelIdeal.Hand

end
-- ==== Proof.Ref.PreRef.lean ====
/-
  THE REFERENCE'S WORD. The kernel and the reference run from memories that agree on the arguments. The reference's first
  argument, the one 32-bit word that names the embedding row, is then the kernel's word, and is at least 0 and below 50257
  with it: the range the reference's row read needs to stay inside the table.
-/
import proofs.«408709_j86328842650330_3_alg».proof.Proof.KI.Pre
import proofs.«408709_j86328842650330_3_alg».proof.ReferenceIdeal

set_option maxRecDepth 4096

noncomputable section

namespace Cert.ReferenceIdeal.Hand

open Idealize.ShloMosaic Idealize.ShloMosaic.TcCoe Idealize.SL.Sem

/-- THE REFERENCE'S WORD IS IN RANGE: the reference's first argument is the kernel's, by the agreement of the two memories on
    the arguments, and the kernel's word is at least 0 and below 50257 by the precondition. -/
theorem word_range_ref [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.KernelIdeal.Hand.PreF m)
    (hag : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (c : Dev Cert.KernelIdeal.nD) :
    0 ≤ ((m' ((c.tc : Thread Cert.ReferenceIdeal.nD Cert.ReferenceIdeal.τ).loc Cert.ReferenceIdeal.main_arg0)
            : IVec Cert.ReferenceIdeal.S1 32) (ValueIdx.ix1 0)).toInt
      ∧ ((m' ((c.tc : Thread Cert.ReferenceIdeal.nD Cert.ReferenceIdeal.τ).loc Cert.ReferenceIdeal.main_arg0)
            : IVec Cert.ReferenceIdeal.S1 32) (ValueIdx.ix1 0)).toInt < 50257 := by
  rw [hag c]
  exact Cert.KernelIdeal.Hand.word_range m h c

/-- The same unsigned: the reference's word, read as a natural number, is below 50257 and is its signed value. -/
theorem word_toNat_ref [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.KernelIdeal.Hand.PreF m)
    (hag : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (c : Dev Cert.KernelIdeal.nD) :
    ((m' ((c.tc : Thread Cert.ReferenceIdeal.nD Cert.ReferenceIdeal.τ).loc Cert.ReferenceIdeal.main_arg0)
        : IVec Cert.ReferenceIdeal.S1 32) (ValueIdx.ix1 0)).toNat < 50257
      ∧ ((m' ((c.tc : Thread Cert.ReferenceIdeal.nD Cert.ReferenceIdeal.τ).loc Cert.ReferenceIdeal.main_arg0)
        : IVec Cert.ReferenceIdeal.S1 32) (ValueIdx.ix1 0)).toInt
          = ((m' ((c.tc : Thread Cert.ReferenceIdeal.nD Cert.ReferenceIdeal.τ).loc Cert.ReferenceIdeal.main_arg0)
        : IVec Cert.ReferenceIdeal.S1 32) (ValueIdx.ix1 0)).toNat := by
  have hr := word_range_ref m m' h hag c
  exact ⟨Cert.KernelIdeal.Hand.toNat_lt_of_toInt_range _ hr, (Cert.KernelIdeal.Hand.toNat_of_toInt_nonneg _ hr.1).symm⟩

end Cert.ReferenceIdeal.Hand

end
-- ==== Proof.Ref.RefVal.lean ====
/-
  The reference program at ideal (extended-real) floats, stage by stage, as the shared specification states it:
  the embedding row of the word, rectified; each layer's gate pre-activations; the LSTM epilogue; the output
  projection; log-softmax; the stacked states.
-/
import proofs.«408709_j86328842650330_3_alg».proof.Proof.Gen.ReferenceIdeal
import proofs.«408709_j86328842650330_3_alg».proof.Proof.SpecOut
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-- A word that is not negative as a signed integer is kept by the wrap-around select
    `select (x < 0) (x + 50257) x`. -/
theorem select_word (x : BitVec 32) (h0 : 0 ≤ x.toInt) :
    Scalar.select (IntOp.cmpi .slt x 0#32) (IntOp.addi x 50257#32) x = x := by
  have hs : x.slt 0#32 = false := by
    rw [BitVec.slt]
    have : (0#32 : BitVec 32).toInt = 0 := by decide
    rw [this]
    exact decide_eq_false (by omega)
  unfold Scalar.select IntOp.cmpi
  simp only [hs]
  rfl

/-- A word that is not negative as a signed integer reads the same signed and unsigned. -/
theorem toInt_toNat_of_nonneg (x : BitVec 32) (h0 : 0 ≤ x.toInt) : x.toInt.toNat = x.toNat := by
  have h := x.isLt
  rw [BitVec.toInt_eq_toNat_cond] at h0 ⊢
  split at h0 <;> split <;> omega

/-- The only index of the start-index array. -/
abbrev i00 : S1x1.Idx := ix2 (0 : Fin 1) (0 : Fin 1)

/-- The program's gather record, under a short local name. -/
local notation "gd" => gather_S50257x1024_S1x1_S1x1024_1_0_n_n_0_1_11024

/-- The start-index array is read at its only index, whatever the result index. -/
theorem gather_siIdx (j : S1x1024.Idx) (c : Fin (GatherDims.startIndexMap gd).length) :
    GatherDims.siIdx gd j c = i00 := by
  funext b
  refine Fin.ext ?_
  match b with
  | ⟨0, _⟩ =>
    have h : (GatherDims.siIdx gd j c ⟨0, by decide⟩).val < 1 := Fin.isLt _
    show (GatherDims.siIdx gd j c ⟨0, _⟩).val = 0
    omega
  | ⟨1, _⟩ =>
    have h : (GatherDims.siIdx gd j c ⟨1, by decide⟩).val < 1 := Fin.isLt _
    show (GatherDims.siIdx gd j c ⟨1, _⟩).val = 0
    omega

/-- Row axis of the operand: the start index, clamped into `[0, 50256]`; no batching, and the axis is collapsed. -/
theorem gather_axis0 (idx : IVec S1x1 32) (j : S1x1024.Idx)
    (h0 : 0 ≤ (idx i00).toInt) (h1 : (idx i00).toInt < 50257) :
    (GatherDims.operandIdx gd j idx 0).val = (idx i00).toInt.toNat := by
  show GatherDims.start gd j idx 0 + GatherDims.batchCoord gd j 0 + GatherDims.offCoord gd j 0 = _
  rw [GatherDims.batchCoord_eq_zero gd j 0 List.not_mem_nil,
    GatherDims.offCoord_eq_zero gd j 0 (fun h => ((GatherDims.mem_sKept gd 0).mp h).1 (List.mem_singleton.mpr rfl))]
  unfold GatherDims.start
  rw [dif_pos (show (0 : Fin S50257x1024.rank) ∈ GatherDims.startIndexMap gd from List.mem_singleton.mpr rfl), gather_siIdx]
  show min (idx i00).toInt.toNat (50257 - 1) + 0 + 0 = _
  omega

/-- Column axis of the operand: not in the start index map, not batching; it is the one kept axis, read at the
    result's offset coordinate. -/
theorem gather_axis1 (idx : IVec S1x1 32) (j : S1x1024.Idx) :
    (GatherDims.operandIdx gd j idx 1).val = (j 1).val := by
  show GatherDims.start gd j idx 1 + GatherDims.batchCoord gd j 1 + GatherDims.offCoord gd j 1 = _
  rw [GatherDims.batchCoord_eq_zero gd j 1 List.not_mem_nil]
  unfold GatherDims.start GatherDims.offCoord
  rw [dif_neg (show ¬(1 : Fin S50257x1024.rank) ∈ GatherDims.startIndexMap gd by decide),
    dif_pos (show (1 : Fin S50257x1024.rank) ∈ GatherDims.sKept gd by decide)]
  show 0 + 0 + (j 1).val = _
  omega

/-- The embedding gather read at column `j 1`: with the start index in `[0, 50257)` the clamp is the identity, so
    the row read is the word itself. -/
theorem gather_word {α : Type} (x3 : S50257x1024.Idx → α) (idx : IVec S1x1 32) (j : S1x1024.Idx)
    (h0 : 0 ≤ (idx i00).toInt) (h1 : (idx i00).toInt < 50257) :
    Host.gather gd x3 idx j
      = x3 (ix2 (⟨(idx i00).toInt.toNat, by omega⟩ : Fin 50257) (j 1)) := by
  unfold Host.gather
  refine congrArg x3 (funext fun a => Fin.ext ?_)
  match a with
  | ⟨0, _⟩ => exact gather_axis0 idx j h0 h1
  | ⟨1, _⟩ => exact gather_axis1 idx j

/-! ## A row against a transposed weight matrix -/

theorem lhs_gate_0 (i : S1x4096.Idx) (q : dot_S1x1024_S1024x4096_S1x4096_1_0_0_1_n_n.contr.Idx) :
    (dot_S1x1024_S1024x4096_S1x4096_1_0_0_1_n_n.lhsIdx i q 0).val = (i 0).val := by
  unfold DotDims.lhsIdx
  rw [dif_neg (show ¬(0 : Fin S1x1024.rank) ∈ dot_S1x1024_S1024x4096_S1x4096_1_0_0_1_n_n.lhsBatch by decide), dif_pos (show (0 : Fin S1x1024.rank) ∈ dot_S1x1024_S1024x4096_S1x4096_1_0_0_1_n_n.lhsNonContracting by decide)]
  rfl
theorem lhs_gate_1 (i : S1x4096.Idx) (q : dot_S1x1024_S1024x4096_S1x4096_1_0_0_1_n_n.contr.Idx) :
    (dot_S1x1024_S1024x4096_S1x4096_1_0_0_1_n_n.lhsIdx i q 1).val = (q ⟨0, by decide⟩).val :=
  dot_S1x1024_S1024x4096_S1x4096_1_0_0_1_n_n.lhsIdx_val_of_single rfl i q
theorem rhs_gate_0 (i : S1x4096.Idx) (q : dot_S1x1024_S1024x4096_S1x4096_1_0_0_1_n_n.contr.Idx) :
    (dot_S1x1024_S1024x4096_S1x4096_1_0_0_1_n_n.rhsIdx i q 0).val = (q ⟨0, by decide⟩).val :=
  dot_S1x1024_S1024x4096_S1x4096_1_0_0_1_n_n.rhsIdx_val_of_single rfl i q
theorem rhs_gate_1 (i : S1x4096.Idx) (q : dot_S1x1024_S1024x4096_S1x4096_1_0_0_1_n_n.contr.Idx) :
    (dot_S1x1024_S1024x4096_S1x4096_1_0_0_1_n_n.rhsIdx i q 1).val = (i 1).val := by
  unfold DotDims.rhsIdx
  rw [dif_neg (show ¬(1 : Fin S1024x4096.rank) ∈ dot_S1x1024_S1024x4096_S1x4096_1_0_0_1_n_n.rhsBatch by decide), dif_pos (show (1 : Fin S1024x4096.rank) ∈ dot_S1x1024_S1024x4096_S1x4096_1_0_0_1_n_n.rhsNonContracting by decide)]
  rfl

/-- The transposed weights at (k, j) are the weights at (j, k). -/
theorem transposed_gate_apply (W : FVec Ideal S4096x1024 .f32) (j : Fin 4096) (k : Fin 1024) :
    transpose S1024x4096 [1, 0] W transposes_S4096x1024_S1024x4096_1_0 (ix2 k j) = W (ix2 j k) :=
  transpose_apply [1, 0] W transposes_S4096x1024_S1024x4096_1_0 (ix2 k j) (ix2 j k) (fun b => match b with
    | ⟨0, _⟩ => rfl
    | ⟨1, _⟩ => rfl)

/-- A row times the transpose of a [4096,1024] weight matrix, at column `j`: the sum over `k` of the row's entry `k`
    times the weights' entry `(j, k)`. -/
theorem dot_transposed_gate_apply (y : FVec Ideal S1x1024 .f32) (W : FVec Ideal S4096x1024 .f32) (p : Fin 1) (j : Fin 4096) :
    Host.dotGeneral (F := Ideal) dot_S1x1024_S1024x4096_S1x4096_1_0_0_1_n_n none y
        (transpose S1024x4096 [1, 0] W transposes_S4096x1024_S1024x4096_1_0) (ix2 p j)
      = ∑ k : Fin 1024, y (ix2 (0 : Fin 1) k) * W (ix2 j k) := by
  simp only [Host.dotGeneral]
  rw [Ideal.dotGeneral_apply, ← Equiv.sum_comp (ValueIdx.contrEquiv1 dot_S1x1024_S1024x4096_S1x4096_1_0_0_1_n_n 1024 rfl rfl).symm]
  refine Finset.sum_congr rfl fun k _ => ?_
  have hk := ValueIdx.contrEquiv1_symm_val dot_S1x1024_S1024x4096_S1x4096_1_0_0_1_n_n 1024 rfl rfl k
  have hp : p.val = 0 := by omega
  have el : dot_S1x1024_S1024x4096_S1x4096_1_0_0_1_n_n.lhsIdx (ix2 p j) ((ValueIdx.contrEquiv1 dot_S1x1024_S1024x4096_S1x4096_1_0_0_1_n_n 1024 rfl rfl).symm k) = ix2 (0 : Fin 1) k := funext fun a => Fin.ext (by
    match a with
    | ⟨0, _⟩ => exact (lhs_gate_0 _ _).trans hp
    | ⟨1, _⟩ => exact (lhs_gate_1 _ _).trans hk)
  have er : dot_S1x1024_S1024x4096_S1x4096_1_0_0_1_n_n.rhsIdx (ix2 p j) ((ValueIdx.contrEquiv1 dot_S1x1024_S1024x4096_S1x4096_1_0_0_1_n_n 1024 rfl rfl).symm k) = ix2 k j := funext fun a => Fin.ext (by
    match a with
    | ⟨0, _⟩ => exact (rhs_gate_0 _ _).trans hk
    | ⟨1, _⟩ => exact rhs_gate_1 _ _)
  rw [el, er, transposed_gate_apply]

/-- A bias of 4096 entries broadcast along the row, at column `j`. -/
theorem bias_gate_apply (b : FVec Ideal S4096 .f32) (p : Fin 1) (j : Fin 4096) :
    broadcastInDim S1x4096 ![1] bcast_S4096_S1x4096_1 b (ix2 p j) = b (ix1 j) :=
  broadcastInDim_apply _ bcast_S4096_S1x4096_1 b (ix2 p j) (ix1 j) (fun a => match a with
    | ⟨0, _⟩ => by show j.val = if (4096 : Nat) = 1 then 0 else j.val; rw [if_neg (by decide)])

/-- The gate pre-activations as the reference computes them — input product, input bias, recurrent product,
    recurrent bias, added in that order — are the specification's, entry by entry. -/
theorem gates_eq (x h : FVec Ideal S1x1024 .f32) (Wih Whh : FVec Ideal S4096x1024 .f32) (bih bhh : FVec Ideal S4096 .f32) :
    addf (addf (addf
        (Host.dotGeneral (F := Ideal) dot_S1x1024_S1024x4096_S1x4096_1_0_0_1_n_n none x (transpose S1024x4096 [1, 0] Wih transposes_S4096x1024_S1024x4096_1_0))
        (broadcastInDim S1x4096 ![1] bcast_S4096_S1x4096_1 bih))
        (Host.dotGeneral (F := Ideal) dot_S1x1024_S1024x4096_S1x4096_1_0_0_1_n_n none h (transpose S1024x4096 [1, 0] Whh transposes_S4096x1024_S1024x4096_1_0)))
        (broadcastInDim S1x4096 ![1] bcast_S4096_S1x4096_1 bhh)
      = Cert.SpecOut.row (Cert.Spec.gate (Cert.SpecOut.unrow x) (Cert.SpecOut.unrow h) (Cert.SpecOut.mat Wih) (Cert.SpecOut.mat Whh) (Cert.SpecOut.vec bih) (Cert.SpecOut.vec bhh)) := by
  funext i
  obtain ⟨p, j, rfl⟩ : ∃ (p : Fin 1) (j : Fin 4096), i = ix2 p j := ⟨i 0, i 1, eq_ix2 i⟩
  rw [addf_apply, addf_apply, addf_apply, dot_transposed_gate_apply, dot_transposed_gate_apply, bias_gate_apply, bias_gate_apply]
  rfl

/-! ## The output projection -/

theorem lhs_out_0 (i : S1x50257.Idx) (q : dot_S1x1024_S1024x50257_S1x50257_1_0_0_1_n_n.contr.Idx) :
    (dot_S1x1024_S1024x50257_S1x50257_1_0_0_1_n_n.lhsIdx i q 0).val = (i 0).val := by
  unfold DotDims.lhsIdx
  rw [dif_neg (show ¬(0 : Fin S1x1024.rank) ∈ dot_S1x1024_S1024x50257_S1x50257_1_0_0_1_n_n.lhsBatch by decide), dif_pos (show (0 : Fin S1x1024.rank) ∈ dot_S1x1024_S1024x50257_S1x50257_1_0_0_1_n_n.lhsNonContracting by decide)]
  rfl
theorem lhs_out_1 (i : S1x50257.Idx) (q : dot_S1x1024_S1024x50257_S1x50257_1_0_0_1_n_n.contr.Idx) :
    (dot_S1x1024_S1024x50257_S1x50257_1_0_0_1_n_n.lhsIdx i q 1).val = (q ⟨0, by decide⟩).val :=
  dot_S1x1024_S1024x50257_S1x50257_1_0_0_1_n_n.lhsIdx_val_of_single rfl i q
theorem rhs_out_0 (i : S1x50257.Idx) (q : dot_S1x1024_S1024x50257_S1x50257_1_0_0_1_n_n.contr.Idx) :
    (dot_S1x1024_S1024x50257_S1x50257_1_0_0_1_n_n.rhsIdx i q 0).val = (q ⟨0, by decide⟩).val :=
  dot_S1x1024_S1024x50257_S1x50257_1_0_0_1_n_n.rhsIdx_val_of_single rfl i q
theorem rhs_out_1 (i : S1x50257.Idx) (q : dot_S1x1024_S1024x50257_S1x50257_1_0_0_1_n_n.contr.Idx) :
    (dot_S1x1024_S1024x50257_S1x50257_1_0_0_1_n_n.rhsIdx i q 1).val = (i 1).val := by
  unfold DotDims.rhsIdx
  rw [dif_neg (show ¬(1 : Fin S1024x50257.rank) ∈ dot_S1x1024_S1024x50257_S1x50257_1_0_0_1_n_n.rhsBatch by decide), dif_pos (show (1 : Fin S1024x50257.rank) ∈ dot_S1x1024_S1024x50257_S1x50257_1_0_0_1_n_n.rhsNonContracting by decide)]
  rfl

/-- The transposed output weights at (k, v) are the weights at (v, k). -/
theorem transposed_out_apply (W : FVec Ideal S50257x1024 .f32) (v : Fin 50257) (k : Fin 1024) :
    transpose S1024x50257 [1, 0] W transposes_S50257x1024_S1024x50257_1_0 (ix2 k v) = W (ix2 v k) :=
  transpose_apply [1, 0] W transposes_S50257x1024_S1024x50257_1_0 (ix2 k v) (ix2 v k) (fun b => match b with
    | ⟨0, _⟩ => rfl
    | ⟨1, _⟩ => rfl)

/-- A row times the transpose of the [50257,1024] output weights, at column `v`: the sum over `k` of the row's
    entry `k` times the weights' entry `(v, k)`. -/
theorem dot_transposed_out_apply (y : FVec Ideal S1x1024 .f32) (W : FVec Ideal S50257x1024 .f32) (p : Fin 1) (v : Fin 50257) :
    Host.dotGeneral (F := Ideal) dot_S1x1024_S1024x50257_S1x50257_1_0_0_1_n_n none y
        (transpose S1024x50257 [1, 0] W transposes_S50257x1024_S1024x50257_1_0) (ix2 p v)
      = ∑ k : Fin 1024, y (ix2 (0 : Fin 1) k) * W (ix2 v k) := by
  simp only [Host.dotGeneral]
  rw [Ideal.dotGeneral_apply, ← Equiv.sum_comp (ValueIdx.contrEquiv1 dot_S1x1024_S1024x50257_S1x50257_1_0_0_1_n_n 1024 rfl rfl).symm]
  refine Finset.sum_congr rfl fun k _ => ?_
  have hk := ValueIdx.contrEquiv1_symm_val dot_S1x1024_S1024x50257_S1x50257_1_0_0_1_n_n 1024 rfl rfl k
  have hp : p.val = 0 := by omega
  have el : dot_S1x1024_S1024x50257_S1x50257_1_0_0_1_n_n.lhsIdx (ix2 p v) ((ValueIdx.contrEquiv1 dot_S1x1024_S1024x50257_S1x50257_1_0_0_1_n_n 1024 rfl rfl).symm k) = ix2 (0 : Fin 1) k := funext fun a => Fin.ext (by
    match a with
    | ⟨0, _⟩ => exact (lhs_out_0 _ _).trans hp
    | ⟨1, _⟩ => exact (lhs_out_1 _ _).trans hk)
  have er : dot_S1x1024_S1024x50257_S1x50257_1_0_0_1_n_n.rhsIdx (ix2 p v) ((ValueIdx.contrEquiv1 dot_S1x1024_S1024x50257_S1x50257_1_0_0_1_n_n 1024 rfl rfl).symm k) = ix2 k v := funext fun a => Fin.ext (by
    match a with
    | ⟨0, _⟩ => exact (rhs_out_0 _ _).trans hk
    | ⟨1, _⟩ => exact rhs_out_1 _ _)
  rw [el, er, transposed_out_apply]

/-- The output bias broadcast along the row, at column `v`. -/
theorem bias_out_apply (b : FVec Ideal S50257 .f32) (p : Fin 1) (v : Fin 50257) :
    broadcastInDim S1x50257 ![1] bcast_S50257_S1x50257_1 b (ix2 p v) = b (ix1 v) :=
  broadcastInDim_apply _ bcast_S50257_S1x50257_1 b (ix2 p v) (ix1 v) (fun a => match a with
    | ⟨0, _⟩ => by show v.val = if (50257 : Nat) = 1 then 0 else v.val; rw [if_neg (by decide)])

/-- The logits as the reference computes them — the hidden row against the transposed output weights, plus the
    bias — are the specification's, entry by entry. -/
theorem logits_eq (h : FVec Ideal S1x1024 .f32) (W : FVec Ideal S50257x1024 .f32) (b : FVec Ideal S50257 .f32) :
    addf (Host.dotGeneral (F := Ideal) dot_S1x1024_S1024x50257_S1x50257_1_0_0_1_n_n none h (transpose S1024x50257 [1, 0] W transposes_S50257x1024_S1024x50257_1_0))
        (broadcastInDim S1x50257 ![1] bcast_S50257_S1x50257_1 b)
      = Cert.SpecOut.row (Cert.Spec.logit (Cert.SpecOut.unrow h) (Cert.SpecOut.mat W) (Cert.SpecOut.vec b)) := by
  funext i
  obtain ⟨p, v, rfl⟩ : ∃ (p : Fin 1) (v : Fin 50257), i = ix2 p v := ⟨i 0, i 1, eq_ix2 i⟩
  rw [addf_apply, dot_transposed_out_apply, bias_out_apply]
  rfl

/-! ## The embedding row of the word, rectified -/

/-- The start-index array of the gather holds the word: the wrap-around select keeps a word that is not negative,
    and the broadcast to [1,1] reads it. -/
theorem word_idx (x0 : IVec S1 32) (h0 : 0 ≤ (x0 (ix1 (0 : Fin 1))).toInt) :
    broadcastInDim S1x1 ![0] bcast_S1_S1x1_0
        (select (cmpi .slt x0 (broadcastInDim S1 ![] bcast_S_S1 (constantI S_ 32 0#32)))
          (addi x0 (broadcastInDim S1 ![] bcast_S_S1 (constantI S_ 32 50257#32))) x0) i00
      = x0 (ix1 (0 : Fin 1)) := by
  rw [broadcastInDim_apply _ bcast_S1_S1x1_0 _ i00 (ix1 (0 : Fin 1)) (fun a => match a with
    | ⟨0, _⟩ => by show 0 = if (1 : Nat) = 1 then 0 else (i00 0).val; rw [if_pos rfl])]
  exact select_word _ h0

/-- The reference's input row: row `w` of the table, each entry's maximum with zero, `w` the word. -/
theorem embed_eq (x0 : IVec S1 32) (emb : FVec Ideal S50257x1024 .f32)
    (h0 : 0 ≤ (x0 (ix1 (0 : Fin 1))).toInt) (h1 : (x0 (ix1 (0 : Fin 1))).toInt < 50257) :
    maximumf
        (Host.gather gather_S50257x1024_S1x1_S1x1024_1_0_n_n_0_1_11024 emb
          (broadcastInDim S1x1 ![0] bcast_S1_S1x1_0
            (select (cmpi .slt x0 (broadcastInDim S1 ![] bcast_S_S1 (constantI S_ 32 0#32)))
              (addi x0 (broadcastInDim S1 ![] bcast_S_S1 (constantI S_ 32 50257#32))) x0)))
        (broadcastInDim S1x1024 ![] bcast_S_S1x1024 (constant (F := Ideal) S_ .f32 0x00000000#32))
      = Cert.SpecOut.row (Cert.Spec.embRelu (Cert.SpecOut.mat emb)
          (⟨(x0 (ix1 (0 : Fin 1))).toNat, by rw [← toInt_toNat_of_nonneg _ h0]; omega⟩ : Fin 50257)) := by
  funext i
  obtain ⟨p, k, rfl⟩ : ∃ (p : Fin 1) (k : Fin 1024), i = ix2 p k := ⟨i 0, i 1, eq_ix2 i⟩
  have hw := word_idx x0 h0
  rw [maximumf_apply, gather_word emb _ (ix2 p k) (by rw [hw]; exact h0) (by rw [hw]; exact h1)]
  rw [broadcastInDim_apply _ bcast_S_S1x1024 _ (ix2 p k) ix0 (fun a => a.elim0), constant_apply, Ideal.ofBits_zero_f32]
  simp only [hw]
  have hrow : (⟨(x0 (ix1 (0 : Fin 1))).toInt.toNat, by omega⟩ : Fin 50257)
      = ⟨(x0 (ix1 (0 : Fin 1))).toNat, by rw [← toInt_toNat_of_nonneg _ h0]; omega⟩ :=
    Fin.ext (toInt_toNat_of_nonneg _ h0)
  rw [hrow]
  rfl

/-! ## The reference's three results, composed

The reference's stages over variables: the input row, a layer's gate expression, and — through the shared host
chains, each one function of the values going in — the two layers' states, the logits and the three results. -/

/-- The word, read unsigned, as a row of the table. -/
abbrev wordRow (x0 : IVec S1 32) (h0 : 0 ≤ (x0 (ix1 (0 : Fin 1))).toInt) (h1 : (x0 (ix1 (0 : Fin 1))).toInt < 50257) : Fin 50257 :=
  ⟨(x0 (ix1 (0 : Fin 1))).toNat, by rw [← toInt_toNat_of_nonneg _ h0]; omega⟩

section Compose

variable (x0 : IVec S1 32) (x1 x2 : FVec Ideal S2x1x1024 .f32) (x3 : FVec Ideal S50257x1024 .f32)
  (x4 x5 : FVec Ideal S4096x1024 .f32) (x6 x7 : FVec Ideal S4096 .f32)
  (x8 x9 : FVec Ideal S4096x1024 .f32) (x10 x11 : FVec Ideal S4096 .f32)
  (x12 : FVec Ideal S50257x1024 .f32) (x13 : FVec Ideal S50257 .f32)

/-- The reference's input row: the gathered table row, its maximum with zero. -/
def refX : FVec Ideal S1x1024 .f32 :=
  maximumf
    (Host.gather gather_S50257x1024_S1x1_S1x1024_1_0_n_n_0_1_11024 x3
      (broadcastInDim S1x1 ![0] bcast_S1_S1x1_0
        (select (cmpi .slt x0 (broadcastInDim S1 ![] bcast_S_S1 (constantI S_ 32 0#32)))
          (addi x0 (broadcastInDim S1 ![] bcast_S_S1 (constantI S_ 32 50257#32))) x0)))
    (broadcastInDim S1x1024 ![] bcast_S_S1x1024 (constant (F := Ideal) S_ .f32 0x00000000#32))

/-- A layer's gate pre-activations as the reference adds them up. -/
def refGates (x h : FVec Ideal S1x1024 .f32) (Wih Whh : FVec Ideal S4096x1024 .f32) (bih bhh : FVec Ideal S4096 .f32) :
    FVec Ideal S1x4096 .f32 :=
  addf (addf (addf
      (Host.dotGeneral (F := Ideal) dot_S1x1024_S1024x4096_S1x4096_1_0_0_1_n_n none x (transpose S1024x4096 [1, 0] Wih transposes_S4096x1024_S1024x4096_1_0))
      (broadcastInDim S1x4096 ![1] bcast_S4096_S1x4096_1 bih))
      (Host.dotGeneral (F := Ideal) dot_S1x1024_S1024x4096_S1x4096_1_0_0_1_n_n none h (transpose S1024x4096 [1, 0] Whh transposes_S4096x1024_S1024x4096_1_0)))
      (broadcastInDim S1x4096 ![1] bcast_S4096_S1x4096_1 bhh)

/-- Layer 0's new (hidden, cell) state in the reference. -/
def refHC1 : FVec Ideal S1x1024 .f32 × FVec Ideal S1x1024 .f32 :=
  Cert.SpecHost.cell (refGates (refX x0 x3) (Cert.SpecHost.layer0 x1) x4 x5 x6 x7) (Cert.SpecHost.layer0 x2)

/-- Layer 1's new (hidden, cell) state in the reference. -/
def refHC2 : FVec Ideal S1x1024 .f32 × FVec Ideal S1x1024 .f32 :=
  Cert.SpecHost.cell (refGates (refHC1 x0 x1 x2 x3 x4 x5 x6 x7).1 (Cert.SpecHost.layer1 x1) x8 x9 x10 x11) (Cert.SpecHost.layer1 x2)

/-- The reference's logits. -/
def refLogits : FVec Ideal S1x50257 .f32 :=
  addf (Host.dotGeneral (F := Ideal) dot_S1x1024_S1024x50257_S1x50257_1_0_0_1_n_n none (refHC2 x0 x1 x2 x3 x4 x5 x6 x7 x8 x9 x10 x11).1
      (transpose S1024x50257 [1, 0] x12 transposes_S50257x1024_S1024x50257_1_0))
    (broadcastInDim S1x50257 ![1] bcast_S50257_S1x50257_1 x13)

/-- Reading a row back off the array made from it. -/
theorem unrow_row {n : Nat} (f : Fin n → EReal) : Cert.SpecOut.unrow (Cert.SpecOut.row f) = f := rfl

theorem refGates_eq (x h : FVec Ideal S1x1024 .f32) (Wih Whh : FVec Ideal S4096x1024 .f32) (bih bhh : FVec Ideal S4096 .f32) :
    refGates x h Wih Whh bih bhh
      = Cert.SpecOut.row (Cert.Spec.gate (Cert.SpecOut.unrow x) (Cert.SpecOut.unrow h) (Cert.SpecOut.mat Wih) (Cert.SpecOut.mat Whh) (Cert.SpecOut.vec bih) (Cert.SpecOut.vec bhh)) :=
  gates_eq x h Wih Whh bih bhh

variable (h0 : 0 ≤ (x0 (ix1 (0 : Fin 1))).toInt) (h1 : (x0 (ix1 (0 : Fin 1))).toInt < 50257)

include h0 h1 in
theorem refX_eq : refX x0 x3 = Cert.SpecOut.row (Cert.Spec.embRelu (Cert.SpecOut.mat x3) (wordRow x0 h0 h1)) :=
  embed_eq x0 x3 h0 h1

include h0 h1 in
/-- Layer 0's states are the specification's. -/
theorem refHC1_eq : refHC1 x0 x1 x2 x3 x4 x5 x6 x7 = Cert.SpecOut.HC1 (wordRow x0 h0 h1) x1 x2 x3 x4 x5 x6 x7 := by
  unfold refHC1 Cert.SpecOut.HC1 Cert.SpecOut.G0
  rw [refGates_eq, refX_eq x0 x3 h0 h1, unrow_row]

include h0 h1 in
/-- Layer 1's states are the specification's. -/
theorem refHC2_eq : refHC2 x0 x1 x2 x3 x4 x5 x6 x7 x8 x9 x10 x11
    = Cert.SpecOut.HC2 (wordRow x0 h0 h1) x1 x2 x3 x4 x5 x6 x7 x8 x9 x10 x11 := by
  unfold refHC2 Cert.SpecOut.HC2 Cert.SpecOut.G1
  rw [refGates_eq, refHC1_eq x0 x1 x2 x3 x4 x5 x6 x7 h0 h1]

include h0 h1 in
/-- The logits are the specification's. -/
theorem refLogits_eq : refLogits x0 x1 x2 x3 x4 x5 x6 x7 x8 x9 x10 x11 x12 x13
    = Cert.SpecOut.logits (wordRow x0 h0 h1) x1 x2 x3 x4 x5 x6 x7 x8 x9 x10 x11 x12 x13 := by
  unfold refLogits Cert.SpecOut.logits
  rw [logits_eq, refHC2_eq x0 x1 x2 x3 x4 x5 x6 x7 x8 x9 x10 x11 h0 h1]

include h0 h1 in
/-- Result 0: the log-probabilities. -/
theorem refOut0_eq : Cert.SpecHost.lsm (refLogits x0 x1 x2 x3 x4 x5 x6 x7 x8 x9 x10 x11 x12 x13)
    = Cert.SpecOut.out0 (wordRow x0 h0 h1) x1 x2 x3 x4 x5 x6 x7 x8 x9 x10 x11 x12 x13 := by
  unfold Cert.SpecOut.out0
  rw [refLogits_eq x0 x1 x2 x3 x4 x5 x6 x7 x8 x9 x10 x11 x12 x13 h0 h1]

include h0 h1 in
/-- Result 1: the stacked hidden states. -/
theorem refOut1_eq : Cert.SpecHost.stack2 (refHC1 x0 x1 x2 x3 x4 x5 x6 x7).1 (refHC2 x0 x1 x2 x3 x4 x5 x6 x7 x8 x9 x10 x11).1
    = Cert.SpecOut.out1 (wordRow x0 h0 h1) x1 x2 x3 x4 x5 x6 x7 x8 x9 x10 x11 := by
  unfold Cert.SpecOut.out1
  rw [refHC1_eq x0 x1 x2 x3 x4 x5 x6 x7 h0 h1, refHC2_eq x0 x1 x2 x3 x4 x5 x6 x7 x8 x9 x10 x11 h0 h1]

include h0 h1 in
/-- Result 2: the stacked cell states. -/
theorem refOut2_eq : Cert.SpecHost.stack2 (refHC1 x0 x1 x2 x3 x4 x5 x6 x7).2 (refHC2 x0 x1 x2 x3 x4 x5 x6 x7 x8 x9 x10 x11).2
    = Cert.SpecOut.out2 (wordRow x0 h0 h1) x1 x2 x3 x4 x5 x6 x7 x8 x9 x10 x11 := by
  unfold Cert.SpecOut.out2
  rw [refHC1_eq x0 x1 x2 x3 x4 x5 x6 x7 h0 h1, refHC2_eq x0 x1 x2 x3 x4 x5 x6 x7 x8 x9 x10 x11 h0 h1]

end Compose

end Cert.ReferenceIdeal.Hand

end
-- ==== Proof.Ref.RefRunHand.lean ====
/-
  The reference program's run, proved directly. Its operations are listed in two parts, cut where the program's
  text is cut, and the program is the two parts run in order. From ANY contents, the first part leaves layer 0's
  new states and layer 1's previous rows in the few buffers the second part reads, and writes no argument; from
  any contents the second part (itself cut at the logits, so that log-softmax is met as one function of them)
  leaves the three results, and writes no argument. Composed over the launch contents these give the three
  results as the specification's terms when the word is a row of the table, and the frame.
-/
import proofs.«408709_j86328842650330_3_alg».proof.Defs
import Idealize.ShloMosaic.Lib.StableHlo.Run
import Idealize.ShloMosaic.Lib.Pipeline.Frame
import proofs.«408709_j86328842650330_3_alg».proof.Proof.Ref.RefVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the program's first window, in order: the word, the embedding row, layer 0, and the slices
    of layer 1's previous state. -/
abbrev opsP0 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v6) (TRef.of (T := ⟨S1x1024, .f32⟩) main_call0_v0) (TRef.of (T := ⟨S1x1024, .f32⟩) main_v7) maximumf,
    unary main_arg1 main_v8 ((extractStridedSlice S1x1x1024 ![0, 0, 0] · slices_S2x1x1024_S1x1x1024_0_0_0) : (⟨S2x1x1024, .f32⟩ : BufTy).Contents (Elt F) → (⟨S1x1x1024, .f32⟩ : BufTy).Contents (Elt F)),
    reshape main_v8 main_v9 rfl shapeCasts_S1x1x1024_S1x1024,
    unary main_arg2 main_v10 ((extractStridedSlice S1x1x1024 ![0, 0, 0] · slices_S2x1x1024_S1x1x1024_0_0_0) : (⟨S2x1x1024, .f32⟩ : BufTy).Contents (Elt F) → (⟨S1x1x1024, .f32⟩ : BufTy).Contents (Elt F)),
    reshape main_v10 main_v11 rfl shapeCasts_S1x1x1024_S1x1024,
    unary main_arg4 main_v12 ((transpose S1024x4096 [1, 0] · transposes_S4096x1024_S1024x4096_1_0) : (⟨S4096x1024, .f32⟩ : BufTy).Contents (Elt F) → (⟨S1024x4096, .f32⟩ : BufTy).Contents (Elt F)),
    binary main_v7 main_v12 main_v13 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    unary main_arg6 main_v14 (broadcastInDim S1x4096 ![1] bcast_S4096_S1x4096_1 : (⟨S4096, .f32⟩ : BufTy).Contents (Elt F) → (⟨S1x4096, .f32⟩ : BufTy).Contents (Elt F)),
    binary main_v13 main_v14 main_v15 (addf : (⟨S1x4096, .f32⟩ : BufTy).Contents (Elt F) → (⟨S1x4096, .f32⟩ : BufTy).Contents (Elt F) → (⟨S1x4096, .f32⟩ : BufTy).Contents (Elt F)),
    unary main_arg5 main_v16 ((transpose S1024x4096 [1, 0] · transposes_S4096x1024_S1024x4096_1_0) : (⟨S4096x1024, .f32⟩ : BufTy).Contents (Elt F) → (⟨S1024x4096, .f32⟩ : BufTy).Contents (Elt F)),
    binary main_v9 main_v16 main_v17 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    binary main_v15 main_v17 main_v18 (addf : (⟨S1x4096, .f32⟩ : BufTy).Contents (Elt F) → (⟨S1x4096, .f32⟩ : BufTy).Contents (Elt F) → (⟨S1x4096, .f32⟩ : BufTy).Contents (Elt F)),
    unary main_arg7 main_v19 (broadcastInDim S1x4096 ![1] bcast_S4096_S1x4096_1 : (⟨S4096, .f32⟩ : BufTy).Contents (Elt F) → (⟨S1x4096, .f32⟩ : BufTy).Contents (Elt F)),
    binary main_v18 main_v19 main_v20 (addf : (⟨S1x4096, .f32⟩ : BufTy).Contents (Elt F) → (⟨S1x4096, .f32⟩ : BufTy).Contents (Elt F) → (⟨S1x4096, .f32⟩ : BufTy).Contents (Elt F)),
    unary main_v20 main_v21 ((extractStridedSlice S1x1024 ![0, 0] · slices_S1x4096_S1x1024_0_0) : (⟨S1x4096, .f32⟩ : BufTy).Contents (Elt F) → (⟨S1x1024, .f32⟩ : BufTy).Contents (Elt F)),
    unary main_v20 main_v22 ((extractStridedSlice S1x1024 ![0, 1024] · slices_S1x4096_S1x1024_0_1024) : (⟨S1x4096, .f32⟩ : BufTy).Contents (Elt F) → (⟨S1x1024, .f32⟩ : BufTy).Contents (Elt F)),
    unary main_v20 main_v23 ((extractStridedSlice S1x1024 ![0, 2048] · slices_S1x4096_S1x1024_0_2048) : (⟨S1x4096, .f32⟩ : BufTy).Contents (Elt F) → (⟨S1x1024, .f32⟩ : BufTy).Contents (Elt F)),
    unary main_v20 main_v24 ((extractStridedSlice S1x1024 ![0, 3072] · slices_S1x4096_S1x1024_0_3072) : (⟨S1x4096, .f32⟩ : BufTy).Contents (Elt F) → (⟨S1x1024, .f32⟩ : BufTy).Contents (Elt F)),
    unary main_v22 main_v25 (Host.negf : (⟨S1x1024, .f32⟩ : BufTy).Contents (Elt F) → (⟨S1x1024, .f32⟩ : BufTy).Contents (Elt F)),
    unary main_v25 main_v26 (Host.exp : (⟨S1x1024, .f32⟩ : BufTy).Contents (Elt F) → (⟨S1x1024, .f32⟩ : BufTy).Contents (Elt F)),
    nullary main_cst (constant S_ .f32 0x3F800000#32),
    unary main_cst main_v27 (broadcastInDim S1x1024 ![] bcast_S_S1x1024 : (⟨S_, .f32⟩ : BufTy).Contents (Elt F) → (⟨S1x1024, .f32⟩ : BufTy).Contents (Elt F)),
    binary main_v27 main_v26 main_v28 (addf : (⟨S1x1024, .f32⟩ : BufTy).Contents (Elt F) → (⟨S1x1024, .f32⟩ : BufTy).Contents (Elt F) → (⟨S1x1024, .f32⟩ : BufTy).Contents (Elt F)),
    nullary main_cst_1 (constant S_ .f32 0x3F800000#32),
    unary main_cst_1 main_v29 (broadcastInDim S1x1024 ![] bcast_S_S1x1024 : (⟨S_, .f32⟩ : BufTy).Contents (Elt F) → (⟨S1x1024, .f32⟩ : BufTy).Contents (Elt F)),
    binary main_v29 main_v28 main_v30 (Host.divf : (⟨S1x1024, .f32⟩ : BufTy).Contents (Elt F) → (⟨S1x1024, .f32⟩ : BufTy).Contents (Elt F) → (⟨S1x1024, .f32⟩ : BufTy).Contents (Elt F)),
    binary main_v30 main_v11 main_v31 (mulf : (⟨S1x1024, .f32⟩ : BufTy).Contents (Elt F) → (⟨S1x1024, .f32⟩ : BufTy).Contents (Elt F) → (⟨S1x1024, .f32⟩ : BufTy).Contents (Elt F)),
    unary main_v21 main_v32 (Host.negf : (⟨S1x1024, .f32⟩ : BufTy).Contents (Elt F) → (⟨S1x1024, .f32⟩ : BufTy).Contents (Elt F)),
    unary main_v32 main_v33 (Host.exp : (⟨S1x1024, .f32⟩ : BufTy).Contents (Elt F) → (⟨S1x1024, .f32⟩ : BufTy).Contents (Elt F)),
    nullary main_cst_2 (constant S_ .f32 0x3F800000#32),
    unary main_cst_2 main_v34 (broadcastInDim S1x1024 ![] bcast_S_S1x1024 : (⟨S_, .f32⟩ : BufTy).Contents (Elt F) → (⟨S1x1024, .f32⟩ : BufTy).Contents (Elt F)),
    binary main_v34 main_v33 main_v35 (addf : (⟨S1x1024, .f32⟩ : BufTy).Contents (Elt F) → (⟨S1x1024, .f32⟩ : BufTy).Contents (Elt F) → (⟨S1x1024, .f32⟩ : BufTy).Contents (Elt F)),
    nullary main_cst_3 (constant S_ .f32 0x3F800000#32),
    unary main_cst_3 main_v36 (broadcastInDim S1x1024 ![] bcast_S_S1x1024 : (⟨S_, .f32⟩ : BufTy).Contents (Elt F) → (⟨S1x1024, .f32⟩ : BufTy).Contents (Elt F)),
    binary main_v36 main_v35 main_v37 (Host.divf : (⟨S1x1024, .f32⟩ : BufTy).Contents (Elt F) → (⟨S1x1024, .f32⟩ : BufTy).Contents (Elt F) → (⟨S1x1024, .f32⟩ : BufTy).Contents (Elt F)),
    unary main_v23 main_v38 (Host.tanh : (⟨S1x1024, .f32⟩ : BufTy).Contents (Elt F) → (⟨S1x1024, .f32⟩ : BufTy).Contents (Elt F)),
    binary main_v37 main_v38 main_v39 (mulf : (⟨S1x1024, .f32⟩ : BufTy).Contents (Elt F) → (⟨S1x1024, .f32⟩ : BufTy).Contents (Elt F) → (⟨S1x1024, .f32⟩ : BufTy).Contents (Elt F)),
    binary main_v31 main_v39 main_v40 (addf : (⟨S1x1024, .f32⟩ : BufTy).Contents (Elt F) → (⟨S1x1024, .f32⟩ : BufTy).Contents (Elt F) → (⟨S1x1024, .f32⟩ : BufTy).Contents (Elt F)),
    unary main_v24 main_v41 (Host.negf : (⟨S1x1024, .f32⟩ : BufTy).Contents (Elt F) → (⟨S1x1024, .f32⟩ : BufTy).Contents (Elt F)),
    unary main_v41 main_v42 (Host.exp : (⟨S1x1024, .f32⟩ : BufTy).Contents (Elt F) → (⟨S1x1024, .f32⟩ : BufTy).Contents (Elt F)),
    nullary main_cst_4 (constant S_ .f32 0x3F800000#32),
    unary main_cst_4 main_v43 (broadcastInDim S1x1024 ![] bcast_S_S1x1024 : (⟨S_, .f32⟩ : BufTy).Contents (Elt F) → (⟨S1x1024, .f32⟩ : BufTy).Contents (Elt F)),
    binary main_v43 main_v42 main_v44 (addf : (⟨S1x1024, .f32⟩ : BufTy).Contents (Elt F) → (⟨S1x1024, .f32⟩ : BufTy).Contents (Elt F) → (⟨S1x1024, .f32⟩ : BufTy).Contents (Elt F)),
    nullary main_cst_5 (constant S_ .f32 0x3F800000#32),
    unary main_cst_5 main_v45 (broadcastInDim S1x1024 ![] bcast_S_S1x1024 : (⟨S_, .f32⟩ : BufTy).Contents (Elt F) → (⟨S1x1024, .f32⟩ : BufTy).Contents (Elt F)),
    binary main_v45 main_v44 main_v46 (Host.divf : (⟨S1x1024, .f32⟩ : BufTy).Contents (Elt F) → (⟨S1x1024, .f32⟩ : BufTy).Contents (Elt F) → (⟨S1x1024, .f32⟩ : BufTy).Contents (Elt F)),
    unary main_v40 main_v47 (Host.tanh : (⟨S1x1024, .f32⟩ : BufTy).Contents (Elt F) → (⟨S1x1024, .f32⟩ : BufTy).Contents (Elt F)),
    binary main_v46 main_v47 main_v48 (mulf : (⟨S1x1024, .f32⟩ : BufTy).Contents (Elt F) → (⟨S1x1024, .f32⟩ : BufTy).Contents (Elt F) → (⟨S1x1024, .f32⟩ : BufTy).Contents (Elt F)),
    unary main_arg1 main_v49 ((extractStridedSlice S1x1x1024 ![1, 0, 0] · slices_S2x1x1024_S1x1x1024_1_0_0) : (⟨S2x1x1024, .f32⟩ : BufTy).Contents (Elt F) → (⟨S1x1x1024, .f32⟩ : BufTy).Contents (Elt F)),
    reshape main_v49 main_v50 rfl shapeCasts_S1x1x1024_S1x1024,
    unary main_arg2 main_v51 ((extractStridedSlice S1x1x1024 ![1, 0, 0] · slices_S2x1x1024_S1x1x1024_1_0_0) : (⟨S2x1x1024, .f32⟩ : BufTy).Contents (Elt F) → (⟨S1x1x1024, .f32⟩ : BufTy).Contents (Elt F)) ]

/-- The operations of the program's second window, in order: layer 1, the output projection, log-softmax and the
    two stacks. -/
abbrev opsP1 : List (HloOp τ sig (Elt F)) :=
  [ reshape main_v51 main_v52 rfl shapeCasts_S1x1x1024_S1x1024,
    unary main_arg8 main_v53 ((transpose S1024x4096 [1, 0] · transposes_S4096x1024_S1024x4096_1_0) : (⟨S4096x1024, .f32⟩ : BufTy).Contents (Elt F) → (⟨S1024x4096, .f32⟩ : BufTy).Contents (Elt F)),
    binary main_v48 main_v53 main_v54 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    unary main_arg10 main_v55 (broadcastInDim S1x4096 ![1] bcast_S4096_S1x4096_1 : (⟨S4096, .f32⟩ : BufTy).Contents (Elt F) → (⟨S1x4096, .f32⟩ : BufTy).Contents (Elt F)),
    binary main_v54 main_v55 main_v56 (addf : (⟨S1x4096, .f32⟩ : BufTy).Contents (Elt F) → (⟨S1x4096, .f32⟩ : BufTy).Contents (Elt F) → (⟨S1x4096, .f32⟩ : BufTy).Contents (Elt F)),
    unary main_arg9 main_v57 ((transpose S1024x4096 [1, 0] · transposes_S4096x1024_S1024x4096_1_0) : (⟨S4096x1024, .f32⟩ : BufTy).Contents (Elt F) → (⟨S1024x4096, .f32⟩ : BufTy).Contents (Elt F)),
    binary main_v50 main_v57 main_v58 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    binary main_v56 main_v58 main_v59 (addf : (⟨S1x4096, .f32⟩ : BufTy).Contents (Elt F) → (⟨S1x4096, .f32⟩ : BufTy).Contents (Elt F) → (⟨S1x4096, .f32⟩ : BufTy).Contents (Elt F)),
    unary main_arg11 main_v60 (broadcastInDim S1x4096 ![1] bcast_S4096_S1x4096_1 : (⟨S4096, .f32⟩ : BufTy).Contents (Elt F) → (⟨S1x4096, .f32⟩ : BufTy).Contents (Elt F)),
    binary main_v59 main_v60 main_v61 (addf : (⟨S1x4096, .f32⟩ : BufTy).Contents (Elt F) → (⟨S1x4096, .f32⟩ : BufTy).Contents (Elt F) → (⟨S1x4096, .f32⟩ : BufTy).Contents (Elt F)),
    unary main_v61 main_v62 ((extractStridedSlice S1x1024 ![0, 0] · slices_S1x4096_S1x1024_0_0) : (⟨S1x4096, .f32⟩ : BufTy).Contents (Elt F) → (⟨S1x1024, .f32⟩ : BufTy).Contents (Elt F)),
    unary main_v61 main_v63 ((extractStridedSlice S1x1024 ![0, 1024] · slices_S1x4096_S1x1024_0_1024) : (⟨S1x4096, .f32⟩ : BufTy).Contents (Elt F) → (⟨S1x1024, .f32⟩ : BufTy).Contents (Elt F)),
    unary main_v61 main_v64 ((extractStridedSlice S1x1024 ![0, 2048] · slices_S1x4096_S1x1024_0_2048) : (⟨S1x4096, .f32⟩ : BufTy).Contents (Elt F) → (⟨S1x1024, .f32⟩ : BufTy).Contents (Elt F)),
    unary main_v61 main_v65 ((extractStridedSlice S1x1024 ![0, 3072] · slices_S1x4096_S1x1024_0_3072) : (⟨S1x4096, .f32⟩ : BufTy).Contents (Elt F) → (⟨S1x1024, .f32⟩ : BufTy).Contents (Elt F)),
    unary main_v63 main_v66 (Host.negf : (⟨S1x1024, .f32⟩ : BufTy).Contents (Elt F) → (⟨S1x1024, .f32⟩ : BufTy).Contents (Elt F)),
    unary main_v66 main_v67 (Host.exp : (⟨S1x1024, .f32⟩ : BufTy).Contents (Elt F) → (⟨S1x1024, .f32⟩ : BufTy).Contents (Elt F)),
    nullary main_cst_6 (constant S_ .f32 0x3F800000#32),
    unary main_cst_6 main_v68 (broadcastInDim S1x1024 ![] bcast_S_S1x1024 : (⟨S_, .f32⟩ : BufTy).Contents (Elt F) → (⟨S1x1024, .f32⟩ : BufTy).Contents (Elt F)),
    binary main_v68 main_v67 main_v69 (addf : (⟨S1x1024, .f32⟩ : BufTy).Contents (Elt F) → (⟨S1x1024, .f32⟩ : BufTy).Contents (Elt F) → (⟨S1x1024, .f32⟩ : BufTy).Contents (Elt F)),
    nullary main_cst_7 (constant S_ .f32 0x3F800000#32),
    unary main_cst_7 main_v70 (broadcastInDim S1x1024 ![] bcast_S_S1x1024 : (⟨S_, .f32⟩ : BufTy).Contents (Elt F) → (⟨S1x1024, .f32⟩ : BufTy).Contents (Elt F)),
    binary main_v70 main_v69 main_v71 (Host.divf : (⟨S1x1024, .f32⟩ : BufTy).Contents (Elt F) → (⟨S1x1024, .f32⟩ : BufTy).Contents (Elt F) → (⟨S1x1024, .f32⟩ : BufTy).Contents (Elt F)),
    binary main_v71 main_v52 main_v72 (mulf : (⟨S1x1024, .f32⟩ : BufTy).Contents (Elt F) → (⟨S1x1024, .f32⟩ : BufTy).Contents (Elt F) → (⟨S1x1024, .f32⟩ : BufTy).Contents (Elt F)),
    unary main_v62 main_v73 (Host.negf : (⟨S1x1024, .f32⟩ : BufTy).Contents (Elt F) → (⟨S1x1024, .f32⟩ : BufTy).Contents (Elt F)),
    unary main_v73 main_v74 (Host.exp : (⟨S1x1024, .f32⟩ : BufTy).Contents (Elt F) → (⟨S1x1024, .f32⟩ : BufTy).Contents (Elt F)),
    nullary main_cst_8 (constant S_ .f32 0x3F800000#32),
    unary main_cst_8 main_v75 (broadcastInDim S1x1024 ![] bcast_S_S1x1024 : (⟨S_, .f32⟩ : BufTy).Contents (Elt F) → (⟨S1x1024, .f32⟩ : BufTy).Contents (Elt F)),
    binary main_v75 main_v74 main_v76 (addf : (⟨S1x1024, .f32⟩ : BufTy).Contents (Elt F) → (⟨S1x1024, .f32⟩ : BufTy).Contents (Elt F) → (⟨S1x1024, .f32⟩ : BufTy).Contents (Elt F)),
    nullary main_cst_9 (constant S_ .f32 0x3F800000#32),
    unary main_cst_9 main_v77 (broadcastInDim S1x1024 ![] bcast_S_S1x1024 : (⟨S_, .f32⟩ : BufTy).Contents (Elt F) → (⟨S1x1024, .f32⟩ : BufTy).Contents (Elt F)),
    binary main_v77 main_v76 main_v78 (Host.divf : (⟨S1x1024, .f32⟩ : BufTy).Contents (Elt F) → (⟨S1x1024, .f32⟩ : BufTy).Contents (Elt F) → (⟨S1x1024, .f32⟩ : BufTy).Contents (Elt F)),
    unary main_v64 main_v79 (Host.tanh : (⟨S1x1024, .f32⟩ : BufTy).Contents (Elt F) → (⟨S1x1024, .f32⟩ : BufTy).Contents (Elt F)),
    binary main_v78 main_v79 main_v80 (mulf : (⟨S1x1024, .f32⟩ : BufTy).Contents (Elt F) → (⟨S1x1024, .f32⟩ : BufTy).Contents (Elt F) → (⟨S1x1024, .f32⟩ : BufTy).Contents (Elt F)),
    binary main_v72 main_v80 main_v81 (addf : (⟨S1x1024, .f32⟩ : BufTy).Contents (Elt F) → (⟨S1x1024, .f32⟩ : BufTy).Contents (Elt F) → (⟨S1x1024, .f32⟩ : BufTy).Contents (Elt F)),
    unary main_v65 main_v82 (Host.negf : (⟨S1x1024, .f32⟩ : BufTy).Contents (Elt F) → (⟨S1x1024, .f32⟩ : BufTy).Contents (Elt F)),
    unary main_v82 main_v83 (Host.exp : (⟨S1x1024, .f32⟩ : BufTy).Contents (Elt F) → (⟨S1x1024, .f32⟩ : BufTy).Contents (Elt F)),
    nullary main_cst_10 (constant S_ .f32 0x3F800000#32),
    unary main_cst_10 main_v84 (broadcastInDim S1x1024 ![] bcast_S_S1x1024 : (⟨S_, .f32⟩ : BufTy).Contents (Elt F) → (⟨S1x1024, .f32⟩ : BufTy).Contents (Elt F)),
    binary main_v84 main_v83 main_v85 (addf : (⟨S1x1024, .f32⟩ : BufTy).Contents (Elt F) → (⟨S1x1024, .f32⟩ : BufTy).Contents (Elt F) → (⟨S1x1024, .f32⟩ : BufTy).Contents (Elt F)),
    nullary main_cst_11 (constant S_ .f32 0x3F800000#32),
    unary main_cst_11 main_v86 (broadcastInDim S1x1024 ![] bcast_S_S1x1024 : (⟨S_, .f32⟩ : BufTy).Contents (Elt F) → (⟨S1x1024, .f32⟩ : BufTy).Contents (Elt F)),
    binary main_v86 main_v85 main_v87 (Host.divf : (⟨S1x1024, .f32⟩ : BufTy).Contents (Elt F) → (⟨S1x1024, .f32⟩ : BufTy).Contents (Elt F) → (⟨S1x1024, .f32⟩ : BufTy).Contents (Elt F)),
    unary main_v81 main_v88 (Host.tanh : (⟨S1x1024, .f32⟩ : BufTy).Contents (Elt F) → (⟨S1x1024, .f32⟩ : BufTy).Contents (Elt F)),
    binary main_v87 main_v88 main_v89 (mulf : (⟨S1x1024, .f32⟩ : BufTy).Contents (Elt F) → (⟨S1x1024, .f32⟩ : BufTy).Contents (Elt F) → (⟨S1x1024, .f32⟩ : BufTy).Contents (Elt F)),
    unary main_arg12 main_v90 ((transpose S1024x50257 [1, 0] · transposes_S50257x1024_S1024x50257_1_0) : (⟨S50257x1024, .f32⟩ : BufTy).Contents (Elt F) → (⟨S1024x50257, .f32⟩ : BufTy).Contents (Elt F)),
    binary main_v89 main_v90 main_v91 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v92 (broadcastInDim S1x50257 ![1] bcast_S50257_S1x50257_1 : (⟨S50257, .f32⟩ : BufTy).Contents (Elt F) → (⟨S1x50257, .f32⟩ : BufTy).Contents (Elt F)),
    binary main_v91 main_v92 main_v93 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call1_cst) (constant S_ .f32 0xFF800000#32),
    TRef.binary (TRef.of (T := ⟨S1x50257, .f32⟩) main_v93) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v93) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v94) subf,
    unary main_v48 main_v95 (broadcastInDim S1x1x1024 ![1, 2] bcast_S1x1024_S1x1x1024_1_2 : (⟨S1x1024, .f32⟩ : BufTy).Contents (Elt F) → (⟨S1x1x1024, .f32⟩ : BufTy).Contents (Elt F)),
    unary main_v89 main_v96 (broadcastInDim S1x1x1024 ![1, 2] bcast_S1x1024_S1x1x1024_1_2 : (⟨S1x1024, .f32⟩ : BufTy).Contents (Elt F) → (⟨S1x1x1024, .f32⟩ : BufTy).Contents (Elt F)),
    binary main_v95 main_v96 main_v97 ((fun a b => concatenate S2x1x1024 0 [⟨S1x1x1024, a⟩, ⟨S1x1x1024, b⟩] concatenates_S1x1x1024_S1x1x1024_S2x1x1024_d0) : (⟨S1x1x1024, .f32⟩ : BufTy).Contents (Elt F) → (⟨S1x1x1024, .f32⟩ : BufTy).Contents (Elt F) → (⟨S2x1x1024, .f32⟩ : BufTy).Contents (Elt F)),
    unary main_v40 main_v98 (broadcastInDim S1x1x1024 ![1, 2] bcast_S1x1024_S1x1x1024_1_2 : (⟨S1x1024, .f32⟩ : BufTy).Contents (Elt F) → (⟨S1x1x1024, .f32⟩ : BufTy).Contents (Elt F)),
    unary main_v81 main_v99 (broadcastInDim S1x1x1024 ![1, 2] bcast_S1x1024_S1x1x1024_1_2 : (⟨S1x1024, .f32⟩ : BufTy).Contents (Elt F) → (⟨S1x1x1024, .f32⟩ : BufTy).Contents (Elt F)),
    binary main_v98 main_v99 main_v100 ((fun a b => concatenate S2x1x1024 0 [⟨S1x1x1024, a⟩, ⟨S1x1x1024, b⟩] concatenates_S1x1x1024_S1x1x1024_S2x1x1024_d0) : (⟨S1x1x1024, .f32⟩ : BufTy).Contents (Elt F) → (⟨S1x1x1024, .f32⟩ : BufTy).Contents (Elt F) → (⟨S2x1x1024, .f32⟩ : BufTy).Contents (Elt F)) ]

/-- The second window up to the logits. -/
abbrev opsP1a : List (HloOp τ sig (Elt F)) :=
  [ reshape main_v51 main_v52 rfl shapeCasts_S1x1x1024_S1x1024,
    unary main_arg8 main_v53 ((transpose S1024x4096 [1, 0] · transposes_S4096x1024_S1024x4096_1_0) : (⟨S4096x1024, .f32⟩ : BufTy).Contents (Elt F) → (⟨S1024x4096, .f32⟩ : BufTy).Contents (Elt F)),
    binary main_v48 main_v53 main_v54 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    unary main_arg10 main_v55 (broadcastInDim S1x4096 ![1] bcast_S4096_S1x4096_1 : (⟨S4096, .f32⟩ : BufTy).Contents (Elt F) → (⟨S1x4096, .f32⟩ : BufTy).Contents (Elt F)),
    binary main_v54 main_v55 main_v56 (addf : (⟨S1x4096, .f32⟩ : BufTy).Contents (Elt F) → (⟨S1x4096, .f32⟩ : BufTy).Contents (Elt F) → (⟨S1x4096, .f32⟩ : BufTy).Contents (Elt F)),
    unary main_arg9 main_v57 ((transpose S1024x4096 [1, 0] · transposes_S4096x1024_S1024x4096_1_0) : (⟨S4096x1024, .f32⟩ : BufTy).Contents (Elt F) → (⟨S1024x4096, .f32⟩ : BufTy).Contents (Elt F)),
    binary main_v50 main_v57 main_v58 ((fun l r => Host.dotGeneral dot_S1x1024_S1024x4096_S1x4096_1_0_0_1_n_n none l r) : (⟨S1x1024, .f32⟩ : BufTy).Contents (Elt F) → (⟨S1024x4096, .f32⟩ : BufTy).Contents (Elt F) → (⟨S1x4096, .f32⟩ : BufTy).Contents (Elt F)),
    binary main_v56 main_v58 main_v59 (addf : (⟨S1x4096, .f32⟩ : BufTy).Contents (Elt F) → (⟨S1x4096, .f32⟩ : BufTy).Contents (Elt F) → (⟨S1x4096, .f32⟩ : BufTy).Contents (Elt F)),
    unary main_arg11 main_v60 (broadcastInDim S1x4096 ![1] bcast_S4096_S1x4096_1 : (⟨S4096, .f32⟩ : BufTy).Contents (Elt F) → (⟨S1x4096, .f32⟩ : BufTy).Contents (Elt F)),
    binary main_v59 main_v60 main_v61 (addf : (⟨S1x4096, .f32⟩ : BufTy).Contents (Elt F) → (⟨S1x4096, .f32⟩ : BufTy).Contents (Elt F) → (⟨S1x4096, .f32⟩ : BufTy).Contents (Elt F)),
    unary main_v61 main_v62 ((extractStridedSlice S1x1024 ![0, 0] · slices_S1x4096_S1x1024_0_0) : (⟨S1x4096, .f32⟩ : BufTy).Contents (Elt F) → (⟨S1x1024, .f32⟩ : BufTy).Contents (Elt F)),
    unary main_v61 main_v63 ((extractStridedSlice S1x1024 ![0, 1024] · slices_S1x4096_S1x1024_0_1024) : (⟨S1x4096, .f32⟩ : BufTy).Contents (Elt F) → (⟨S1x1024, .f32⟩ : BufTy).Contents (Elt F)),
    unary main_v61 main_v64 ((extractStridedSlice S1x1024 ![0, 2048] · slices_S1x4096_S1x1024_0_2048) : (⟨S1x4096, .f32⟩ : BufTy).Contents (Elt F) → (⟨S1x1024, .f32⟩ : BufTy).Contents (Elt F)),
    unary main_v61 main_v65 ((extractStridedSlice S1x1024 ![0, 3072] · slices_S1x4096_S1x1024_0_3072) : (⟨S1x4096, .f32⟩ : BufTy).Contents (Elt F) → (⟨S1x1024, .f32⟩ : BufTy).Contents (Elt F)),
    unary main_v63 main_v66 (Host.negf : (⟨S1x1024, .f32⟩ : BufTy).Contents (Elt F) → (⟨S1x1024, .f32⟩ : BufTy).Contents (Elt F)),
    unary main_v66 main_v67 (Host.exp : (⟨S1x1024, .f32⟩ : BufTy).Contents (Elt F) → (⟨S1x1024, .f32⟩ : BufTy).Contents (Elt F)),
    nullary main_cst_6 (constant S_ .f32 0x3F800000#32),
    unary main_cst_6 main_v68 (broadcastInDim S1x1024 ![] bcast_S_S1x1024 : (⟨S_, .f32⟩ : BufTy).Contents (Elt F) → (⟨S1x1024, .f32⟩ : BufTy).Contents (Elt F)),
    binary main_v68 main_v67 main_v69 (addf : (⟨S1x1024, .f32⟩ : BufTy).Contents (Elt F) → (⟨S1x1024, .f32⟩ : BufTy).Contents (Elt F) → (⟨S1x1024, .f32⟩ : BufTy).Contents (Elt F)),
    nullary main_cst_7 (constant S_ .f32 0x3F800000#32),
    unary main_cst_7 main_v70 (broadcastInDim S1x1024 ![] bcast_S_S1x1024 : (⟨S_, .f32⟩ : BufTy).Contents (Elt F) → (⟨S1x1024, .f32⟩ : BufTy).Contents (Elt F)),
    binary main_v70 main_v69 main_v71 (Host.divf : (⟨S1x1024, .f32⟩ : BufTy).Contents (Elt F) → (⟨S1x1024, .f32⟩ : BufTy).Contents (Elt F) → (⟨S1x1024, .f32⟩ : BufTy).Contents (Elt F)),
    binary main_v71 main_v52 main_v72 (mulf : (⟨S1x1024, .f32⟩ : BufTy).Contents (Elt F) → (⟨S1x1024, .f32⟩ : BufTy).Contents (Elt F) → (⟨S1x1024, .f32⟩ : BufTy).Contents (Elt F)),
    unary main_v62 main_v73 (Host.negf : (⟨S1x1024, .f32⟩ : BufTy).Contents (Elt F) → (⟨S1x1024, .f32⟩ : BufTy).Contents (Elt F)),
    unary main_v73 main_v74 (Host.exp : (⟨S1x1024, .f32⟩ : BufTy).Contents (Elt F) → (⟨S1x1024, .f32⟩ : BufTy).Contents (Elt F)),
    nullary main_cst_8 (constant S_ .f32 0x3F800000#32),
    unary main_cst_8 main_v75 (broadcastInDim S1x1024 ![] bcast_S_S1x1024 : (⟨S_, .f32⟩ : BufTy).Contents (Elt F) → (⟨S1x1024, .f32⟩ : BufTy).Contents (Elt F)),
    binary main_v75 main_v74 main_v76 (addf : (⟨S1x1024, .f32⟩ : BufTy).Contents (Elt F) → (⟨S1x1024, .f32⟩ : BufTy).Contents (Elt F) → (⟨S1x1024, .f32⟩ : BufTy).Contents (Elt F)),
    nullary main_cst_9 (constant S_ .f32 0x3F800000#32),
    unary main_cst_9 main_v77 (broadcastInDim S1x1024 ![] bcast_S_S1x1024 : (⟨S_, .f32⟩ : BufTy).Contents (Elt F) → (⟨S1x1024, .f32⟩ : BufTy).Contents (Elt F)),
    binary main_v77 main_v76 main_v78 (Host.divf : (⟨S1x1024, .f32⟩ : BufTy).Contents (Elt F) → (⟨S1x1024, .f32⟩ : BufTy).Contents (Elt F) → (⟨S1x1024, .f32⟩ : BufTy).Contents (Elt F)),
    unary main_v64 main_v79 (Host.tanh : (⟨S1x1024, .f32⟩ : BufTy).Contents (Elt F) → (⟨S1x1024, .f32⟩ : BufTy).Contents (Elt F)),
    binary main_v78 main_v79 main_v80 (mulf : (⟨S1x1024, .f32⟩ : BufTy).Contents (Elt F) → (⟨S1x1024, .f32⟩ : BufTy).Contents (Elt F) → (⟨S1x1024, .f32⟩ : BufTy).Contents (Elt F)),
    binary main_v72 main_v80 main_v81 (addf : (⟨S1x1024, .f32⟩ : BufTy).Contents (Elt F) → (⟨S1x1024, .f32⟩ : BufTy).Contents (Elt F) → (⟨S1x1024, .f32⟩ : BufTy).Contents (Elt F)),
    unary main_v65 main_v82 (Host.negf : (⟨S1x1024, .f32⟩ : BufTy).Contents (Elt F) → (⟨S1x1024, .f32⟩ : BufTy).Contents (Elt F)),
    unary main_v82 main_v83 (Host.exp : (⟨S1x1024, .f32⟩ : BufTy).Contents (Elt F) → (⟨S1x1024, .f32⟩ : BufTy).Contents (Elt F)),
    nullary main_cst_10 (constant S_ .f32 0x3F800000#32),
    unary main_cst_10 main_v84 (broadcastInDim S1x1024 ![] bcast_S_S1x1024 : (⟨S_, .f32⟩ : BufTy).Contents (Elt F) → (⟨S1x1024, .f32⟩ : BufTy).Contents (Elt F)),
    binary main_v84 main_v83 main_v85 (addf : (⟨S1x1024, .f32⟩ : BufTy).Contents (Elt F) → (⟨S1x1024, .f32⟩ : BufTy).Contents (Elt F) → (⟨S1x1024, .f32⟩ : BufTy).Contents (Elt F)),
    nullary main_cst_11 (constant S_ .f32 0x3F800000#32),
    unary main_cst_11 main_v86 (broadcastInDim S1x1024 ![] bcast_S_S1x1024 : (⟨S_, .f32⟩ : BufTy).Contents (Elt F) → (⟨S1x1024, .f32⟩ : BufTy).Contents (Elt F)),
    binary main_v86 main_v85 main_v87 (Host.divf : (⟨S1x1024, .f32⟩ : BufTy).Contents (Elt F) → (⟨S1x1024, .f32⟩ : BufTy).Contents (Elt F) → (⟨S1x1024, .f32⟩ : BufTy).Contents (Elt F)),
    unary main_v81 main_v88 (Host.tanh : (⟨S1x1024, .f32⟩ : BufTy).Contents (Elt F) → (⟨S1x1024, .f32⟩ : BufTy).Contents (Elt F)),
    binary main_v87 main_v88 main_v89 (mulf : (⟨S1x1024, .f32⟩ : BufTy).Contents (Elt F) → (⟨S1x1024, .f32⟩ : BufTy).Contents (Elt F) → (⟨S1x1024, .f32⟩ : BufTy).Contents (Elt F)),
    unary main_arg12 main_v90 ((transpose S1024x50257 [1, 0] · transposes_S50257x1024_S1024x50257_1_0) : (⟨S50257x1024, .f32⟩ : BufTy).Contents (Elt F) → (⟨S1024x50257, .f32⟩ : BufTy).Contents (Elt F)),
    binary main_v89 main_v90 main_v91 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v92 (broadcastInDim S1x50257 ![1] bcast_S50257_S1x50257_1 : (⟨S50257, .f32⟩ : BufTy).Contents (Elt F) → (⟨S1x50257, .f32⟩ : BufTy).Contents (Elt F)),
    binary main_v91 main_v92 main_v93 (addf : (⟨S1x50257, .f32⟩ : BufTy).Contents (Elt F) → (⟨S1x50257, .f32⟩ : BufTy).Contents (Elt F) → (⟨S1x50257, .f32⟩ : BufTy).Contents (Elt F)) ]

/-- The second window from the logits on: log-softmax and the two stacks. -/
abbrev opsP1b : List (HloOp τ sig (Elt F)) :=
  [ TRef.nullary (TRef.of (T := ⟨S_, .f32⟩) main_call1_cst) (constant S_ .f32 0xFF800000#32),
    TRef.binary (TRef.of (T := ⟨S1x50257, .f32⟩) main_v93) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v93) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v94) subf,
    unary main_v48 main_v95 (broadcastInDim S1x1x1024 ![1, 2] bcast_S1x1024_S1x1x1024_1_2 : (⟨S1x1024, .f32⟩ : BufTy).Contents (Elt F) → (⟨S1x1x1024, .f32⟩ : BufTy).Contents (Elt F)),
    unary main_v89 main_v96 (broadcastInDim S1x1x1024 ![1, 2] bcast_S1x1024_S1x1x1024_1_2 : (⟨S1x1024, .f32⟩ : BufTy).Contents (Elt F) → (⟨S1x1x1024, .f32⟩ : BufTy).Contents (Elt F)),
    binary main_v95 main_v96 main_v97 ((fun a b => concatenate S2x1x1024 0 [⟨S1x1x1024, a⟩, ⟨S1x1x1024, b⟩] concatenates_S1x1x1024_S1x1x1024_S2x1x1024_d0) : (⟨S1x1x1024, .f32⟩ : BufTy).Contents (Elt F) → (⟨S1x1x1024, .f32⟩ : BufTy).Contents (Elt F) → (⟨S2x1x1024, .f32⟩ : BufTy).Contents (Elt F)),
    unary main_v40 main_v98 (broadcastInDim S1x1x1024 ![1, 2] bcast_S1x1024_S1x1x1024_1_2 : (⟨S1x1024, .f32⟩ : BufTy).Contents (Elt F) → (⟨S1x1x1024, .f32⟩ : BufTy).Contents (Elt F)),
    unary main_v81 main_v99 (broadcastInDim S1x1x1024 ![1, 2] bcast_S1x1024_S1x1x1024_1_2 : (⟨S1x1024, .f32⟩ : BufTy).Contents (Elt F) → (⟨S1x1x1024, .f32⟩ : BufTy).Contents (Elt F)),
    binary main_v98 main_v99 main_v100 ((fun a b => concatenate S2x1x1024 0 [⟨S1x1x1024, a⟩, ⟨S1x1x1024, b⟩] concatenates_S1x1x1024_S1x1x1024_S2x1x1024_d0) : (⟨S1x1x1024, .f32⟩ : BufTy).Contents (Elt F) → (⟨S1x1x1024, .f32⟩ : BufTy).Contents (Elt F) → (⟨S2x1x1024, .f32⟩ : BufTy).Contents (Elt F)) ]

theorem opsP1_cut : (opsP1 : List (HloOp τ sig (Elt F))) = opsP1a ++ opsP1b := rfl

set_option maxRecDepth 8192 in
theorem main_part0_eq (c : Dev nD) : main_part0 (F := F) c = seq opsP0 := rfl
set_option maxRecDepth 8192 in
theorem main_part1_eq (c : Dev nD) : main_part1 (F := F) c = seq opsP1 := rfl

/-- The program is its two windows' operations run in order. -/
theorem main_eq (c : Dev nD) : main (F := F) c = seq (opsP0 ++ opsP1) := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP0_sub : (opsP0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., reshape_bufs_sub .., unary_bufs_sub .., reshape_bufs_sub .., unary_bufs_sub .., binary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., unary_bufs_sub ..⟩
set_option maxRecDepth 8192 in
theorem opsP1_sub : (opsP1 : List (HloOp τ sig (Elt F))).Forall fun op => op.bufs ⊆ tcRefs τ sig :=
  ⟨reshape_bufs_sub .., unary_bufs_sub .., binary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsP0_fresh : ∀ op ∈ (opsP0 : List (HloOp τ sig (Elt F))), op.fresh = ∅ := by
  intro _ h; (repeat (cases h with | head => rfl | tail _ h => ?_)); exact nomatch h
theorem opsP1_fresh : ∀ op ∈ (opsP1 : List (HloOp τ sig (Elt F))), op.fresh = ∅ := by
  intro _ h; (repeat (cases h with | head => rfl | tail _ h => ?_)); exact nomatch h

/-- On every device, from any memory with zero counters: the program terminates, and every buffer ends at the second
    window's operations folded over the first window's, folded over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after opsP1 (after opsP0 (launchContents m d)) (Proc.devRef .tc b) :=
  (θ_run defs _ _).mono (fun _ h d b => by rw [h d b, StableHlo.after_append])
    (run_seq scopedRefs_eq scopedSems_eq defs main (fun _ => opsP0 ++ opsP1) main_eq
      (fun _ => List.forall_iff_forall_mem.mpr fun op h => (List.mem_append.mp h).elim
        (List.forall_iff_forall_mem.mp opsP0_sub op) (List.forall_iff_forall_mem.mp opsP1_sub op)) m ρ
      (fun _ op h => (List.mem_append.mp h).elim (opsP0_fresh op) (opsP1_fresh op)))

/-! ## The first window's live values, from any contents -/

section Window0

variable (V : Valuation τ sig (Elt Ideal))

set_option maxRecDepth 8192 in
/-- Layer 0's new hidden state. -/
theorem p0_h1 : after (opsP0 (F := Ideal)) V (Proc.devRef .tc main_v48)
    = (refHC1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))).1 := by
  after_results_simp <;> rfl

set_option maxRecDepth 8192 in
/-- Layer 0's new cell state. -/
theorem p0_c1 : after (opsP0 (F := Ideal)) V (Proc.devRef .tc main_v40)
    = (refHC1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))).2 := by
  after_results_simp <;> rfl

set_option maxRecDepth 8192 in
/-- Layer 1's previous hidden row. -/
theorem p0_hprev : after (opsP0 (F := Ideal)) V (Proc.devRef .tc main_v50)
    = Cert.SpecHost.layer1 (V (Proc.devRef .tc main_arg1)) := by
  after_results_simp <;> rfl

set_option maxRecDepth 8192 in
/-- Layer 1's previous cell state, still as a [1,1,1024] slice. -/
theorem p0_cslice : after (opsP0 (F := Ideal)) V (Proc.devRef .tc main_v51)
    = extractStridedSlice S1x1x1024 ![1, 0, 0] (V (Proc.devRef .tc main_arg2)) slices_S2x1x1024_S1x1x1024_1_0_0 := by
  after_results_simp <;> rfl

/-! The first window writes no argument. -/

set_option maxRecDepth 8192 in
theorem p0_arg0 : after (opsP0 (F := Ideal)) V (Proc.devRef .tc main_arg0) = V (Proc.devRef .tc main_arg0) := by
  after_results_simp <;> rfl
set_option maxRecDepth 8192 in
theorem p0_arg1 : after (opsP0 (F := Ideal)) V (Proc.devRef .tc main_arg1) = V (Proc.devRef .tc main_arg1) := by
  after_results_simp <;> rfl
set_option maxRecDepth 8192 in
theorem p0_arg2 : after (opsP0 (F := Ideal)) V (Proc.devRef .tc main_arg2) = V (Proc.devRef .tc main_arg2) := by
  after_results_simp <;> rfl
set_option maxRecDepth 8192 in
theorem p0_arg3 : after (opsP0 (F := Ideal)) V (Proc.devRef .tc main_arg3) = V (Proc.devRef .tc main_arg3) := by
  after_results_simp <;> rfl
set_option maxRecDepth 8192 in
theorem p0_arg4 : after (opsP0 (F := Ideal)) V (Proc.devRef .tc main_arg4) = V (Proc.devRef .tc main_arg4) := by
  after_results_simp <;> rfl
set_option maxRecDepth 8192 in
theorem p0_arg5 : after (opsP0 (F := Ideal)) V (Proc.devRef .tc main_arg5) = V (Proc.devRef .tc main_arg5) := by
  after_results_simp <;> rfl
set_option maxRecDepth 8192 in
theorem p0_arg6 : after (opsP0 (F := Ideal)) V (Proc.devRef .tc main_arg6) = V (Proc.devRef .tc main_arg6) := by
  after_results_simp <;> rfl
set_option maxRecDepth 8192 in
theorem p0_arg7 : after (opsP0 (F := Ideal)) V (Proc.devRef .tc main_arg7) = V (Proc.devRef .tc main_arg7) := by
  after_results_simp <;> rfl
set_option maxRecDepth 8192 in
theorem p0_arg8 : after (opsP0 (F := Ideal)) V (Proc.devRef .tc main_arg8) = V (Proc.devRef .tc main_arg8) := by
  after_results_simp <;> rfl
set_option maxRecDepth 8192 in
theorem p0_arg9 : after (opsP0 (F := Ideal)) V (Proc.devRef .tc main_arg9) = V (Proc.devRef .tc main_arg9) := by
  after_results_simp <;> rfl
set_option maxRecDepth 8192 in
theorem p0_arg10 : after (opsP0 (F := Ideal)) V (Proc.devRef .tc main_arg10) = V (Proc.devRef .tc main_arg10) := by
  after_results_simp <;> rfl
set_option maxRecDepth 8192 in
theorem p0_arg11 : after (opsP0 (F := Ideal)) V (Proc.devRef .tc main_arg11) = V (Proc.devRef .tc main_arg11) := by
  after_results_simp <;> rfl
set_option maxRecDepth 8192 in
theorem p0_arg12 : after (opsP0 (F := Ideal)) V (Proc.devRef .tc main_arg12) = V (Proc.devRef .tc main_arg12) := by
  after_results_simp <;> rfl
set_option maxRecDepth 8192 in
theorem p0_arg13 : after (opsP0 (F := Ideal)) V (Proc.devRef .tc main_arg13) = V (Proc.devRef .tc main_arg13) := by
  after_results_simp <;> rfl

end Window0

/-! ## Log-softmax through the callee's typed references -/

/-- Log-softmax along the row over any float values, as the program's callee computes it: with `M` the row's
    maximum (folded from -∞, then its maximum with -∞) and `z = x - M`, the row `z - log (Σ exp z)`. -/
def lsmF {F : FTy → Type} [FloatOps F] (x : FVec F S1x50257 .f32) : FVec F S1x50257 .f32 :=
  subf
    (subf x
      (broadcastInDim S1x50257 ![0, 1] bcast_S1x1_S1x50257_0_1
        (broadcastInDim S1x1 ![0] bcast_S1_S1x1_0
          (maximumf
            (broadcastInDim S1 ![] bcast_S_S1 (constant (F := F) S_ .f32 0xFF800000#32))
            (Host.reduce (FloatOps.maximumf (F := F) (φ := .f32)) x
              (constant (F := F) S_ .f32 0xFF800000#32) reducesTo_S1x50257_S1_d1 h_S_)))))
    (broadcastInDim S1x50257 ![0, 1] bcast_S1x1_S1x50257_0_1
      (Host.log
        (broadcastInDim S1x1 ![0] bcast_S1_S1x1_0
          (Host.reduceAdd
            (Host.exp
              (subf x
                (broadcastInDim S1x50257 ![0, 1] bcast_S1x1_S1x50257_0_1
                  (broadcastInDim S1x1 ![0] bcast_S1_S1x1_0
                    (maximumf
                      (broadcastInDim S1 ![] bcast_S_S1 (constant (F := F) S_ .f32 0xFF800000#32))
                      (Host.reduce (FloatOps.maximumf (F := F) (φ := .f32)) x
                        (constant (F := F) S_ .f32 0xFF800000#32) reducesTo_S1x50257_S1_d1 h_S_))))))
            (constant (F := F) S_ .f32 0x00000000#32) reducesTo_S1x50257_S1_d1 h_S_))))

/-- At the extended reals it is the shared log-softmax. -/
theorem lsmF_ideal (x : FVec Ideal S1x50257 .f32) : lsmF (F := Ideal) x = Cert.SpecHost.lsm x := rfl

/-- Contents moved to a typed reference's buffer and read back are the contents: the two transports are along one
    equation and its converse. -/
theorem ofBuf_toBuf {T : BufTy} {Val : EltTy → Type} (x : TRef sig T) (v : T.Contents Val) :
    x.ofBuf (x.toBuf v) = v := by
  obtain ⟨r, h, h1, h2⟩ := x
  subst h
  rfl

set_option maxRecDepth 8192 in
/-- Over any float values, the callee's operations leave log-softmax of whatever the logits' buffer holds, read
    from that buffer and written to the result's at their typed references. -/
theorem p1b_out0F (W : Valuation τ sig (Elt F)) :
    after (opsP1b (F := F)) W (Proc.devRef .tc main_v94)
      = (TRef.of (T := ⟨S1x50257, .f32⟩) main_v94).toBuf
          (lsmF ((TRef.of (T := ⟨S1x50257, .f32⟩) main_v93).ofBuf (W (Proc.devRef .tc main_v93)))) := by
  after_results_simp
  simp only [ofBuf_toBuf]
  rfl

set_option maxRecDepth 8192 in
/-- The result's typed reference is a reference to a buffer of that very type: the transport is the identity. -/
theorem toBuf_out0 (v : (⟨S1x50257, .f32⟩ : BufTy).Contents (Elt F)) :
    (TRef.of (T := ⟨S1x50257, .f32⟩) main_v94).toBuf v = v := rfl

set_option maxRecDepth 8192 in
/-- So is the logits'. -/
theorem ofBuf_logits (v : (⟨S1x50257, .f32⟩ : BufTy).Contents (Elt F)) :
    (TRef.of (T := ⟨S1x50257, .f32⟩) main_v93).ofBuf v = v := rfl

/-- Log-softmax of whatever the logits' buffer holds. -/
theorem p1b_out0 (V : Valuation τ sig (Elt Ideal)) :
    after (opsP1b (F := Ideal)) V (Proc.devRef .tc main_v94) = Cert.SpecHost.lsm (V (Proc.devRef .tc main_v93)) :=
  calc after (opsP1b (F := Ideal)) V (Proc.devRef .tc main_v94)
      = (TRef.of (T := ⟨S1x50257, .f32⟩) main_v94).toBuf
          (lsmF (F := Ideal) ((TRef.of (T := ⟨S1x50257, .f32⟩) main_v93).ofBuf (V (Proc.devRef .tc main_v93)))) := p1b_out0F V
    _ = lsmF (F := Ideal) ((TRef.of (T := ⟨S1x50257, .f32⟩) main_v93).ofBuf (V (Proc.devRef .tc main_v93))) := toBuf_out0 (F := Ideal) _
    _ = lsmF (F := Ideal) (V (Proc.devRef .tc main_v93)) := congrArg (lsmF (F := Ideal)) (ofBuf_logits (F := Ideal) _)
    _ = Cert.SpecHost.lsm (V (Proc.devRef .tc main_v93)) := lsmF_ideal (V (Proc.devRef .tc main_v93))

/-! ## The second window's results, from any contents -/

/-- Layer 1's new (hidden, cell) state from what the first window leaves: layer 0's hidden row, layer 1's previous
    hidden row, and its previous cell state as a [1,1,1024] slice. -/
def hc2w (h1 hprev : FVec Ideal S1x1024 .f32) (cs : FVec Ideal S1x1x1024 .f32)
    (x8 x9 : FVec Ideal S4096x1024 .f32) (x10 x11 : FVec Ideal S4096 .f32) :
    FVec Ideal S1x1024 .f32 × FVec Ideal S1x1024 .f32 :=
  Cert.SpecHost.cell (refGates h1 hprev x8 x9 x10 x11) (shapeCast S1x1024 cs shapeCasts_S1x1x1024_S1x1024)

/-- The logits of a hidden row: the row against the transposed output weights, plus the bias. -/
def logitsOf (h2 : FVec Ideal S1x1024 .f32) (x12 : FVec Ideal S50257x1024 .f32) (x13 : FVec Ideal S50257 .f32) :
    FVec Ideal S1x50257 .f32 :=
  addf (Host.dotGeneral (F := Ideal) dot_S1x1024_S1024x50257_S1x50257_1_0_0_1_n_n none h2
      (transpose S1024x50257 [1, 0] x12 transposes_S50257x1024_S1024x50257_1_0))
    (broadcastInDim S1x50257 ![1] bcast_S50257_S1x50257_1 x13)

section Window1

variable (V : Valuation τ sig (Elt Ideal))

set_option maxRecDepth 8192 in
/-- The logits, from any contents. -/
theorem p1a_logits : after (opsP1a (F := Ideal)) V (Proc.devRef .tc main_v93)
    = logitsOf (hc2w (V (Proc.devRef .tc main_v48)) (V (Proc.devRef .tc main_v50)) (V (Proc.devRef .tc main_v51)) (V (Proc.devRef .tc main_arg8)) (V (Proc.devRef .tc main_arg9)) (V (Proc.devRef .tc main_arg10)) (V (Proc.devRef .tc main_arg11))).1 (V (Proc.devRef .tc main_arg12)) (V (Proc.devRef .tc main_arg13)) := by
  after_results_simp <;> rfl

/-- Result 0. -/
theorem p1_out0 : after (opsP1 (F := Ideal)) V (Proc.devRef .tc main_v94)
    = Cert.SpecHost.lsm (logitsOf (hc2w (V (Proc.devRef .tc main_v48)) (V (Proc.devRef .tc main_v50)) (V (Proc.devRef .tc main_v51)) (V (Proc.devRef .tc main_arg8)) (V (Proc.devRef .tc main_arg9)) (V (Proc.devRef .tc main_arg10)) (V (Proc.devRef .tc main_arg11))).1 (V (Proc.devRef .tc main_arg12)) (V (Proc.devRef .tc main_arg13))) := by
  rw [opsP1_cut, StableHlo.after_append, p1b_out0, p1a_logits]

set_option maxRecDepth 8192 in
/-- Result 1. -/
theorem p1_out1 : after (opsP1 (F := Ideal)) V (Proc.devRef .tc main_v97)
    = Cert.SpecHost.stack2 (V (Proc.devRef .tc main_v48)) (hc2w (V (Proc.devRef .tc main_v48)) (V (Proc.devRef .tc main_v50)) (V (Proc.devRef .tc main_v51)) (V (Proc.devRef .tc main_arg8)) (V (Proc.devRef .tc main_arg9)) (V (Proc.devRef .tc main_arg10)) (V (Proc.devRef .tc main_arg11))).1 := by
  after_results_simp <;> rfl

set_option maxRecDepth 8192 in
/-- Result 2. -/
theorem p1_out2 : after (opsP1 (F := Ideal)) V (Proc.devRef .tc main_v100)
    = Cert.SpecHost.stack2 (V (Proc.devRef .tc main_v40)) (hc2w (V (Proc.devRef .tc main_v48)) (V (Proc.devRef .tc main_v50)) (V (Proc.devRef .tc main_v51)) (V (Proc.devRef .tc main_arg8)) (V (Proc.devRef .tc main_arg9)) (V (Proc.devRef .tc main_arg10)) (V (Proc.devRef .tc main_arg11))).2 := by
  after_results_simp <;> rfl

/-! The second window writes no argument. -/

set_option maxRecDepth 8192 in
theorem p1_arg0 : after (opsP1 (F := Ideal)) V (Proc.devRef .tc main_arg0) = V (Proc.devRef .tc main_arg0) := by
  after_results_simp <;> rfl
set_option maxRecDepth 8192 in
theorem p1_arg1 : after (opsP1 (F := Ideal)) V (Proc.devRef .tc main_arg1) = V (Proc.devRef .tc main_arg1) := by
  after_results_simp <;> rfl
set_option maxRecDepth 8192 in
theorem p1_arg2 : after (opsP1 (F := Ideal)) V (Proc.devRef .tc main_arg2) = V (Proc.devRef .tc main_arg2) := by
  after_results_simp <;> rfl
set_option maxRecDepth 8192 in
theorem p1_arg3 : after (opsP1 (F := Ideal)) V (Proc.devRef .tc main_arg3) = V (Proc.devRef .tc main_arg3) := by
  after_results_simp <;> rfl
set_option maxRecDepth 8192 in
theorem p1_arg4 : after (opsP1 (F := Ideal)) V (Proc.devRef .tc main_arg4) = V (Proc.devRef .tc main_arg4) := by
  after_results_simp <;> rfl
set_option maxRecDepth 8192 in
theorem p1_arg5 : after (opsP1 (F := Ideal)) V (Proc.devRef .tc main_arg5) = V (Proc.devRef .tc main_arg5) := by
  after_results_simp <;> rfl
set_option maxRecDepth 8192 in
theorem p1_arg6 : after (opsP1 (F := Ideal)) V (Proc.devRef .tc main_arg6) = V (Proc.devRef .tc main_arg6) := by
  after_results_simp <;> rfl
set_option maxRecDepth 8192 in
theorem p1_arg7 : after (opsP1 (F := Ideal)) V (Proc.devRef .tc main_arg7) = V (Proc.devRef .tc main_arg7) := by
  after_results_simp <;> rfl
set_option maxRecDepth 8192 in
theorem p1_arg8 : after (opsP1 (F := Ideal)) V (Proc.devRef .tc main_arg8) = V (Proc.devRef .tc main_arg8) := by
  after_results_simp <;> rfl
set_option maxRecDepth 8192 in
theorem p1_arg9 : after (opsP1 (F := Ideal)) V (Proc.devRef .tc main_arg9) = V (Proc.devRef .tc main_arg9) := by
  after_results_simp <;> rfl
set_option maxRecDepth 8192 in
theorem p1_arg10 : after (opsP1 (F := Ideal)) V (Proc.devRef .tc main_arg10) = V (Proc.devRef .tc main_arg10) := by
  after_results_simp <;> rfl
set_option maxRecDepth 8192 in
theorem p1_arg11 : after (opsP1 (F := Ideal)) V (Proc.devRef .tc main_arg11) = V (Proc.devRef .tc main_arg11) := by
  after_results_simp <;> rfl
set_option maxRecDepth 8192 in
theorem p1_arg12 : after (opsP1 (F := Ideal)) V (Proc.devRef .tc main_arg12) = V (Proc.devRef .tc main_arg12) := by
  after_results_simp <;> rfl
set_option maxRecDepth 8192 in
theorem p1_arg13 : after (opsP1 (F := Ideal)) V (Proc.devRef .tc main_arg13) = V (Proc.devRef .tc main_arg13) := by
  after_results_simp <;> rfl

end Window1

/-! ## The whole line, from any contents -/

section Line

variable (V : Valuation τ sig (Elt Ideal))

/-- Result 0 over the launch contents. -/
theorem line_out0 : after (opsP1 (F := Ideal)) (after opsP0 V) (Proc.devRef .tc main_v94)
    = Cert.SpecHost.lsm (refLogits (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))) := by
  rw [p1_out0, p0_h1, p0_hprev, p0_cslice, p0_arg8, p0_arg9, p0_arg10, p0_arg11, p0_arg12, p0_arg13]
  rfl

/-- Result 1 over the launch contents. -/
theorem line_out1 : after (opsP1 (F := Ideal)) (after opsP0 V) (Proc.devRef .tc main_v97)
    = Cert.SpecHost.stack2 (refHC1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))).1 (refHC2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))).1 := by
  rw [p1_out1, p0_h1, p0_hprev, p0_cslice, p0_arg8, p0_arg9, p0_arg10, p0_arg11]
  rfl

/-- Result 2 over the launch contents. -/
theorem line_out2 : after (opsP1 (F := Ideal)) (after opsP0 V) (Proc.devRef .tc main_v100)
    = Cert.SpecHost.stack2 (refHC1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))).2 (refHC2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))).2 := by
  rw [p1_out2, p0_c1, p0_h1, p0_hprev, p0_cslice, p0_arg8, p0_arg9, p0_arg10, p0_arg11]
  rfl

theorem line_arg0 : after (opsP1 (F := Ideal)) (after opsP0 V) (Proc.devRef .tc main_arg0) = V (Proc.devRef .tc main_arg0) := by
  rw [p1_arg0, p0_arg0]
theorem line_arg1 : after (opsP1 (F := Ideal)) (after opsP0 V) (Proc.devRef .tc main_arg1) = V (Proc.devRef .tc main_arg1) := by
  rw [p1_arg1, p0_arg1]
theorem line_arg2 : after (opsP1 (F := Ideal)) (after opsP0 V) (Proc.devRef .tc main_arg2) = V (Proc.devRef .tc main_arg2) := by
  rw [p1_arg2, p0_arg2]
theorem line_arg3 : after (opsP1 (F := Ideal)) (after opsP0 V) (Proc.devRef .tc main_arg3) = V (Proc.devRef .tc main_arg3) := by
  rw [p1_arg3, p0_arg3]
theorem line_arg4 : after (opsP1 (F := Ideal)) (after opsP0 V) (Proc.devRef .tc main_arg4) = V (Proc.devRef .tc main_arg4) := by
  rw [p1_arg4, p0_arg4]
theorem line_arg5 : after (opsP1 (F := Ideal)) (after opsP0 V) (Proc.devRef .tc main_arg5) = V (Proc.devRef .tc main_arg5) := by
  rw [p1_arg5, p0_arg5]
theorem line_arg6 : after (opsP1 (F := Ideal)) (after opsP0 V) (Proc.devRef .tc main_arg6) = V (Proc.devRef .tc main_arg6) := by
  rw [p1_arg6, p0_arg6]
theorem line_arg7 : after (opsP1 (F := Ideal)) (after opsP0 V) (Proc.devRef .tc main_arg7) = V (Proc.devRef .tc main_arg7) := by
  rw [p1_arg7, p0_arg7]
theorem line_arg8 : after (opsP1 (F := Ideal)) (after opsP0 V) (Proc.devRef .tc main_arg8) = V (Proc.devRef .tc main_arg8) := by
  rw [p1_arg8, p0_arg8]
theorem line_arg9 : after (opsP1 (F := Ideal)) (after opsP0 V) (Proc.devRef .tc main_arg9) = V (Proc.devRef .tc main_arg9) := by
  rw [p1_arg9, p0_arg9]
theorem line_arg10 : after (opsP1 (F := Ideal)) (after opsP0 V) (Proc.devRef .tc main_arg10) = V (Proc.devRef .tc main_arg10) := by
  rw [p1_arg10, p0_arg10]
theorem line_arg11 : after (opsP1 (F := Ideal)) (after opsP0 V) (Proc.devRef .tc main_arg11) = V (Proc.devRef .tc main_arg11) := by
  rw [p1_arg11, p0_arg11]
theorem line_arg12 : after (opsP1 (F := Ideal)) (after opsP0 V) (Proc.devRef .tc main_arg12) = V (Proc.devRef .tc main_arg12) := by
  rw [p1_arg12, p0_arg12]
theorem line_arg13 : after (opsP1 (F := Ideal)) (after opsP0 V) (Proc.devRef .tc main_arg13) = V (Proc.devRef .tc main_arg13) := by
  rw [p1_arg13, p0_arg13]

end Line

open Idealize.ShloMosaic.ValueIdx

/-! ## The reference's run -/

/-- From any memory whose word is a row of the table, on every device: the reference terminates with its three
    results at the specification's terms of the argument arrays, and the arguments unchanged. -/
theorem run_spec (m' : (ℓ : Loc nD τ sig) → Buf (Elt Ideal) ℓ) (ρ' : Dev nD → PrngReg)
    (hw : ∀ c : Dev nD, 0 ≤ ((m' ((c.tc : Thread nD τ).loc main_arg0) : IVec S1 32) (ix1 (0 : Fin 1))).toInt
      ∧ ((m' ((c.tc : Thread nD τ).loc main_arg0) : IVec S1 32) (ix1 (0 : Fin 1))).toInt < 50257) :
    θ_run (defs (F := Ideal)) (onTc (τ := τ) (main (F := Ideal))) ⟨m', fun _ => 0, ρ'⟩ (fun r => ∀ c : Dev nD,
      r.2.mem ((c.tc : Thread nD τ).loc main_v94) = Cert.SpecOut.out0 (wordRow (m' ((c.tc : Thread nD τ).loc main_arg0)) (hw c).1 (hw c).2) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))
      ∧ r.2.mem ((c.tc : Thread nD τ).loc main_v97) = Cert.SpecOut.out1 (wordRow (m' ((c.tc : Thread nD τ).loc main_arg0)) (hw c).1 (hw c).2) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_v100) = Cert.SpecOut.out2 (wordRow (m' ((c.tc : Thread nD τ).loc main_arg0)) (hw c).1 (hw c).2) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run (defs (F := Ideal)) _ _).mono (fun _ h c =>
    ⟨by rw [h c main_v94, line_out0]
        exact refOut0_eq _ _ _ _ _ _ _ _ _ _ _ _ _ _ (hw c).1 (hw c).2,
      by rw [h c main_v97, line_out1]
         exact refOut1_eq _ _ _ _ _ _ _ _ _ _ _ _ (hw c).1 (hw c).2,
      by rw [h c main_v100, line_out2]
         exact refOut2_eq _ _ _ _ _ _ _ _ _ _ _ _ (hw c).1 (hw c).2,
      (h c main_arg0).trans (line_arg0 _),
      (h c main_arg1).trans (line_arg1 _),
      (h c main_arg2).trans (line_arg2 _),
      (h c main_arg3).trans (line_arg3 _),
      (h c main_arg4).trans (line_arg4 _),
      (h c main_arg5).trans (line_arg5 _),
      (h c main_arg6).trans (line_arg6 _),
      (h c main_arg7).trans (line_arg7 _),
      (h c main_arg8).trans (line_arg8 _),
      (h c main_arg9).trans (line_arg9 _),
      (h c main_arg10).trans (line_arg10 _),
      (h c main_arg11).trans (line_arg11 _),
      (h c main_arg12).trans (line_arg12 _),
      (h c main_arg13).trans (line_arg13 _)⟩)
    (run_after (F := Ideal) m' ρ')

/-- The reference runs and leaves its arguments as they were. -/
theorem frame [Cert.Pre_finite_inputs.Facts] : Cert.frame_ReferenceIdeal :=
  fun m g _ => (θ_run (defs (F := Ideal)) _ _).mono (fun _ h c =>
    ⟨(h c main_arg0).trans (line_arg0 _),
      (h c main_arg1).trans (line_arg1 _),
      (h c main_arg2).trans (line_arg2 _),
      (h c main_arg3).trans (line_arg3 _),
      (h c main_arg4).trans (line_arg4 _),
      (h c main_arg5).trans (line_arg5 _),
      (h c main_arg6).trans (line_arg6 _),
      (h c main_arg7).trans (line_arg7 _),
      (h c main_arg8).trans (line_arg8 _),
      (h c main_arg9).trans (line_arg9 _),
      (h c main_arg10).trans (line_arg10 _),
      (h c main_arg11).trans (line_arg11 _),
      (h c main_arg12).trans (line_arg12 _),
      (h c main_arg13).trans (line_arg13 _)⟩)
    (run_after (F := Ideal) m g)

end Cert.ReferenceIdeal.Hand

end
-- ==== Proof.Alg.lean ====
/-
  The three claims at ideal floats, assembled.

  * The idealized kernel program runs and keeps its arguments. The precondition bounds the word, so the clipped word
    that region 0's pipeline prefetches is the word itself and admits the pipeline; the program is then the run of
    four pipelined regions among host stretches, each region entered from the contents the item before it left.
  * The idealized reference runs and keeps its arguments: a straight line of host operations.
  * Both end with the same three results. One term per result — a function of the word's row index and the thirteen
    float arrays, built from the embedded and rectified row, each layer's gate pre-activations, the LSTM epilogue, the
    output projection, log-softmax and the stacking of states — is what the kernel's last valuation holds (the regions'
    values chained through the host stretches) and what the reference's run ends with at its own arguments. The two
    memories agree on the arguments, the word included, so the two terms are equal.
-/
import proofs.«408709_j86328842650330_3_alg».proof.Defs
import proofs.«408709_j86328842650330_3_alg».proof.Proof.Gen.Pre_finite_inputs
import proofs.«408709_j86328842650330_3_alg».proof.Proof.SpecOut
import proofs.«408709_j86328842650330_3_alg».proof.Proof.KI.Pre
import proofs.«408709_j86328842650330_3_alg».proof.Proof.KI.Reg3Ideal
import proofs.«408709_j86328842650330_3_alg».proof.Proof.KI.Run
import proofs.«408709_j86328842650330_3_alg».proof.Proof.KI.KFinal
import proofs.«408709_j86328842650330_3_alg».proof.Proof.Ref.PreRef
import proofs.«408709_j86328842650330_3_alg».proof.Proof.Ref.RefRunHand

noncomputable section

namespace Cert.Proof.Alg

open Idealize.ShloMosaic Idealize.SL.Sem

/-- Equal arguments give equal results: the three result terms are functions of the row index and the float arrays. -/
theorem out0_congr {w w' : Fin 50257} {x1 y1 : FVec Ideal (⟨3, ![2, 1, 1024]⟩ : Shape) .f32} {x2 y2 : FVec Ideal (⟨3, ![2, 1, 1024]⟩ : Shape) .f32} {x3 y3 : FVec Ideal (⟨2, ![50257, 1024]⟩ : Shape) .f32} {x4 y4 : FVec Ideal (⟨2, ![4096, 1024]⟩ : Shape) .f32} {x5 y5 : FVec Ideal (⟨2, ![4096, 1024]⟩ : Shape) .f32} {x6 y6 : FVec Ideal (⟨1, ![4096]⟩ : Shape) .f32} {x7 y7 : FVec Ideal (⟨1, ![4096]⟩ : Shape) .f32} {x8 y8 : FVec Ideal (⟨2, ![4096, 1024]⟩ : Shape) .f32} {x9 y9 : FVec Ideal (⟨2, ![4096, 1024]⟩ : Shape) .f32} {x10 y10 : FVec Ideal (⟨1, ![4096]⟩ : Shape) .f32} {x11 y11 : FVec Ideal (⟨1, ![4096]⟩ : Shape) .f32} {x12 y12 : FVec Ideal (⟨2, ![50257, 1024]⟩ : Shape) .f32} {x13 y13 : FVec Ideal (⟨1, ![50257]⟩ : Shape) .f32}
    (hw : w = w') (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    Cert.SpecOut.out0 w x1 x2 x3 x4 x5 x6 x7 x8 x9 x10 x11 x12 x13 = Cert.SpecOut.out0 w' y1 y2 y3 y4 y5 y6 y7 y8 y9 y10 y11 y12 y13 := by
  subst hw h1 h2 h3 h4 h5 h6 h7 h8 h9 h10 h11 h12 h13
  rfl

theorem out1_congr {w w' : Fin 50257} {x1 y1 : FVec Ideal (⟨3, ![2, 1, 1024]⟩ : Shape) .f32} {x2 y2 : FVec Ideal (⟨3, ![2, 1, 1024]⟩ : Shape) .f32} {x3 y3 : FVec Ideal (⟨2, ![50257, 1024]⟩ : Shape) .f32} {x4 y4 : FVec Ideal (⟨2, ![4096, 1024]⟩ : Shape) .f32} {x5 y5 : FVec Ideal (⟨2, ![4096, 1024]⟩ : Shape) .f32} {x6 y6 : FVec Ideal (⟨1, ![4096]⟩ : Shape) .f32} {x7 y7 : FVec Ideal (⟨1, ![4096]⟩ : Shape) .f32} {x8 y8 : FVec Ideal (⟨2, ![4096, 1024]⟩ : Shape) .f32} {x9 y9 : FVec Ideal (⟨2, ![4096, 1024]⟩ : Shape) .f32} {x10 y10 : FVec Ideal (⟨1, ![4096]⟩ : Shape) .f32} {x11 y11 : FVec Ideal (⟨1, ![4096]⟩ : Shape) .f32}
    (hw : w = w') (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Cert.SpecOut.out1 w x1 x2 x3 x4 x5 x6 x7 x8 x9 x10 x11 = Cert.SpecOut.out1 w' y1 y2 y3 y4 y5 y6 y7 y8 y9 y10 y11 := by
  subst hw h1 h2 h3 h4 h5 h6 h7 h8 h9 h10 h11
  rfl

theorem out2_congr {w w' : Fin 50257} {x1 y1 : FVec Ideal (⟨3, ![2, 1, 1024]⟩ : Shape) .f32} {x2 y2 : FVec Ideal (⟨3, ![2, 1, 1024]⟩ : Shape) .f32} {x3 y3 : FVec Ideal (⟨2, ![50257, 1024]⟩ : Shape) .f32} {x4 y4 : FVec Ideal (⟨2, ![4096, 1024]⟩ : Shape) .f32} {x5 y5 : FVec Ideal (⟨2, ![4096, 1024]⟩ : Shape) .f32} {x6 y6 : FVec Ideal (⟨1, ![4096]⟩ : Shape) .f32} {x7 y7 : FVec Ideal (⟨1, ![4096]⟩ : Shape) .f32} {x8 y8 : FVec Ideal (⟨2, ![4096, 1024]⟩ : Shape) .f32} {x9 y9 : FVec Ideal (⟨2, ![4096, 1024]⟩ : Shape) .f32} {x10 y10 : FVec Ideal (⟨1, ![4096]⟩ : Shape) .f32} {x11 y11 : FVec Ideal (⟨1, ![4096]⟩ : Shape) .f32}
    (hw : w = w') (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Cert.SpecOut.out2 w x1 x2 x3 x4 x5 x6 x7 x8 x9 x10 x11 = Cert.SpecOut.out2 w' y1 y2 y3 y4 y5 y6 y7 y8 y9 y10 y11 := by
  subst hw h1 h2 h3 h4 h5 h6 h7 h8 h9 h10 h11
  rfl

/-- The idealized kernel program runs and leaves its arguments as launched. The precondition puts the word in range, so
    region 0's table (the clipped word) admits its pipeline; the run of the four regions among the host stretches then
    keeps every argument, region 3's body meeting its obligation with its edge blocks cut at the array's end. -/
theorem frame_ki [Cert.KernelIdeal.Facts] [Cert.Pre_finite_inputs.Facts] : Cert.frame_KernelIdeal := by
  intro m g hpre
  exact Cert.KernelIdeal.Hand.frame m (Cert.KernelIdeal.Hand.a0 m hpre) (Cert.KernelIdeal.Hand.a0_at m hpre)
    (fun c => Cert.KernelIdeal.Hand.body_obligation3 _ Cert.KernelIdeal.Hand.loc3_ideal c) g

/-- The idealized reference runs and leaves its arguments as launched. -/
theorem frame_ri [Cert.ReferenceIdeal.Facts] [Cert.Pre_finite_inputs.Facts] : Cert.frame_ReferenceIdeal :=
  Cert.ReferenceIdeal.Hand.frame

/-- At ideal floats, from memories that agree on the arguments, both programs end with the same three results: the
    log-probabilities and the two stacks of new states, each one term of the word's row index and the thirteen float
    arguments. The kernel's run ends at the last valuation, which the regions' values and the host chains turn into
    those terms; the reference's run ends at the same terms of its own arguments, which are the kernel's by the
    agreement, the word's index included. -/
theorem algebraic [Cert.KernelIdeal.Facts] [Cert.ReferenceIdeal.Facts] [Cert.Pre_finite_inputs.Facts] :
    Cert.algebraic_KernelIdeal_ReferenceIdeal := by
  intro m g m' g' hpre hag
  have hw := fun c => Cert.ReferenceIdeal.Hand.word_range_ref m m' hpre (fun c => (hag c).1) c
  refine ⟨fun c => Cert.SpecOut.out0 ⟨(Cert.KernelIdeal.Hand.word m 0).toNat, Cert.KernelIdeal.Hand.word_toNat_lt m hpre 0⟩ (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.SpecOut.out1 ⟨(Cert.KernelIdeal.Hand.word m 0).toNat, Cert.KernelIdeal.Hand.word_toNat_lt m hpre 0⟩ (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.SpecOut.out2 ⟨(Cert.KernelIdeal.Hand.word m 0).toNat, Cert.KernelIdeal.Hand.word_toNat_lt m hpre 0⟩ (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · -- the kernel: the run's last valuation, read as the specification's terms
    exact (θ_run _ _ _).mono
      (fun r h c => ⟨(h c).1.trans (Cert.KernelIdeal.Hand.kfinal_out0 m hpre c), (h c).2.1.trans (Cert.KernelIdeal.Hand.kfinal_out1 m hpre c),
        (h c).2.2.1.trans (Cert.KernelIdeal.Hand.kfinal_out2 m hpre c), (h c).2.2.2⟩)
      (Cert.KernelIdeal.Hand.run_val m (Cert.KernelIdeal.Hand.a0 m hpre) (Cert.KernelIdeal.Hand.a0_at m hpre)
        (fun c => Cert.KernelIdeal.Hand.body_obligation3 _ Cert.KernelIdeal.Hand.loc3_ideal c) g)
  · -- the reference: the same terms of its own arguments, which are the kernel's
    refine (θ_run _ _ _).mono (fun r h c => ?_) (Cert.ReferenceIdeal.Hand.run_spec m' g' hw)
    obtain ⟨h0, h1, h2, hargs⟩ := h c
    obtain ⟨e0, e1, e2, e3, e4, e5, e6, e7, e8, e9, e10, e11, e12, e13⟩ := hag c
    have hwd : Cert.ReferenceIdeal.Hand.wordRow (m' ((c.tc : Thread Cert.ReferenceIdeal.nD Cert.ReferenceIdeal.τ).loc Cert.ReferenceIdeal.main_arg0)) (hw c).1 (hw c).2
        = ⟨(Cert.KernelIdeal.Hand.word m 0).toNat, Cert.KernelIdeal.Hand.word_toNat_lt m hpre 0⟩ := by
      apply Fin.ext
      show (((m' ((c.tc : Thread Cert.ReferenceIdeal.nD Cert.ReferenceIdeal.τ).loc Cert.ReferenceIdeal.main_arg0)) : IVec Cert.ReferenceIdeal.S1 32) (ValueIdx.ix1 (0 : Fin 1))).toNat = (Cert.KernelIdeal.Hand.word m 0).toNat
      rw [e0, ← Cert.KernelIdeal.Hand.word_at m c]
    exact ⟨h0.trans (out0_congr hwd e1 e2 e3 e4 e5 e6 e7 e8 e9 e10 e11 e12 e13), h1.trans (out1_congr hwd e1 e2 e3 e4 e5 e6 e7 e8 e9 e10 e11),
      h2.trans (out2_congr hwd e1 e2 e3 e4 e5 e6 e7 e8 e9 e10 e11), hargs⟩

end Cert.Proof.Alg

end
-- ==== Proof.lean ====
/-
  One decoding step of a two-layer LSTM language model: the word's embedding row, clipped at zero; two LSTM cells, each a
  row of 4096 gate pre-activations  x·Wihᵀ + bih + h·Whhᵀ + bhh  followed by the pointwise gate arithmetic; the output
  projection  h₂·Woutᵀ + bout  over the 50257 words; its log-softmax; and the two layers' new states stacked.

  The kernel program computes the embedding row, the two gate rows and the projection in four grid regions (the row
  picked by a prefetched word, the gate row in four column blocks, the projection in twenty-five column blocks of which
  the last overhangs the array) and everything pointwise on the host; the reference is one host program. Claimed, under
  the precondition that every float input is finite and the word lies in [0, 50257):
   * each of the three programs runs to the end without fault and leaves its arguments as launched;
   * read over the extended reals, kernel and reference end with the same three results.
  Both programs' results are shown equal to ONE term of the arguments (Proof/SpecOut.lean): the regions' blocks are the
  restrictions of whole-array functions (Proof/KI/KVal*.lean) — a matrix product into a zero accumulator is the plain
  sum  Σₖ x k · W j k  on both sides, a change of float format is the identity, the clipped word indexes the row the
  reference's clamped gather reads — and the host chains between them are the same operations in the same order
  (Proof/SpecHost.lean). No law beyond that is needed, so finiteness is never used; the word's range is.
  The word-level kernel's frame is proved relationally (Proof/K/RunR.lean): there the product of the overhanging last
  block depends on the block's padding, so what the last region leaves is not named, only that the arguments are kept.
-/
import proofs.«408709_j86328842650330_3_alg».proof.Defs
import proofs.«408709_j86328842650330_3_alg».proof.Proof.Gen.Kernel
import proofs.«408709_j86328842650330_3_alg».proof.Proof.Gen.KernelIdeal
import proofs.«408709_j86328842650330_3_alg».proof.Proof.Gen.ReferenceIdeal
import proofs.«408709_j86328842650330_3_alg».proof.Proof.Gen.Pre_finite_inputs
import proofs.«408709_j86328842650330_3_alg».proof.Proof.K.Pre
import proofs.«408709_j86328842650330_3_alg».proof.Proof.K.RunR
import proofs.«408709_j86328842650330_3_alg».proof.Proof.Alg
import Idealize.ShloMosaic.Adequacy
import Idealize.ShloMosaic.Init

noncomputable section

namespace Cert.Proof

open Idealize.ShloMosaic Idealize.SL.Sem

/-- The word-level kernel runs to the end and keeps its arguments: the precondition puts the word in range, so the
    clipped word the host hands region 0 as its table is the word itself and the block it names lies inside the
    embedding table; the four regions and the host stretches between them then run one after the other. -/
theorem frame_k [Cert.Kernel.Facts] [Cert.Pre_finite_inputs.Facts] : Cert.frame_Kernel :=
  fun m g hpre => Cert.Kernel.Hand.frameR m (Cert.Kernel.Hand.a0 m hpre) (Cert.Kernel.Hand.a0_at m hpre) g

theorem claim : Cert.Claim :=
  ⟨Cert.Kernel.Gen.facts, Cert.KernelIdeal.Gen.facts, Cert.ReferenceIdeal.Gen.facts, Cert.Pre_finite_inputs.Gen.facts,
    frame_k, Alg.frame_ki, Alg.frame_ri, trivial, Alg.algebraic⟩

end Cert.Proof

end
